-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S1024x128 .f32) (main_arg1 : IVec S1024x1024 32) (main_arg2 : FVec F S128x128 .f32) (main_arg3 : FVec F S256x1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S1024x1 : Shape := ⟨2, ![1024, 1]⟩
abbrev S1x1024 : Shape := ⟨2, ![1, 1024]⟩
abbrev S128x1 : Shape := ⟨2, ![128, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x1024, .i32⟩
  | .hbm, ⟨2, _⟩ => ⟨S128x128, .f32⟩
  | .hbm, ⟨3, _⟩ => ⟨S256x1, .f32⟩
  | .hbm, ⟨4, _⟩ => ⟨S1024x128, .f32⟩
  | .local _ .vmem, ⟨0, _⟩ => ⟨S1024x128, .f32⟩
  | .local _ .vmem, ⟨1, _⟩ => ⟨S128x128, .f32⟩
  | .local _ .vmem, ⟨2, _⟩ => ⟨S256x1, .f32⟩
  | .local _ .vmem, ⟨3, _⟩ => ⟨S1024x1024, .i32⟩
  | .local _ .vmem, ⟨4, _⟩ => ⟨S1024x128, .f32⟩
  | .local _ .vmem, ⟨5, _⟩ => ⟨S1024x128, .f32⟩
  | .local _ .vmem, ⟨6, _⟩ => ⟨S1024x1, .f32⟩
  | .local _ .vmem, ⟨7, _⟩ => ⟨S1x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

class Facts₀ : Prop where
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  shapeCasts_S1024x128_S1024x128 : S1024x128.ShapeCasts S1024x128
  inb_S256x1_S128x1_0_0 : ∀ a, (![0, 0] : Fin 2 → Nat) a + S128x1.size a ≤ S256x1.size a
  h_S128x1 : 0 < S128x1.numel
  inb_S256x1_S128x1_128_0 : ∀ a, (![128, 0] : Fin 2 → Nat) a + S128x1.size a ≤ S256x1.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x128 : S1024x1.Broadcasts S1024x128
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  dot_S128x1_S1024x128_S1x1024_0_1_1_0_n_n_wf : DotDims.WF S128x1 S1024x128 S1x1024 [0] [1] [1] [0] [] []
  dot_S1024x1024_S1024x128_S1024x128_1_0_0_1_n_n_wf : DotDims.WF S1024x1024 S1024x128 S1024x128 [1] [0] [0] [1] [] []
  hrank0 : 0 < grid0.rank
  k0_off1_inb : ∀ i : grid0.Coords, ∀ a, (k0_off1 i) a + S1024x1.size a ≤ S1024x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .i32 = 32 ∨ (Rect.block (s := S1024x1024) S1024x1024.size (cc0_transform_3 i) (hinb0_3 i)).WholeWords (EltTy.packing .i32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .f32 = 32 ∨ (Rect.block (s := S1024x128) S1024x128.size (cc0_transform_4 i) (hinb0_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S128x1_S1024x128_S1x1024_0_1_1_0_n_n : DotDims S128x1 S1024x128 S1x1024 where
  lhsContracting := [0]
  rhsContracting := [1]
  lhsNonContracting := [1]
  rhsNonContracting := [0]
  lhsBatch := []
  rhsBatch := []
  wf := dot_S128x1_S1024x128_S1x1024_0_1_1_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x128.size cc0_transform_4 reads0_4 true false 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S_ : Shape := ⟨0, ![]⟩
abbrev S1048576 : Shape := ⟨1, ![1048576]⟩
abbrev S1048576x1 : Shape := ⟨2, ![1048576, 1]⟩
abbrev S1x1048576 : Shape := ⟨2, ![1, 1048576]⟩
abbrev S2x1048576 : Shape := ⟨2, ![2, 1048576]⟩
abbrev S1048576x128 : Shape := ⟨2, ![1048576, 128]⟩
abbrev S1048576x256 : Shape := ⟨2, ![1048576, 256]⟩
abbrev S256x1048576 : Shape := ⟨2, ![256, 1048576]⟩
abbrev S1x256 : Shape := ⟨2, ![1, 256]⟩
abbrev S1024x1 : Shape := ⟨2, ![1024, 1]⟩

abbrev nBuf : Space → Nat
  | .hbm => 226
  | .vmem => 0
  | .smem => 0
  | _ => 0

abbrev hbmTy0_0 (i : Nat) : BufTy := match i % 128 with
  | 0 => ⟨S1024x128, .f32⟩
  | 1 => ⟨S1024x1024, .i32⟩
  | 2 => ⟨S128x128, .f32⟩
  | 3 => ⟨S256x1, .f32⟩
  | 4 => ⟨S_, .i32⟩
  | 5 => ⟨S1024x1024, .i32⟩
  | 6 => ⟨S1024x1024, .i1⟩
  | 7 => ⟨S1048576, .i1⟩
  | 8 => ⟨S1048576, .i32⟩
  | 9 => ⟨S_, .i32⟩
  | 10 => ⟨S_, .i32⟩
  | 11 => ⟨S1048576, .i32⟩
  | 12 => ⟨S_, .i32⟩
  | 13 => ⟨S1048576, .i32⟩
  | 14 => ⟨S_, .i32⟩
  | 15 => ⟨S_, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S1048576x1, .i32⟩
  | 26 => ⟨S_, .i32⟩
  | 27 => ⟨S1048576, .i32⟩
  | 28 => ⟨S1048576, .i32⟩
  | 29 => ⟨S_, .i32⟩
  | 30 => ⟨S_, .i32⟩
  | 31 => ⟨S1048576, .i32⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S1048576, .i32⟩
  | 40 => ⟨S1048576, .i32⟩
  | 41 => ⟨S_, .i32⟩
  | 42 => ⟨S1048576, .i32⟩
  | 43 => ⟨S1048576, .i1⟩
  | 44 => ⟨S1048576, .i1⟩
  | 45 => ⟨S_, .i32⟩
  | 46 => ⟨S1048576, .i32⟩
  | 47 => ⟨S1048576, .i32⟩
  | 48 => ⟨S1048576, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i1⟩
  | 63 => ⟨S_, .i32⟩
  | 64 => ⟨S_, .i1⟩
  | 65 => ⟨S1048576, .i1⟩
  | 66 => ⟨S1048576, .i1⟩
  | 67 => ⟨S1048576, .i1⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S1048576, .i32⟩
  | 79 => ⟨S1048576, .i32⟩
  | 80 => ⟨S_, .i32⟩
  | 81 => ⟨S1048576, .i32⟩
  | 82 => ⟨S1048576, .i1⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S1048576, .i32⟩
  | 95 => ⟨S1048576, .i32⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i1⟩
  | 102 => ⟨S_, .i32⟩
  | 103 => ⟨S_, .i1⟩
  | 104 => ⟨S1048576, .i1⟩
  | 105 => ⟨S1048576, .i1⟩
  | 106 => ⟨S1048576, .i1⟩
  | 107 => ⟨S1048576, .i32⟩
  | 108 => ⟨S1048576, .i32⟩
  | 109 => ⟨S1048576, .i32⟩
  | 110 => ⟨S1048576, .i32⟩
  | 111 => ⟨S1024x1024, .i32⟩
  | 112 => ⟨S_, .i32⟩
  | 113 => ⟨S_, .i32⟩
  | 114 => ⟨S1048576, .i32⟩
  | 115 => ⟨S1048576, .i1⟩
  | 116 => ⟨S_, .i32⟩
  | 117 => ⟨S_, .i32⟩
  | 118 => ⟨S1048576, .i32⟩
  | 119 => ⟨S1048576, .i32⟩
  | 120 => ⟨S_, .i32⟩
  | 121 => ⟨S_, .i32⟩
  | 122 => ⟨S1048576, .i32⟩
  | 123 => ⟨S1048576, .i32⟩
  | 124 => ⟨S1x1048576, .i32⟩
  | 125 => ⟨S1x1048576, .i32⟩
  | 126 => ⟨S2x1048576, .i32⟩
  | 127 => ⟨S1024x128, .f32⟩
  | _ => ⟨S1024x128, .f32⟩

abbrev hbmTy0_1 (i : Nat) : BufTy := match i % 128 with
  | 0 => ⟨S1x1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S1048576x1, .i32⟩
  | 10 => ⟨S1048576x128, .f32⟩
  | 11 => ⟨S1x1048576, .i32⟩
  | 12 => ⟨S1048576, .i32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S1048576x1, .i32⟩
  | 21 => ⟨S1048576x128, .f32⟩
  | 22 => ⟨S1048576x256, .f32⟩
  | 23 => ⟨S256x1048576, .f32⟩
  | 24 => ⟨S1x256, .f32⟩
  | 25 => ⟨S1x1048576, .f32⟩
  | 26 => ⟨S1048576, .f32⟩
  | 27 => ⟨S_, .f32⟩
  | 28 => ⟨S_, .f32⟩
  | 29 => ⟨S1048576, .f32⟩
  | 30 => ⟨S1048576, .i1⟩
  | 31 => ⟨S_, .f32⟩
  | 32 => ⟨S1048576, .f32⟩
  | 33 => ⟨S1048576, .f32⟩
  | 34 => ⟨S1048576, .f32⟩
  | 35 => ⟨S1048576, .f32⟩
  | 36 => ⟨S1048576, .f32⟩
  | 37 => ⟨S_, .f32⟩
  | 38 => ⟨S1024x1, .f32⟩
  | 39 => ⟨S1x1048576, .i32⟩
  | 40 => ⟨S1048576, .i32⟩
  | 41 => ⟨S1048576x1, .f32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S1048576x1, .i32⟩
  | 50 => ⟨S1024x1, .f32⟩
  | 51 => ⟨S_, .f32⟩
  | 52 => ⟨S1024x128, .f32⟩
  | 53 => ⟨S1x1048576, .i32⟩
  | 54 => ⟨S1048576, .i32⟩
  | 55 => ⟨S1048576x1, .f32⟩
  | 56 => ⟨S1x1048576, .i32⟩
  | 57 => ⟨S1048576, .i32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S1048576x1, .i32⟩
  | 66 => ⟨S1048576x128, .f32⟩
  | 67 => ⟨S1048576x128, .f32⟩
  | 68 => ⟨S1048576x128, .f32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S1024x128, .f32⟩
  | 78 => ⟨S_, .f32⟩
  | 79 => ⟨S1024x1, .f32⟩
  | 80 => ⟨S1024x1, .f32⟩
  | 81 => ⟨S1024x128, .f32⟩
  | 82 => ⟨S1024x128, .f32⟩
  | 83 => ⟨S_, .f32⟩
  | 84 => ⟨S1024x128, .f32⟩
  | 85 => ⟨S1024x128, .i1⟩
  | 86 => ⟨S_, .f32⟩
  | 87 => ⟨S1024x128, .f32⟩
  | 88 => ⟨S1024x128, .i1⟩
  | 89 => ⟨S_, .f32⟩
  | 90 => ⟨S_, .f32⟩
  | 91 => ⟨S1024x128, .f32⟩
  | 92 => ⟨S1024x128, .f32⟩
  | 93 => ⟨S1024x128, .f32⟩
  | 94 => ⟨S_, .f32⟩
  | 95 => ⟨S1024x128, .f32⟩
  | 96 => ⟨S1024x128, .f32⟩
  | 97 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_call2_call0_c : Ref sig .tc := ⟨.hbm, 29, rfl⟩
abbrev main_call2_call0_v0 : Ref sig .tc := ⟨.hbm, 30, rfl⟩
abbrev main_v13 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v14 : Ref sig .tc := ⟨.hbm, 48, rfl⟩
abbrev main_c_6 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v15 : Ref sig .tc := ⟨.hbm, 70, rfl⟩
abbrev main_c_7 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_c : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_c_0 : Ref sig .tc := ⟨.hbm, 84, rfl⟩
abbrev main_call5_v11 : Ref sig .tc := ⟨.hbm, 85, rfl⟩
abbrev main_call5_v12 : Ref sig .tc := ⟨.hbm, 86, rfl⟩
abbrev main_v16 : Ref sig .tc := ⟨.hbm, 87, rfl⟩
abbrev main_c_8 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_c_9 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_c_10 : Ref sig .tc := ⟨.hbm, 116, rfl⟩
abbrev main_call7_v0 : Ref sig .tc := ⟨.hbm, 117, rfl⟩
abbrev main_call7_v1 : Ref sig .tc := ⟨.hbm, 118, rfl⟩
abbrev main_v23 : Ref sig .tc := ⟨.hbm, 119, rfl⟩
abbrev main_c_11 : Ref sig .tc := ⟨.hbm, 120, rfl⟩
abbrev main_call8_v0 : Ref sig .tc := ⟨.hbm, 121, rfl⟩
abbrev main_call8_v1 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_c_12 : Ref sig .tc := ⟨.hbm, 130, rfl⟩
abbrev main_v31 : Ref sig .tc := ⟨.hbm, 131, rfl⟩
abbrev main_v32 : Ref sig .tc := ⟨.hbm, 132, rfl⟩
abbrev main_c_13 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_c_14 : Ref sig .tc := ⟨.hbm, 141, rfl⟩
abbrev main_v40 : Ref sig .tc := ⟨.hbm, 142, rfl⟩
abbrev main_v41 : Ref sig .tc := ⟨.hbm, 143, rfl⟩
abbrev main_c_15 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_cst : Ref sig .tc := ⟨.hbm, 155, rfl⟩
abbrev main_call9_cst : Ref sig .tc := ⟨.hbm, 156, rfl⟩
abbrev main_call9_v0 : Ref sig .tc := ⟨.hbm, 157, rfl⟩
abbrev main_call9_v1 : Ref sig .tc := ⟨.hbm, 158, rfl⟩
abbrev main_call9_v2 : Ref sig .tc := ⟨.hbm, 159, rfl⟩
abbrev main_call9_v3 : Ref sig .tc := ⟨.hbm, 160, rfl⟩
abbrev main_call9_v4 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_cst_16 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_c_17 : Ref sig .tc := ⟨.hbm, 170, rfl⟩
abbrev main_v59 : Ref sig .tc := ⟨.hbm, 171, rfl⟩
abbrev main_v60 : Ref sig .tc := ⟨.hbm, 172, rfl⟩
abbrev main_c_18 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_cst_19 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_c_20 : Ref sig .tc := ⟨.hbm, 186, rfl⟩
abbrev main_v72 : Ref sig .tc := ⟨.hbm, 187, rfl⟩
abbrev main_v73 : Ref sig .tc := ⟨.hbm, 188, rfl⟩
abbrev main_c_21 : Ref sig .tc := ⟨.hbm, 189, rfl⟩
abbrev main_v74 : Ref sig .tc := ⟨.hbm, 190, rfl⟩
abbrev main_v75 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_c_22 : Ref sig .tc := ⟨.hbm, 197, rfl⟩
abbrev main_v81 : Ref sig .tc := ⟨.hbm, 198, rfl⟩
abbrev main_v82 : Ref sig .tc := ⟨.hbm, 199, rfl⟩
abbrev main_c_23 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩
abbrev main_cst_24 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_call10_cst : Ref sig .tc := ⟨.hbm, 211, rfl⟩
abbrev main_call10_v0 : Ref sig .tc := ⟨.hbm, 212, rfl⟩
abbrev main_call10_v1 : Ref sig .tc := ⟨.hbm, 213, rfl⟩
abbrev main_call10_cst_0 : Ref sig .tc := ⟨.hbm, 214, rfl⟩
abbrev main_call10_v2 : Ref sig .tc := ⟨.hbm, 215, rfl⟩
abbrev main_call10_v3 : Ref sig .tc := ⟨.hbm, 216, rfl⟩
abbrev main_call10_cst_1 : Ref sig .tc := ⟨.hbm, 217, rfl⟩
abbrev main_call10_call0_v0 : Ref sig .tc := ⟨.hbm, 218, rfl⟩
abbrev main_call10_call0_v1 : Ref sig .tc := ⟨.hbm, 219, rfl⟩
abbrev main_call10_v4 : Ref sig .tc := ⟨.hbm, 220, rfl⟩
abbrev main_call10_v5 : Ref sig .tc := ⟨.hbm, 221, rfl⟩
abbrev main_call10_cst_2 : Ref sig .tc := ⟨.hbm, 222, rfl⟩
abbrev main_call10_v6 : Ref sig .tc := ⟨.hbm, 223, rfl⟩
abbrev main_call10_v7 : Ref sig .tc := ⟨.hbm, 224, rfl⟩
abbrev main_v92 : Ref sig .tc := ⟨.hbm, 225, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576x128_S1048576x128_S1048576x256_d1 : Shape.Concatenates [S1048576x128, S1048576x128] S1048576x256 1
  transposes_S1048576x256_S256x1048576_1_0 : S1048576x256.Transposes [1, 0] S256x1048576
  transposes_S256x1_S1x256_1_0 : S256x1.Transposes [1, 0] S1x256
  bcast_S_S1024x1 : S_.BroadcastsInDim S1024x1 (![] : Fin 0 → Fin S1024x1.rank)
  bcast_S_S1024x128 : S_.BroadcastsInDim S1024x128 (![] : Fin 0 → Fin S1024x128.rank)
  bcast_S1048576x1_S1048576x128_0_1 : S1048576x1.BroadcastsInDim S1048576x128 (![0, 1] : Fin 2 → Fin S1048576x128.rank)
  bcast_S1024x1_S1024x128_0_1 : S1024x1.BroadcastsInDim S1024x128 (![0, 1] : Fin 2 → Fin S1024x128.rank)
  scatter_S1048576_S1048576x1_S1048576_n_0_0_1_wf : ScatterDims.WF S1048576 S1048576x1 S1048576 [] [0] [0] 1
  dot_S1024x128_S128x128_S1024x128_1_0_0_1_n_n_wf : DotDims.WF S1024x128 S128x128 S1024x128 [1] [0] [0] [1] [] []
  gather_S1024x128_S1048576x1_S1048576x128_1_0_n_n_0_1_1128_wf : GatherDims.WF S1024x128 S1048576x1 S1048576x128 [1] [0] [] [0] [] 1 ![1, 128]
  dot_S1x256_S256x1048576_S1x1048576_1_0_0_1_n_n_wf : DotDims.WF S1x256 S256x1048576 S1x1048576 [1] [0] [0] [1] [] []
  scatter_S1024x1_S1048576x1_S1048576x1_1_0_0_1_wf : ScatterDims.WF S1024x1 S1048576x1 S1048576x1 [1] [0] [0] 1
  scatter_S1024x128_S1048576x1_S1048576x128_1_0_0_1_wf : ScatterDims.WF S1024x128 S1048576x1 S1048576x128 [1] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def dot_S1x256_S256x1048576_S1x1048576_1_0_0_1_n_n : DotDims S1x256 S256x1048576 S1x1048576 where
  lhsContracting := [1]
  rhsContracting := [0]
  lhsNonContracting := [0]
  rhsNonContracting := [1]
  lhsBatch := []
  rhsBatch := []
  wf := dot_S1x256_S256x1048576_S1x1048576_1_0_0_1_n_n_wf
def scatter_S1024x1_S1048576x1_S1048576x1_1_0_0_1 : ScatterDims S1024x1 S1048576x1 S1048576x1 where
  updateWindowDims := [1]
  insertedWindowDims := [0]
  scatterDimsToOperandDims := [0]
  indexVectorDim := 1
  wf := scatter_S1024x1_S1048576x1_S1048576x1_1_0_0_1_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf

class Facts : Prop extends Facts₀ where

variable [Facts]
-- ==== Proof.Spec.lean ====
/-
  The function both programs compute, index by index over the extended reals.

  With hidden = x · W (a [1024, 128] matrix), the source term s1 i = Σ_k hidden[i, k] · a[k] and the
  destination term s2 j = Σ_k a[128 + k] · hidden[j, k], the weight of the pair (i, j) is
      E i j = exp (−lrelu (s1 i + s2 j))   if adj[i, j] ≠ 0,   and 0 otherwise,
  where lrelu z = z for 0 ≤ z and c · z otherwise (c the binary value of the f32 literal 0.2).
  Row i of the result is the ELU of  (Σ_j E i j · hidden[j, ·]) / (Σ_j E i j + ε),  ε the binary value of
  the f32 literal 1e-9, and ELU h = h for 0 < h and exp (min h 0) − 1 otherwise.
-/
import Idealize.ShloMosaic.PureOps.Ideal
import Idealize.ShloMosaic.PureOps.Ideal.Laws
import Idealize.ShloMosaic.Lib.ValueIdx

noncomputable section

namespace Cert.GatSpec

open Idealize.ShloMosaic Idealize.ShloMosaic.ValueIdx

/-- The negative slope of the leaky ReLU: the f32 literal 0.2, at its binary value. -/
def slope : EReal := Ideal.ofBits .f32 0x3E4CCCCD#32
/-- The stabiliser added to a row's weight sum: the f32 literal 1e-9, at its binary value. -/
def eps : EReal := Ideal.ofBits .f32 0x3089705F#32

/-- The leaky ReLU. -/
def lrelu (z : EReal) : EReal := if (0 : EReal) ≤ z then z else slope * z

/-- The ELU, written with the clamp the kernel uses: for h ≤ 0 the clamp is the identity. -/
def elu (h : EReal) : EReal := if (0 : EReal) < h then h else Ideal.exp (min h 0) - 1

variable (x : FVec Ideal ⟨2, ![1024, 128]⟩ .f32) (adj : IVec ⟨2, ![1024, 1024]⟩ 32)
  (W : FVec Ideal ⟨2, ![128, 128]⟩ .f32) (a : FVec Ideal ⟨2, ![256, 1]⟩ .f32)

/-- hidden = x · W. -/
def hid (i : Fin 1024) (k : Fin 128) : EReal := ∑ j : Fin 128, x (ix2 i j) * W (ix2 j k)

/-- The source-side logit term: hidden[i, ·] against the first 128 entries of a. -/
def s1 (i : Fin 1024) : EReal := ∑ k : Fin 128, hid x W i k * a (ix2 (⟨k.val, by omega⟩ : Fin 256) (0 : Fin 1))

/-- The destination-side logit term: the last 128 entries of a against hidden[j, ·]. -/
def s2 (j : Fin 1024) : EReal := ∑ k : Fin 128, a (ix2 (⟨128 + k.val, by omega⟩ : Fin 256) (0 : Fin 1)) * hid x W j k

/-- The attention weight of the pair (i, j): zero off the adjacency mask. -/
def wgt (i j : Fin 1024) : EReal :=
  if adj (ix2 i j) ≠ 0#32 then Ideal.exp (-(lrelu (s1 x W a i + s2 x W a j))) else 0

/-- A row's weight sum. -/
def rowsum (i : Fin 1024) : EReal := ∑ j : Fin 1024, wgt x adj W a i j

/-- A row's weighted sum of hidden rows, at feature k. -/
def num (i : Fin 1024) (k : Fin 128) : EReal := ∑ j : Fin 1024, wgt x adj W a i j * hid x W j k

/-- The result array. -/
def G : FVec Ideal ⟨2, ![1024, 128]⟩ .f32 :=
  fun idx => elu (Ideal.div (num x adj W a (idx 0) (idx 1)) (rowsum x adj W a (idx 0) + eps))

theorem G_apply (i : Fin 1024) (k : Fin 128) :
    G x adj W a (ix2 i k) = elu (Ideal.div (num x adj W a i k) (rowsum x adj W a i + eps)) := rfl

end Cert.GatSpec

end
-- ==== Proof.KernelBody.lean ====
/-
  What the kernel's one run leaves in its output block, as a function of its four input blocks.

  The grid has a single point, at which the first-step branch is taken: the run stores hidden = x · W, the source
  logit column and the destination logit row into the three scratch buffers, reads them back whole, and stores
  the normalised, ELU-activated aggregate once over the whole output block. So the block's contents are one
  chain of the body's pure payloads applied to the input blocks and to the two halves of the attention vector.
-/
import proofs.«179381_g13718125543874_cont_sun_m_270_6_alg».proof.Proof.Gen.KernelIdeal.Frame
import Idealize.ShloMosaic.Lib.Pipeline.Value
import Idealize.ShloMosaic.Lib.Tactic

set_option maxRecDepth 16384

noncomputable section

namespace Cert.KernelIdeal.KB

open Idealize.ShloMosaic Idealize.ShloMosaic.TcCoe Idealize.SL.Sem Cert.KernelIdeal Cert.KernelIdeal.Gen
open Idealize.ShloMosaic.Pipeline (Dat)

variable {F : FTy → Type} [FloatOps F]

/-- The rank-2 zero offset, however it is spelt. -/
theorem hz : (![0, 0] : Fin 2 → Nat) = fun _ => 0 := funext fun a => by fin_cases a <;> rfl

/-- At the grid's only point the source-logit column is read back from row 0. -/
theorem off1_zero : ∀ i : grid0.Coords, k0_off1 i = fun _ => 0 := by decide +kernel

/-- Rows 0 … 127 of the attention vector: the source-side projection. -/
abbrev aLo (x2 : Vec F S256x1 .f32) : Vec F S128x1 .f32 :=
  View.ld x2 (Rect.unit (s := S256x1) ![0, 0] S128x1.size inb_S256x1_S128x1_0_0)

/-- Rows 128 … 255 of the attention vector: the destination-side projection. -/
abbrev aHi (x2 : Vec F S256x1 .f32) : Vec F S128x1 .f32 :=
  View.ld x2 (Rect.unit (s := S256x1) ![128, 0] S128x1.size inb_S256x1_S128x1_128_0)

/-- The quotient (Σ_j E i j · hidden[j, ·]) / (Σ_j E i j + ε) as the body computes it from the blocks. -/
abbrev quot (x0 : Vec F S1024x128 .f32) (x1 : Vec F S128x128 .f32) (x2 : Vec F S256x1 .f32) (x3 : Vec F S1024x1024 .i32) :
    FVec F S1024x128 .f32 :=
  k0_pay6 (k0_pay4 x0 x1 (aLo x2)) (k0_pay5 x0 x1 (aHi x2)) x3 (k0_pay3 x0 x1)

/-- The output block: the ELU of the quotient, its three ingredients (the quotient, its sign test, the
    exponential of its clamp) computed from the same scratch read-backs. -/
abbrev body (x0 : Vec F S1024x128 .f32) (x1 : Vec F S128x128 .f32) (x2 : Vec F S256x1 .f32) (x3 : Vec F S1024x1024 .i32) :
    FVec F S1024x128 .f32 :=
  k0_pay1 (quot x0 x1 x2 x3)
    (k0_pay7 (k0_pay4 x0 x1 (aLo x2)) (k0_pay5 x0 x1 (aHi x2)) x3 (k0_pay3 x0 x1))
    (k0_pay8 (k0_pay4 x0 x1 (aLo x2)) (k0_pay5 x0 x1 (aHi x2)) x3 (k0_pay3 x0 x1))
    (k0_pay9 (F := F))

/-- The run's one covering store leaves that chain: every scratch read-back is the payload stored just before,
    every input load reads its whole block. -/
theorem out_eq (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1x1024 .f32) (harg8 : arg8.IsWhole) (hc0 : cond0_0 i)
    (x0 : Vec F S1024x128 .f32) (x1 : Vec F S128x128 .f32) (x2 : Vec F S256x1 .f32) (x3 : Vec F S1024x1024 .i32) :
    out0_A_4 c i arg1 harg1 arg2 harg2 arg3 harg3 arg4 harg4 arg5 harg5 arg6 harg6 arg7 harg7 arg8 harg8 hc0 x0 x1 x2 x3
      = body x0 x1 x2 x3 := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  sl_unfold_run_names
  rw [View.canon_unit_zero hz]
  simp only [View.readAt_eq_ld, View.read_writes_junk_eq_canon, View.canon_unit_zero (S := S1024x1) hz,
    harg1.read_unread, harg2.read_unread, harg3.read_unread, harg4.read_unread,
    View.ld_unit_zero (S := S1024x128) hz, View.ld_unit_zero (S := S128x128) hz, View.ld_unit_zero (S := S1024x1024) hz,
    View.ld_unit_zero (S := S1024x1) (off1_zero i),
    View.readCov_unit_zero (S := S1x1024) _ hz, View.readCov_unit_zero (S := S1024x128) _ hz]

end Cert.KernelIdeal.KB

end
-- ==== Proof.KernelDots.lean ====
/-
  The kernel's four matrix products read at an index, over the extended reals.

  Each accumulates into a zero block, so an entry is the plain sum over the one contracted axis of the operands'
  products: hidden = x · W and the aggregate E · hidden contract the left operand's columns with the right
  operand's rows; the source logits contract hidden's columns with a column vector; the destination logits
  contract a column vector's ROWS with hidden's COLUMNS, giving a row vector.
-/
import proofs.«179381_g13718125543874_cont_sun_m_270_6_alg».proof.Proof.Gen.KernelIdeal
import Idealize.ShloMosaic.PureOps.Ideal.Laws
import Idealize.ShloMosaic.Lib.ValueIdx

noncomputable section

namespace Cert.KernelIdeal.KD

open Idealize.ShloMosaic Idealize.ShloMosaic.ValueIdx Cert.KernelIdeal Cert.KernelIdeal.Gen
open scoped BigOperators

/-! ## Operand indices, axis by axis -/

theorem lhs_hid_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_hid_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_hid_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_hid_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem lhs_src_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide), dif_pos (show (0 : Fin S1024x128.rank) ∈ dot_S1024x128_S128x1_S1024x1_1_0_0_1_n_n.lhsNonContracting by decide)]
  rfl
theorem lhs_src_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
theorem rhs_src_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
theorem rhs_src_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide), dif_pos (show (1 : Fin S128x1.rank) ∈ dot_S1024x128_S128x1_S1024x1_1_0_0_1_n_n.rhsNonContracting by decide)]
  rfl

theorem lhs_dst_0 (i : S1x1024.Idx) (q : dot_S128x1_S1024x128_S1x1024_0_1_1_0_n_n.contr.Idx) :
    (dot_S128x1_S1024x128_S1x1024_0_1_1_0_n_n.lhsIdx i q 0).val = (q ⟨0, by decide⟩).val :=
  dot_S128x1_S1024x128_S1x1024_0_1_1_0_n_n.lhsIdx_val_of_single rfl i q
theorem lhs_dst_1 (i : S1x1024.Idx) (q : dot_S128x1_S1024x128_S1x1024_0_1_1_0_n_n.contr.Idx) :
    (dot_S128x1_S1024x128_S1x1024_0_1_1_0_n_n.lhsIdx i q 1).val = (i 0).val := by
  unfold DotDims.lhsIdx
  rw [dif_neg (show ¬(1 : Fin S128x1.rank) ∈ dot_S128x1_S1024x128_S1x1024_0_1_1_0_n_n.lhsBatch by decide), dif_pos (show (1 : Fin S128x1.rank) ∈ dot_S128x1_S1024x128_S1x1024_0_1_1_0_n_n.lhsNonContracting by decide)]
  rfl
theorem rhs_dst_0 (i : S1x1024.Idx) (q : dot_S128x1_S1024x128_S1x1024_0_1_1_0_n_n.contr.Idx) :
    (dot_S128x1_S1024x128_S1x1024_0_1_1_0_n_n.rhsIdx i q 0).val = (i 1).val := by
  unfold DotDims.rhsIdx
  rw [dif_neg (show ¬(0 : Fin S1024x128.rank) ∈ dot_S128x1_S1024x128_S1x1024_0_1_1_0_n_n.rhsBatch by decide), dif_pos (show (0 : Fin S1024x128.rank) ∈ dot_S128x1_S1024x128_S1x1024_0_1_1_0_n_n.rhsNonContracting by decide)]
  rfl
theorem rhs_dst_1 (i : S1x1024.Idx) (q : dot_S128x1_S1024x128_S1x1024_0_1_1_0_n_n.contr.Idx) :
    (dot_S128x1_S1024x128_S1x1024_0_1_1_0_n_n.rhsIdx i q 1).val = (q ⟨0, by decide⟩).val :=
  dot_S128x1_S1024x128_S1x1024_0_1_1_0_n_n.rhsIdx_val_of_single rfl i q

theorem lhs_agg_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_agg_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_agg_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_agg_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-! ## The products -/

/-- x · W at (p, q): the sum over the 128 input features. -/
theorem hid_apply (x : FVec Ideal S1024x128 .f32) (W : FVec Ideal S128x128 .f32) (p : Fin 1024) (q : Fin 128) :
    FloatOps.matmul dot_S1024x128_S128x128_S1024x128_1_0_0_1_n_n none x W (constant S1024x128 .f32 0x00000000#32) (ix2 p q)
      = ∑ k : Fin 128, x (ix2 p k) * W (ix2 k q) := by
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhs_hid_0 _ _).trans hk
    | ⟨1, _⟩ => exact rhs_hid_1 _ _)
  rw [el, er]

/-- h · v at (p, r) for a column vector v: the sum over h's 128 columns. -/
theorem src_apply (h : FVec Ideal S1024x128 .f32) (v : FVec Ideal S128x1 .f32) (p : Fin 1024) (r : Fin 1) :
    FloatOps.matmul dot_S1024x128_S128x1_S1024x1_1_0_0_1_n_n none h v (constant S1024x1 .f32 0x00000000#32) (ix2 p r)
      = ∑ k : Fin 128, h (ix2 p k) * v (ix2 k r) := by
  rw [Ideal.matmul_constant_zero_apply, ← Equiv.sum_comp (contrEquiv1 dot_S1024x128_S128x1_S1024x1_1_0_0_1_n_n 128 rfl rfl).symm]
  refine Finset.sum_congr rfl fun k _ => ?_
  have hk := contrEquiv1_symm_val dot_S1024x128_S128x1_S1024x1_1_0_0_1_n_n 128 rfl rfl k
  have el : dot_S1024x128_S128x1_S1024x1_1_0_0_1_n_n.lhsIdx (ix2 p r) ((contrEquiv1 dot_S1024x128_S128x1_S1024x1_1_0_0_1_n_n 128 rfl rfl).symm k) = ix2 p k := funext fun a => Fin.ext (by
    match a with
    | ⟨0, _⟩ => exact lhs_src_0 _ _
    | ⟨1, _⟩ => exact (lhs_src_1 _ _).trans hk)
  have er : dot_S1024x128_S128x1_S1024x1_1_0_0_1_n_n.rhsIdx (ix2 p r) ((contrEquiv1 dot_S1024x128_S128x1_S1024x1_1_0_0_1_n_n 128 rfl rfl).symm k) = ix2 k r := funext fun a => Fin.ext (by
    match a with
    | ⟨0, _⟩ => exact (rhs_src_0 _ _).trans hk
    | ⟨1, _⟩ => exact rhs_src_1 _ _)
  rw [el, er]

/-- vᵀ · hᵀ at (r, j) for a column vector v: the sum over v's 128 rows against row j of h. -/
theorem dst_apply (v : FVec Ideal S128x1 .f32) (h : FVec Ideal S1024x128 .f32) (r : Fin 1) (j : Fin 1024) :
    FloatOps.matmul dot_S128x1_S1024x128_S1x1024_0_1_1_0_n_n none v h (constant S1x1024 .f32 0x00000000#32) (ix2 r j)
      = ∑ k : Fin 128, v (ix2 k r) * h (ix2 j k) := by
  rw [Ideal.matmul_constant_zero_apply, ← Equiv.sum_comp (contrEquiv1 dot_S128x1_S1024x128_S1x1024_0_1_1_0_n_n 128 rfl rfl).symm]
  refine Finset.sum_congr rfl fun k _ => ?_
  have hk := contrEquiv1_symm_val dot_S128x1_S1024x128_S1x1024_0_1_1_0_n_n 128 rfl rfl k
  have el : dot_S128x1_S1024x128_S1x1024_0_1_1_0_n_n.lhsIdx (ix2 r j) ((contrEquiv1 dot_S128x1_S1024x128_S1x1024_0_1_1_0_n_n 128 rfl rfl).symm k) = ix2 k r := funext fun a => Fin.ext (by
    match a with
    | ⟨0, _⟩ => exact (lhs_dst_0 _ _).trans hk
    | ⟨1, _⟩ => exact lhs_dst_1 _ _)
  have er : dot_S128x1_S1024x128_S1x1024_0_1_1_0_n_n.rhsIdx (ix2 r j) ((contrEquiv1 dot_S128x1_S1024x128_S1x1024_0_1_1_0_n_n 128 rfl rfl).symm k) = ix2 j k := funext fun a => Fin.ext (by
    match a with
    | ⟨0, _⟩ => exact rhs_dst_0 _ _
    | ⟨1, _⟩ => exact (rhs_dst_1 _ _).trans hk)
  rw [el, er]

/-- E · h at (p, q): the sum over the 1024 neighbours. -/
theorem agg_apply (E : FVec Ideal S1024x1024 .f32) (h : FVec Ideal S1024x128 .f32) (p : Fin 1024) (q : Fin 128) :
    FloatOps.matmul dot_S1024x1024_S1024x128_S1024x128_1_0_0_1_n_n none E h (constant S1024x128 .f32 0x00000000#32) (ix2 p q)
      = ∑ j : Fin 1024, E (ix2 p j) * h (ix2 j q) := by
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact lhs_agg_0 _ _
    | ⟨1, _⟩ => exact (lhs_agg_1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (rhs_agg_0 _ _).trans hk
    | ⟨1, _⟩ => exact rhs_agg_1 _ _)
  rw [el, er]

end Cert.KernelIdeal.KD

end
-- ==== Proof.KernelIndex.lean ====
/-
  The kernel's payloads read at an index, over the extended reals: each is the specification's function.

  hidden, the source logits and the destination logits are the three first-step products; the weight of a pair
  is the masked exponential of the negated leaky ReLU of the broadcast sum of logits; a row's weight sum is the
  lane reduction of the weights; the aggregate is the weights times hidden; and the output is the ELU of the
  aggregate divided by the stabilised weight sum.
-/
import proofs.«179381_g13718125543874_cont_sun_m_270_6_alg».proof.Proof.KernelBody
import proofs.«179381_g13718125543874_cont_sun_m_270_6_alg».proof.Proof.KernelDots
import proofs.«179381_g13718125543874_cont_sun_m_270_6_alg».proof.Proof.Spec
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.KI

open Idealize.ShloMosaic Idealize.ShloMosaic.ValueIdx Cert.KernelIdeal Cert.KernelIdeal.Gen Cert.GatSpec
open scoped BigOperators

/-! ## Layout: a column laid along every lane, a vector stood up as a column -/

section Layout
variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, 0)`, the vector at `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) := by
  refine shapeCast_apply v h (ix2 p u) (ix1 p) ?_
  rw [Shape.rowMajor_val_one, Shape.rowMajor_val_two]
  show p.val = p.val * 1 + u.val
  have := u.isLt; omega

end Layout

/-! ## Scalars: the body's selects as conditionals -/

section Scalars

/-- A select on a decided bit is the conditional on the decision. -/
theorem select_ofBool {α : Type} (b : Bool) (u v : α) : Scalar.select (BitVec.ofBool b) u v = if b = true then u else v := by
  cases b <;> rfl

/-- The leaky ReLU as the body selects it: `z` where `0 ≤ z`, the slope times `z` elsewhere. -/
theorem lrelu_select (z : EReal) :
    Scalar.select (Ideal.cmp .oge z (Ideal.ofBits .f32 0x00000000#32)) z (Ideal.ofBits .f32 0x3E4CCCCD#32 * z) = lrelu z := by
  rw [Ideal.ofBits_zero_f32]
  show Scalar.select (BitVec.ofBool (decide ((0 : EReal) ≤ z))) z (slope * z) = if (0 : EReal) ≤ z then z else slope * z
  rw [select_ofBool]
  exact if_congr decide_eq_true_iff rfl rfl

/-- The weight of a pair from its two logit terms and its mask word. -/
def wgtOf (s t : EReal) (w : BitVec 32) : EReal := if w ≠ 0#32 then Ideal.exp (-(lrelu (s + t))) else 0

/-- The masked exponential as the body selects it. -/
theorem wgt_select (s t : EReal) (w : BitVec 32) :
    Scalar.select (IntOp.cmpi .ne w 0#32)
      (Ideal.exp (Ideal.ofBits .f32 0x00000000#32
        - Scalar.select (Ideal.cmp .oge (s + t) (Ideal.ofBits .f32 0x00000000#32)) (s + t) (Ideal.ofBits .f32 0x3E4CCCCD#32 * (s + t))))
      (Ideal.ofBits .f32 0x00000000#32) = wgtOf s t w := by
  rw [lrelu_select, Ideal.ofBits_zero_f32, zero_sub]
  show Scalar.select (BitVec.ofBool (w != 0#32)) _ _ = if w ≠ 0#32 then _ else _
  rw [select_ofBool]
  exact if_congr bne_iff_ne rfl rfl

/-- The ELU as the body selects it: `h` where `0 < h`, `exp (min h 0) − 1` elsewhere. -/
theorem elu_select (h : EReal) :
    Scalar.select (Ideal.cmp .ogt h (Ideal.ofBits .f32 0x00000000#32)) h
      (Ideal.exp (min h (Ideal.ofBits .f32 0x00000000#32)) - Ideal.ofBits .f32 0x3F800000#32) = elu h := by
  rw [Ideal.ofBits_zero_f32, Ideal.ofBits_one_f32]
  show Scalar.select (BitVec.ofBool (decide ((0 : EReal) < h))) h _ = if (0 : EReal) < h then h else _
  rw [select_ofBool]
  exact if_congr decide_eq_true_iff rfl rfl

end Scalars

/-! ## The first-step products -/

section Products

variable (x : FVec Ideal S1024x128 .f32) (W : FVec Ideal S128x128 .f32) (a : FVec Ideal S256x1 .f32)

/-- hidden = x · W. -/
theorem pay2_apply (p : Fin 1024) (q : Fin 128) : k0_pay2 (F := Ideal) x W (ix2 p q) = hid x W p q :=
  KD.hid_apply x W p q

/-- What the hidden scratch holds is hidden itself. -/
theorem pay3_eq : k0_pay3 (F := Ideal) x W = k0_pay2 (F := Ideal) x W := shapeCast_self _ _

/-- The first half of the attention vector at row k. -/
theorem aLo_apply (k : Fin 128) (r : Fin 1) : KB.aLo (F := Ideal) a (ix2 k r) = a (ix2 (⟨k.val, by omega⟩ : Fin 256) (0 : Fin 1)) := by
  show a _ = a _
  refine congrArg a (funext fun d => Fin.ext ?_)
  match d with
  | ⟨0, _⟩ => show 0 + 1 * k.val = k.val; omega
  | ⟨1, _⟩ => show 0 + 1 * r.val = 0; have := r.isLt; omega

/-- The second half of the attention vector at row k. -/
theorem aHi_apply (k : Fin 128) (r : Fin 1) : KB.aHi (F := Ideal) a (ix2 k r) = a (ix2 (⟨128 + k.val, by omega⟩ : Fin 256) (0 : Fin 1)) := by
  show a _ = a _
  refine congrArg a (funext fun d => Fin.ext ?_)
  match d with
  | ⟨0, _⟩ => show 128 + 1 * k.val = 128 + k.val; omega
  | ⟨1, _⟩ => show 0 + 1 * r.val = 0; have := r.isLt; omega

/-- The source-logit column the first step stores is the product of hidden with a column vector. -/
theorem pay4_eq (v : FVec Ideal S128x1 .f32) : k0_pay4 (F := Ideal) x W v
    = FloatOps.matmul dot_S1024x128_S128x1_S1024x1_1_0_0_1_n_n none (k0_pay2 (F := Ideal) x W) v (constant S1024x1 .f32 0x00000000#32) := shapeCast_self _ _

/-- The destination-logit row the first step stores is the product of a column vector's rows with hidden's columns. -/
theorem pay5_eq (v : FVec Ideal S128x1 .f32) : k0_pay5 (F := Ideal) x W v
    = FloatOps.matmul dot_S128x1_S1024x128_S1x1024_0_1_1_0_n_n none v (k0_pay2 (F := Ideal) x W) (constant S1x1024 .f32 0x00000000#32) := shapeCast_self _ _

/-- The source logit of row p. -/
theorem pay4_apply (p : Fin 1024) (r : Fin 1) : k0_pay4 (F := Ideal) x W (KB.aLo (F := Ideal) a) (ix2 p r) = s1 x W a p := by
  rw [pay4_eq, KD.src_apply]
  unfold s1
  refine Finset.sum_congr rfl fun k _ => ?_
  rw [pay2_apply, aLo_apply]

/-- The destination logit of row j. -/
theorem pay5_apply (r : Fin 1) (j : Fin 1024) : k0_pay5 (F := Ideal) x W (KB.aHi (F := Ideal) a) (ix2 r j) = s2 x W a j := by
  rw [pay5_eq, KD.dst_apply]
  unfold s2
  refine Finset.sum_congr rfl fun k _ => ?_
  rw [pay2_apply, aHi_apply]

end Products

/-! ## The weights, their row sums, the aggregate and the quotient -/

section Weights

variable (v5 : FVec Ideal S1024x1 .f32) (v6 : FVec Ideal S1x1024 .f32) (v15 : IVec S1024x1024 32) (v25 : FVec Ideal S1024x128 .f32)

/-- The logits: the source column plus the destination row, over all pairs. -/
def logits : FVec Ideal S1024x1024 .f32 :=
  addf (broadcastTo S1024x1024 v5 broadcasts_S1024x1_S1024x1024) (broadcastTo S1024x1024 v6 broadcasts_S1x1024_S1024x1024)

theorem logits_apply (i j : Fin 1024) : logits v5 v6 (ix2 i j) = v5 (ix2 i (0 : Fin 1)) + v6 (ix2 (0 : Fin 1) j) := by
  unfold logits
  rw [addf_apply, broadcastTo_a1_ab_apply, broadcastTo_1b_ab_apply]

/-- The masked weights: the exponential of the negated leaky ReLU of the logits where the mask word is not zero,
    zero elsewhere. -/
def weights : FVec Ideal S1024x1024 .f32 :=
  select (cmpi .ne v15 (broadcast S1024x1024 0#32))
    (exp (subf (broadcast S1024x1024 (Scalar.ofBits (F := Ideal) .f32 0x00000000#32))
      (select (cmpf .oge (logits v5 v6) (broadcast S1024x1024 (Scalar.ofBits (F := Ideal) .f32 0x00000000#32))) (logits v5 v6)
        (mulf (broadcast S1024x1024 (Scalar.ofBits (F := Ideal) .f32 0x3E4CCCCD#32)) (logits v5 v6)))))
    (broadcast S1024x1024 (Scalar.ofBits (F := Ideal) .f32 0x00000000#32))

theorem weights_apply (i j : Fin 1024) :
    weights v5 v6 v15 (ix2 i j) = wgtOf (v5 (ix2 i (0 : Fin 1))) (v6 (ix2 (0 : Fin 1) j)) (v15 (ix2 i j)) := by
  have e := wgt_select (v5 (ix2 i (0 : Fin 1))) (v6 (ix2 (0 : Fin 1) j)) (v15 (ix2 i j))
  rw [← logits_apply v5 v6 i j] at e
  exact e

/-- A matrix's row sums, stood up as a column. -/
def rowsumCol (E : FVec Ideal S1024x1024 .f32) : FVec Ideal S1024x1 .f32 :=
  shapeCast S1024x1 (multiReduction (F := Ideal) .add [1] S1024 E 0x00000000#32 reduces_S1024x1024_S1024 (.inl rfl) rfl) shapeCasts_S1024_S1024x1

theorem rowsumCol_apply (E : FVec Ideal S1024x1024 .f32) (p : Fin 1024) (u : Fin 1) :
    rowsumCol E (ix2 p u) = ∑ j : Fin 1024, E (ix2 p j) := by
  unfold rowsumCol
  rw [shapeCast_a_a1_apply]
  refine (Ideal.multiReduction_add_single E 0x00000000#32 reduces_S1024x1024_S1024 (.inl rfl) rfl (ix1 p)).trans ?_
  refine Finset.sum_congr rfl fun j _ => congrArg E (funext fun c => Fin.ext ?_)
  match c with
  | ⟨0, _⟩ => rfl
  | ⟨1, _⟩ => rfl

/-- The body's quotient is the aggregate over the stabilised row sum, in these terms. -/
theorem pay6_eq : k0_pay6 (F := Ideal) v5 v6 v15 v25
    = divf (FloatOps.matmul dot_S1024x1024_S1024x128_S1024x128_1_0_0_1_n_n none (weights v5 v6 v15) v25 (constant S1024x128 .f32 0x00000000#32))
        (broadcastTo S1024x128 (addf (rowsumCol (weights v5 v6 v15)) (broadcast S1024x1 (Scalar.ofBits (F := Ideal) .f32 0x3089705F#32)))
          broadcasts_S1024x1_S1024x128) := rfl

theorem pay6_apply (p : Fin 1024) (q : Fin 128) : k0_pay6 (F := Ideal) v5 v6 v15 v25 (ix2 p q)
    = Ideal.div (∑ j : Fin 1024, weights v5 v6 v15 (ix2 p j) * v25 (ix2 j q)) ((∑ j : Fin 1024, weights v5 v6 v15 (ix2 p j)) + eps) := by
  rw [pay6_eq, divf_apply, KD.agg_apply, broadcastTo_a1_ab_apply, addf_apply, rowsumCol_apply]
  rfl

end Weights

/-! ## The output block is the specification's array -/

section Result

variable (x : FVec Ideal S1024x128 .f32) (adj : IVec S1024x1024 32) (W : FVec Ideal S128x128 .f32) (a : FVec Ideal S256x1 .f32)

/-- The body's weights are the specification's. -/
theorem weights_spec (i j : Fin 1024) :
    weights (k0_pay4 (F := Ideal) x W (KB.aLo (F := Ideal) a)) (k0_pay5 (F := Ideal) x W (KB.aHi (F := Ideal) a)) adj (ix2 i j)
      = wgt x adj W a i j := by
  rw [weights_apply, pay4_apply, pay5_apply]
  rfl

/-- The body's quotient at (p, q). -/
theorem quot_apply (p : Fin 1024) (q : Fin 128) :
    KB.quot (F := Ideal) x W a adj (ix2 p q) = Ideal.div (num x adj W a p q) (rowsum x adj W a p + eps) := by
  show k0_pay6 (F := Ideal) _ _ _ _ (ix2 p q) = _
  rw [pay6_apply]
  unfold num rowsum
  simp only [weights_spec, pay3_eq, pay2_apply]

/-- The output block at (p, q). -/
theorem body_apply (p : Fin 1024) (q : Fin 128) : KB.body (F := Ideal) x W a adj (ix2 p q) = G x adj W a (ix2 p q) := by
  rw [G_apply, ← quot_apply]
  exact elu_select _

/-- The output block is G. -/
theorem body_eq : KB.body (F := Ideal) x W a adj = G x adj W a := by
  funext j
  obtain ⟨p, q, rfl⟩ : ∃ (p : Fin 1024) (q : Fin 128), j = ix2 p q := ⟨j 0, j 1, eq_ix2 j⟩
  exact body_apply x adj W a p q

end Result

end Cert.KernelIdeal.KI

end
-- ==== Proof.KernelValue.lean ====
/-
  The idealized kernel's result array is the specification's G of the argument arrays.

  The grid has one point. There every input window holds its whole array, the body leaves the payload chain of
  those arrays in the output block, that chain is G index by index, and the one block written back is the whole
  result array.
-/
import proofs.«179381_g13718125543874_cont_sun_m_270_6_alg».proof.Defs
import proofs.«179381_g13718125543874_cont_sun_m_270_6_alg».proof.Proof.Gen.KernelIdeal.Frame
import proofs.«179381_g13718125543874_cont_sun_m_270_6_alg».proof.Proof.Gen.KernelIdeal.Value
import proofs.«179381_g13718125543874_cont_sun_m_270_6_alg».proof.Proof.Spec
import proofs.«179381_g13718125543874_cont_sun_m_270_6_alg».proof.Proof.KernelBody
import proofs.«179381_g13718125543874_cont_sun_m_270_6_alg».proof.Proof.KernelIndex

noncomputable section

namespace Cert.KernelIdeal.KV

open Idealize.ShloMosaic Idealize.ShloMosaic.TcCoe Idealize.SL.Sem Cert.KernelIdeal Cert.KernelIdeal.Gen
open Idealize.ShloMosaic.Pipeline (Dat)

/-! ## The input windows at the grid's one point hold the whole arrays -/

section Blocks

variable {F : FTy → Type} [FloatOps F]
variable (m : (ℓ : Loc nD τ sig) → Buf (Elt F) ℓ)

/-- x's block is x. -/
theorem iblk_whole0 (c : Dev nD) : (iblk m c 0 t0_0 : Vec F S1024x128 .f32) = m ((c : Thread nD τ).loc main_arg0) := by
  have hi : win0_0.index t0_0 0 = 0 ∧ win0_0.index t0_0 1 = 0 := by decide
  funext j
  unfold iblk
  rw [View.read_apply]
  show V m c main_arg0 _ = m (c.tc.loc main_arg0) _
  unfold V
  congr 1
  funext a
  apply Fin.ext
  match a with
  | ⟨0, _⟩ => show win0_0.index t0_0 0 * 1024 + 1 * (j 0).val = (j 0).val; rw [hi.1]; omega
  | ⟨1, _⟩ => show win0_0.index t0_0 1 * 128 + 1 * (j 1).val = (j 1).val; rw [hi.2]; omega

/-- W's block is W. -/
theorem iblk_whole1 (c : Dev nD) : (iblk m c 1 t0_0 : Vec F S128x128 .f32) = m ((c : Thread nD τ).loc main_arg2) := by
  have hi : win0_1.index t0_0 0 = 0 ∧ win0_1.index t0_0 1 = 0 := by decide
  funext j
  unfold iblk
  rw [View.read_apply]
  show V m c main_arg2 _ = m (c.tc.loc main_arg2) _
  unfold V
  congr 1
  funext a
  apply Fin.ext
  match a with
  | ⟨0, _⟩ => show win0_1.index t0_0 0 * 128 + 1 * (j 0).val = (j 0).val; rw [hi.1]; omega
  | ⟨1, _⟩ => show win0_1.index t0_0 1 * 128 + 1 * (j 1).val = (j 1).val; rw [hi.2]; omega

/-- The attention vector's block is the attention vector. -/
theorem iblk_whole2 (c : Dev nD) : (iblk m c 2 t0_0 : Vec F S256x1 .f32) = m ((c : Thread nD τ).loc main_arg3) := by
  have hi : win0_2.index t0_0 0 = 0 ∧ win0_2.index t0_0 1 = 0 := by decide
  funext j
  unfold iblk
  rw [View.read_apply]
  show V m c main_arg3 _ = m (c.tc.loc main_arg3) _
  unfold V
  congr 1
  funext a
  apply Fin.ext
  match a with
  | ⟨0, _⟩ => show win0_2.index t0_0 0 * 256 + 1 * (j 0).val = (j 0).val; rw [hi.1]; omega
  | ⟨1, _⟩ => show win0_2.index t0_0 1 * 1 + 1 * (j 1).val = (j 1).val; rw [hi.2]; omega

/-- The adjacency mask's block is the adjacency mask. -/
theorem iblk_whole3 (c : Dev nD) : (iblk m c 3 t0_0 : Vec F S1024x1024 .i32) = m ((c : Thread nD τ).loc main_arg1) := by
  have hi : win0_3.index t0_0 0 = 0 ∧ win0_3.index t0_0 1 = 0 := by decide
  funext j
  unfold iblk
  rw [View.read_apply]
  show V m c main_arg1 _ = m (c.tc.loc main_arg1) _
  unfold V
  congr 1
  funext a
  apply Fin.ext
  match a with
  | ⟨0, _⟩ => show win0_3.index t0_0 0 * 1024 + 1 * (j 0).val = (j 0).val; rw [hi.1]; omega
  | ⟨1, _⟩ => show win0_3.index t0_0 1 * 1024 + 1 * (j 1).val = (j 1).val; rw [hi.2]; omega

end Blocks

/-! ## The result array -/

section Result

variable (m : (ℓ : Loc nD τ sig) → Buf (Elt Ideal) ℓ) (ρ : Dev nD → PrngReg)

/-- The specification's array of the argument arrays, as contents of the result buffer. -/
abbrev result (c : Dev nD) : Buf (Elt Ideal) ((c : Thread nD τ).loc main_v0) :=
  Cert.GatSpec.G (m ((c : Thread nD τ).loc main_arg0)) (m ((c : Thread nD τ).loc main_arg1))
    (m ((c : Thread nD τ).loc main_arg2)) (m ((c : Thread nD τ).loc main_arg3))

/-- What the one point writes back is the one block of G: the block at offset zero of the block's own extents. -/
theorem flushed_eq (c : Dev nD) (t : Fin cfg0.N) :
    (dats m 0 c).flushed 4 t = ((cfg0.win 4).blk t).view.read (Elt Ideal) (result m c) := by
  obtain rfl : t = t0_0 := fin_N0 t
  rw [Value.flushed4_A, KB.out_eq, iblk_whole0, iblk_whole1, iblk_whole2, iblk_whole3, KI.body_eq]
  have hz' : (fun a => win0_4.index t0_0 a * main_v0.ty.shape.size a) = fun _ => 0 := funext fun a => by fin_cases a <;> decide
  exact (Memref.read_access_unit_zero (Elt Ideal) main_v0 hz' (fun a => by rw [congrFun hz' a]; simp) (result m c)).symm

/-- The one block covers the array. -/
theorem cover (i : S1024x128.Idx) : ∃ t : Fin cfg0.N, (cfg0.win 4).flush t = true ∧ i ∈ ((cfg0.win 4).blk t).view.set := by
  have h0 : (i 0 : Nat) < 1024 := (i 0).isLt
  have h1 : (i 1 : Nat) < 128 := (i 1).isLt
  refine ⟨t0_0, flush0_4 t0_0, ?_⟩
  show i ∈ ((View.whole main_v0).slice (win0_4.rect t0_0)).set
  rw [View.set_slice_whole, Rect.mem_set_unit]
  intro a
  match a with
  | ⟨0, _⟩ => show win0_4.index t0_0 0 * win0_4.size 0 ≤ (i 0 : Nat) ∧ (i 0 : Nat) < win0_4.index t0_0 0 * win0_4.size 0 + win0_4.xsize (grid0.coords t0_0) 0
              rw [show win0_4.index t0_0 0 * win0_4.size 0 = 0 from by decide +kernel, show win0_4.xsize (grid0.coords t0_0) 0 = 1024 from by decide +kernel]; omega
  | ⟨1, _⟩ => show win0_4.index t0_0 1 * win0_4.size 1 ≤ (i 1 : Nat) ∧ (i 1 : Nat) < win0_4.index t0_0 1 * win0_4.size 1 + win0_4.xsize (grid0.coords t0_0) 1
              rw [show win0_4.index t0_0 1 * win0_4.size 1 = 0 from by decide +kernel, show win0_4.xsize (grid0.coords t0_0) 1 = 128 from by decide +kernel]; omega

/-- So the result array ends holding G. -/
theorem final (c : Dev nD) : (dats m 0 c).arrAt 4 cfg0.N = result m c :=
  (dats m 0 c).arrAt_eq_of_cover 4 (result m c) (fun t _ => flushed_eq m c t) cover

end Result

/-- Every weakly fair execution of the idealized kernel program terminates with the result array at the
    specification's value of the argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0)
        = Cert.GatSpec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run (defs (F := Ideal)) _ _).mono (fun r h c => ⟨(h c).1.trans (final m c), (h c).2⟩)
    (Cert.KernelIdeal.Value.run_blocks (F := Ideal) m ρ)

end Cert.KernelIdeal.KV

end
-- ==== Proof.RefOps.lean ====
/- The reference program's host operations as literal lists (each outlined function's operations at its call site,
   over the call's buffers), in consecutive windows; per window result one definition, a let per operation; and the
   reading of the operations' fold window by window. -/
import proofs.«179381_g13718125543874_cont_sun_m_270_6_alg».proof.ReferenceIdeal
import proofs.«179381_g13718125543874_cont_sun_m_270_6_alg».proof.Proof.Gen.ReferenceIdeal
import Idealize.ShloMosaic.Lib.StableHlo.Run
import Idealize.ShloMosaic.Lib.Pipeline.Frame

set_option maxRecDepth 16384

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-! Each operation's function under a name: the operation lists and the stage definitions cite the same constant. -/
def cv_main_c : (⟨S_, .i32⟩ : BufTy).Contents (Elt F) := (constantI S_ 32 0#32)
def fn_main_v0 : (⟨S_, .i32⟩ : BufTy).Contents (Elt F) → (⟨S1024x1024, .i32⟩ : BufTy).Contents (Elt F) := (broadcastInDim S1024x1024 ![] bcast_S_S1024x1024 : (⟨S_, .i32⟩ : BufTy).Contents (Elt F) → (⟨S1024x1024, .i32⟩ : BufTy).Contents (Elt F))
def fn_main_v1 : (⟨S1024x1024, .i32⟩ : BufTy).Contents (Elt F) → (⟨S1024x1024, .i32⟩ : BufTy).Contents (Elt F) → (⟨S1024x1024, .i1⟩ : BufTy).Contents (Elt F) := (cmpi .ne : (⟨S1024x1024, .i32⟩ : BufTy).Contents (Elt F) → (⟨S1024x1024, .i32⟩ : BufTy).Contents (Elt F) → (⟨S1024x1024, .i1⟩ : BufTy).Contents (Elt F))
def fn_main_call0_v1 : (⟨S1048576, .i1⟩ : BufTy).Contents (Elt F) → (⟨S1048576, .i32⟩ : BufTy).Contents (Elt F) := (extui 32 · natLt_1_32)
def cv_main_call0_call0_c : (⟨S_, .i32⟩ : BufTy).Contents (Elt F) := (constantI S_ 32 0#32)
def fn_main_call0_call0_v0 : (⟨S_, .i32⟩ : BufTy).Contents (Elt F) → (⟨S_, .i32⟩ : BufTy).Contents (Elt F) := (broadcastInDim S_ ![] bcast_S_S_)
def fn_main_v2 : (⟨S1048576, .i32⟩ : BufTy).Contents (Elt F) → (⟨S_, .i32⟩ : BufTy).Contents (Elt F) → (⟨S1048576, .i32⟩ : BufTy).Contents (Elt F) := (fun x v => Host.reduceWindow IntOp.addi ![1048576] ![1] ![1048575] ![0] x v reduceWindows_S1048576_S1048576_w1048576s1p1048575_0 h_S_)
def cv_main_c_0 : (⟨S_, .i32⟩ : BufTy).Contents (Elt F) := (constantI S_ 32 0#32)
def fn_main_v3 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def cv_main_c_1 : (⟨S_, .i32⟩ : BufTy).Contents (Elt F) := (constantI S_ 32 0#32)
def fn_main_call1_v0 : (⟨S_, .i32⟩ : BufTy).Contents (Elt F) → (⟨S_, .i32⟩ : BufTy).Contents (Elt F) := id
def fn_main_call1_v1 : (⟨S_, .i32⟩ : BufTy).Contents (Elt F) → (⟨S1048576, .i32⟩ : BufTy).Contents (Elt F) := (broadcastInDim S1048576 ![] bcast_S_S1048576)
def fn_main_v4 : (⟨S1048576, .i32⟩ : BufTy).Contents (Elt F) → (⟨S1048576, .i32⟩ : BufTy).Contents (Elt F) → (⟨S1048576, .i32⟩ : BufTy).Contents (Elt F) := maxsi
def cv_main_c_2 : (⟨S_, .i32⟩ : BufTy).Contents (Elt F) := (constantI S_ 32 0#32)
def fn_main_v5 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v6 : (⟨S1048576, .i32⟩ : BufTy).Contents (Elt F) → (⟨S1048576, .i32⟩ : BufTy).Contents (Elt F) → (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F))
def cv_main_c_3 : (⟨S_, .i32⟩ : BufTy).Contents (Elt F) := (constantI S_ 32 1048576#32)
def fn_main_v7 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v8 : (⟨S1048576, .i32⟩ : BufTy).Contents (Elt F) → (⟨S1048576, .i32⟩ : BufTy).Contents (Elt F) → (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F))
def fn_main_v9 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
def fn_main_v10 : (⟨S1048576, .i32⟩ : BufTy).Contents (Elt F) → (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F))
def cv_main_c_4 : (⟨S_, .i32⟩ : BufTy).Contents (Elt F) := (constantI S_ 32 1#32)
def fn_main_v11 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v12 : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F) := ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F))
def cv_main_call2_call0_c : (⟨S_, .i32⟩ : BufTy).Contents (Elt F) := (constantI S_ 32 0#32)
def fn_main_call2_call0_v0 : (⟨S_, .i32⟩ : BufTy).Contents (Elt F) → (⟨S_, .i32⟩ : BufTy).Contents (Elt F) := (broadcastInDim S_ ![] bcast_S_S_)
def fn_main_v13 : (⟨S1048576, .i32⟩ : BufTy).Contents (Elt F) → (⟨S_, .i32⟩ : BufTy).Contents (Elt F) → (⟨S1048576, .i32⟩ : BufTy).Contents (Elt F) := (fun x v => Host.reduceWindow IntOp.addi ![1048576] ![1] ![1048575] ![0] x v reduceWindows_S1048576_S1048576_w1048576s1p1048575_0 h_S_)
def cv_main_c_5 : (⟨S_, .i32⟩ : BufTy).Contents (Elt F) := (constantI S_ 32 1024#32)
def fn_main_call3_v0 : (⟨S_, .i32⟩ : BufTy).Contents (Elt F) → (⟨S1048576, .i32⟩ : BufTy).Contents (Elt F) := (broadcastInDim S1048576 ![] bcast_S_S1048576)
def fn_main_call3_v1 : (⟨S1048576, .i32⟩ : BufTy).Contents (Elt F) → (⟨S1048576, .i32⟩ : BufTy).Contents (Elt F) → (⟨S1048576, .i32⟩ : BufTy).Contents (Elt F) := Host.divsi
def fn_main_call3_v2 : (⟨S1048576, .i32⟩ : BufTy).Contents (Elt F) → (⟨S1048576, .i32⟩ : BufTy).Contents (Elt F) := signi
def fn_main_call3_v3 : (⟨S_, .i32⟩ : BufTy).Contents (Elt F) → (⟨S_, .i32⟩ : BufTy).Contents (Elt F) := signi
def fn_main_call3_v4 : (⟨S_, .i32⟩ : BufTy).Contents (Elt F) → (⟨S1048576, .i32⟩ : BufTy).Contents (Elt F) := (broadcastInDim S1048576 ![] bcast_S_S1048576)
def fn_main_call3_v5 : (⟨S1048576, .i32⟩ : BufTy).Contents (Elt F) → (⟨S1048576, .i32⟩ : BufTy).Contents (Elt F) → (⟨S1048576, .i1⟩ : BufTy).Contents (Elt F) := (cmpi .ne)
def fn_main_call3_v6 : (⟨S_, .i32⟩ : BufTy).Contents (Elt F) → (⟨S1048576, .i32⟩ : BufTy).Contents (Elt F) := (broadcastInDim S1048576 ![] bcast_S_S1048576)
def fn_main_call3_v7 : (⟨S1048576, .i32⟩ : BufTy).Contents (Elt F) → (⟨S1048576, .i32⟩ : BufTy).Contents (Elt F) → (⟨S1048576, .i32⟩ : BufTy).Contents (Elt F) := Host.remsi
def cv_main_call3_c : (⟨S_, .i32⟩ : BufTy).Contents (Elt F) := (constantI S_ 32 0#32)
def fn_main_call3_v8 : (⟨S_, .i32⟩ : BufTy).Contents (Elt F) → (⟨S1048576, .i32⟩ : BufTy).Contents (Elt F) := (broadcastInDim S1048576 ![] bcast_S_S1048576)
def fn_main_call3_v9 : (⟨S1048576, .i32⟩ : BufTy).Contents (Elt F) → (⟨S1048576, .i32⟩ : BufTy).Contents (Elt F) → (⟨S1048576, .i1⟩ : BufTy).Contents (Elt F) := (cmpi .ne)
def fn_main_call3_v10 : (⟨S1048576, .i1⟩ : BufTy).Contents (Elt F) → (⟨S1048576, .i1⟩ : BufTy).Contents (Elt F) → (⟨S1048576, .i1⟩ : BufTy).Contents (Elt F) := andi
def cv_main_call3_c_0 : (⟨S_, .i32⟩ : BufTy).Contents (Elt F) := (constantI S_ 32 1#32)
def fn_main_call3_v11 : (⟨S_, .i32⟩ : BufTy).Contents (Elt F) → (⟨S1048576, .i32⟩ : BufTy).Contents (Elt F) := (broadcastInDim S1048576 ![] bcast_S_S1048576)
def fn_main_call3_v12 : (⟨S1048576, .i32⟩ : BufTy).Contents (Elt F) → (⟨S1048576, .i32⟩ : BufTy).Contents (Elt F) → (⟨S1048576, .i32⟩ : BufTy).Contents (Elt F) := subi
def fn_main_v14 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := select
def cv_main_c_6 : (⟨S_, .i32⟩ : BufTy).Contents (Elt F) := (constantI S_ 32 1024#32)
def fn_main_call4_v0 : (⟨S_, .i32⟩ : BufTy).Contents (Elt F) → (⟨S_, .i32⟩ : BufTy).Contents (Elt F) := id
def cv_main_call4_c : (⟨S_, .i32⟩ : BufTy).Contents (Elt F) := (constantI S_ 32 0#32)
def fn_main_call4_v1 : (⟨S_, .i32⟩ : BufTy).Contents (Elt F) → (⟨S_, .i32⟩ : BufTy).Contents (Elt F) → (⟨S_, .i1⟩ : BufTy).Contents (Elt F) := (cmpi .eq)
def cv_main_call4_c_0 : (⟨S_, .i32⟩ : BufTy).Contents (Elt F) := (constantI S_ 32 1#32)
def fn_main_call4_v2 : (⟨S_, .i1⟩ : BufTy).Contents (Elt F) → (⟨S_, .i32⟩ : BufTy).Contents (Elt F) → (⟨S_, .i32⟩ : BufTy).Contents (Elt F) → (⟨S_, .i32⟩ : BufTy).Contents (Elt F) := select
def fn_main_call4_v3 : (⟨S_, .i32⟩ : BufTy).Contents (Elt F) → (⟨S1048576, .i32⟩ : BufTy).Contents (Elt F) := (broadcastInDim S1048576 ![] bcast_S_S1048576)
def fn_main_call4_v4 : (⟨S1048576, .i32⟩ : BufTy).Contents (Elt F) → (⟨S1048576, .i32⟩ : BufTy).Contents (Elt F) → (⟨S1048576, .i32⟩ : BufTy).Contents (Elt F) := Host.remsi
def cv_main_call4_c_1 : (⟨S_, .i32⟩ : BufTy).Contents (Elt F) := (constantI S_ 32 0#32)
def fn_main_call4_v5 : (⟨S_, .i32⟩ : BufTy).Contents (Elt F) → (⟨S1048576, .i32⟩ : BufTy).Contents (Elt F) := (broadcastInDim S1048576 ![] bcast_S_S1048576)
def fn_main_call4_v6 : (⟨S1048576, .i32⟩ : BufTy).Contents (Elt F) → (⟨S1048576, .i32⟩ : BufTy).Contents (Elt F) → (⟨S1048576, .i1⟩ : BufTy).Contents (Elt F) := (cmpi .ne)
def cv_main_call4_c_2 : (⟨S_, .i32⟩ : BufTy).Contents (Elt F) := (constantI S_ 32 0#32)
def fn_main_call4_v7 : (⟨S_, .i32⟩ : BufTy).Contents (Elt F) → (⟨S1048576, .i32⟩ : BufTy).Contents (Elt F) := (broadcastInDim S1048576 ![] bcast_S_S1048576)
def fn_main_call4_v8 : (⟨S1048576, .i32⟩ : BufTy).Contents (Elt F) → (⟨S1048576, .i32⟩ : BufTy).Contents (Elt F) → (⟨S1048576, .i1⟩ : BufTy).Contents (Elt F) := (cmpi .slt)
def cv_main_call4_c_3 : (⟨S_, .i32⟩ : BufTy).Contents (Elt F) := (constantI S_ 32 0#32)
def fn_main_call4_v9 : (⟨S_, .i32⟩ : BufTy).Contents (Elt F) → (⟨S_, .i32⟩ : BufTy).Contents (Elt F) → (⟨S_, .i1⟩ : BufTy).Contents (Elt F) := (cmpi .slt)
def fn_main_call4_v10 : (⟨S_, .i1⟩ : BufTy).Contents (Elt F) → (⟨S1048576, .i1⟩ : BufTy).Contents (Elt F) := (broadcastInDim S1048576 ![] bcast_S_S1048576)
def fn_main_call4_v11 : (⟨S1048576, .i1⟩ : BufTy).Contents (Elt F) → (⟨S1048576, .i1⟩ : BufTy).Contents (Elt F) → (⟨S1048576, .i1⟩ : BufTy).Contents (Elt F) := (cmpi .ne)
def fn_main_call4_v12 : (⟨S1048576, .i1⟩ : BufTy).Contents (Elt F) → (⟨S1048576, .i1⟩ : BufTy).Contents (Elt F) → (⟨S1048576, .i1⟩ : BufTy).Contents (Elt F) := andi
def fn_main_call4_v13 : (⟨S_, .i32⟩ : BufTy).Contents (Elt F) → (⟨S1048576, .i32⟩ : BufTy).Contents (Elt F) := (broadcastInDim S1048576 ![] bcast_S_S1048576)
def fn_main_call4_v14 : (⟨S1048576, .i32⟩ : BufTy).Contents (Elt F) → (⟨S1048576, .i32⟩ : BufTy).Contents (Elt F) → (⟨S1048576, .i32⟩ : BufTy).Contents (Elt F) := addi
def fn_main_v15 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := select
def cv_main_c_7 : (⟨S_, .i32⟩ : BufTy).Contents (Elt F) := (constantI S_ 32 1#32)
def fn_main_call5_v0 : (⟨S_, .i32⟩ : BufTy).Contents (Elt F) → (⟨S1048576, .i32⟩ : BufTy).Contents (Elt F) := (broadcastInDim S1048576 ![] bcast_S_S1048576)
def fn_main_call5_v1 : (⟨S1048576, .i32⟩ : BufTy).Contents (Elt F) → (⟨S1048576, .i32⟩ : BufTy).Contents (Elt F) → (⟨S1048576, .i32⟩ : BufTy).Contents (Elt F) := Host.divsi
def fn_main_call5_v2 : (⟨S1048576, .i32⟩ : BufTy).Contents (Elt F) → (⟨S1048576, .i32⟩ : BufTy).Contents (Elt F) := signi
def fn_main_call5_v3 : (⟨S_, .i32⟩ : BufTy).Contents (Elt F) → (⟨S_, .i32⟩ : BufTy).Contents (Elt F) := signi
def fn_main_call5_v4 : (⟨S_, .i32⟩ : BufTy).Contents (Elt F) → (⟨S1048576, .i32⟩ : BufTy).Contents (Elt F) := (broadcastInDim S1048576 ![] bcast_S_S1048576)
def fn_main_call5_v5 : (⟨S1048576, .i32⟩ : BufTy).Contents (Elt F) → (⟨S1048576, .i32⟩ : BufTy).Contents (Elt F) → (⟨S1048576, .i1⟩ : BufTy).Contents (Elt F) := (cmpi .ne)
def fn_main_call5_v6 : (⟨S_, .i32⟩ : BufTy).Contents (Elt F) → (⟨S1048576, .i32⟩ : BufTy).Contents (Elt F) := (broadcastInDim S1048576 ![] bcast_S_S1048576)
def fn_main_call5_v7 : (⟨S1048576, .i32⟩ : BufTy).Contents (Elt F) → (⟨S1048576, .i32⟩ : BufTy).Contents (Elt F) → (⟨S1048576, .i32⟩ : BufTy).Contents (Elt F) := Host.remsi
def cv_main_call5_c : (⟨S_, .i32⟩ : BufTy).Contents (Elt F) := (constantI S_ 32 0#32)
def fn_main_call5_v8 : (⟨S_, .i32⟩ : BufTy).Contents (Elt F) → (⟨S1048576, .i32⟩ : BufTy).Contents (Elt F) := (broadcastInDim S1048576 ![] bcast_S_S1048576)
def fn_main_call5_v9 : (⟨S1048576, .i32⟩ : BufTy).Contents (Elt F) → (⟨S1048576, .i32⟩ : BufTy).Contents (Elt F) → (⟨S1048576, .i1⟩ : BufTy).Contents (Elt F) := (cmpi .ne)
def fn_main_call5_v10 : (⟨S1048576, .i1⟩ : BufTy).Contents (Elt F) → (⟨S1048576, .i1⟩ : BufTy).Contents (Elt F) → (⟨S1048576, .i1⟩ : BufTy).Contents (Elt F) := andi
def cv_main_call5_c_0 : (⟨S_, .i32⟩ : BufTy).Contents (Elt F) := (constantI S_ 32 1#32)
def fn_main_call5_v11 : (⟨S_, .i32⟩ : BufTy).Contents (Elt F) → (⟨S1048576, .i32⟩ : BufTy).Contents (Elt F) := (broadcastInDim S1048576 ![] bcast_S_S1048576)
def fn_main_call5_v12 : (⟨S1048576, .i32⟩ : BufTy).Contents (Elt F) → (⟨S1048576, .i32⟩ : BufTy).Contents (Elt F) → (⟨S1048576, .i32⟩ : BufTy).Contents (Elt F) := subi
def fn_main_v16 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := select
def cv_main_c_8 : (⟨S_, .i32⟩ : BufTy).Contents (Elt F) := (constantI S_ 32 1024#32)
def fn_main_call6_v0 : (⟨S_, .i32⟩ : BufTy).Contents (Elt F) → (⟨S_, .i32⟩ : BufTy).Contents (Elt F) := id
def cv_main_call6_c : (⟨S_, .i32⟩ : BufTy).Contents (Elt F) := (constantI S_ 32 0#32)
def fn_main_call6_v1 : (⟨S_, .i32⟩ : BufTy).Contents (Elt F) → (⟨S_, .i32⟩ : BufTy).Contents (Elt F) → (⟨S_, .i1⟩ : BufTy).Contents (Elt F) := (cmpi .eq)
def cv_main_call6_c_0 : (⟨S_, .i32⟩ : BufTy).Contents (Elt F) := (constantI S_ 32 1#32)
def fn_main_call6_v2 : (⟨S_, .i1⟩ : BufTy).Contents (Elt F) → (⟨S_, .i32⟩ : BufTy).Contents (Elt F) → (⟨S_, .i32⟩ : BufTy).Contents (Elt F) → (⟨S_, .i32⟩ : BufTy).Contents (Elt F) := select
def fn_main_call6_v3 : (⟨S_, .i32⟩ : BufTy).Contents (Elt F) → (⟨S1048576, .i32⟩ : BufTy).Contents (Elt F) := (broadcastInDim S1048576 ![] bcast_S_S1048576)
def fn_main_call6_v4 : (⟨S1048576, .i32⟩ : BufTy).Contents (Elt F) → (⟨S1048576, .i32⟩ : BufTy).Contents (Elt F) → (⟨S1048576, .i32⟩ : BufTy).Contents (Elt F) := Host.remsi
def cv_main_call6_c_1 : (⟨S_, .i32⟩ : BufTy).Contents (Elt F) := (constantI S_ 32 0#32)
def fn_main_call6_v5 : (⟨S_, .i32⟩ : BufTy).Contents (Elt F) → (⟨S1048576, .i32⟩ : BufTy).Contents (Elt F) := (broadcastInDim S1048576 ![] bcast_S_S1048576)
def fn_main_call6_v6 : (⟨S1048576, .i32⟩ : BufTy).Contents (Elt F) → (⟨S1048576, .i32⟩ : BufTy).Contents (Elt F) → (⟨S1048576, .i1⟩ : BufTy).Contents (Elt F) := (cmpi .ne)
def cv_main_call6_c_2 : (⟨S_, .i32⟩ : BufTy).Contents (Elt F) := (constantI S_ 32 0#32)
def fn_main_call6_v7 : (⟨S_, .i32⟩ : BufTy).Contents (Elt F) → (⟨S1048576, .i32⟩ : BufTy).Contents (Elt F) := (broadcastInDim S1048576 ![] bcast_S_S1048576)
def fn_main_call6_v8 : (⟨S1048576, .i32⟩ : BufTy).Contents (Elt F) → (⟨S1048576, .i32⟩ : BufTy).Contents (Elt F) → (⟨S1048576, .i1⟩ : BufTy).Contents (Elt F) := (cmpi .slt)
def cv_main_call6_c_3 : (⟨S_, .i32⟩ : BufTy).Contents (Elt F) := (constantI S_ 32 0#32)
def fn_main_call6_v9 : (⟨S_, .i32⟩ : BufTy).Contents (Elt F) → (⟨S_, .i32⟩ : BufTy).Contents (Elt F) → (⟨S_, .i1⟩ : BufTy).Contents (Elt F) := (cmpi .slt)
def fn_main_call6_v10 : (⟨S_, .i1⟩ : BufTy).Contents (Elt F) → (⟨S1048576, .i1⟩ : BufTy).Contents (Elt F) := (broadcastInDim S1048576 ![] bcast_S_S1048576)
def fn_main_call6_v11 : (⟨S1048576, .i1⟩ : BufTy).Contents (Elt F) → (⟨S1048576, .i1⟩ : BufTy).Contents (Elt F) → (⟨S1048576, .i1⟩ : BufTy).Contents (Elt F) := (cmpi .ne)
def fn_main_call6_v12 : (⟨S1048576, .i1⟩ : BufTy).Contents (Elt F) → (⟨S1048576, .i1⟩ : BufTy).Contents (Elt F) → (⟨S1048576, .i1⟩ : BufTy).Contents (Elt F) := andi
def fn_main_call6_v13 : (⟨S_, .i32⟩ : BufTy).Contents (Elt F) → (⟨S1048576, .i32⟩ : BufTy).Contents (Elt F) := (broadcastInDim S1048576 ![] bcast_S_S1048576)
def fn_main_call6_v14 : (⟨S1048576, .i32⟩ : BufTy).Contents (Elt F) → (⟨S1048576, .i32⟩ : BufTy).Contents (Elt F) → (⟨S1048576, .i32⟩ : BufTy).Contents (Elt F) := addi
def fn_main_v17 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := select
def cv_main_v18 : (⟨S1048576, .i32⟩ : BufTy).Contents (Elt F) := (iotaInDim S1048576 32 0)
def fn_main_v19 : (⟨S1024x1024, .i1⟩ : BufTy).Contents (Elt F) → (⟨S1024x1024, .i32⟩ : BufTy).Contents (Elt F) := ((extui 32 · natLt_1_32) : (⟨S1024x1024, .i1⟩ : BufTy).Contents (Elt F) → (⟨S1024x1024, .i32⟩ : BufTy).Contents (Elt F))
def cv_main_c_9 : (⟨S_, .i32⟩ : BufTy).Contents (Elt F) := (constantI S_ 32 0#32)
def fn_main_v20 : (⟨S1024x1024, .i32⟩ : BufTy).Contents (Elt F) → (⟨S_, .i32⟩ : BufTy).Contents (Elt F) → (⟨S_, .i32⟩ : BufTy).Contents (Elt F) := ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F))
def fn_main_v21 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v22 : (⟨S1048576, .i32⟩ : BufTy).Contents (Elt F) → (⟨S1048576, .i32⟩ : BufTy).Contents (Elt F) → (⟨S1048576, .i1⟩ : BufTy).Contents (Elt F) := (cmpi .sge : (⟨S1048576, .i32⟩ : BufTy).Contents (Elt F) → (⟨S1048576, .i32⟩ : BufTy).Contents (Elt F) → (⟨S1048576, .i1⟩ : BufTy).Contents (Elt F))
def cv_main_c_10 : (⟨S_, .i32⟩ : BufTy).Contents (Elt F) := (constantI S_ 32 1024#32)
def fn_main_call7_v0 : (⟨S_, .i32⟩ : BufTy).Contents (Elt F) → (⟨S_, .i32⟩ : BufTy).Contents (Elt F) := id
def fn_main_call7_v1 : (⟨S_, .i32⟩ : BufTy).Contents (Elt F) → (⟨S1048576, .i32⟩ : BufTy).Contents (Elt F) := (broadcastInDim S1048576 ![] bcast_S_S1048576)
def fn_main_v23 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := select
def cv_main_c_11 : (⟨S_, .i32⟩ : BufTy).Contents (Elt F) := (constantI S_ 32 1024#32)
def fn_main_call8_v0 : (⟨S_, .i32⟩ : BufTy).Contents (Elt F) → (⟨S_, .i32⟩ : BufTy).Contents (Elt F) := id
def fn_main_call8_v1 : (⟨S_, .i32⟩ : BufTy).Contents (Elt F) → (⟨S1048576, .i32⟩ : BufTy).Contents (Elt F) := (broadcastInDim S1048576 ![] bcast_S_S1048576)
def fn_main_v24 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := select
def fn_main_v25 : (⟨S1048576, .i32⟩ : BufTy).Contents (Elt F) → (⟨S1x1048576, .i32⟩ : BufTy).Contents (Elt F) := (broadcastInDim S1x1048576 ![1] bcast_S1048576_S1x1048576_1 : (⟨S1048576, .i32⟩ : BufTy).Contents (Elt F) → (⟨S1x1048576, .i32⟩ : BufTy).Contents (Elt F))
def fn_main_v26 : (⟨S1048576, .i32⟩ : BufTy).Contents (Elt F) → (⟨S1x1048576, .i32⟩ : BufTy).Contents (Elt F) := (broadcastInDim S1x1048576 ![1] bcast_S1048576_S1x1048576_1 : (⟨S1048576, .i32⟩ : BufTy).Contents (Elt F) → (⟨S1x1048576, .i32⟩ : BufTy).Contents (Elt F))
def fn_main_v27 : (⟨S1x1048576, .i32⟩ : BufTy).Contents (Elt F) → (⟨S1x1048576, .i32⟩ : BufTy).Contents (Elt F) → (⟨S2x1048576, .i32⟩ : BufTy).Contents (Elt F) := ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F))
def fn_main_v28 : (⟨S1024x128, .f32⟩ : BufTy).Contents (Elt F) → (⟨S128x128, .f32⟩ : BufTy).Contents (Elt F) → (⟨S1024x128, .f32⟩ : BufTy).Contents (Elt F) := ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F))
def fn_main_v29 : (⟨S2x1048576, .i32⟩ : BufTy).Contents (Elt F) → (⟨S1x1048576, .i32⟩ : BufTy).Contents (Elt F) := ((extractStridedSlice S1x1048576 ![0, 0] · slices_S2x1048576_S1x1048576_0_0) : (⟨S2x1048576, .i32⟩ : BufTy).Contents (Elt F) → (⟨S1x1048576, .i32⟩ : BufTy).Contents (Elt F))
def cv_main_c_12 : (⟨S_, .i32⟩ : BufTy).Contents (Elt F) := (constantI S_ 32 0#32)
def fn_main_v31 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v32 : (⟨S1048576, .i32⟩ : BufTy).Contents (Elt F) → (⟨S1048576, .i32⟩ : BufTy).Contents (Elt F) → (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F))
def cv_main_c_13 : (⟨S_, .i32⟩ : BufTy).Contents (Elt F) := (constantI S_ 32 1024#32)
def fn_main_v33 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v34 : (⟨S1048576, .i32⟩ : BufTy).Contents (Elt F) → (⟨S1048576, .i32⟩ : BufTy).Contents (Elt F) → (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F))
def fn_main_v35 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
def fn_main_v36 : (⟨S1048576, .i32⟩ : BufTy).Contents (Elt F) → (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F))
def fn_main_v37 : (⟨S1024x128, .f32⟩ : BufTy).Contents (Elt F) → (⟨S1048576x1, .i32⟩ : BufTy).Contents (Elt F) → (⟨S1048576x128, .f32⟩ : BufTy).Contents (Elt F) := ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F))
def fn_main_v38 : (⟨S2x1048576, .i32⟩ : BufTy).Contents (Elt F) → (⟨S1x1048576, .i32⟩ : BufTy).Contents (Elt F) := ((extractStridedSlice S1x1048576 ![1, 0] · slices_S2x1048576_S1x1048576_1_0) : (⟨S2x1048576, .i32⟩ : BufTy).Contents (Elt F) → (⟨S1x1048576, .i32⟩ : BufTy).Contents (Elt F))
def cv_main_c_14 : (⟨S_, .i32⟩ : BufTy).Contents (Elt F) := (constantI S_ 32 0#32)
def fn_main_v40 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v41 : (⟨S1048576, .i32⟩ : BufTy).Contents (Elt F) → (⟨S1048576, .i32⟩ : BufTy).Contents (Elt F) → (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F))
def cv_main_c_15 : (⟨S_, .i32⟩ : BufTy).Contents (Elt F) := (constantI S_ 32 1024#32)
def fn_main_v42 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v43 : (⟨S1048576, .i32⟩ : BufTy).Contents (Elt F) → (⟨S1048576, .i32⟩ : BufTy).Contents (Elt F) → (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F))
def fn_main_v44 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
def fn_main_v45 : (⟨S1048576, .i32⟩ : BufTy).Contents (Elt F) → (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F))
def fn_main_v46 : (⟨S1024x128, .f32⟩ : BufTy).Contents (Elt F) → (⟨S1048576x1, .i32⟩ : BufTy).Contents (Elt F) → (⟨S1048576x128, .f32⟩ : BufTy).Contents (Elt F) := ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F))
def fn_main_v47 : (⟨S1048576x128, .f32⟩ : BufTy).Contents (Elt F) → (⟨S1048576x128, .f32⟩ : BufTy).Contents (Elt F) → (⟨S1048576x256, .f32⟩ : BufTy).Contents (Elt F) := ((fun a b => concatenate S1048576x256 1 [⟨S1048576x128, a⟩, ⟨S1048576x128, b⟩] concatenates_S1048576x128_S1048576x128_S1048576x256_d1) : (⟨S1048576x128, .f32⟩ : BufTy).Contents (Elt F) → (⟨S1048576x128, .f32⟩ : BufTy).Contents (Elt F) → (⟨S1048576x256, .f32⟩ : BufTy).Contents (Elt F))
def fn_main_v48 : (⟨S1048576x256, .f32⟩ : BufTy).Contents (Elt F) → (⟨S256x1048576, .f32⟩ : BufTy).Contents (Elt F) := ((transpose S256x1048576 [1, 0] · transposes_S1048576x256_S256x1048576_1_0) : (⟨S1048576x256, .f32⟩ : BufTy).Contents (Elt F) → (⟨S256x1048576, .f32⟩ : BufTy).Contents (Elt F))
def fn_main_v49 : (⟨S256x1, .f32⟩ : BufTy).Contents (Elt F) → (⟨S1x256, .f32⟩ : BufTy).Contents (Elt F) := ((transpose S1x256 [1, 0] · transposes_S256x1_S1x256_1_0) : (⟨S256x1, .f32⟩ : BufTy).Contents (Elt F) → (⟨S1x256, .f32⟩ : BufTy).Contents (Elt F))
def fn_main_v50 : (⟨S1x256, .f32⟩ : BufTy).Contents (Elt F) → (⟨S256x1048576, .f32⟩ : BufTy).Contents (Elt F) → (⟨S1x1048576, .f32⟩ : BufTy).Contents (Elt F) := ((fun l r => Host.dotGeneral dot_S1x256_S256x1048576_S1x1048576_1_0_0_1_n_n none l r) : (⟨S1x256, .f32⟩ : BufTy).Contents (Elt F) → (⟨S256x1048576, .f32⟩ : BufTy).Contents (Elt F) → (⟨S1x1048576, .f32⟩ : BufTy).Contents (Elt F))
def cv_main_cst : (⟨S_, .f32⟩ : BufTy).Contents (Elt F) := (constant S_ .f32 0x3E4CCCCD#32)
def cv_main_call9_cst : (⟨S_, .f32⟩ : BufTy).Contents (Elt F) := (constant S_ .f32 0x00000000#32)
def fn_main_call9_v0 : (⟨S_, .f32⟩ : BufTy).Contents (Elt F) → (⟨S1048576, .f32⟩ : BufTy).Contents (Elt F) := (broadcastInDim S1048576 ![] bcast_S_S1048576)
def fn_main_call9_v1 : (⟨S1048576, .f32⟩ : BufTy).Contents (Elt F) → (⟨S1048576, .f32⟩ : BufTy).Contents (Elt F) → (⟨S1048576, .i1⟩ : BufTy).Contents (Elt F) := (cmpf .oge)
def fn_main_call9_v2 : (⟨S_, .f32⟩ : BufTy).Contents (Elt F) → (⟨S_, .f32⟩ : BufTy).Contents (Elt F) := id
def fn_main_call9_v3 : (⟨S_, .f32⟩ : BufTy).Contents (Elt F) → (⟨S1048576, .f32⟩ : BufTy).Contents (Elt F) := (broadcastInDim S1048576 ![] bcast_S_S1048576)
def fn_main_call9_v4 : (⟨S1048576, .f32⟩ : BufTy).Contents (Elt F) → (⟨S1048576, .f32⟩ : BufTy).Contents (Elt F) → (⟨S1048576, .f32⟩ : BufTy).Contents (Elt F) := mulf
def fn_main_v52 : (⟨S1048576, .i1⟩ : BufTy).Contents (Elt F) → (⟨S1048576, .f32⟩ : BufTy).Contents (Elt F) → (⟨S1048576, .f32⟩ : BufTy).Contents (Elt F) → (⟨S1048576, .f32⟩ : BufTy).Contents (Elt F) := select
def fn_main_v53 : (⟨S1048576, .f32⟩ : BufTy).Contents (Elt F) → (⟨S1048576, .f32⟩ : BufTy).Contents (Elt F) := (Host.negf : (⟨S1048576, .f32⟩ : BufTy).Contents (Elt F) → (⟨S1048576, .f32⟩ : BufTy).Contents (Elt F))
def fn_main_v54 : (⟨S1048576, .f32⟩ : BufTy).Contents (Elt F) → (⟨S1048576, .f32⟩ : BufTy).Contents (Elt F) := (Host.exp : (⟨S1048576, .f32⟩ : BufTy).Contents (Elt F) → (⟨S1048576, .f32⟩ : BufTy).Contents (Elt F))
def cv_main_cst_16 : (⟨S_, .f32⟩ : BufTy).Contents (Elt F) := (constant S_ .f32 0x00000000#32)
def fn_main_v55 : (⟨S_, .f32⟩ : BufTy).Contents (Elt F) → (⟨S1024x1, .f32⟩ : BufTy).Contents (Elt F) := (broadcastInDim S1024x1 ![] bcast_S_S1024x1 : (⟨S_, .f32⟩ : BufTy).Contents (Elt F) → (⟨S1024x1, .f32⟩ : BufTy).Contents (Elt F))
def fn_main_v56 : (⟨S2x1048576, .i32⟩ : BufTy).Contents (Elt F) → (⟨S1x1048576, .i32⟩ : BufTy).Contents (Elt F) := ((extractStridedSlice S1x1048576 ![0, 0] · slices_S2x1048576_S1x1048576_0_0) : (⟨S2x1048576, .i32⟩ : BufTy).Contents (Elt F) → (⟨S1x1048576, .i32⟩ : BufTy).Contents (Elt F))
def fn_main_v58 : (⟨S1048576, .f32⟩ : BufTy).Contents (Elt F) → (⟨S1048576x1, .f32⟩ : BufTy).Contents (Elt F) := (broadcastInDim S1048576x1 ![0] bcast_S1048576_S1048576x1_0 : (⟨S1048576, .f32⟩ : BufTy).Contents (Elt F) → (⟨S1048576x1, .f32⟩ : BufTy).Contents (Elt F))
def cv_main_c_17 : (⟨S_, .i32⟩ : BufTy).Contents (Elt F) := (constantI S_ 32 0#32)
def fn_main_v59 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v60 : (⟨S1048576, .i32⟩ : BufTy).Contents (Elt F) → (⟨S1048576, .i32⟩ : BufTy).Contents (Elt F) → (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F))
def cv_main_c_18 : (⟨S_, .i32⟩ : BufTy).Contents (Elt F) := (constantI S_ 32 1024#32)
def fn_main_v61 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v62 : (⟨S1048576, .i32⟩ : BufTy).Contents (Elt F) → (⟨S1048576, .i32⟩ : BufTy).Contents (Elt F) → (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F))
def fn_main_v63 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
def fn_main_v64 : (⟨S1048576, .i32⟩ : BufTy).Contents (Elt F) → (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F))
def fn_main_v65 : (⟨S1024x1, .f32⟩ : BufTy).Contents (Elt F) → (⟨S1048576x1, .i32⟩ : BufTy).Contents (Elt F) → (⟨S1048576x1, .f32⟩ : BufTy).Contents (Elt F) → (⟨S1024x1, .f32⟩ : BufTy).Contents (Elt F) := ((fun x i u => Host.scatterAdd scatter_S1024x1_S1048576x1_S1048576x1_1_0_0_1 x i u) : (⟨S1024x1, .f32⟩ : BufTy).Contents (Elt F) → (⟨S1048576x1, .i32⟩ : BufTy).Contents (Elt F) → (⟨S1048576x1, .f32⟩ : BufTy).Contents (Elt F) → (⟨S1024x1, .f32⟩ : BufTy).Contents (Elt F))
def cv_main_cst_19 : (⟨S_, .f32⟩ : BufTy).Contents (Elt F) := (constant S_ .f32 0x00000000#32)
def fn_main_v66 : (⟨S_, .f32⟩ : BufTy).Contents (Elt F) → (⟨S1024x128, .f32⟩ : BufTy).Contents (Elt F) := (broadcastInDim S1024x128 ![] bcast_S_S1024x128 : (⟨S_, .f32⟩ : BufTy).Contents (Elt F) → (⟨S1024x128, .f32⟩ : BufTy).Contents (Elt F))
def fn_main_v67 : (⟨S2x1048576, .i32⟩ : BufTy).Contents (Elt F) → (⟨S1x1048576, .i32⟩ : BufTy).Contents (Elt F) := ((extractStridedSlice S1x1048576 ![0, 0] · slices_S2x1048576_S1x1048576_0_0) : (⟨S2x1048576, .i32⟩ : BufTy).Contents (Elt F) → (⟨S1x1048576, .i32⟩ : BufTy).Contents (Elt F))
def fn_main_v69 : (⟨S1048576, .f32⟩ : BufTy).Contents (Elt F) → (⟨S1048576x1, .f32⟩ : BufTy).Contents (Elt F) := (broadcastInDim S1048576x1 ![0] bcast_S1048576_S1048576x1_0 : (⟨S1048576, .f32⟩ : BufTy).Contents (Elt F) → (⟨S1048576x1, .f32⟩ : BufTy).Contents (Elt F))
def fn_main_v70 : (⟨S2x1048576, .i32⟩ : BufTy).Contents (Elt F) → (⟨S1x1048576, .i32⟩ : BufTy).Contents (Elt F) := ((extractStridedSlice S1x1048576 ![1, 0] · slices_S2x1048576_S1x1048576_1_0) : (⟨S2x1048576, .i32⟩ : BufTy).Contents (Elt F) → (⟨S1x1048576, .i32⟩ : BufTy).Contents (Elt F))
def cv_main_c_20 : (⟨S_, .i32⟩ : BufTy).Contents (Elt F) := (constantI S_ 32 0#32)
def fn_main_v72 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v73 : (⟨S1048576, .i32⟩ : BufTy).Contents (Elt F) → (⟨S1048576, .i32⟩ : BufTy).Contents (Elt F) → (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F))
def cv_main_c_21 : (⟨S_, .i32⟩ : BufTy).Contents (Elt F) := (constantI S_ 32 1024#32)
def fn_main_v74 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v75 : (⟨S1048576, .i32⟩ : BufTy).Contents (Elt F) → (⟨S1048576, .i32⟩ : BufTy).Contents (Elt F) → (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F))
def fn_main_v76 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
def fn_main_v77 : (⟨S1048576, .i32⟩ : BufTy).Contents (Elt F) → (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F))
def fn_main_v78 : (⟨S1024x128, .f32⟩ : BufTy).Contents (Elt F) → (⟨S1048576x1, .i32⟩ : BufTy).Contents (Elt F) → (⟨S1048576x128, .f32⟩ : BufTy).Contents (Elt F) := ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F))
def fn_main_v79 : (⟨S1048576x1, .f32⟩ : BufTy).Contents (Elt F) → (⟨S1048576x128, .f32⟩ : BufTy).Contents (Elt F) := (broadcastInDim S1048576x128 ![0, 1] bcast_S1048576x1_S1048576x128_0_1 : (⟨S1048576x1, .f32⟩ : BufTy).Contents (Elt F) → (⟨S1048576x128, .f32⟩ : BufTy).Contents (Elt F))
def fn_main_v80 : (⟨S1048576x128, .f32⟩ : BufTy).Contents (Elt F) → (⟨S1048576x128, .f32⟩ : BufTy).Contents (Elt F) → (⟨S1048576x128, .f32⟩ : BufTy).Contents (Elt F) := (mulf : (⟨S1048576x128, .f32⟩ : BufTy).Contents (Elt F) → (⟨S1048576x128, .f32⟩ : BufTy).Contents (Elt F) → (⟨S1048576x128, .f32⟩ : BufTy).Contents (Elt F))
def cv_main_c_22 : (⟨S_, .i32⟩ : BufTy).Contents (Elt F) := (constantI S_ 32 0#32)
def fn_main_v81 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v82 : (⟨S1048576, .i32⟩ : BufTy).Contents (Elt F) → (⟨S1048576, .i32⟩ : BufTy).Contents (Elt F) → (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F))
def cv_main_c_23 : (⟨S_, .i32⟩ : BufTy).Contents (Elt F) := (constantI S_ 32 1024#32)
def fn_main_v83 : (⟨S_, .i32⟩ : BufTy).Contents (Elt F) → (⟨S1048576, .i32⟩ : BufTy).Contents (Elt F) := (broadcastInDim S1048576 ![] bcast_S_S1048576 : (⟨S_, .i32⟩ : BufTy).Contents (Elt F) → (⟨S1048576, .i32⟩ : BufTy).Contents (Elt F))
def fn_main_v84 : (⟨S1048576, .i32⟩ : BufTy).Contents (Elt F) → (⟨S1048576, .i32⟩ : BufTy).Contents (Elt F) → (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F))
def fn_main_v85 : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
def fn_main_v86 : (⟨S1048576, .i32⟩ : BufTy).Contents (Elt F) → (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F))
def fn_main_v87 : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F) := ((fun x i u => Host.scatterAdd scatter_S1024x128_S1048576x1_S1048576x128_1_0_0_1 x i u) : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F))
def cv_main_cst_24 : (⟨S_, .f32⟩ : BufTy).Contents (Elt F) := (constant S_ .f32 0x3089705F#32)
def fn_main_v88 : (⟨S_, .f32⟩ : BufTy).Contents (Elt F) → (⟨S1024x1, .f32⟩ : BufTy).Contents (Elt F) := (broadcastInDim S1024x1 ![] bcast_S_S1024x1 : (⟨S_, .f32⟩ : BufTy).Contents (Elt F) → (⟨S1024x1, .f32⟩ : BufTy).Contents (Elt F))
def fn_main_v89 : (⟨S1024x1, .f32⟩ : BufTy).Contents (Elt F) → (⟨S1024x1, .f32⟩ : BufTy).Contents (Elt F) → (⟨S1024x1, .f32⟩ : BufTy).Contents (Elt F) := (addf : (⟨S1024x1, .f32⟩ : BufTy).Contents (Elt F) → (⟨S1024x1, .f32⟩ : BufTy).Contents (Elt F) → (⟨S1024x1, .f32⟩ : BufTy).Contents (Elt F))
def fn_main_v90 : (⟨S1024x1, .f32⟩ : BufTy).Contents (Elt F) → (⟨S1024x128, .f32⟩ : BufTy).Contents (Elt F) := (broadcastInDim S1024x128 ![0, 1] bcast_S1024x1_S1024x128_0_1 : (⟨S1024x1, .f32⟩ : BufTy).Contents (Elt F) → (⟨S1024x128, .f32⟩ : BufTy).Contents (Elt F))
def fn_main_v91 : (⟨S1024x128, .f32⟩ : BufTy).Contents (Elt F) → (⟨S1024x128, .f32⟩ : BufTy).Contents (Elt F) → (⟨S1024x128, .f32⟩ : BufTy).Contents (Elt F) := (Host.divf : (⟨S1024x128, .f32⟩ : BufTy).Contents (Elt F) → (⟨S1024x128, .f32⟩ : BufTy).Contents (Elt F) → (⟨S1024x128, .f32⟩ : BufTy).Contents (Elt F))
def cv_main_call10_cst : (⟨S_, .f32⟩ : BufTy).Contents (Elt F) := (constant S_ .f32 0x00000000#32)
def fn_main_call10_v0 : (⟨S_, .f32⟩ : BufTy).Contents (Elt F) → (⟨S1024x128, .f32⟩ : BufTy).Contents (Elt F) := (broadcastInDim S1024x128 ![] bcast_S_S1024x128)
def fn_main_call10_v1 : (⟨S1024x128, .f32⟩ : BufTy).Contents (Elt F) → (⟨S1024x128, .f32⟩ : BufTy).Contents (Elt F) → (⟨S1024x128, .i1⟩ : BufTy).Contents (Elt F) := (cmpf .ogt)
def cv_main_call10_cst_0 : (⟨S_, .f32⟩ : BufTy).Contents (Elt F) := (constant S_ .f32 0x00000000#32)
def fn_main_call10_v2 : (⟨S_, .f32⟩ : BufTy).Contents (Elt F) → (⟨S1024x128, .f32⟩ : BufTy).Contents (Elt F) := (broadcastInDim S1024x128 ![] bcast_S_S1024x128)
def fn_main_call10_v3 : (⟨S1024x128, .f32⟩ : BufTy).Contents (Elt F) → (⟨S1024x128, .f32⟩ : BufTy).Contents (Elt F) → (⟨S1024x128, .i1⟩ : BufTy).Contents (Elt F) := (cmpf .ogt)
def cv_main_call10_cst_1 : (⟨S_, .f32⟩ : BufTy).Contents (Elt F) := (constant S_ .f32 0x00000000#32)
def fn_main_call10_call0_v0 : (⟨S_, .f32⟩ : BufTy).Contents (Elt F) → (⟨S_, .f32⟩ : BufTy).Contents (Elt F) := id
def fn_main_call10_call0_v1 : (⟨S_, .f32⟩ : BufTy).Contents (Elt F) → (⟨S1024x128, .f32⟩ : BufTy).Contents (Elt F) := (broadcastInDim S1024x128 ![] bcast_S_S1024x128)
def fn_main_call10_v4 : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F) := select
def fn_main_call10_v5 : (⟨S1024x128, .f32⟩ : BufTy).Contents (Elt F) → (⟨S1024x128, .f32⟩ : BufTy).Contents (Elt F) := Host.expm1
def cv_main_call10_cst_2 : (⟨S_, .f32⟩ : BufTy).Contents (Elt F) := (constant S_ .f32 0x3F800000#32)
def fn_main_call10_v6 : (⟨S_, .f32⟩ : BufTy).Contents (Elt F) → (⟨S1024x128, .f32⟩ : BufTy).Contents (Elt F) := (broadcastInDim S1024x128 ![] bcast_S_S1024x128)
def fn_main_call10_v7 : (⟨S1024x128, .f32⟩ : BufTy).Contents (Elt F) → (⟨S1024x128, .f32⟩ : BufTy).Contents (Elt F) → (⟨S1024x128, .f32⟩ : BufTy).Contents (Elt F) := mulf
def fn_main_v92 : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F) := select

/-- Operations of window 1: 8, ending at the one that writes main_v2. -/
abbrev opsW1 : List (HloOp τ sig (Elt F)) :=
  [ StableHlo.nullary main_c cv_main_c,
    StableHlo.unary main_c main_v0 fn_main_v0,
    StableHlo.binary main_arg1 main_v0 main_v1 fn_main_v1,
    StableHlo.TRef.reshape (.of main_v1 : StableHlo.TRef sig ⟨S1024x1024, .i1⟩) main_call0.v0 rfl shapeCasts_S1024x1024_S1048576,
    StableHlo.TRef.unary main_call0.v0 main_call0.v1 fn_main_call0_v1,
    StableHlo.TRef.nullary main_call0.call0.c cv_main_call0_call0_c,
    StableHlo.TRef.unary main_call0.call0.c main_call0.call0.v0 fn_main_call0_call0_v0,
    StableHlo.TRef.binary main_call0.v1 main_call0.call0.v0 main_call0.call0.v1 fn_main_v2 ]

/-- Operations of window 2: 20, ending at the one that writes main_v13. -/
abbrev opsW2 : List (HloOp τ sig (Elt F)) :=
  [ StableHlo.nullary main_c_0 cv_main_c_0,
    StableHlo.unary main_c_0 main_v3 fn_main_v3,
    StableHlo.nullary main_c_1 cv_main_c_1,
    StableHlo.TRef.unary (.of main_c_1 : StableHlo.TRef sig ⟨S_, .i32⟩) main_call1.v0 fn_main_call1_v0,
    StableHlo.TRef.unary main_call1.v0 main_call1.v1 fn_main_call1_v1,
    StableHlo.TRef.binary main_call1.v1 (.of main_v2 : StableHlo.TRef sig ⟨S1048576, .i32⟩) main_call1.v2 fn_main_v4,
    StableHlo.nullary main_c_2 cv_main_c_2,
    StableHlo.unary main_c_2 main_v5 fn_main_v5,
    StableHlo.binary main_v4 main_v5 main_v6 fn_main_v6,
    StableHlo.nullary main_c_3 cv_main_c_3,
    StableHlo.unary main_c_3 main_v7 fn_main_v7,
    StableHlo.binary main_v4 main_v7 main_v8 fn_main_v8,
    StableHlo.ternary main_v6 main_v8 main_v4 main_v9 fn_main_v9,
    StableHlo.unary main_v9 main_v10 fn_main_v10,
    StableHlo.nullary main_c_4 cv_main_c_4,
    StableHlo.unary main_c_4 main_v11 fn_main_v11,
    StableHlo.ternary main_v3 main_v10 main_v11 main_v12 fn_main_v12,
    StableHlo.TRef.nullary main_call2.call0.c cv_main_call2_call0_c,
    StableHlo.TRef.unary main_call2.call0.c main_call2.call0.v0 fn_main_call2_call0_v0,
    StableHlo.TRef.binary (.of main_v12 : StableHlo.TRef sig ⟨S1048576, .i32⟩) main_call2.call0.v0 main_call2.call0.v1 fn_main_v13 ]

/-- Operations of window 3: 17, ending at the one that writes main_v14. -/
abbrev opsW3 : List (HloOp τ sig (Elt F)) :=
  [ StableHlo.nullary main_c_5 cv_main_c_5,
    StableHlo.TRef.unary (.of main_c_5 : StableHlo.TRef sig ⟨S_, .i32⟩) main_call3.v0 fn_main_call3_v0,
    StableHlo.TRef.binary (.of main_v13 : StableHlo.TRef sig ⟨S1048576, .i32⟩) main_call3.v0 main_call3.v1 fn_main_call3_v1,
    StableHlo.TRef.unary (.of main_v13 : StableHlo.TRef sig ⟨S1048576, .i32⟩) main_call3.v2 fn_main_call3_v2,
    StableHlo.TRef.unary (.of main_c_5 : StableHlo.TRef sig ⟨S_, .i32⟩) main_call3.v3 fn_main_call3_v3,
    StableHlo.TRef.unary main_call3.v3 main_call3.v4 fn_main_call3_v4,
    StableHlo.TRef.binary main_call3.v2 main_call3.v4 main_call3.v5 fn_main_call3_v5,
    StableHlo.TRef.unary (.of main_c_5 : StableHlo.TRef sig ⟨S_, .i32⟩) main_call3.v6 fn_main_call3_v6,
    StableHlo.TRef.binary (.of main_v13 : StableHlo.TRef sig ⟨S1048576, .i32⟩) main_call3.v6 main_call3.v7 fn_main_call3_v7,
    StableHlo.TRef.nullary main_call3.c cv_main_call3_c,
    StableHlo.TRef.unary main_call3.c main_call3.v8 fn_main_call3_v8,
    StableHlo.TRef.binary main_call3.v7 main_call3.v8 main_call3.v9 fn_main_call3_v9,
    StableHlo.TRef.binary main_call3.v5 main_call3.v9 main_call3.v10 fn_main_call3_v10,
    StableHlo.TRef.nullary main_call3.c_0 cv_main_call3_c_0,
    StableHlo.TRef.unary main_call3.c_0 main_call3.v11 fn_main_call3_v11,
    StableHlo.TRef.binary main_call3.v1 main_call3.v11 main_call3.v12 fn_main_call3_v12,
    StableHlo.TRef.ternary main_call3.v10 main_call3.v12 main_call3.v1 main_call3.call0.v0 fn_main_v14 ]

/-- Operations of window 4: 22, ending at the one that writes main_v15. -/
abbrev opsW4 : List (HloOp τ sig (Elt F)) :=
  [ StableHlo.nullary main_c_6 cv_main_c_6,
    StableHlo.TRef.unary (.of main_c_6 : StableHlo.TRef sig ⟨S_, .i32⟩) main_call4.v0 fn_main_call4_v0,
    StableHlo.TRef.nullary main_call4.c cv_main_call4_c,
    StableHlo.TRef.binary main_call4.v0 main_call4.c main_call4.v1 fn_main_call4_v1,
    StableHlo.TRef.nullary main_call4.c_0 cv_main_call4_c_0,
    StableHlo.TRef.ternary main_call4.v1 main_call4.c_0 main_call4.v0 main_call4.call0.v0 fn_main_call4_v2,
    StableHlo.TRef.unary main_call4.call0.v0 main_call4.v3 fn_main_call4_v3,
    StableHlo.TRef.binary (.of main_v14 : StableHlo.TRef sig ⟨S1048576, .i32⟩) main_call4.v3 main_call4.v4 fn_main_call4_v4,
    StableHlo.TRef.nullary main_call4.c_1 cv_main_call4_c_1,
    StableHlo.TRef.unary main_call4.c_1 main_call4.v5 fn_main_call4_v5,
    StableHlo.TRef.binary main_call4.v4 main_call4.v5 main_call4.v6 fn_main_call4_v6,
    StableHlo.TRef.nullary main_call4.c_2 cv_main_call4_c_2,
    StableHlo.TRef.unary main_call4.c_2 main_call4.v7 fn_main_call4_v7,
    StableHlo.TRef.binary main_call4.v4 main_call4.v7 main_call4.v8 fn_main_call4_v8,
    StableHlo.TRef.nullary main_call4.c_3 cv_main_call4_c_3,
    StableHlo.TRef.binary main_call4.call0.v0 main_call4.c_3 main_call4.v9 fn_main_call4_v9,
    StableHlo.TRef.unary main_call4.v9 main_call4.v10 fn_main_call4_v10,
    StableHlo.TRef.binary main_call4.v8 main_call4.v10 main_call4.v11 fn_main_call4_v11,
    StableHlo.TRef.binary main_call4.v11 main_call4.v6 main_call4.v12 fn_main_call4_v12,
    StableHlo.TRef.unary main_call4.call0.v0 main_call4.v13 fn_main_call4_v13,
    StableHlo.TRef.binary main_call4.v4 main_call4.v13 main_call4.v14 fn_main_call4_v14,
    StableHlo.TRef.ternary main_call4.v12 main_call4.v14 main_call4.v4 main_call4.v15 fn_main_v15 ]

/-- Operations of window 5: 17, ending at the one that writes main_v16. -/
abbrev opsW5 : List (HloOp τ sig (Elt F)) :=
  [ StableHlo.nullary main_c_7 cv_main_c_7,
    StableHlo.TRef.unary (.of main_c_7 : StableHlo.TRef sig ⟨S_, .i32⟩) main_call5.v0 fn_main_call5_v0,
    StableHlo.TRef.binary (.of main_v13 : StableHlo.TRef sig ⟨S1048576, .i32⟩) main_call5.v0 main_call5.v1 fn_main_call5_v1,
    StableHlo.TRef.unary (.of main_v13 : StableHlo.TRef sig ⟨S1048576, .i32⟩) main_call5.v2 fn_main_call5_v2,
    StableHlo.TRef.unary (.of main_c_7 : StableHlo.TRef sig ⟨S_, .i32⟩) main_call5.v3 fn_main_call5_v3,
    StableHlo.TRef.unary main_call5.v3 main_call5.v4 fn_main_call5_v4,
    StableHlo.TRef.binary main_call5.v2 main_call5.v4 main_call5.v5 fn_main_call5_v5,
    StableHlo.TRef.unary (.of main_c_7 : StableHlo.TRef sig ⟨S_, .i32⟩) main_call5.v6 fn_main_call5_v6,
    StableHlo.TRef.binary (.of main_v13 : StableHlo.TRef sig ⟨S1048576, .i32⟩) main_call5.v6 main_call5.v7 fn_main_call5_v7,
    StableHlo.TRef.nullary main_call5.c cv_main_call5_c,
    StableHlo.TRef.unary main_call5.c main_call5.v8 fn_main_call5_v8,
    StableHlo.TRef.binary main_call5.v7 main_call5.v8 main_call5.v9 fn_main_call5_v9,
    StableHlo.TRef.binary main_call5.v5 main_call5.v9 main_call5.v10 fn_main_call5_v10,
    StableHlo.TRef.nullary main_call5.c_0 cv_main_call5_c_0,
    StableHlo.TRef.unary main_call5.c_0 main_call5.v11 fn_main_call5_v11,
    StableHlo.TRef.binary main_call5.v1 main_call5.v11 main_call5.v12 fn_main_call5_v12,
    StableHlo.TRef.ternary main_call5.v10 main_call5.v12 main_call5.v1 main_call5.call0.v0 fn_main_v16 ]

/-- Operations of window 6: 22, ending at the one that writes main_v17. -/
abbrev opsW6 : List (HloOp τ sig (Elt F)) :=
  [ StableHlo.nullary main_c_8 cv_main_c_8,
    StableHlo.TRef.unary (.of main_c_8 : StableHlo.TRef sig ⟨S_, .i32⟩) main_call6.v0 fn_main_call6_v0,
    StableHlo.TRef.nullary main_call6.c cv_main_call6_c,
    StableHlo.TRef.binary main_call6.v0 main_call6.c main_call6.v1 fn_main_call6_v1,
    StableHlo.TRef.nullary main_call6.c_0 cv_main_call6_c_0,
    StableHlo.TRef.ternary main_call6.v1 main_call6.c_0 main_call6.v0 main_call6.call0.v0 fn_main_call6_v2,
    StableHlo.TRef.unary main_call6.call0.v0 main_call6.v3 fn_main_call6_v3,
    StableHlo.TRef.binary (.of main_v16 : StableHlo.TRef sig ⟨S1048576, .i32⟩) main_call6.v3 main_call6.v4 fn_main_call6_v4,
    StableHlo.TRef.nullary main_call6.c_1 cv_main_call6_c_1,
    StableHlo.TRef.unary main_call6.c_1 main_call6.v5 fn_main_call6_v5,
    StableHlo.TRef.binary main_call6.v4 main_call6.v5 main_call6.v6 fn_main_call6_v6,
    StableHlo.TRef.nullary main_call6.c_2 cv_main_call6_c_2,
    StableHlo.TRef.unary main_call6.c_2 main_call6.v7 fn_main_call6_v7,
    StableHlo.TRef.binary main_call6.v4 main_call6.v7 main_call6.v8 fn_main_call6_v8,
    StableHlo.TRef.nullary main_call6.c_3 cv_main_call6_c_3,
    StableHlo.TRef.binary main_call6.call0.v0 main_call6.c_3 main_call6.v9 fn_main_call6_v9,
    StableHlo.TRef.unary main_call6.v9 main_call6.v10 fn_main_call6_v10,
    StableHlo.TRef.binary main_call6.v8 main_call6.v10 main_call6.v11 fn_main_call6_v11,
    StableHlo.TRef.binary main_call6.v11 main_call6.v6 main_call6.v12 fn_main_call6_v12,
    StableHlo.TRef.unary main_call6.call0.v0 main_call6.v13 fn_main_call6_v13,
    StableHlo.TRef.binary main_call6.v4 main_call6.v13 main_call6.v14 fn_main_call6_v14,
    StableHlo.TRef.ternary main_call6.v12 main_call6.v14 main_call6.v4 main_call6.v15 fn_main_v17 ]

/-- Operations of window 7: 17, ending at the one that writes main_v27. -/
abbrev opsW7 : List (HloOp τ sig (Elt F)) :=
  [ StableHlo.nullary main_v18 cv_main_v18,
    StableHlo.unary main_v1 main_v19 fn_main_v19,
    StableHlo.nullary main_c_9 cv_main_c_9,
    StableHlo.binary main_v19 main_c_9 main_v20 fn_main_v20,
    StableHlo.unary main_v20 main_v21 fn_main_v21,
    StableHlo.binary main_v18 main_v21 main_v22 fn_main_v22,
    StableHlo.nullary main_c_10 cv_main_c_10,
    StableHlo.TRef.unary (.of main_c_10 : StableHlo.TRef sig ⟨S_, .i32⟩) main_call7.v0 fn_main_call7_v0,
    StableHlo.TRef.unary main_call7.v0 main_call7.v1 fn_main_call7_v1,
    StableHlo.TRef.ternary (.of main_v22 : StableHlo.TRef sig ⟨S1048576, .i1⟩) main_call7.v1 (.of main_v15 : StableHlo.TRef sig ⟨S1048576, .i32⟩) main_call7.v2 fn_main_v23,
    StableHlo.nullary main_c_11 cv_main_c_11,
    StableHlo.TRef.unary (.of main_c_11 : StableHlo.TRef sig ⟨S_, .i32⟩) main_call8.v0 fn_main_call8_v0,
    StableHlo.TRef.unary main_call8.v0 main_call8.v1 fn_main_call8_v1,
    StableHlo.TRef.ternary (.of main_v22 : StableHlo.TRef sig ⟨S1048576, .i1⟩) main_call8.v1 (.of main_v17 : StableHlo.TRef sig ⟨S1048576, .i32⟩) main_call8.v2 fn_main_v24,
    StableHlo.unary main_v23 main_v25 fn_main_v25,
    StableHlo.unary main_v24 main_v26 fn_main_v26,
    StableHlo.binary main_v25 main_v26 main_v27 fn_main_v27 ]

/-- Operations of window 8: 1, ending at the one that writes main_v28. -/
abbrev opsW8 : List (HloOp τ sig (Elt F)) :=
  [ StableHlo.binary main_arg0 main_arg2 main_v28 fn_main_v28 ]

/-- Operations of window 9: 11, ending at the one that writes main_v37. -/
abbrev opsW9 : List (HloOp τ sig (Elt F)) :=
  [ StableHlo.unary main_v27 main_v29 fn_main_v29,
    StableHlo.reshape main_v29 main_v30 rfl shapeCasts_S1x1048576_S1048576,
    StableHlo.nullary main_c_12 cv_main_c_12,
    StableHlo.unary main_c_12 main_v31 fn_main_v31,
    StableHlo.binary main_v30 main_v31 main_v32 fn_main_v32,
    StableHlo.nullary main_c_13 cv_main_c_13,
    StableHlo.unary main_c_13 main_v33 fn_main_v33,
    StableHlo.binary main_v30 main_v33 main_v34 fn_main_v34,
    StableHlo.ternary main_v32 main_v34 main_v30 main_v35 fn_main_v35,
    StableHlo.unary main_v35 main_v36 fn_main_v36,
    StableHlo.binary main_v28 main_v36 main_v37 fn_main_v37 ]

/-- Operations of window 10: 11, ending at the one that writes main_v46. -/
abbrev opsW10 : List (HloOp τ sig (Elt F)) :=
  [ StableHlo.unary main_v27 main_v38 fn_main_v38,
    StableHlo.reshape main_v38 main_v39 rfl shapeCasts_S1x1048576_S1048576,
    StableHlo.nullary main_c_14 cv_main_c_14,
    StableHlo.unary main_c_14 main_v40 fn_main_v40,
    StableHlo.binary main_v39 main_v40 main_v41 fn_main_v41,
    StableHlo.nullary main_c_15 cv_main_c_15,
    StableHlo.unary main_c_15 main_v42 fn_main_v42,
    StableHlo.binary main_v39 main_v42 main_v43 fn_main_v43,
    StableHlo.ternary main_v41 main_v43 main_v39 main_v44 fn_main_v44,
    StableHlo.unary main_v44 main_v45 fn_main_v45,
    StableHlo.binary main_v28 main_v45 main_v46 fn_main_v46 ]

/-- Operations of window 11: 5, ending at the one that writes main_v51. -/
abbrev opsW11 : List (HloOp τ sig (Elt F)) :=
  [ StableHlo.binary main_v37 main_v46 main_v47 fn_main_v47,
    StableHlo.unary main_v47 main_v48 fn_main_v48,
    StableHlo.unary main_arg3 main_v49 fn_main_v49,
    StableHlo.binary main_v49 main_v48 main_v50 fn_main_v50,
    StableHlo.reshape main_v50 main_v51 rfl shapeCasts_S1x1048576_S1048576 ]

/-- Operations of window 12: 10, ending at the one that writes main_v54. -/
abbrev opsW12 : List (HloOp τ sig (Elt F)) :=
  [ StableHlo.nullary main_cst cv_main_cst,
    StableHlo.TRef.nullary main_call9.cst cv_main_call9_cst,
    StableHlo.TRef.unary main_call9.cst main_call9.v0 fn_main_call9_v0,
    StableHlo.TRef.binary (.of main_v51 : StableHlo.TRef sig ⟨S1048576, .f32⟩) main_call9.v0 main_call9.v1 fn_main_call9_v1,
    StableHlo.TRef.unary (.of main_cst : StableHlo.TRef sig ⟨S_, .f32⟩) main_call9.v2 fn_main_call9_v2,
    StableHlo.TRef.unary main_call9.v2 main_call9.v3 fn_main_call9_v3,
    StableHlo.TRef.binary main_call9.v3 (.of main_v51 : StableHlo.TRef sig ⟨S1048576, .f32⟩) main_call9.v4 fn_main_call9_v4,
    StableHlo.TRef.ternary main_call9.v1 (.of main_v51 : StableHlo.TRef sig ⟨S1048576, .f32⟩) main_call9.v4 main_call9.call0.v0 fn_main_v52,
    StableHlo.unary main_v52 main_v53 fn_main_v53,
    StableHlo.unary main_v53 main_v54 fn_main_v54 ]

/-- Operations of window 13: 14, ending at the one that writes main_v65. -/
abbrev opsW13 : List (HloOp τ sig (Elt F)) :=
  [ StableHlo.nullary main_cst_16 cv_main_cst_16,
    StableHlo.unary main_cst_16 main_v55 fn_main_v55,
    StableHlo.unary main_v27 main_v56 fn_main_v56,
    StableHlo.reshape main_v56 main_v57 rfl shapeCasts_S1x1048576_S1048576,
    StableHlo.unary main_v54 main_v58 fn_main_v58,
    StableHlo.nullary main_c_17 cv_main_c_17,
    StableHlo.unary main_c_17 main_v59 fn_main_v59,
    StableHlo.binary main_v57 main_v59 main_v60 fn_main_v60,
    StableHlo.nullary main_c_18 cv_main_c_18,
    StableHlo.unary main_c_18 main_v61 fn_main_v61,
    StableHlo.binary main_v57 main_v61 main_v62 fn_main_v62,
    StableHlo.ternary main_v60 main_v62 main_v57 main_v63 fn_main_v63,
    StableHlo.unary main_v63 main_v64 fn_main_v64,
    StableHlo.ternary main_v55 main_v64 main_v58 main_v65 fn_main_v65 ]

/-- Operations of window 14: 27, ending at the one that writes main_v87. -/
abbrev opsW14 : List (HloOp τ sig (Elt F)) :=
  [ StableHlo.nullary main_cst_19 cv_main_cst_19,
    StableHlo.unary main_cst_19 main_v66 fn_main_v66,
    StableHlo.unary main_v27 main_v67 fn_main_v67,
    StableHlo.reshape main_v67 main_v68 rfl shapeCasts_S1x1048576_S1048576,
    StableHlo.unary main_v54 main_v69 fn_main_v69,
    StableHlo.unary main_v27 main_v70 fn_main_v70,
    StableHlo.reshape main_v70 main_v71 rfl shapeCasts_S1x1048576_S1048576,
    StableHlo.nullary main_c_20 cv_main_c_20,
    StableHlo.unary main_c_20 main_v72 fn_main_v72,
    StableHlo.binary main_v71 main_v72 main_v73 fn_main_v73,
    StableHlo.nullary main_c_21 cv_main_c_21,
    StableHlo.unary main_c_21 main_v74 fn_main_v74,
    StableHlo.binary main_v71 main_v74 main_v75 fn_main_v75,
    StableHlo.ternary main_v73 main_v75 main_v71 main_v76 fn_main_v76,
    StableHlo.unary main_v76 main_v77 fn_main_v77,
    StableHlo.binary main_v28 main_v77 main_v78 fn_main_v78,
    StableHlo.unary main_v69 main_v79 fn_main_v79,
    StableHlo.binary main_v79 main_v78 main_v80 fn_main_v80,
    StableHlo.nullary main_c_22 cv_main_c_22,
    StableHlo.unary main_c_22 main_v81 fn_main_v81,
    StableHlo.binary main_v68 main_v81 main_v82 fn_main_v82,
    StableHlo.nullary main_c_23 cv_main_c_23,
    StableHlo.unary main_c_23 main_v83 fn_main_v83,
    StableHlo.binary main_v68 main_v83 main_v84 fn_main_v84,
    StableHlo.ternary main_v82 main_v84 main_v68 main_v85 fn_main_v85,
    StableHlo.unary main_v85 main_v86 fn_main_v86,
    StableHlo.ternary main_v66 main_v86 main_v80 main_v87 fn_main_v87 ]

/-- Operations of window 15: 5, ending at the one that writes main_v91. -/
abbrev opsW15 : List (HloOp τ sig (Elt F)) :=
  [ StableHlo.nullary main_cst_24 cv_main_cst_24,
    StableHlo.unary main_cst_24 main_v88 fn_main_v88,
    StableHlo.binary main_v65 main_v88 main_v89 fn_main_v89,
    StableHlo.unary main_v89 main_v90 fn_main_v90,
    StableHlo.binary main_v87 main_v90 main_v91 fn_main_v91 ]

/-- Operations of window 16: 15, ending at the one that writes main_v92. -/
abbrev opsW16 : List (HloOp τ sig (Elt F)) :=
  [ StableHlo.TRef.nullary main_call10.cst cv_main_call10_cst,
    StableHlo.TRef.unary main_call10.cst main_call10.v0 fn_main_call10_v0,
    StableHlo.TRef.binary (.of main_v91 : StableHlo.TRef sig ⟨S1024x128, .f32⟩) main_call10.v0 main_call10.v1 fn_main_call10_v1,
    StableHlo.TRef.nullary main_call10.cst_0 cv_main_call10_cst_0,
    StableHlo.TRef.unary main_call10.cst_0 main_call10.v2 fn_main_call10_v2,
    StableHlo.TRef.binary (.of main_v91 : StableHlo.TRef sig ⟨S1024x128, .f32⟩) main_call10.v2 main_call10.v3 fn_main_call10_v3,
    StableHlo.TRef.nullary main_call10.cst_1 cv_main_call10_cst_1,
    StableHlo.TRef.unary main_call10.cst_1 main_call10.call0.v0 fn_main_call10_call0_v0,
    StableHlo.TRef.unary main_call10.call0.v0 main_call10.call0.v1 fn_main_call10_call0_v1,
    StableHlo.TRef.ternary main_call10.v3 main_call10.call0.v1 (.of main_v91 : StableHlo.TRef sig ⟨S1024x128, .f32⟩) main_call10.call0.v2 fn_main_call10_v4,
    StableHlo.TRef.unary main_call10.call0.v2 main_call10.v5 fn_main_call10_v5,
    StableHlo.TRef.nullary main_call10.cst_2 cv_main_call10_cst_2,
    StableHlo.TRef.unary main_call10.cst_2 main_call10.v6 fn_main_call10_v6,
    StableHlo.TRef.binary main_call10.v6 main_call10.v5 main_call10.v7 fn_main_call10_v7,
    StableHlo.TRef.ternary main_call10.v1 (.of main_v91 : StableHlo.TRef sig ⟨S1024x128, .f32⟩) main_call10.v7 main_call10.call1.v0 fn_main_v92 ]

/-- All of @main's operations, in order. -/
abbrev ops : List (HloOp τ sig (Elt F)) :=
  [ StableHlo.nullary main_c cv_main_c,
    StableHlo.unary main_c main_v0 fn_main_v0,
    StableHlo.binary main_arg1 main_v0 main_v1 fn_main_v1,
    StableHlo.TRef.reshape (.of main_v1 : StableHlo.TRef sig ⟨S1024x1024, .i1⟩) main_call0.v0 rfl shapeCasts_S1024x1024_S1048576,
    StableHlo.TRef.unary main_call0.v0 main_call0.v1 fn_main_call0_v1,
    StableHlo.TRef.nullary main_call0.call0.c cv_main_call0_call0_c,
    StableHlo.TRef.unary main_call0.call0.c main_call0.call0.v0 fn_main_call0_call0_v0,
    StableHlo.TRef.binary main_call0.v1 main_call0.call0.v0 main_call0.call0.v1 fn_main_v2,
    StableHlo.nullary main_c_0 cv_main_c_0,
    StableHlo.unary main_c_0 main_v3 fn_main_v3,
    StableHlo.nullary main_c_1 cv_main_c_1,
    StableHlo.TRef.unary (.of main_c_1 : StableHlo.TRef sig ⟨S_, .i32⟩) main_call1.v0 fn_main_call1_v0,
    StableHlo.TRef.unary main_call1.v0 main_call1.v1 fn_main_call1_v1,
    StableHlo.TRef.binary main_call1.v1 (.of main_v2 : StableHlo.TRef sig ⟨S1048576, .i32⟩) main_call1.v2 fn_main_v4,
    StableHlo.nullary main_c_2 cv_main_c_2,
    StableHlo.unary main_c_2 main_v5 fn_main_v5,
    StableHlo.binary main_v4 main_v5 main_v6 fn_main_v6,
    StableHlo.nullary main_c_3 cv_main_c_3,
    StableHlo.unary main_c_3 main_v7 fn_main_v7,
    StableHlo.binary main_v4 main_v7 main_v8 fn_main_v8,
    StableHlo.ternary main_v6 main_v8 main_v4 main_v9 fn_main_v9,
    StableHlo.unary main_v9 main_v10 fn_main_v10,
    StableHlo.nullary main_c_4 cv_main_c_4,
    StableHlo.unary main_c_4 main_v11 fn_main_v11,
    StableHlo.ternary main_v3 main_v10 main_v11 main_v12 fn_main_v12,
    StableHlo.TRef.nullary main_call2.call0.c cv_main_call2_call0_c,
    StableHlo.TRef.unary main_call2.call0.c main_call2.call0.v0 fn_main_call2_call0_v0,
    StableHlo.TRef.binary (.of main_v12 : StableHlo.TRef sig ⟨S1048576, .i32⟩) main_call2.call0.v0 main_call2.call0.v1 fn_main_v13,
    StableHlo.nullary main_c_5 cv_main_c_5,
    StableHlo.TRef.unary (.of main_c_5 : StableHlo.TRef sig ⟨S_, .i32⟩) main_call3.v0 fn_main_call3_v0,
    StableHlo.TRef.binary (.of main_v13 : StableHlo.TRef sig ⟨S1048576, .i32⟩) main_call3.v0 main_call3.v1 fn_main_call3_v1,
    StableHlo.TRef.unary (.of main_v13 : StableHlo.TRef sig ⟨S1048576, .i32⟩) main_call3.v2 fn_main_call3_v2,
    StableHlo.TRef.unary (.of main_c_5 : StableHlo.TRef sig ⟨S_, .i32⟩) main_call3.v3 fn_main_call3_v3,
    StableHlo.TRef.unary main_call3.v3 main_call3.v4 fn_main_call3_v4,
    StableHlo.TRef.binary main_call3.v2 main_call3.v4 main_call3.v5 fn_main_call3_v5,
    StableHlo.TRef.unary (.of main_c_5 : StableHlo.TRef sig ⟨S_, .i32⟩) main_call3.v6 fn_main_call3_v6,
    StableHlo.TRef.binary (.of main_v13 : StableHlo.TRef sig ⟨S1048576, .i32⟩) main_call3.v6 main_call3.v7 fn_main_call3_v7,
    StableHlo.TRef.nullary main_call3.c cv_main_call3_c,
    StableHlo.TRef.unary main_call3.c main_call3.v8 fn_main_call3_v8,
    StableHlo.TRef.binary main_call3.v7 main_call3.v8 main_call3.v9 fn_main_call3_v9,
    StableHlo.TRef.binary main_call3.v5 main_call3.v9 main_call3.v10 fn_main_call3_v10,
    StableHlo.TRef.nullary main_call3.c_0 cv_main_call3_c_0,
    StableHlo.TRef.unary main_call3.c_0 main_call3.v11 fn_main_call3_v11,
    StableHlo.TRef.binary main_call3.v1 main_call3.v11 main_call3.v12 fn_main_call3_v12,
    StableHlo.TRef.ternary main_call3.v10 main_call3.v12 main_call3.v1 main_call3.call0.v0 fn_main_v14,
    StableHlo.nullary main_c_6 cv_main_c_6,
    StableHlo.TRef.unary (.of main_c_6 : StableHlo.TRef sig ⟨S_, .i32⟩) main_call4.v0 fn_main_call4_v0,
    StableHlo.TRef.nullary main_call4.c cv_main_call4_c,
    StableHlo.TRef.binary main_call4.v0 main_call4.c main_call4.v1 fn_main_call4_v1,
    StableHlo.TRef.nullary main_call4.c_0 cv_main_call4_c_0,
    StableHlo.TRef.ternary main_call4.v1 main_call4.c_0 main_call4.v0 main_call4.call0.v0 fn_main_call4_v2,
    StableHlo.TRef.unary main_call4.call0.v0 main_call4.v3 fn_main_call4_v3,
    StableHlo.TRef.binary (.of main_v14 : StableHlo.TRef sig ⟨S1048576, .i32⟩) main_call4.v3 main_call4.v4 fn_main_call4_v4,
    StableHlo.TRef.nullary main_call4.c_1 cv_main_call4_c_1,
    StableHlo.TRef.unary main_call4.c_1 main_call4.v5 fn_main_call4_v5,
    StableHlo.TRef.binary main_call4.v4 main_call4.v5 main_call4.v6 fn_main_call4_v6,
    StableHlo.TRef.nullary main_call4.c_2 cv_main_call4_c_2,
    StableHlo.TRef.unary main_call4.c_2 main_call4.v7 fn_main_call4_v7,
    StableHlo.TRef.binary main_call4.v4 main_call4.v7 main_call4.v8 fn_main_call4_v8,
    StableHlo.TRef.nullary main_call4.c_3 cv_main_call4_c_3,
    StableHlo.TRef.binary main_call4.call0.v0 main_call4.c_3 main_call4.v9 fn_main_call4_v9,
    StableHlo.TRef.unary main_call4.v9 main_call4.v10 fn_main_call4_v10,
    StableHlo.TRef.binary main_call4.v8 main_call4.v10 main_call4.v11 fn_main_call4_v11,
    StableHlo.TRef.binary main_call4.v11 main_call4.v6 main_call4.v12 fn_main_call4_v12,
    StableHlo.TRef.unary main_call4.call0.v0 main_call4.v13 fn_main_call4_v13,
    StableHlo.TRef.binary main_call4.v4 main_call4.v13 main_call4.v14 fn_main_call4_v14,
    StableHlo.TRef.ternary main_call4.v12 main_call4.v14 main_call4.v4 main_call4.v15 fn_main_v15,
    StableHlo.nullary main_c_7 cv_main_c_7,
    StableHlo.TRef.unary (.of main_c_7 : StableHlo.TRef sig ⟨S_, .i32⟩) main_call5.v0 fn_main_call5_v0,
    StableHlo.TRef.binary (.of main_v13 : StableHlo.TRef sig ⟨S1048576, .i32⟩) main_call5.v0 main_call5.v1 fn_main_call5_v1,
    StableHlo.TRef.unary (.of main_v13 : StableHlo.TRef sig ⟨S1048576, .i32⟩) main_call5.v2 fn_main_call5_v2,
    StableHlo.TRef.unary (.of main_c_7 : StableHlo.TRef sig ⟨S_, .i32⟩) main_call5.v3 fn_main_call5_v3,
    StableHlo.TRef.unary main_call5.v3 main_call5.v4 fn_main_call5_v4,
    StableHlo.TRef.binary main_call5.v2 main_call5.v4 main_call5.v5 fn_main_call5_v5,
    StableHlo.TRef.unary (.of main_c_7 : StableHlo.TRef sig ⟨S_, .i32⟩) main_call5.v6 fn_main_call5_v6,
    StableHlo.TRef.binary (.of main_v13 : StableHlo.TRef sig ⟨S1048576, .i32⟩) main_call5.v6 main_call5.v7 fn_main_call5_v7,
    StableHlo.TRef.nullary main_call5.c cv_main_call5_c,
    StableHlo.TRef.unary main_call5.c main_call5.v8 fn_main_call5_v8,
    StableHlo.TRef.binary main_call5.v7 main_call5.v8 main_call5.v9 fn_main_call5_v9,
    StableHlo.TRef.binary main_call5.v5 main_call5.v9 main_call5.v10 fn_main_call5_v10,
    StableHlo.TRef.nullary main_call5.c_0 cv_main_call5_c_0,
    StableHlo.TRef.unary main_call5.c_0 main_call5.v11 fn_main_call5_v11,
    StableHlo.TRef.binary main_call5.v1 main_call5.v11 main_call5.v12 fn_main_call5_v12,
    StableHlo.TRef.ternary main_call5.v10 main_call5.v12 main_call5.v1 main_call5.call0.v0 fn_main_v16,
    StableHlo.nullary main_c_8 cv_main_c_8,
    StableHlo.TRef.unary (.of main_c_8 : StableHlo.TRef sig ⟨S_, .i32⟩) main_call6.v0 fn_main_call6_v0,
    StableHlo.TRef.nullary main_call6.c cv_main_call6_c,
    StableHlo.TRef.binary main_call6.v0 main_call6.c main_call6.v1 fn_main_call6_v1,
    StableHlo.TRef.nullary main_call6.c_0 cv_main_call6_c_0,
    StableHlo.TRef.ternary main_call6.v1 main_call6.c_0 main_call6.v0 main_call6.call0.v0 fn_main_call6_v2,
    StableHlo.TRef.unary main_call6.call0.v0 main_call6.v3 fn_main_call6_v3,
    StableHlo.TRef.binary (.of main_v16 : StableHlo.TRef sig ⟨S1048576, .i32⟩) main_call6.v3 main_call6.v4 fn_main_call6_v4,
    StableHlo.TRef.nullary main_call6.c_1 cv_main_call6_c_1,
    StableHlo.TRef.unary main_call6.c_1 main_call6.v5 fn_main_call6_v5,
    StableHlo.TRef.binary main_call6.v4 main_call6.v5 main_call6.v6 fn_main_call6_v6,
    StableHlo.TRef.nullary main_call6.c_2 cv_main_call6_c_2,
    StableHlo.TRef.unary main_call6.c_2 main_call6.v7 fn_main_call6_v7,
    StableHlo.TRef.binary main_call6.v4 main_call6.v7 main_call6.v8 fn_main_call6_v8,
    StableHlo.TRef.nullary main_call6.c_3 cv_main_call6_c_3,
    StableHlo.TRef.binary main_call6.call0.v0 main_call6.c_3 main_call6.v9 fn_main_call6_v9,
    StableHlo.TRef.unary main_call6.v9 main_call6.v10 fn_main_call6_v10,
    StableHlo.TRef.binary main_call6.v8 main_call6.v10 main_call6.v11 fn_main_call6_v11,
    StableHlo.TRef.binary main_call6.v11 main_call6.v6 main_call6.v12 fn_main_call6_v12,
    StableHlo.TRef.unary main_call6.call0.v0 main_call6.v13 fn_main_call6_v13,
    StableHlo.TRef.binary main_call6.v4 main_call6.v13 main_call6.v14 fn_main_call6_v14,
    StableHlo.TRef.ternary main_call6.v12 main_call6.v14 main_call6.v4 main_call6.v15 fn_main_v17,
    StableHlo.nullary main_v18 cv_main_v18,
    StableHlo.unary main_v1 main_v19 fn_main_v19,
    StableHlo.nullary main_c_9 cv_main_c_9,
    StableHlo.binary main_v19 main_c_9 main_v20 fn_main_v20,
    StableHlo.unary main_v20 main_v21 fn_main_v21,
    StableHlo.binary main_v18 main_v21 main_v22 fn_main_v22,
    StableHlo.nullary main_c_10 cv_main_c_10,
    StableHlo.TRef.unary (.of main_c_10 : StableHlo.TRef sig ⟨S_, .i32⟩) main_call7.v0 fn_main_call7_v0,
    StableHlo.TRef.unary main_call7.v0 main_call7.v1 fn_main_call7_v1,
    StableHlo.TRef.ternary (.of main_v22 : StableHlo.TRef sig ⟨S1048576, .i1⟩) main_call7.v1 (.of main_v15 : StableHlo.TRef sig ⟨S1048576, .i32⟩) main_call7.v2 fn_main_v23,
    StableHlo.nullary main_c_11 cv_main_c_11,
    StableHlo.TRef.unary (.of main_c_11 : StableHlo.TRef sig ⟨S_, .i32⟩) main_call8.v0 fn_main_call8_v0,
    StableHlo.TRef.unary main_call8.v0 main_call8.v1 fn_main_call8_v1,
    StableHlo.TRef.ternary (.of main_v22 : StableHlo.TRef sig ⟨S1048576, .i1⟩) main_call8.v1 (.of main_v17 : StableHlo.TRef sig ⟨S1048576, .i32⟩) main_call8.v2 fn_main_v24,
    StableHlo.unary main_v23 main_v25 fn_main_v25,
    StableHlo.unary main_v24 main_v26 fn_main_v26,
    StableHlo.binary main_v25 main_v26 main_v27 fn_main_v27,
    StableHlo.binary main_arg0 main_arg2 main_v28 fn_main_v28,
    StableHlo.unary main_v27 main_v29 fn_main_v29,
    StableHlo.reshape main_v29 main_v30 rfl shapeCasts_S1x1048576_S1048576,
    StableHlo.nullary main_c_12 cv_main_c_12,
    StableHlo.unary main_c_12 main_v31 fn_main_v31,
    StableHlo.binary main_v30 main_v31 main_v32 fn_main_v32,
    StableHlo.nullary main_c_13 cv_main_c_13,
    StableHlo.unary main_c_13 main_v33 fn_main_v33,
    StableHlo.binary main_v30 main_v33 main_v34 fn_main_v34,
    StableHlo.ternary main_v32 main_v34 main_v30 main_v35 fn_main_v35,
    StableHlo.unary main_v35 main_v36 fn_main_v36,
    StableHlo.binary main_v28 main_v36 main_v37 fn_main_v37,
    StableHlo.unary main_v27 main_v38 fn_main_v38,
    StableHlo.reshape main_v38 main_v39 rfl shapeCasts_S1x1048576_S1048576,
    StableHlo.nullary main_c_14 cv_main_c_14,
    StableHlo.unary main_c_14 main_v40 fn_main_v40,
    StableHlo.binary main_v39 main_v40 main_v41 fn_main_v41,
    StableHlo.nullary main_c_15 cv_main_c_15,
    StableHlo.unary main_c_15 main_v42 fn_main_v42,
    StableHlo.binary main_v39 main_v42 main_v43 fn_main_v43,
    StableHlo.ternary main_v41 main_v43 main_v39 main_v44 fn_main_v44,
    StableHlo.unary main_v44 main_v45 fn_main_v45,
    StableHlo.binary main_v28 main_v45 main_v46 fn_main_v46,
    StableHlo.binary main_v37 main_v46 main_v47 fn_main_v47,
    StableHlo.unary main_v47 main_v48 fn_main_v48,
    StableHlo.unary main_arg3 main_v49 fn_main_v49,
    StableHlo.binary main_v49 main_v48 main_v50 fn_main_v50,
    StableHlo.reshape main_v50 main_v51 rfl shapeCasts_S1x1048576_S1048576,
    StableHlo.nullary main_cst cv_main_cst,
    StableHlo.TRef.nullary main_call9.cst cv_main_call9_cst,
    StableHlo.TRef.unary main_call9.cst main_call9.v0 fn_main_call9_v0,
    StableHlo.TRef.binary (.of main_v51 : StableHlo.TRef sig ⟨S1048576, .f32⟩) main_call9.v0 main_call9.v1 fn_main_call9_v1,
    StableHlo.TRef.unary (.of main_cst : StableHlo.TRef sig ⟨S_, .f32⟩) main_call9.v2 fn_main_call9_v2,
    StableHlo.TRef.unary main_call9.v2 main_call9.v3 fn_main_call9_v3,
    StableHlo.TRef.binary main_call9.v3 (.of main_v51 : StableHlo.TRef sig ⟨S1048576, .f32⟩) main_call9.v4 fn_main_call9_v4,
    StableHlo.TRef.ternary main_call9.v1 (.of main_v51 : StableHlo.TRef sig ⟨S1048576, .f32⟩) main_call9.v4 main_call9.call0.v0 fn_main_v52,
    StableHlo.unary main_v52 main_v53 fn_main_v53,
    StableHlo.unary main_v53 main_v54 fn_main_v54,
    StableHlo.nullary main_cst_16 cv_main_cst_16,
    StableHlo.unary main_cst_16 main_v55 fn_main_v55,
    StableHlo.unary main_v27 main_v56 fn_main_v56,
    StableHlo.reshape main_v56 main_v57 rfl shapeCasts_S1x1048576_S1048576,
    StableHlo.unary main_v54 main_v58 fn_main_v58,
    StableHlo.nullary main_c_17 cv_main_c_17,
    StableHlo.unary main_c_17 main_v59 fn_main_v59,
    StableHlo.binary main_v57 main_v59 main_v60 fn_main_v60,
    StableHlo.nullary main_c_18 cv_main_c_18,
    StableHlo.unary main_c_18 main_v61 fn_main_v61,
    StableHlo.binary main_v57 main_v61 main_v62 fn_main_v62,
    StableHlo.ternary main_v60 main_v62 main_v57 main_v63 fn_main_v63,
    StableHlo.unary main_v63 main_v64 fn_main_v64,
    StableHlo.ternary main_v55 main_v64 main_v58 main_v65 fn_main_v65,
    StableHlo.nullary main_cst_19 cv_main_cst_19,
    StableHlo.unary main_cst_19 main_v66 fn_main_v66,
    StableHlo.unary main_v27 main_v67 fn_main_v67,
    StableHlo.reshape main_v67 main_v68 rfl shapeCasts_S1x1048576_S1048576,
    StableHlo.unary main_v54 main_v69 fn_main_v69,
    StableHlo.unary main_v27 main_v70 fn_main_v70,
    StableHlo.reshape main_v70 main_v71 rfl shapeCasts_S1x1048576_S1048576,
    StableHlo.nullary main_c_20 cv_main_c_20,
    StableHlo.unary main_c_20 main_v72 fn_main_v72,
    StableHlo.binary main_v71 main_v72 main_v73 fn_main_v73,
    StableHlo.nullary main_c_21 cv_main_c_21,
    StableHlo.unary main_c_21 main_v74 fn_main_v74,
    StableHlo.binary main_v71 main_v74 main_v75 fn_main_v75,
    StableHlo.ternary main_v73 main_v75 main_v71 main_v76 fn_main_v76,
    StableHlo.unary main_v76 main_v77 fn_main_v77,
    StableHlo.binary main_v28 main_v77 main_v78 fn_main_v78,
    StableHlo.unary main_v69 main_v79 fn_main_v79,
    StableHlo.binary main_v79 main_v78 main_v80 fn_main_v80,
    StableHlo.nullary main_c_22 cv_main_c_22,
    StableHlo.unary main_c_22 main_v81 fn_main_v81,
    StableHlo.binary main_v68 main_v81 main_v82 fn_main_v82,
    StableHlo.nullary main_c_23 cv_main_c_23,
    StableHlo.unary main_c_23 main_v83 fn_main_v83,
    StableHlo.binary main_v68 main_v83 main_v84 fn_main_v84,
    StableHlo.ternary main_v82 main_v84 main_v68 main_v85 fn_main_v85,
    StableHlo.unary main_v85 main_v86 fn_main_v86,
    StableHlo.ternary main_v66 main_v86 main_v80 main_v87 fn_main_v87,
    StableHlo.nullary main_cst_24 cv_main_cst_24,
    StableHlo.unary main_cst_24 main_v88 fn_main_v88,
    StableHlo.binary main_v65 main_v88 main_v89 fn_main_v89,
    StableHlo.unary main_v89 main_v90 fn_main_v90,
    StableHlo.binary main_v87 main_v90 main_v91 fn_main_v91,
    StableHlo.TRef.nullary main_call10.cst cv_main_call10_cst,
    StableHlo.TRef.unary main_call10.cst main_call10.v0 fn_main_call10_v0,
    StableHlo.TRef.binary (.of main_v91 : StableHlo.TRef sig ⟨S1024x128, .f32⟩) main_call10.v0 main_call10.v1 fn_main_call10_v1,
    StableHlo.TRef.nullary main_call10.cst_0 cv_main_call10_cst_0,
    StableHlo.TRef.unary main_call10.cst_0 main_call10.v2 fn_main_call10_v2,
    StableHlo.TRef.binary (.of main_v91 : StableHlo.TRef sig ⟨S1024x128, .f32⟩) main_call10.v2 main_call10.v3 fn_main_call10_v3,
    StableHlo.TRef.nullary main_call10.cst_1 cv_main_call10_cst_1,
    StableHlo.TRef.unary main_call10.cst_1 main_call10.call0.v0 fn_main_call10_call0_v0,
    StableHlo.TRef.unary main_call10.call0.v0 main_call10.call0.v1 fn_main_call10_call0_v1,
    StableHlo.TRef.ternary main_call10.v3 main_call10.call0.v1 (.of main_v91 : StableHlo.TRef sig ⟨S1024x128, .f32⟩) main_call10.call0.v2 fn_main_call10_v4,
    StableHlo.TRef.unary main_call10.call0.v2 main_call10.v5 fn_main_call10_v5,
    StableHlo.TRef.nullary main_call10.cst_2 cv_main_call10_cst_2,
    StableHlo.TRef.unary main_call10.cst_2 main_call10.v6 fn_main_call10_v6,
    StableHlo.TRef.binary main_call10.v6 main_call10.v5 main_call10.v7 fn_main_call10_v7,
    StableHlo.TRef.ternary main_call10.v1 (.of main_v91 : StableHlo.TRef sig ⟨S1024x128, .f32⟩) main_call10.v7 main_call10.call1.v0 fn_main_v92 ]

/-- The operations of main_part0. -/
abbrev ops_main_part0 : List (HloOp τ sig (Elt F)) :=
  [ StableHlo.nullary main_c cv_main_c,
    StableHlo.unary main_c main_v0 fn_main_v0,
    StableHlo.binary main_arg1 main_v0 main_v1 fn_main_v1,
    StableHlo.TRef.reshape (.of main_v1 : StableHlo.TRef sig ⟨S1024x1024, .i1⟩) main_call0.v0 rfl shapeCasts_S1024x1024_S1048576,
    StableHlo.TRef.unary main_call0.v0 main_call0.v1 fn_main_call0_v1,
    StableHlo.TRef.nullary main_call0.call0.c cv_main_call0_call0_c,
    StableHlo.TRef.unary main_call0.call0.c main_call0.call0.v0 fn_main_call0_call0_v0,
    StableHlo.TRef.binary main_call0.v1 main_call0.call0.v0 main_call0.call0.v1 fn_main_v2,
    StableHlo.nullary main_c_0 cv_main_c_0,
    StableHlo.unary main_c_0 main_v3 fn_main_v3,
    StableHlo.nullary main_c_1 cv_main_c_1,
    StableHlo.TRef.unary (.of main_c_1 : StableHlo.TRef sig ⟨S_, .i32⟩) main_call1.v0 fn_main_call1_v0,
    StableHlo.TRef.unary main_call1.v0 main_call1.v1 fn_main_call1_v1,
    StableHlo.TRef.binary main_call1.v1 (.of main_v2 : StableHlo.TRef sig ⟨S1048576, .i32⟩) main_call1.v2 fn_main_v4,
    StableHlo.nullary main_c_2 cv_main_c_2,
    StableHlo.unary main_c_2 main_v5 fn_main_v5,
    StableHlo.binary main_v4 main_v5 main_v6 fn_main_v6,
    StableHlo.nullary main_c_3 cv_main_c_3,
    StableHlo.unary main_c_3 main_v7 fn_main_v7,
    StableHlo.binary main_v4 main_v7 main_v8 fn_main_v8,
    StableHlo.ternary main_v6 main_v8 main_v4 main_v9 fn_main_v9,
    StableHlo.unary main_v9 main_v10 fn_main_v10,
    StableHlo.nullary main_c_4 cv_main_c_4,
    StableHlo.unary main_c_4 main_v11 fn_main_v11,
    StableHlo.ternary main_v3 main_v10 main_v11 main_v12 fn_main_v12,
    StableHlo.TRef.nullary main_call2.call0.c cv_main_call2_call0_c,
    StableHlo.TRef.unary main_call2.call0.c main_call2.call0.v0 fn_main_call2_call0_v0,
    StableHlo.TRef.binary (.of main_v12 : StableHlo.TRef sig ⟨S1048576, .i32⟩) main_call2.call0.v0 main_call2.call0.v1 fn_main_v13,
    StableHlo.nullary main_c_5 cv_main_c_5,
    StableHlo.TRef.unary (.of main_c_5 : StableHlo.TRef sig ⟨S_, .i32⟩) main_call3.v0 fn_main_call3_v0,
    StableHlo.TRef.binary (.of main_v13 : StableHlo.TRef sig ⟨S1048576, .i32⟩) main_call3.v0 main_call3.v1 fn_main_call3_v1,
    StableHlo.TRef.unary (.of main_v13 : StableHlo.TRef sig ⟨S1048576, .i32⟩) main_call3.v2 fn_main_call3_v2,
    StableHlo.TRef.unary (.of main_c_5 : StableHlo.TRef sig ⟨S_, .i32⟩) main_call3.v3 fn_main_call3_v3,
    StableHlo.TRef.unary main_call3.v3 main_call3.v4 fn_main_call3_v4,
    StableHlo.TRef.binary main_call3.v2 main_call3.v4 main_call3.v5 fn_main_call3_v5,
    StableHlo.TRef.unary (.of main_c_5 : StableHlo.TRef sig ⟨S_, .i32⟩) main_call3.v6 fn_main_call3_v6,
    StableHlo.TRef.binary (.of main_v13 : StableHlo.TRef sig ⟨S1048576, .i32⟩) main_call3.v6 main_call3.v7 fn_main_call3_v7,
    StableHlo.TRef.nullary main_call3.c cv_main_call3_c,
    StableHlo.TRef.unary main_call3.c main_call3.v8 fn_main_call3_v8,
    StableHlo.TRef.binary main_call3.v7 main_call3.v8 main_call3.v9 fn_main_call3_v9,
    StableHlo.TRef.binary main_call3.v5 main_call3.v9 main_call3.v10 fn_main_call3_v10,
    StableHlo.TRef.nullary main_call3.c_0 cv_main_call3_c_0,
    StableHlo.TRef.unary main_call3.c_0 main_call3.v11 fn_main_call3_v11,
    StableHlo.TRef.binary main_call3.v1 main_call3.v11 main_call3.v12 fn_main_call3_v12,
    StableHlo.TRef.ternary main_call3.v10 main_call3.v12 main_call3.v1 main_call3.call0.v0 fn_main_v14,
    StableHlo.nullary main_c_6 cv_main_c_6,
    StableHlo.TRef.unary (.of main_c_6 : StableHlo.TRef sig ⟨S_, .i32⟩) main_call4.v0 fn_main_call4_v0,
    StableHlo.TRef.nullary main_call4.c cv_main_call4_c,
    StableHlo.TRef.binary main_call4.v0 main_call4.c main_call4.v1 fn_main_call4_v1,
    StableHlo.TRef.nullary main_call4.c_0 cv_main_call4_c_0,
    StableHlo.TRef.ternary main_call4.v1 main_call4.c_0 main_call4.v0 main_call4.call0.v0 fn_main_call4_v2,
    StableHlo.TRef.unary main_call4.call0.v0 main_call4.v3 fn_main_call4_v3,
    StableHlo.TRef.binary (.of main_v14 : StableHlo.TRef sig ⟨S1048576, .i32⟩) main_call4.v3 main_call4.v4 fn_main_call4_v4,
    StableHlo.TRef.nullary main_call4.c_1 cv_main_call4_c_1,
    StableHlo.TRef.unary main_call4.c_1 main_call4.v5 fn_main_call4_v5,
    StableHlo.TRef.binary main_call4.v4 main_call4.v5 main_call4.v6 fn_main_call4_v6,
    StableHlo.TRef.nullary main_call4.c_2 cv_main_call4_c_2,
    StableHlo.TRef.unary main_call4.c_2 main_call4.v7 fn_main_call4_v7,
    StableHlo.TRef.binary main_call4.v4 main_call4.v7 main_call4.v8 fn_main_call4_v8,
    StableHlo.TRef.nullary main_call4.c_3 cv_main_call4_c_3,
    StableHlo.TRef.binary main_call4.call0.v0 main_call4.c_3 main_call4.v9 fn_main_call4_v9,
    StableHlo.TRef.unary main_call4.v9 main_call4.v10 fn_main_call4_v10,
    StableHlo.TRef.binary main_call4.v8 main_call4.v10 main_call4.v11 fn_main_call4_v11,
    StableHlo.TRef.binary main_call4.v11 main_call4.v6 main_call4.v12 fn_main_call4_v12,
    StableHlo.TRef.unary main_call4.call0.v0 main_call4.v13 fn_main_call4_v13,
    StableHlo.TRef.binary main_call4.v4 main_call4.v13 main_call4.v14 fn_main_call4_v14,
    StableHlo.TRef.ternary main_call4.v12 main_call4.v14 main_call4.v4 main_call4.v15 fn_main_v15,
    StableHlo.nullary main_c_7 cv_main_c_7,
    StableHlo.TRef.unary (.of main_c_7 : StableHlo.TRef sig ⟨S_, .i32⟩) main_call5.v0 fn_main_call5_v0,
    StableHlo.TRef.binary (.of main_v13 : StableHlo.TRef sig ⟨S1048576, .i32⟩) main_call5.v0 main_call5.v1 fn_main_call5_v1,
    StableHlo.TRef.unary (.of main_v13 : StableHlo.TRef sig ⟨S1048576, .i32⟩) main_call5.v2 fn_main_call5_v2,
    StableHlo.TRef.unary (.of main_c_7 : StableHlo.TRef sig ⟨S_, .i32⟩) main_call5.v3 fn_main_call5_v3,
    StableHlo.TRef.unary main_call5.v3 main_call5.v4 fn_main_call5_v4,
    StableHlo.TRef.binary main_call5.v2 main_call5.v4 main_call5.v5 fn_main_call5_v5,
    StableHlo.TRef.unary (.of main_c_7 : StableHlo.TRef sig ⟨S_, .i32⟩) main_call5.v6 fn_main_call5_v6,
    StableHlo.TRef.binary (.of main_v13 : StableHlo.TRef sig ⟨S1048576, .i32⟩) main_call5.v6 main_call5.v7 fn_main_call5_v7,
    StableHlo.TRef.nullary main_call5.c cv_main_call5_c,
    StableHlo.TRef.unary main_call5.c main_call5.v8 fn_main_call5_v8,
    StableHlo.TRef.binary main_call5.v7 main_call5.v8 main_call5.v9 fn_main_call5_v9,
    StableHlo.TRef.binary main_call5.v5 main_call5.v9 main_call5.v10 fn_main_call5_v10,
    StableHlo.TRef.nullary main_call5.c_0 cv_main_call5_c_0,
    StableHlo.TRef.unary main_call5.c_0 main_call5.v11 fn_main_call5_v11,
    StableHlo.TRef.binary main_call5.v1 main_call5.v11 main_call5.v12 fn_main_call5_v12,
    StableHlo.TRef.ternary main_call5.v10 main_call5.v12 main_call5.v1 main_call5.call0.v0 fn_main_v16,
    StableHlo.nullary main_c_8 cv_main_c_8,
    StableHlo.TRef.unary (.of main_c_8 : StableHlo.TRef sig ⟨S_, .i32⟩) main_call6.v0 fn_main_call6_v0,
    StableHlo.TRef.nullary main_call6.c cv_main_call6_c,
    StableHlo.TRef.binary main_call6.v0 main_call6.c main_call6.v1 fn_main_call6_v1,
    StableHlo.TRef.nullary main_call6.c_0 cv_main_call6_c_0,
    StableHlo.TRef.ternary main_call6.v1 main_call6.c_0 main_call6.v0 main_call6.call0.v0 fn_main_call6_v2,
    StableHlo.TRef.unary main_call6.call0.v0 main_call6.v3 fn_main_call6_v3,
    StableHlo.TRef.binary (.of main_v16 : StableHlo.TRef sig ⟨S1048576, .i32⟩) main_call6.v3 main_call6.v4 fn_main_call6_v4,
    StableHlo.TRef.nullary main_call6.c_1 cv_main_call6_c_1,
    StableHlo.TRef.unary main_call6.c_1 main_call6.v5 fn_main_call6_v5,
    StableHlo.TRef.binary main_call6.v4 main_call6.v5 main_call6.v6 fn_main_call6_v6,
    StableHlo.TRef.nullary main_call6.c_2 cv_main_call6_c_2,
    StableHlo.TRef.unary main_call6.c_2 main_call6.v7 fn_main_call6_v7,
    StableHlo.TRef.binary main_call6.v4 main_call6.v7 main_call6.v8 fn_main_call6_v8,
    StableHlo.TRef.nullary main_call6.c_3 cv_main_call6_c_3,
    StableHlo.TRef.binary main_call6.call0.v0 main_call6.c_3 main_call6.v9 fn_main_call6_v9,
    StableHlo.TRef.unary main_call6.v9 main_call6.v10 fn_main_call6_v10,
    StableHlo.TRef.binary main_call6.v8 main_call6.v10 main_call6.v11 fn_main_call6_v11,
    StableHlo.TRef.binary main_call6.v11 main_call6.v6 main_call6.v12 fn_main_call6_v12,
    StableHlo.TRef.unary main_call6.call0.v0 main_call6.v13 fn_main_call6_v13,
    StableHlo.TRef.binary main_call6.v4 main_call6.v13 main_call6.v14 fn_main_call6_v14,
    StableHlo.TRef.ternary main_call6.v12 main_call6.v14 main_call6.v4 main_call6.v15 fn_main_v17,
    StableHlo.nullary main_v18 cv_main_v18,
    StableHlo.unary main_v1 main_v19 fn_main_v19,
    StableHlo.nullary main_c_9 cv_main_c_9,
    StableHlo.binary main_v19 main_c_9 main_v20 fn_main_v20,
    StableHlo.unary main_v20 main_v21 fn_main_v21,
    StableHlo.binary main_v18 main_v21 main_v22 fn_main_v22,
    StableHlo.nullary main_c_10 cv_main_c_10,
    StableHlo.TRef.unary (.of main_c_10 : StableHlo.TRef sig ⟨S_, .i32⟩) main_call7.v0 fn_main_call7_v0,
    StableHlo.TRef.unary main_call7.v0 main_call7.v1 fn_main_call7_v1,
    StableHlo.TRef.ternary (.of main_v22 : StableHlo.TRef sig ⟨S1048576, .i1⟩) main_call7.v1 (.of main_v15 : StableHlo.TRef sig ⟨S1048576, .i32⟩) main_call7.v2 fn_main_v23,
    StableHlo.nullary main_c_11 cv_main_c_11,
    StableHlo.TRef.unary (.of main_c_11 : StableHlo.TRef sig ⟨S_, .i32⟩) main_call8.v0 fn_main_call8_v0,
    StableHlo.TRef.unary main_call8.v0 main_call8.v1 fn_main_call8_v1,
    StableHlo.TRef.ternary (.of main_v22 : StableHlo.TRef sig ⟨S1048576, .i1⟩) main_call8.v1 (.of main_v17 : StableHlo.TRef sig ⟨S1048576, .i32⟩) main_call8.v2 fn_main_v24,
    StableHlo.unary main_v23 main_v25 fn_main_v25,
    StableHlo.unary main_v24 main_v26 fn_main_v26,
    StableHlo.binary main_v25 main_v26 main_v27 fn_main_v27,
    StableHlo.binary main_arg0 main_arg2 main_v28 fn_main_v28,
    StableHlo.unary main_v27 main_v29 fn_main_v29,
    StableHlo.reshape main_v29 main_v30 rfl shapeCasts_S1x1048576_S1048576,
    StableHlo.nullary main_c_12 cv_main_c_12,
    StableHlo.unary main_c_12 main_v31 fn_main_v31,
    StableHlo.binary main_v30 main_v31 main_v32 fn_main_v32,
    StableHlo.nullary main_c_13 cv_main_c_13,
    StableHlo.unary main_c_13 main_v33 fn_main_v33,
    StableHlo.binary main_v30 main_v33 main_v34 fn_main_v34,
    StableHlo.ternary main_v32 main_v34 main_v30 main_v35 fn_main_v35,
    StableHlo.unary main_v35 main_v36 fn_main_v36,
    StableHlo.binary main_v28 main_v36 main_v37 fn_main_v37,
    StableHlo.unary main_v27 main_v38 fn_main_v38,
    StableHlo.reshape main_v38 main_v39 rfl shapeCasts_S1x1048576_S1048576,
    StableHlo.nullary main_c_14 cv_main_c_14,
    StableHlo.unary main_c_14 main_v40 fn_main_v40,
    StableHlo.binary main_v39 main_v40 main_v41 fn_main_v41,
    StableHlo.nullary main_c_15 cv_main_c_15,
    StableHlo.unary main_c_15 main_v42 fn_main_v42 ]

/-- The operations of main_part1. -/
abbrev ops_main_part1 : List (HloOp τ sig (Elt F)) :=
  [ StableHlo.binary main_v39 main_v42 main_v43 fn_main_v43,
    StableHlo.ternary main_v41 main_v43 main_v39 main_v44 fn_main_v44,
    StableHlo.unary main_v44 main_v45 fn_main_v45,
    StableHlo.binary main_v28 main_v45 main_v46 fn_main_v46,
    StableHlo.binary main_v37 main_v46 main_v47 fn_main_v47,
    StableHlo.unary main_v47 main_v48 fn_main_v48,
    StableHlo.unary main_arg3 main_v49 fn_main_v49,
    StableHlo.binary main_v49 main_v48 main_v50 fn_main_v50,
    StableHlo.reshape main_v50 main_v51 rfl shapeCasts_S1x1048576_S1048576,
    StableHlo.nullary main_cst cv_main_cst,
    StableHlo.TRef.nullary main_call9.cst cv_main_call9_cst,
    StableHlo.TRef.unary main_call9.cst main_call9.v0 fn_main_call9_v0,
    StableHlo.TRef.binary (.of main_v51 : StableHlo.TRef sig ⟨S1048576, .f32⟩) main_call9.v0 main_call9.v1 fn_main_call9_v1,
    StableHlo.TRef.unary (.of main_cst : StableHlo.TRef sig ⟨S_, .f32⟩) main_call9.v2 fn_main_call9_v2,
    StableHlo.TRef.unary main_call9.v2 main_call9.v3 fn_main_call9_v3,
    StableHlo.TRef.binary main_call9.v3 (.of main_v51 : StableHlo.TRef sig ⟨S1048576, .f32⟩) main_call9.v4 fn_main_call9_v4,
    StableHlo.TRef.ternary main_call9.v1 (.of main_v51 : StableHlo.TRef sig ⟨S1048576, .f32⟩) main_call9.v4 main_call9.call0.v0 fn_main_v52,
    StableHlo.unary main_v52 main_v53 fn_main_v53,
    StableHlo.unary main_v53 main_v54 fn_main_v54,
    StableHlo.nullary main_cst_16 cv_main_cst_16,
    StableHlo.unary main_cst_16 main_v55 fn_main_v55,
    StableHlo.unary main_v27 main_v56 fn_main_v56,
    StableHlo.reshape main_v56 main_v57 rfl shapeCasts_S1x1048576_S1048576,
    StableHlo.unary main_v54 main_v58 fn_main_v58,
    StableHlo.nullary main_c_17 cv_main_c_17,
    StableHlo.unary main_c_17 main_v59 fn_main_v59,
    StableHlo.binary main_v57 main_v59 main_v60 fn_main_v60,
    StableHlo.nullary main_c_18 cv_main_c_18,
    StableHlo.unary main_c_18 main_v61 fn_main_v61,
    StableHlo.binary main_v57 main_v61 main_v62 fn_main_v62,
    StableHlo.ternary main_v60 main_v62 main_v57 main_v63 fn_main_v63,
    StableHlo.unary main_v63 main_v64 fn_main_v64,
    StableHlo.ternary main_v55 main_v64 main_v58 main_v65 fn_main_v65,
    StableHlo.nullary main_cst_19 cv_main_cst_19,
    StableHlo.unary main_cst_19 main_v66 fn_main_v66,
    StableHlo.unary main_v27 main_v67 fn_main_v67,
    StableHlo.reshape main_v67 main_v68 rfl shapeCasts_S1x1048576_S1048576,
    StableHlo.unary main_v54 main_v69 fn_main_v69,
    StableHlo.unary main_v27 main_v70 fn_main_v70,
    StableHlo.reshape main_v70 main_v71 rfl shapeCasts_S1x1048576_S1048576,
    StableHlo.nullary main_c_20 cv_main_c_20,
    StableHlo.unary main_c_20 main_v72 fn_main_v72,
    StableHlo.binary main_v71 main_v72 main_v73 fn_main_v73,
    StableHlo.nullary main_c_21 cv_main_c_21,
    StableHlo.unary main_c_21 main_v74 fn_main_v74,
    StableHlo.binary main_v71 main_v74 main_v75 fn_main_v75,
    StableHlo.ternary main_v73 main_v75 main_v71 main_v76 fn_main_v76,
    StableHlo.unary main_v76 main_v77 fn_main_v77,
    StableHlo.binary main_v28 main_v77 main_v78 fn_main_v78,
    StableHlo.unary main_v69 main_v79 fn_main_v79,
    StableHlo.binary main_v79 main_v78 main_v80 fn_main_v80,
    StableHlo.nullary main_c_22 cv_main_c_22,
    StableHlo.unary main_c_22 main_v81 fn_main_v81,
    StableHlo.binary main_v68 main_v81 main_v82 fn_main_v82,
    StableHlo.nullary main_c_23 cv_main_c_23,
    StableHlo.unary main_c_23 main_v83 fn_main_v83,
    StableHlo.binary main_v68 main_v83 main_v84 fn_main_v84,
    StableHlo.ternary main_v82 main_v84 main_v68 main_v85 fn_main_v85,
    StableHlo.unary main_v85 main_v86 fn_main_v86,
    StableHlo.ternary main_v66 main_v86 main_v80 main_v87 fn_main_v87,
    StableHlo.nullary main_cst_24 cv_main_cst_24,
    StableHlo.unary main_cst_24 main_v88 fn_main_v88,
    StableHlo.binary main_v65 main_v88 main_v89 fn_main_v89,
    StableHlo.unary main_v89 main_v90 fn_main_v90,
    StableHlo.binary main_v87 main_v90 main_v91 fn_main_v91,
    StableHlo.TRef.nullary main_call10.cst cv_main_call10_cst,
    StableHlo.TRef.unary main_call10.cst main_call10.v0 fn_main_call10_v0,
    StableHlo.TRef.binary (.of main_v91 : StableHlo.TRef sig ⟨S1024x128, .f32⟩) main_call10.v0 main_call10.v1 fn_main_call10_v1,
    StableHlo.TRef.nullary main_call10.cst_0 cv_main_call10_cst_0,
    StableHlo.TRef.unary main_call10.cst_0 main_call10.v2 fn_main_call10_v2,
    StableHlo.TRef.binary (.of main_v91 : StableHlo.TRef sig ⟨S1024x128, .f32⟩) main_call10.v2 main_call10.v3 fn_main_call10_v3,
    StableHlo.TRef.nullary main_call10.cst_1 cv_main_call10_cst_1,
    StableHlo.TRef.unary main_call10.cst_1 main_call10.call0.v0 fn_main_call10_call0_v0,
    StableHlo.TRef.unary main_call10.call0.v0 main_call10.call0.v1 fn_main_call10_call0_v1,
    StableHlo.TRef.ternary main_call10.v3 main_call10.call0.v1 (.of main_v91 : StableHlo.TRef sig ⟨S1024x128, .f32⟩) main_call10.call0.v2 fn_main_call10_v4,
    StableHlo.TRef.unary main_call10.call0.v2 main_call10.v5 fn_main_call10_v5,
    StableHlo.TRef.nullary main_call10.cst_2 cv_main_call10_cst_2,
    StableHlo.TRef.unary main_call10.cst_2 main_call10.v6 fn_main_call10_v6,
    StableHlo.TRef.binary main_call10.v6 main_call10.v5 main_call10.v7 fn_main_call10_v7,
    StableHlo.TRef.ternary main_call10.v1 (.of main_v91 : StableHlo.TRef sig ⟨S1024x128, .f32⟩) main_call10.v7 main_call10.call1.v0 fn_main_v92 ]

/-- The operations of main_part2. -/
abbrev ops_main_part2 : List (HloOp τ sig (Elt F)) :=
  []

/-- What window 1 leaves in main_v1, of what it finds in main_arg1: one let per operation. -/
def st_main_v1 (x_main_arg1 : (⟨S1024x1024, .i32⟩ : BufTy).Contents (Elt F)) : (⟨S1024x1024, .i1⟩ : BufTy).Contents (Elt F) :=
  let x_main_c : (⟨S_, .i32⟩ : BufTy).Contents (Elt F) := (constantI S_ 32 0#32)
  let x_main_v0 : (⟨S1024x1024, .i32⟩ : BufTy).Contents (Elt F) := fn_main_v0 x_main_c
  let x_main_v1 : (⟨S1024x1024, .i1⟩ : BufTy).Contents (Elt F) := fn_main_v1 x_main_arg1 x_main_v0
  x_main_v1

/-- What window 1 leaves in main_v2, of what it finds in main_arg1: one let per operation. -/
def st_main_v2 (x_main_arg1 : (⟨S1024x1024, .i32⟩ : BufTy).Contents (Elt F)) : (⟨S1048576, .i32⟩ : BufTy).Contents (Elt F) :=
  let x_main_c : (⟨S_, .i32⟩ : BufTy).Contents (Elt F) := (constantI S_ 32 0#32)
  let x_main_v0 : (⟨S1024x1024, .i32⟩ : BufTy).Contents (Elt F) := fn_main_v0 x_main_c
  let x_main_v1 : (⟨S1024x1024, .i1⟩ : BufTy).Contents (Elt F) := fn_main_v1 x_main_arg1 x_main_v0
  let x_main_call0_v0 : (⟨S1048576, .i1⟩ : BufTy).Contents (Elt F) := shapeCast S1048576 x_main_v1 shapeCasts_S1024x1024_S1048576
  let x_main_call0_v1 : (⟨S1048576, .i32⟩ : BufTy).Contents (Elt F) := fn_main_call0_v1 x_main_call0_v0
  let x_main_call0_call0_c : (⟨S_, .i32⟩ : BufTy).Contents (Elt F) := (constantI S_ 32 0#32)
  let x_main_call0_call0_v0 : (⟨S_, .i32⟩ : BufTy).Contents (Elt F) := fn_main_call0_call0_v0 x_main_call0_call0_c
  let x_main_v2 : (⟨S1048576, .i32⟩ : BufTy).Contents (Elt F) := fn_main_v2 x_main_call0_v1 x_main_call0_call0_v0
  x_main_v2

/-- What window 2 leaves in main_v13, of what it finds in main_v2: one let per operation. -/
def st_main_v13 (x_main_v2 : (⟨S1048576, .i32⟩ : BufTy).Contents (Elt F)) : (⟨S1048576, .i32⟩ : BufTy).Contents (Elt F) :=
  let x_main_c_0 : (⟨S_, .i32⟩ : BufTy).Contents (Elt F) := (constantI S_ 32 0#32)
  let x_main_v3 : (⟨S1048576, .i32⟩ : BufTy).Contents (Elt F) := fn_main_v3 x_main_c_0
  let x_main_c_1 : (⟨S_, .i32⟩ : BufTy).Contents (Elt F) := (constantI S_ 32 0#32)
  let x_main_call1_v0 : (⟨S_, .i32⟩ : BufTy).Contents (Elt F) := fn_main_call1_v0 x_main_c_1
  let x_main_call1_v1 : (⟨S1048576, .i32⟩ : BufTy).Contents (Elt F) := fn_main_call1_v1 x_main_call1_v0
  let x_main_v4 : (⟨S1048576, .i32⟩ : BufTy).Contents (Elt F) := fn_main_v4 x_main_call1_v1 x_main_v2
  let x_main_c_2 : (⟨S_, .i32⟩ : BufTy).Contents (Elt F) := (constantI S_ 32 0#32)
  let x_main_v5 : (⟨S1048576, .i32⟩ : BufTy).Contents (Elt F) := fn_main_v5 x_main_c_2
  let x_main_v6 : (⟨S1048576, .i1⟩ : BufTy).Contents (Elt F) := fn_main_v6 x_main_v4 x_main_v5
  let x_main_c_3 : (⟨S_, .i32⟩ : BufTy).Contents (Elt F) := (constantI S_ 32 1048576#32)
  let x_main_v7 : (⟨S1048576, .i32⟩ : BufTy).Contents (Elt F) := fn_main_v7 x_main_c_3
  let x_main_v8 : (⟨S1048576, .i32⟩ : BufTy).Contents (Elt F) := fn_main_v8 x_main_v4 x_main_v7
  let x_main_v9 : (⟨S1048576, .i32⟩ : BufTy).Contents (Elt F) := fn_main_v9 x_main_v6 x_main_v8 x_main_v4
  let x_main_v10 : (⟨S1048576x1, .i32⟩ : BufTy).Contents (Elt F) := fn_main_v10 x_main_v9
  let x_main_c_4 : (⟨S_, .i32⟩ : BufTy).Contents (Elt F) := (constantI S_ 32 1#32)
  let x_main_v11 : (⟨S1048576, .i32⟩ : BufTy).Contents (Elt F) := fn_main_v11 x_main_c_4
  let x_main_v12 : (⟨S1048576, .i32⟩ : BufTy).Contents (Elt F) := fn_main_v12 x_main_v3 x_main_v10 x_main_v11
  let x_main_call2_call0_c : (⟨S_, .i32⟩ : BufTy).Contents (Elt F) := (constantI S_ 32 0#32)
  let x_main_call2_call0_v0 : (⟨S_, .i32⟩ : BufTy).Contents (Elt F) := fn_main_call2_call0_v0 x_main_call2_call0_c
  let x_main_v13 : (⟨S1048576, .i32⟩ : BufTy).Contents (Elt F) := fn_main_v13 x_main_v12 x_main_call2_call0_v0
  x_main_v13

/-- What window 3 leaves in main_v14, of what it finds in main_v13: one let per operation. -/
def st_main_v14 (x_main_v13 : (⟨S1048576, .i32⟩ : BufTy).Contents (Elt F)) : (⟨S1048576, .i32⟩ : BufTy).Contents (Elt F) :=
  let x_main_c_5 : (⟨S_, .i32⟩ : BufTy).Contents (Elt F) := (constantI S_ 32 1024#32)
  let x_main_call3_v0 : (⟨S1048576, .i32⟩ : BufTy).Contents (Elt F) := fn_main_call3_v0 x_main_c_5
  let x_main_call3_v1 : (⟨S1048576, .i32⟩ : BufTy).Contents (Elt F) := fn_main_call3_v1 x_main_v13 x_main_call3_v0
  let x_main_call3_v2 : (⟨S1048576, .i32⟩ : BufTy).Contents (Elt F) := fn_main_call3_v2 x_main_v13
  let x_main_call3_v3 : (⟨S_, .i32⟩ : BufTy).Contents (Elt F) := fn_main_call3_v3 x_main_c_5
  let x_main_call3_v4 : (⟨S1048576, .i32⟩ : BufTy).Contents (Elt F) := fn_main_call3_v4 x_main_call3_v3
  let x_main_call3_v5 : (⟨S1048576, .i1⟩ : BufTy).Contents (Elt F) := fn_main_call3_v5 x_main_call3_v2 x_main_call3_v4
  let x_main_call3_v6 : (⟨S1048576, .i32⟩ : BufTy).Contents (Elt F) := fn_main_call3_v6 x_main_c_5
  let x_main_call3_v7 : (⟨S1048576, .i32⟩ : BufTy).Contents (Elt F) := fn_main_call3_v7 x_main_v13 x_main_call3_v6
  let x_main_call3_c : (⟨S_, .i32⟩ : BufTy).Contents (Elt F) := (constantI S_ 32 0#32)
  let x_main_call3_v8 : (⟨S1048576, .i32⟩ : BufTy).Contents (Elt F) := fn_main_call3_v8 x_main_call3_c
  let x_main_call3_v9 : (⟨S1048576, .i1⟩ : BufTy).Contents (Elt F) := fn_main_call3_v9 x_main_call3_v7 x_main_call3_v8
  let x_main_call3_v10 : (⟨S1048576, .i1⟩ : BufTy).Contents (Elt F) := fn_main_call3_v10 x_main_call3_v5 x_main_call3_v9
  let x_main_call3_c_0 : (⟨S_, .i32⟩ : BufTy).Contents (Elt F) := (constantI S_ 32 1#32)
  let x_main_call3_v11 : (⟨S1048576, .i32⟩ : BufTy).Contents (Elt F) := fn_main_call3_v11 x_main_call3_c_0
  let x_main_call3_v12 : (⟨S1048576, .i32⟩ : BufTy).Contents (Elt F) := fn_main_call3_v12 x_main_call3_v1 x_main_call3_v11
  let x_main_v14 : (⟨S1048576, .i32⟩ : BufTy).Contents (Elt F) := fn_main_v14 x_main_call3_v10 x_main_call3_v12 x_main_call3_v1
  x_main_v14

/-- What window 4 leaves in main_v15, of what it finds in main_v14: one let per operation. -/
def st_main_v15 (x_main_v14 : (⟨S1048576, .i32⟩ : BufTy).Contents (Elt F)) : (⟨S1048576, .i32⟩ : BufTy).Contents (Elt F) :=
  let x_main_c_6 : (⟨S_, .i32⟩ : BufTy).Contents (Elt F) := (constantI S_ 32 1024#32)
  let x_main_call4_v0 : (⟨S_, .i32⟩ : BufTy).Contents (Elt F) := fn_main_call4_v0 x_main_c_6
  let x_main_call4_c : (⟨S_, .i32⟩ : BufTy).Contents (Elt F) := (constantI S_ 32 0#32)
  let x_main_call4_v1 : (⟨S_, .i1⟩ : BufTy).Contents (Elt F) := fn_main_call4_v1 x_main_call4_v0 x_main_call4_c
  let x_main_call4_c_0 : (⟨S_, .i32⟩ : BufTy).Contents (Elt F) := (constantI S_ 32 1#32)
  let x_main_call4_v2 : (⟨S_, .i32⟩ : BufTy).Contents (Elt F) := fn_main_call4_v2 x_main_call4_v1 x_main_call4_c_0 x_main_call4_v0
  let x_main_call4_v3 : (⟨S1048576, .i32⟩ : BufTy).Contents (Elt F) := fn_main_call4_v3 x_main_call4_v2
  let x_main_call4_v4 : (⟨S1048576, .i32⟩ : BufTy).Contents (Elt F) := fn_main_call4_v4 x_main_v14 x_main_call4_v3
  let x_main_call4_c_1 : (⟨S_, .i32⟩ : BufTy).Contents (Elt F) := (constantI S_ 32 0#32)
  let x_main_call4_v5 : (⟨S1048576, .i32⟩ : BufTy).Contents (Elt F) := fn_main_call4_v5 x_main_call4_c_1
  let x_main_call4_v6 : (⟨S1048576, .i1⟩ : BufTy).Contents (Elt F) := fn_main_call4_v6 x_main_call4_v4 x_main_call4_v5
  let x_main_call4_c_2 : (⟨S_, .i32⟩ : BufTy).Contents (Elt F) := (constantI S_ 32 0#32)
  let x_main_call4_v7 : (⟨S1048576, .i32⟩ : BufTy).Contents (Elt F) := fn_main_call4_v7 x_main_call4_c_2
  let x_main_call4_v8 : (⟨S1048576, .i1⟩ : BufTy).Contents (Elt F) := fn_main_call4_v8 x_main_call4_v4 x_main_call4_v7
  let x_main_call4_c_3 : (⟨S_, .i32⟩ : BufTy).Contents (Elt F) := (constantI S_ 32 0#32)
  let x_main_call4_v9 : (⟨S_, .i1⟩ : BufTy).Contents (Elt F) := fn_main_call4_v9 x_main_call4_v2 x_main_call4_c_3
  let x_main_call4_v10 : (⟨S1048576, .i1⟩ : BufTy).Contents (Elt F) := fn_main_call4_v10 x_main_call4_v9
  let x_main_call4_v11 : (⟨S1048576, .i1⟩ : BufTy).Contents (Elt F) := fn_main_call4_v11 x_main_call4_v8 x_main_call4_v10
  let x_main_call4_v12 : (⟨S1048576, .i1⟩ : BufTy).Contents (Elt F) := fn_main_call4_v12 x_main_call4_v11 x_main_call4_v6
  let x_main_call4_v13 : (⟨S1048576, .i32⟩ : BufTy).Contents (Elt F) := fn_main_call4_v13 x_main_call4_v2
  let x_main_call4_v14 : (⟨S1048576, .i32⟩ : BufTy).Contents (Elt F) := fn_main_call4_v14 x_main_call4_v4 x_main_call4_v13
  let x_main_v15 : (⟨S1048576, .i32⟩ : BufTy).Contents (Elt F) := fn_main_v15 x_main_call4_v12 x_main_call4_v14 x_main_call4_v4
  x_main_v15

/-- What window 5 leaves in main_v16, of what it finds in main_v13: one let per operation. -/
def st_main_v16 (x_main_v13 : (⟨S1048576, .i32⟩ : BufTy).Contents (Elt F)) : (⟨S1048576, .i32⟩ : BufTy).Contents (Elt F) :=
  let x_main_c_7 : (⟨S_, .i32⟩ : BufTy).Contents (Elt F) := (constantI S_ 32 1#32)
  let x_main_call5_v0 : (⟨S1048576, .i32⟩ : BufTy).Contents (Elt F) := fn_main_call5_v0 x_main_c_7
  let x_main_call5_v1 : (⟨S1048576, .i32⟩ : BufTy).Contents (Elt F) := fn_main_call5_v1 x_main_v13 x_main_call5_v0
  let x_main_call5_v2 : (⟨S1048576, .i32⟩ : BufTy).Contents (Elt F) := fn_main_call5_v2 x_main_v13
  let x_main_call5_v3 : (⟨S_, .i32⟩ : BufTy).Contents (Elt F) := fn_main_call5_v3 x_main_c_7
  let x_main_call5_v4 : (⟨S1048576, .i32⟩ : BufTy).Contents (Elt F) := fn_main_call5_v4 x_main_call5_v3
  let x_main_call5_v5 : (⟨S1048576, .i1⟩ : BufTy).Contents (Elt F) := fn_main_call5_v5 x_main_call5_v2 x_main_call5_v4
  let x_main_call5_v6 : (⟨S1048576, .i32⟩ : BufTy).Contents (Elt F) := fn_main_call5_v6 x_main_c_7
  let x_main_call5_v7 : (⟨S1048576, .i32⟩ : BufTy).Contents (Elt F) := fn_main_call5_v7 x_main_v13 x_main_call5_v6
  let x_main_call5_c : (⟨S_, .i32⟩ : BufTy).Contents (Elt F) := (constantI S_ 32 0#32)
  let x_main_call5_v8 : (⟨S1048576, .i32⟩ : BufTy).Contents (Elt F) := fn_main_call5_v8 x_main_call5_c
  let x_main_call5_v9 : (⟨S1048576, .i1⟩ : BufTy).Contents (Elt F) := fn_main_call5_v9 x_main_call5_v7 x_main_call5_v8
  let x_main_call5_v10 : (⟨S1048576, .i1⟩ : BufTy).Contents (Elt F) := fn_main_call5_v10 x_main_call5_v5 x_main_call5_v9
  let x_main_call5_c_0 : (⟨S_, .i32⟩ : BufTy).Contents (Elt F) := (constantI S_ 32 1#32)
  let x_main_call5_v11 : (⟨S1048576, .i32⟩ : BufTy).Contents (Elt F) := fn_main_call5_v11 x_main_call5_c_0
  let x_main_call5_v12 : (⟨S1048576, .i32⟩ : BufTy).Contents (Elt F) := fn_main_call5_v12 x_main_call5_v1 x_main_call5_v11
  let x_main_v16 : (⟨S1048576, .i32⟩ : BufTy).Contents (Elt F) := fn_main_v16 x_main_call5_v10 x_main_call5_v12 x_main_call5_v1
  x_main_v16

/-- What window 6 leaves in main_v17, of what it finds in main_v16: one let per operation. -/
def st_main_v17 (x_main_v16 : (⟨S1048576, .i32⟩ : BufTy).Contents (Elt F)) : (⟨S1048576, .i32⟩ : BufTy).Contents (Elt F) :=
  let x_main_c_8 : (⟨S_, .i32⟩ : BufTy).Contents (Elt F) := (constantI S_ 32 1024#32)
  let x_main_call6_v0 : (⟨S_, .i32⟩ : BufTy).Contents (Elt F) := fn_main_call6_v0 x_main_c_8
  let x_main_call6_c : (⟨S_, .i32⟩ : BufTy).Contents (Elt F) := (constantI S_ 32 0#32)
  let x_main_call6_v1 : (⟨S_, .i1⟩ : BufTy).Contents (Elt F) := fn_main_call6_v1 x_main_call6_v0 x_main_call6_c
  let x_main_call6_c_0 : (⟨S_, .i32⟩ : BufTy).Contents (Elt F) := (constantI S_ 32 1#32)
  let x_main_call6_v2 : (⟨S_, .i32⟩ : BufTy).Contents (Elt F) := fn_main_call6_v2 x_main_call6_v1 x_main_call6_c_0 x_main_call6_v0
  let x_main_call6_v3 : (⟨S1048576, .i32⟩ : BufTy).Contents (Elt F) := fn_main_call6_v3 x_main_call6_v2
  let x_main_call6_v4 : (⟨S1048576, .i32⟩ : BufTy).Contents (Elt F) := fn_main_call6_v4 x_main_v16 x_main_call6_v3
  let x_main_call6_c_1 : (⟨S_, .i32⟩ : BufTy).Contents (Elt F) := (constantI S_ 32 0#32)
  let x_main_call6_v5 : (⟨S1048576, .i32⟩ : BufTy).Contents (Elt F) := fn_main_call6_v5 x_main_call6_c_1
  let x_main_call6_v6 : (⟨S1048576, .i1⟩ : BufTy).Contents (Elt F) := fn_main_call6_v6 x_main_call6_v4 x_main_call6_v5
  let x_main_call6_c_2 : (⟨S_, .i32⟩ : BufTy).Contents (Elt F) := (constantI S_ 32 0#32)
  let x_main_call6_v7 : (⟨S1048576, .i32⟩ : BufTy).Contents (Elt F) := fn_main_call6_v7 x_main_call6_c_2
  let x_main_call6_v8 : (⟨S1048576, .i1⟩ : BufTy).Contents (Elt F) := fn_main_call6_v8 x_main_call6_v4 x_main_call6_v7
  let x_main_call6_c_3 : (⟨S_, .i32⟩ : BufTy).Contents (Elt F) := (constantI S_ 32 0#32)
  let x_main_call6_v9 : (⟨S_, .i1⟩ : BufTy).Contents (Elt F) := fn_main_call6_v9 x_main_call6_v2 x_main_call6_c_3
  let x_main_call6_v10 : (⟨S1048576, .i1⟩ : BufTy).Contents (Elt F) := fn_main_call6_v10 x_main_call6_v9
  let x_main_call6_v11 : (⟨S1048576, .i1⟩ : BufTy).Contents (Elt F) := fn_main_call6_v11 x_main_call6_v8 x_main_call6_v10
  let x_main_call6_v12 : (⟨S1048576, .i1⟩ : BufTy).Contents (Elt F) := fn_main_call6_v12 x_main_call6_v11 x_main_call6_v6
  let x_main_call6_v13 : (⟨S1048576, .i32⟩ : BufTy).Contents (Elt F) := fn_main_call6_v13 x_main_call6_v2
  let x_main_call6_v14 : (⟨S1048576, .i32⟩ : BufTy).Contents (Elt F) := fn_main_call6_v14 x_main_call6_v4 x_main_call6_v13
  let x_main_v17 : (⟨S1048576, .i32⟩ : BufTy).Contents (Elt F) := fn_main_v17 x_main_call6_v12 x_main_call6_v14 x_main_call6_v4
  x_main_v17

/-- What window 7 leaves in main_v27, of what it finds in main_v1, main_v15, main_v17: one let per operation. -/
def st_main_v27 (x_main_v1 : (⟨S1024x1024, .i1⟩ : BufTy).Contents (Elt F)) (x_main_v15 : (⟨S1048576, .i32⟩ : BufTy).Contents (Elt F)) (x_main_v17 : (⟨S1048576, .i32⟩ : BufTy).Contents (Elt F)) : (⟨S2x1048576, .i32⟩ : BufTy).Contents (Elt F) :=
  let x_main_v18 : (⟨S1048576, .i32⟩ : BufTy).Contents (Elt F) := (iotaInDim S1048576 32 0)
  let x_main_v19 : (⟨S1024x1024, .i32⟩ : BufTy).Contents (Elt F) := fn_main_v19 x_main_v1
  let x_main_c_9 : (⟨S_, .i32⟩ : BufTy).Contents (Elt F) := (constantI S_ 32 0#32)
  let x_main_v20 : (⟨S_, .i32⟩ : BufTy).Contents (Elt F) := fn_main_v20 x_main_v19 x_main_c_9
  let x_main_v21 : (⟨S1048576, .i32⟩ : BufTy).Contents (Elt F) := fn_main_v21 x_main_v20
  let x_main_v22 : (⟨S1048576, .i1⟩ : BufTy).Contents (Elt F) := fn_main_v22 x_main_v18 x_main_v21
  let x_main_c_10 : (⟨S_, .i32⟩ : BufTy).Contents (Elt F) := (constantI S_ 32 1024#32)
  let x_main_call7_v0 : (⟨S_, .i32⟩ : BufTy).Contents (Elt F) := fn_main_call7_v0 x_main_c_10
  let x_main_call7_v1 : (⟨S1048576, .i32⟩ : BufTy).Contents (Elt F) := fn_main_call7_v1 x_main_call7_v0
  let x_main_v23 : (⟨S1048576, .i32⟩ : BufTy).Contents (Elt F) := fn_main_v23 x_main_v22 x_main_call7_v1 x_main_v15
  let x_main_c_11 : (⟨S_, .i32⟩ : BufTy).Contents (Elt F) := (constantI S_ 32 1024#32)
  let x_main_call8_v0 : (⟨S_, .i32⟩ : BufTy).Contents (Elt F) := fn_main_call8_v0 x_main_c_11
  let x_main_call8_v1 : (⟨S1048576, .i32⟩ : BufTy).Contents (Elt F) := fn_main_call8_v1 x_main_call8_v0
  let x_main_v24 : (⟨S1048576, .i32⟩ : BufTy).Contents (Elt F) := fn_main_v24 x_main_v22 x_main_call8_v1 x_main_v17
  let x_main_v25 : (⟨S1x1048576, .i32⟩ : BufTy).Contents (Elt F) := fn_main_v25 x_main_v23
  let x_main_v26 : (⟨S1x1048576, .i32⟩ : BufTy).Contents (Elt F) := fn_main_v26 x_main_v24
  let x_main_v27 : (⟨S2x1048576, .i32⟩ : BufTy).Contents (Elt F) := fn_main_v27 x_main_v25 x_main_v26
  x_main_v27

/-- What window 8 leaves in main_v28, of what it finds in main_arg0, main_arg2: one let per operation. -/
def st_main_v28 (x_main_arg0 : (⟨S1024x128, .f32⟩ : BufTy).Contents (Elt F)) (x_main_arg2 : (⟨S128x128, .f32⟩ : BufTy).Contents (Elt F)) : (⟨S1024x128, .f32⟩ : BufTy).Contents (Elt F) :=
  let x_main_v28 : (⟨S1024x128, .f32⟩ : BufTy).Contents (Elt F) := fn_main_v28 x_main_arg0 x_main_arg2
  x_main_v28

/-- What window 9 leaves in main_v37, of what it finds in main_v27, main_v28: one let per operation. -/
def st_main_v37 (x_main_v27 : (⟨S2x1048576, .i32⟩ : BufTy).Contents (Elt F)) (x_main_v28 : (⟨S1024x128, .f32⟩ : BufTy).Contents (Elt F)) : (⟨S1048576x128, .f32⟩ : BufTy).Contents (Elt F) :=
  let x_main_v29 : (⟨S1x1048576, .i32⟩ : BufTy).Contents (Elt F) := fn_main_v29 x_main_v27
  let x_main_v30 : (⟨S1048576, .i32⟩ : BufTy).Contents (Elt F) := shapeCast S1048576 x_main_v29 shapeCasts_S1x1048576_S1048576
  let x_main_c_12 : (⟨S_, .i32⟩ : BufTy).Contents (Elt F) := (constantI S_ 32 0#32)
  let x_main_v31 : (⟨S1048576, .i32⟩ : BufTy).Contents (Elt F) := fn_main_v31 x_main_c_12
  let x_main_v32 : (⟨S1048576, .i1⟩ : BufTy).Contents (Elt F) := fn_main_v32 x_main_v30 x_main_v31
  let x_main_c_13 : (⟨S_, .i32⟩ : BufTy).Contents (Elt F) := (constantI S_ 32 1024#32)
  let x_main_v33 : (⟨S1048576, .i32⟩ : BufTy).Contents (Elt F) := fn_main_v33 x_main_c_13
  let x_main_v34 : (⟨S1048576, .i32⟩ : BufTy).Contents (Elt F) := fn_main_v34 x_main_v30 x_main_v33
  let x_main_v35 : (⟨S1048576, .i32⟩ : BufTy).Contents (Elt F) := fn_main_v35 x_main_v32 x_main_v34 x_main_v30
  let x_main_v36 : (⟨S1048576x1, .i32⟩ : BufTy).Contents (Elt F) := fn_main_v36 x_main_v35
  let x_main_v37 : (⟨S1048576x128, .f32⟩ : BufTy).Contents (Elt F) := fn_main_v37 x_main_v28 x_main_v36
  x_main_v37

/-- What window 10 leaves in main_v46, of what it finds in main_v27, main_v28: one let per operation. -/
def st_main_v46 (x_main_v27 : (⟨S2x1048576, .i32⟩ : BufTy).Contents (Elt F)) (x_main_v28 : (⟨S1024x128, .f32⟩ : BufTy).Contents (Elt F)) : (⟨S1048576x128, .f32⟩ : BufTy).Contents (Elt F) :=
  let x_main_v38 : (⟨S1x1048576, .i32⟩ : BufTy).Contents (Elt F) := fn_main_v38 x_main_v27
  let x_main_v39 : (⟨S1048576, .i32⟩ : BufTy).Contents (Elt F) := shapeCast S1048576 x_main_v38 shapeCasts_S1x1048576_S1048576
  let x_main_c_14 : (⟨S_, .i32⟩ : BufTy).Contents (Elt F) := (constantI S_ 32 0#32)
  let x_main_v40 : (⟨S1048576, .i32⟩ : BufTy).Contents (Elt F) := fn_main_v40 x_main_c_14
  let x_main_v41 : (⟨S1048576, .i1⟩ : BufTy).Contents (Elt F) := fn_main_v41 x_main_v39 x_main_v40
  let x_main_c_15 : (⟨S_, .i32⟩ : BufTy).Contents (Elt F) := (constantI S_ 32 1024#32)
  let x_main_v42 : (⟨S1048576, .i32⟩ : BufTy).Contents (Elt F) := fn_main_v42 x_main_c_15
  let x_main_v43 : (⟨S1048576, .i32⟩ : BufTy).Contents (Elt F) := fn_main_v43 x_main_v39 x_main_v42
  let x_main_v44 : (⟨S1048576, .i32⟩ : BufTy).Contents (Elt F) := fn_main_v44 x_main_v41 x_main_v43 x_main_v39
  let x_main_v45 : (⟨S1048576x1, .i32⟩ : BufTy).Contents (Elt F) := fn_main_v45 x_main_v44
  let x_main_v46 : (⟨S1048576x128, .f32⟩ : BufTy).Contents (Elt F) := fn_main_v46 x_main_v28 x_main_v45
  x_main_v46

/-- What window 11 leaves in main_v51, of what it finds in main_v37, main_v46, main_arg3: one let per operation. -/
def st_main_v51 (x_main_v37 : (⟨S1048576x128, .f32⟩ : BufTy).Contents (Elt F)) (x_main_v46 : (⟨S1048576x128, .f32⟩ : BufTy).Contents (Elt F)) (x_main_arg3 : (⟨S256x1, .f32⟩ : BufTy).Contents (Elt F)) : (⟨S1048576, .f32⟩ : BufTy).Contents (Elt F) :=
  let x_main_v47 : (⟨S1048576x256, .f32⟩ : BufTy).Contents (Elt F) := fn_main_v47 x_main_v37 x_main_v46
  let x_main_v48 : (⟨S256x1048576, .f32⟩ : BufTy).Contents (Elt F) := fn_main_v48 x_main_v47
  let x_main_v49 : (⟨S1x256, .f32⟩ : BufTy).Contents (Elt F) := fn_main_v49 x_main_arg3
  let x_main_v50 : (⟨S1x1048576, .f32⟩ : BufTy).Contents (Elt F) := fn_main_v50 x_main_v49 x_main_v48
  let x_main_v51 : (⟨S1048576, .f32⟩ : BufTy).Contents (Elt F) := shapeCast S1048576 x_main_v50 shapeCasts_S1x1048576_S1048576
  x_main_v51

/-- What window 12 leaves in main_v54, of what it finds in main_v51: one let per operation. -/
def st_main_v54 (x_main_v51 : (⟨S1048576, .f32⟩ : BufTy).Contents (Elt F)) : (⟨S1048576, .f32⟩ : BufTy).Contents (Elt F) :=
  let x_main_cst : (⟨S_, .f32⟩ : BufTy).Contents (Elt F) := (constant S_ .f32 0x3E4CCCCD#32)
  let x_main_call9_cst : (⟨S_, .f32⟩ : BufTy).Contents (Elt F) := (constant S_ .f32 0x00000000#32)
  let x_main_call9_v0 : (⟨S1048576, .f32⟩ : BufTy).Contents (Elt F) := fn_main_call9_v0 x_main_call9_cst
  let x_main_call9_v1 : (⟨S1048576, .i1⟩ : BufTy).Contents (Elt F) := fn_main_call9_v1 x_main_v51 x_main_call9_v0
  let x_main_call9_v2 : (⟨S_, .f32⟩ : BufTy).Contents (Elt F) := fn_main_call9_v2 x_main_cst
  let x_main_call9_v3 : (⟨S1048576, .f32⟩ : BufTy).Contents (Elt F) := fn_main_call9_v3 x_main_call9_v2
  let x_main_call9_v4 : (⟨S1048576, .f32⟩ : BufTy).Contents (Elt F) := fn_main_call9_v4 x_main_call9_v3 x_main_v51
  let x_main_v52 : (⟨S1048576, .f32⟩ : BufTy).Contents (Elt F) := fn_main_v52 x_main_call9_v1 x_main_v51 x_main_call9_v4
  let x_main_v53 : (⟨S1048576, .f32⟩ : BufTy).Contents (Elt F) := fn_main_v53 x_main_v52
  let x_main_v54 : (⟨S1048576, .f32⟩ : BufTy).Contents (Elt F) := fn_main_v54 x_main_v53
  x_main_v54

/-- What window 13 leaves in main_v65, of what it finds in main_v27, main_v54: one let per operation. -/
def st_main_v65 (x_main_v27 : (⟨S2x1048576, .i32⟩ : BufTy).Contents (Elt F)) (x_main_v54 : (⟨S1048576, .f32⟩ : BufTy).Contents (Elt F)) : (⟨S1024x1, .f32⟩ : BufTy).Contents (Elt F) :=
  let x_main_cst_16 : (⟨S_, .f32⟩ : BufTy).Contents (Elt F) := (constant S_ .f32 0x00000000#32)
  let x_main_v55 : (⟨S1024x1, .f32⟩ : BufTy).Contents (Elt F) := fn_main_v55 x_main_cst_16
  let x_main_v56 : (⟨S1x1048576, .i32⟩ : BufTy).Contents (Elt F) := fn_main_v56 x_main_v27
  let x_main_v57 : (⟨S1048576, .i32⟩ : BufTy).Contents (Elt F) := shapeCast S1048576 x_main_v56 shapeCasts_S1x1048576_S1048576
  let x_main_v58 : (⟨S1048576x1, .f32⟩ : BufTy).Contents (Elt F) := fn_main_v58 x_main_v54
  let x_main_c_17 : (⟨S_, .i32⟩ : BufTy).Contents (Elt F) := (constantI S_ 32 0#32)
  let x_main_v59 : (⟨S1048576, .i32⟩ : BufTy).Contents (Elt F) := fn_main_v59 x_main_c_17
  let x_main_v60 : (⟨S1048576, .i1⟩ : BufTy).Contents (Elt F) := fn_main_v60 x_main_v57 x_main_v59
  let x_main_c_18 : (⟨S_, .i32⟩ : BufTy).Contents (Elt F) := (constantI S_ 32 1024#32)
  let x_main_v61 : (⟨S1048576, .i32⟩ : BufTy).Contents (Elt F) := fn_main_v61 x_main_c_18
  let x_main_v62 : (⟨S1048576, .i32⟩ : BufTy).Contents (Elt F) := fn_main_v62 x_main_v57 x_main_v61
  let x_main_v63 : (⟨S1048576, .i32⟩ : BufTy).Contents (Elt F) := fn_main_v63 x_main_v60 x_main_v62 x_main_v57
  let x_main_v64 : (⟨S1048576x1, .i32⟩ : BufTy).Contents (Elt F) := fn_main_v64 x_main_v63
  let x_main_v65 : (⟨S1024x1, .f32⟩ : BufTy).Contents (Elt F) := fn_main_v65 x_main_v55 x_main_v64 x_main_v58
  x_main_v65

/-- What window 14 leaves in main_v87, of what it finds in main_v27, main_v54, main_v28: one let per operation. -/
def st_main_v87 (x_main_v27 : (⟨S2x1048576, .i32⟩ : BufTy).Contents (Elt F)) (x_main_v54 : (⟨S1048576, .f32⟩ : BufTy).Contents (Elt F)) (x_main_v28 : (⟨S1024x128, .f32⟩ : BufTy).Contents (Elt F)) : (⟨S1024x128, .f32⟩ : BufTy).Contents (Elt F) :=
  let x_main_cst_19 : (⟨S_, .f32⟩ : BufTy).Contents (Elt F) := (constant S_ .f32 0x00000000#32)
  let x_main_v66 : (⟨S1024x128, .f32⟩ : BufTy).Contents (Elt F) := fn_main_v66 x_main_cst_19
  let x_main_v67 : (⟨S1x1048576, .i32⟩ : BufTy).Contents (Elt F) := fn_main_v67 x_main_v27
  let x_main_v68 : (⟨S1048576, .i32⟩ : BufTy).Contents (Elt F) := shapeCast S1048576 x_main_v67 shapeCasts_S1x1048576_S1048576
  let x_main_v69 : (⟨S1048576x1, .f32⟩ : BufTy).Contents (Elt F) := fn_main_v69 x_main_v54
  let x_main_v70 : (⟨S1x1048576, .i32⟩ : BufTy).Contents (Elt F) := fn_main_v70 x_main_v27
  let x_main_v71 : (⟨S1048576, .i32⟩ : BufTy).Contents (Elt F) := shapeCast S1048576 x_main_v70 shapeCasts_S1x1048576_S1048576
  let x_main_c_20 : (⟨S_, .i32⟩ : BufTy).Contents (Elt F) := (constantI S_ 32 0#32)
  let x_main_v72 : (⟨S1048576, .i32⟩ : BufTy).Contents (Elt F) := fn_main_v72 x_main_c_20
  let x_main_v73 : (⟨S1048576, .i1⟩ : BufTy).Contents (Elt F) := fn_main_v73 x_main_v71 x_main_v72
  let x_main_c_21 : (⟨S_, .i32⟩ : BufTy).Contents (Elt F) := (constantI S_ 32 1024#32)
  let x_main_v74 : (⟨S1048576, .i32⟩ : BufTy).Contents (Elt F) := fn_main_v74 x_main_c_21
  let x_main_v75 : (⟨S1048576, .i32⟩ : BufTy).Contents (Elt F) := fn_main_v75 x_main_v71 x_main_v74
  let x_main_v76 : (⟨S1048576, .i32⟩ : BufTy).Contents (Elt F) := fn_main_v76 x_main_v73 x_main_v75 x_main_v71
  let x_main_v77 : (⟨S1048576x1, .i32⟩ : BufTy).Contents (Elt F) := fn_main_v77 x_main_v76
  let x_main_v78 : (⟨S1048576x128, .f32⟩ : BufTy).Contents (Elt F) := fn_main_v78 x_main_v28 x_main_v77
  let x_main_v79 : (⟨S1048576x128, .f32⟩ : BufTy).Contents (Elt F) := fn_main_v79 x_main_v69
  let x_main_v80 : (⟨S1048576x128, .f32⟩ : BufTy).Contents (Elt F) := fn_main_v80 x_main_v79 x_main_v78
  let x_main_c_22 : (⟨S_, .i32⟩ : BufTy).Contents (Elt F) := (constantI S_ 32 0#32)
  let x_main_v81 : (⟨S1048576, .i32⟩ : BufTy).Contents (Elt F) := fn_main_v81 x_main_c_22
  let x_main_v82 : (⟨S1048576, .i1⟩ : BufTy).Contents (Elt F) := fn_main_v82 x_main_v68 x_main_v81
  let x_main_c_23 : (⟨S_, .i32⟩ : BufTy).Contents (Elt F) := (constantI S_ 32 1024#32)
  let x_main_v83 : (⟨S1048576, .i32⟩ : BufTy).Contents (Elt F) := fn_main_v83 x_main_c_23
  let x_main_v84 : (⟨S1048576, .i32⟩ : BufTy).Contents (Elt F) := fn_main_v84 x_main_v68 x_main_v83
  let x_main_v85 : (⟨S1048576, .i32⟩ : BufTy).Contents (Elt F) := fn_main_v85 x_main_v82 x_main_v84 x_main_v68
  let x_main_v86 : (⟨S1048576x1, .i32⟩ : BufTy).Contents (Elt F) := fn_main_v86 x_main_v85
  let x_main_v87 : (⟨S1024x128, .f32⟩ : BufTy).Contents (Elt F) := fn_main_v87 x_main_v66 x_main_v86 x_main_v80
  x_main_v87

/-- What window 15 leaves in main_v91, of what it finds in main_v65, main_v87: one let per operation. -/
def st_main_v91 (x_main_v65 : (⟨S1024x1, .f32⟩ : BufTy).Contents (Elt F)) (x_main_v87 : (⟨S1024x128, .f32⟩ : BufTy).Contents (Elt F)) : (⟨S1024x128, .f32⟩ : BufTy).Contents (Elt F) :=
  let x_main_cst_24 : (⟨S_, .f32⟩ : BufTy).Contents (Elt F) := (constant S_ .f32 0x3089705F#32)
  let x_main_v88 : (⟨S1024x1, .f32⟩ : BufTy).Contents (Elt F) := fn_main_v88 x_main_cst_24
  let x_main_v89 : (⟨S1024x1, .f32⟩ : BufTy).Contents (Elt F) := fn_main_v89 x_main_v65 x_main_v88
  let x_main_v90 : (⟨S1024x128, .f32⟩ : BufTy).Contents (Elt F) := fn_main_v90 x_main_v89
  let x_main_v91 : (⟨S1024x128, .f32⟩ : BufTy).Contents (Elt F) := fn_main_v91 x_main_v87 x_main_v90
  x_main_v91

/-- What window 16 leaves in main_v92, of what it finds in main_v91: one let per operation. -/
def st_main_v92 (x_main_v91 : (⟨S1024x128, .f32⟩ : BufTy).Contents (Elt F)) : (⟨S1024x128, .f32⟩ : BufTy).Contents (Elt F) :=
  let x_main_call10_cst : (⟨S_, .f32⟩ : BufTy).Contents (Elt F) := (constant S_ .f32 0x00000000#32)
  let x_main_call10_v0 : (⟨S1024x128, .f32⟩ : BufTy).Contents (Elt F) := fn_main_call10_v0 x_main_call10_cst
  let x_main_call10_v1 : (⟨S1024x128, .i1⟩ : BufTy).Contents (Elt F) := fn_main_call10_v1 x_main_v91 x_main_call10_v0
  let x_main_call10_cst_0 : (⟨S_, .f32⟩ : BufTy).Contents (Elt F) := (constant S_ .f32 0x00000000#32)
  let x_main_call10_v2 : (⟨S1024x128, .f32⟩ : BufTy).Contents (Elt F) := fn_main_call10_v2 x_main_call10_cst_0
  let x_main_call10_v3 : (⟨S1024x128, .i1⟩ : BufTy).Contents (Elt F) := fn_main_call10_v3 x_main_v91 x_main_call10_v2
  let x_main_call10_cst_1 : (⟨S_, .f32⟩ : BufTy).Contents (Elt F) := (constant S_ .f32 0x00000000#32)
  let x_main_call10_call0_v0 : (⟨S_, .f32⟩ : BufTy).Contents (Elt F) := fn_main_call10_call0_v0 x_main_call10_cst_1
  let x_main_call10_call0_v1 : (⟨S1024x128, .f32⟩ : BufTy).Contents (Elt F) := fn_main_call10_call0_v1 x_main_call10_call0_v0
  let x_main_call10_v4 : (⟨S1024x128, .f32⟩ : BufTy).Contents (Elt F) := fn_main_call10_v4 x_main_call10_v3 x_main_call10_call0_v1 x_main_v91
  let x_main_call10_v5 : (⟨S1024x128, .f32⟩ : BufTy).Contents (Elt F) := fn_main_call10_v5 x_main_call10_v4
  let x_main_call10_cst_2 : (⟨S_, .f32⟩ : BufTy).Contents (Elt F) := (constant S_ .f32 0x3F800000#32)
  let x_main_call10_v6 : (⟨S1024x128, .f32⟩ : BufTy).Contents (Elt F) := fn_main_call10_v6 x_main_call10_cst_2
  let x_main_call10_v7 : (⟨S1024x128, .f32⟩ : BufTy).Contents (Elt F) := fn_main_call10_v7 x_main_call10_v6 x_main_call10_v5
  let x_main_v92 : (⟨S1024x128, .f32⟩ : BufTy).Contents (Elt F) := fn_main_v92 x_main_call10_v1 x_main_v91 x_main_call10_v7
  x_main_v92

end Cert.ReferenceIdeal.RefOps

end
-- ==== Proof.RefOpsWin.lean ====
/- (this module is one of the three the script writes: RefOps, …Win, …Run) -/
import proofs.«179381_g13718125543874_cont_sun_m_270_6_alg».proof.Proof.RefOps

set_option Elab.async false
set_option maxRecDepth 16384

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

theorem w1_main_v1 (V : Valuation τ sig (Elt F)) :
    after opsW1 V (main_v1 : DevRef τ sig) = st_main_v1 (V (main_arg1 : DevRef τ sig)) := by
  after_results_simp
  have o1 : ∀ v : (⟨S1024x1024, .i1⟩ : BufTy).Contents (Elt F), TRef.ofBuf (Val := Elt F) (.of main_v1 : StableHlo.TRef sig ⟨S1024x1024, .i1⟩) v = v := fun _ => rfl
  have t1 : ∀ v : (⟨S1024x1024, .i1⟩ : BufTy).Contents (Elt F), TRef.toBuf (Val := Elt F) (.of main_v1 : StableHlo.TRef sig ⟨S1024x1024, .i1⟩) v = v := fun _ => rfl
  have o2 : ∀ v : (⟨S1048576, .i1⟩ : BufTy).Contents (Elt F), TRef.ofBuf (Val := Elt F) (main_call0.v0) v = v := fun _ => rfl
  have t2 : ∀ v : (⟨S1048576, .i1⟩ : BufTy).Contents (Elt F), TRef.toBuf (Val := Elt F) (main_call0.v0) v = v := fun _ => rfl
  have o3 : ∀ v : (⟨S1048576, .i32⟩ : BufTy).Contents (Elt F), TRef.ofBuf (Val := Elt F) (main_call0.v1) v = v := fun _ => rfl
  have t3 : ∀ v : (⟨S1048576, .i32⟩ : BufTy).Contents (Elt F), TRef.toBuf (Val := Elt F) (main_call0.v1) v = v := fun _ => rfl
  have o4 : ∀ v : (⟨S_, .i32⟩ : BufTy).Contents (Elt F), TRef.ofBuf (Val := Elt F) (main_call0.call0.c) v = v := fun _ => rfl
  have t4 : ∀ v : (⟨S_, .i32⟩ : BufTy).Contents (Elt F), TRef.toBuf (Val := Elt F) (main_call0.call0.c) v = v := fun _ => rfl
  have o5 : ∀ v : (⟨S_, .i32⟩ : BufTy).Contents (Elt F), TRef.ofBuf (Val := Elt F) (main_call0.call0.v0) v = v := fun _ => rfl
  have t5 : ∀ v : (⟨S_, .i32⟩ : BufTy).Contents (Elt F), TRef.toBuf (Val := Elt F) (main_call0.call0.v0) v = v := fun _ => rfl
  have o6 : ∀ v : (⟨S1048576, .i32⟩ : BufTy).Contents (Elt F), TRef.ofBuf (Val := Elt F) (main_call0.call0.v1) v = v := fun _ => rfl
  have t6 : ∀ v : (⟨S1048576, .i32⟩ : BufTy).Contents (Elt F), TRef.toBuf (Val := Elt F) (main_call0.call0.v1) v = v := fun _ => rfl
  try simp only [o1, t1, o2, t2, o3, t3, o4, t4, o5, t5, o6, t6]
  rfl

theorem w1_main_v2 (V : Valuation τ sig (Elt F)) :
    after opsW1 V (main_v2 : DevRef τ sig) = st_main_v2 (V (main_arg1 : DevRef τ sig)) := by
  after_results_simp
  have o1 : ∀ v : (⟨S1024x1024, .i1⟩ : BufTy).Contents (Elt F), TRef.ofBuf (Val := Elt F) (.of main_v1 : StableHlo.TRef sig ⟨S1024x1024, .i1⟩) v = v := fun _ => rfl
  have t1 : ∀ v : (⟨S1024x1024, .i1⟩ : BufTy).Contents (Elt F), TRef.toBuf (Val := Elt F) (.of main_v1 : StableHlo.TRef sig ⟨S1024x1024, .i1⟩) v = v := fun _ => rfl
  have o2 : ∀ v : (⟨S1048576, .i1⟩ : BufTy).Contents (Elt F), TRef.ofBuf (Val := Elt F) (main_call0.v0) v = v := fun _ => rfl
  have t2 : ∀ v : (⟨S1048576, .i1⟩ : BufTy).Contents (Elt F), TRef.toBuf (Val := Elt F) (main_call0.v0) v = v := fun _ => rfl
  have o3 : ∀ v : (⟨S1048576, .i32⟩ : BufTy).Contents (Elt F), TRef.ofBuf (Val := Elt F) (main_call0.v1) v = v := fun _ => rfl
  have t3 : ∀ v : (⟨S1048576, .i32⟩ : BufTy).Contents (Elt F), TRef.toBuf (Val := Elt F) (main_call0.v1) v = v := fun _ => rfl
  have o4 : ∀ v : (⟨S_, .i32⟩ : BufTy).Contents (Elt F), TRef.ofBuf (Val := Elt F) (main_call0.call0.c) v = v := fun _ => rfl
  have t4 : ∀ v : (⟨S_, .i32⟩ : BufTy).Contents (Elt F), TRef.toBuf (Val := Elt F) (main_call0.call0.c) v = v := fun _ => rfl
  have o5 : ∀ v : (⟨S_, .i32⟩ : BufTy).Contents (Elt F), TRef.ofBuf (Val := Elt F) (main_call0.call0.v0) v = v := fun _ => rfl
  have t5 : ∀ v : (⟨S_, .i32⟩ : BufTy).Contents (Elt F), TRef.toBuf (Val := Elt F) (main_call0.call0.v0) v = v := fun _ => rfl
  have o6 : ∀ v : (⟨S1048576, .i32⟩ : BufTy).Contents (Elt F), TRef.ofBuf (Val := Elt F) (main_call0.call0.v1) v = v := fun _ => rfl
  have t6 : ∀ v : (⟨S1048576, .i32⟩ : BufTy).Contents (Elt F), TRef.toBuf (Val := Elt F) (main_call0.call0.v1) v = v := fun _ => rfl
  try simp only [o1, t1, o2, t2, o3, t3, o4, t4, o5, t5, o6, t6]
  rfl

theorem w2_main_v13 (V : Valuation τ sig (Elt F)) :
    after opsW2 V (main_v13 : DevRef τ sig) = st_main_v13 (V (main_v2 : DevRef τ sig)) := by
  after_results_simp
  have o1 : ∀ v : (⟨S_, .i32⟩ : BufTy).Contents (Elt F), TRef.ofBuf (Val := Elt F) (.of main_c_1 : StableHlo.TRef sig ⟨S_, .i32⟩) v = v := fun _ => rfl
  have t1 : ∀ v : (⟨S_, .i32⟩ : BufTy).Contents (Elt F), TRef.toBuf (Val := Elt F) (.of main_c_1 : StableHlo.TRef sig ⟨S_, .i32⟩) v = v := fun _ => rfl
  have o2 : ∀ v : (⟨S_, .i32⟩ : BufTy).Contents (Elt F), TRef.ofBuf (Val := Elt F) (main_call1.v0) v = v := fun _ => rfl
  have t2 : ∀ v : (⟨S_, .i32⟩ : BufTy).Contents (Elt F), TRef.toBuf (Val := Elt F) (main_call1.v0) v = v := fun _ => rfl
  have o3 : ∀ v : (⟨S1048576, .i32⟩ : BufTy).Contents (Elt F), TRef.ofBuf (Val := Elt F) (main_call1.v1) v = v := fun _ => rfl
  have t3 : ∀ v : (⟨S1048576, .i32⟩ : BufTy).Contents (Elt F), TRef.toBuf (Val := Elt F) (main_call1.v1) v = v := fun _ => rfl
  have o4 : ∀ v : (⟨S1048576, .i32⟩ : BufTy).Contents (Elt F), TRef.ofBuf (Val := Elt F) (.of main_v2 : StableHlo.TRef sig ⟨S1048576, .i32⟩) v = v := fun _ => rfl
  have t4 : ∀ v : (⟨S1048576, .i32⟩ : BufTy).Contents (Elt F), TRef.toBuf (Val := Elt F) (.of main_v2 : StableHlo.TRef sig ⟨S1048576, .i32⟩) v = v := fun _ => rfl
  have o5 : ∀ v : (⟨S1048576, .i32⟩ : BufTy).Contents (Elt F), TRef.ofBuf (Val := Elt F) (main_call1.v2) v = v := fun _ => rfl
  have t5 : ∀ v : (⟨S1048576, .i32⟩ : BufTy).Contents (Elt F), TRef.toBuf (Val := Elt F) (main_call1.v2) v = v := fun _ => rfl
  have o6 : ∀ v : (⟨S_, .i32⟩ : BufTy).Contents (Elt F), TRef.ofBuf (Val := Elt F) (main_call2.call0.c) v = v := fun _ => rfl
  have t6 : ∀ v : (⟨S_, .i32⟩ : BufTy).Contents (Elt F), TRef.toBuf (Val := Elt F) (main_call2.call0.c) v = v := fun _ => rfl
  have o7 : ∀ v : (⟨S_, .i32⟩ : BufTy).Contents (Elt F), TRef.ofBuf (Val := Elt F) (main_call2.call0.v0) v = v := fun _ => rfl
  have t7 : ∀ v : (⟨S_, .i32⟩ : BufTy).Contents (Elt F), TRef.toBuf (Val := Elt F) (main_call2.call0.v0) v = v := fun _ => rfl
  have o8 : ∀ v : (⟨S1048576, .i32⟩ : BufTy).Contents (Elt F), TRef.ofBuf (Val := Elt F) (.of main_v12 : StableHlo.TRef sig ⟨S1048576, .i32⟩) v = v := fun _ => rfl
  have t8 : ∀ v : (⟨S1048576, .i32⟩ : BufTy).Contents (Elt F), TRef.toBuf (Val := Elt F) (.of main_v12 : StableHlo.TRef sig ⟨S1048576, .i32⟩) v = v := fun _ => rfl
  have o9 : ∀ v : (⟨S1048576, .i32⟩ : BufTy).Contents (Elt F), TRef.ofBuf (Val := Elt F) (main_call2.call0.v1) v = v := fun _ => rfl
  have t9 : ∀ v : (⟨S1048576, .i32⟩ : BufTy).Contents (Elt F), TRef.toBuf (Val := Elt F) (main_call2.call0.v1) v = v := fun _ => rfl
  try simp only [o1, t1, o2, t2, o3, t3, o4, t4, o5, t5, o6, t6, o7, t7, o8, t8, o9, t9]
  rfl

theorem w3_main_v14 (V : Valuation τ sig (Elt F)) :
    after opsW3 V (main_v14 : DevRef τ sig) = st_main_v14 (V (main_v13 : DevRef τ sig)) := by
  simp only [after_cons, after_nil]
  rfl

theorem w4_main_v15 (V : Valuation τ sig (Elt F)) :
    after opsW4 V (main_v15 : DevRef τ sig) = st_main_v15 (V (main_v14 : DevRef τ sig)) := by
  simp only [after_cons, after_nil]
  rfl

theorem w5_main_v16 (V : Valuation τ sig (Elt F)) :
    after opsW5 V (main_v16 : DevRef τ sig) = st_main_v16 (V (main_v13 : DevRef τ sig)) := by
  simp only [after_cons, after_nil]
  rfl

theorem w6_main_v17 (V : Valuation τ sig (Elt F)) :
    after opsW6 V (main_v17 : DevRef τ sig) = st_main_v17 (V (main_v16 : DevRef τ sig)) := by
  simp only [after_cons, after_nil]
  rfl

theorem w7_main_v27 (V : Valuation τ sig (Elt F)) :
    after opsW7 V (main_v27 : DevRef τ sig) = st_main_v27 (V (main_v1 : DevRef τ sig)) (V (main_v15 : DevRef τ sig)) (V (main_v17 : DevRef τ sig)) := by
  after_results_simp
  have o1 : ∀ v : (⟨S_, .i32⟩ : BufTy).Contents (Elt F), TRef.ofBuf (Val := Elt F) (.of main_c_10 : StableHlo.TRef sig ⟨S_, .i32⟩) v = v := fun _ => rfl
  have t1 : ∀ v : (⟨S_, .i32⟩ : BufTy).Contents (Elt F), TRef.toBuf (Val := Elt F) (.of main_c_10 : StableHlo.TRef sig ⟨S_, .i32⟩) v = v := fun _ => rfl
  have o2 : ∀ v : (⟨S_, .i32⟩ : BufTy).Contents (Elt F), TRef.ofBuf (Val := Elt F) (main_call7.v0) v = v := fun _ => rfl
  have t2 : ∀ v : (⟨S_, .i32⟩ : BufTy).Contents (Elt F), TRef.toBuf (Val := Elt F) (main_call7.v0) v = v := fun _ => rfl
  have o3 : ∀ v : (⟨S1048576, .i32⟩ : BufTy).Contents (Elt F), TRef.ofBuf (Val := Elt F) (main_call7.v1) v = v := fun _ => rfl
  have t3 : ∀ v : (⟨S1048576, .i32⟩ : BufTy).Contents (Elt F), TRef.toBuf (Val := Elt F) (main_call7.v1) v = v := fun _ => rfl
  have o4 : ∀ v : (⟨S1048576, .i1⟩ : BufTy).Contents (Elt F), TRef.ofBuf (Val := Elt F) (.of main_v22 : StableHlo.TRef sig ⟨S1048576, .i1⟩) v = v := fun _ => rfl
  have t4 : ∀ v : (⟨S1048576, .i1⟩ : BufTy).Contents (Elt F), TRef.toBuf (Val := Elt F) (.of main_v22 : StableHlo.TRef sig ⟨S1048576, .i1⟩) v = v := fun _ => rfl
  have o5 : ∀ v : (⟨S1048576, .i32⟩ : BufTy).Contents (Elt F), TRef.ofBuf (Val := Elt F) (.of main_v15 : StableHlo.TRef sig ⟨S1048576, .i32⟩) v = v := fun _ => rfl
  have t5 : ∀ v : (⟨S1048576, .i32⟩ : BufTy).Contents (Elt F), TRef.toBuf (Val := Elt F) (.of main_v15 : StableHlo.TRef sig ⟨S1048576, .i32⟩) v = v := fun _ => rfl
  have o6 : ∀ v : (⟨S1048576, .i32⟩ : BufTy).Contents (Elt F), TRef.ofBuf (Val := Elt F) (main_call7.v2) v = v := fun _ => rfl
  have t6 : ∀ v : (⟨S1048576, .i32⟩ : BufTy).Contents (Elt F), TRef.toBuf (Val := Elt F) (main_call7.v2) v = v := fun _ => rfl
  have o7 : ∀ v : (⟨S_, .i32⟩ : BufTy).Contents (Elt F), TRef.ofBuf (Val := Elt F) (.of main_c_11 : StableHlo.TRef sig ⟨S_, .i32⟩) v = v := fun _ => rfl
  have t7 : ∀ v : (⟨S_, .i32⟩ : BufTy).Contents (Elt F), TRef.toBuf (Val := Elt F) (.of main_c_11 : StableHlo.TRef sig ⟨S_, .i32⟩) v = v := fun _ => rfl
  have o8 : ∀ v : (⟨S_, .i32⟩ : BufTy).Contents (Elt F), TRef.ofBuf (Val := Elt F) (main_call8.v0) v = v := fun _ => rfl
  have t8 : ∀ v : (⟨S_, .i32⟩ : BufTy).Contents (Elt F), TRef.toBuf (Val := Elt F) (main_call8.v0) v = v := fun _ => rfl
  have o9 : ∀ v : (⟨S1048576, .i32⟩ : BufTy).Contents (Elt F), TRef.ofBuf (Val := Elt F) (main_call8.v1) v = v := fun _ => rfl
  have t9 : ∀ v : (⟨S1048576, .i32⟩ : BufTy).Contents (Elt F), TRef.toBuf (Val := Elt F) (main_call8.v1) v = v := fun _ => rfl
  have o10 : ∀ v : (⟨S1048576, .i32⟩ : BufTy).Contents (Elt F), TRef.ofBuf (Val := Elt F) (.of main_v17 : StableHlo.TRef sig ⟨S1048576, .i32⟩) v = v := fun _ => rfl
  have t10 : ∀ v : (⟨S1048576, .i32⟩ : BufTy).Contents (Elt F), TRef.toBuf (Val := Elt F) (.of main_v17 : StableHlo.TRef sig ⟨S1048576, .i32⟩) v = v := fun _ => rfl
  have o11 : ∀ v : (⟨S1048576, .i32⟩ : BufTy).Contents (Elt F), TRef.ofBuf (Val := Elt F) (main_call8.v2) v = v := fun _ => rfl
  have t11 : ∀ v : (⟨S1048576, .i32⟩ : BufTy).Contents (Elt F), TRef.toBuf (Val := Elt F) (main_call8.v2) v = v := fun _ => rfl
  try simp only [o1, t1, o2, t2, o3, t3, o4, t4, o5, t5, o6, t6, o7, t7, o8, t8, o9, t9, o10, t10, o11, t11]
  rfl

theorem w8_main_v28 (V : Valuation τ sig (Elt F)) :
    after opsW8 V (main_v28 : DevRef τ sig) = st_main_v28 (V (main_arg0 : DevRef τ sig)) (V (main_arg2 : DevRef τ sig)) := by
  simp only [after_cons, after_nil]
  rfl

theorem w9_main_v37 (V : Valuation τ sig (Elt F)) :
    after opsW9 V (main_v37 : DevRef τ sig) = st_main_v37 (V (main_v27 : DevRef τ sig)) (V (main_v28 : DevRef τ sig)) := by
  simp only [after_cons, after_nil]
  rfl

theorem w10_main_v46 (V : Valuation τ sig (Elt F)) :
    after opsW10 V (main_v46 : DevRef τ sig) = st_main_v46 (V (main_v27 : DevRef τ sig)) (V (main_v28 : DevRef τ sig)) := by
  simp only [after_cons, after_nil]
  rfl

theorem w11_main_v51 (V : Valuation τ sig (Elt F)) :
    after opsW11 V (main_v51 : DevRef τ sig) = st_main_v51 (V (main_v37 : DevRef τ sig)) (V (main_v46 : DevRef τ sig)) (V (main_arg3 : DevRef τ sig)) := by
  simp only [after_cons, after_nil]
  rfl

theorem w12_main_v54 (V : Valuation τ sig (Elt F)) :
    after opsW12 V (main_v54 : DevRef τ sig) = st_main_v54 (V (main_v51 : DevRef τ sig)) := by
  simp only [after_cons, after_nil]
  rfl

theorem w13_main_v65 (V : Valuation τ sig (Elt F)) :
    after opsW13 V (main_v65 : DevRef τ sig) = st_main_v65 (V (main_v27 : DevRef τ sig)) (V (main_v54 : DevRef τ sig)) := by
  simp only [after_cons, after_nil]
  rfl

theorem w14_main_v87 (V : Valuation τ sig (Elt F)) :
    after opsW14 V (main_v87 : DevRef τ sig) = st_main_v87 (V (main_v27 : DevRef τ sig)) (V (main_v54 : DevRef τ sig)) (V (main_v28 : DevRef τ sig)) := by
  simp only [after_cons, after_nil]
  rfl

theorem w15_main_v91 (V : Valuation τ sig (Elt F)) :
    after opsW15 V (main_v91 : DevRef τ sig) = st_main_v91 (V (main_v65 : DevRef τ sig)) (V (main_v87 : DevRef τ sig)) := by
  simp only [after_cons, after_nil]
  rfl

theorem w16_main_v92 (V : Valuation τ sig (Elt F)) :
    after opsW16 V (main_v92 : DevRef τ sig) = st_main_v92 (V (main_v91 : DevRef τ sig)) := by
  simp only [after_cons, after_nil]
  rfl

theorem k1_main_arg0 (V : Valuation τ sig (Elt F)) :
    after opsW1 V (main_arg0 : DevRef τ sig) = V (main_arg0 : DevRef τ sig) := by
  simp only [after_cons, after_nil]
  rfl

theorem k1_main_arg1 (V : Valuation τ sig (Elt F)) :
    after opsW1 V (main_arg1 : DevRef τ sig) = V (main_arg1 : DevRef τ sig) := by
  simp only [after_cons, after_nil]
  rfl

theorem k1_main_arg2 (V : Valuation τ sig (Elt F)) :
    after opsW1 V (main_arg2 : DevRef τ sig) = V (main_arg2 : DevRef τ sig) := by
  simp only [after_cons, after_nil]
  rfl

theorem k1_main_arg3 (V : Valuation τ sig (Elt F)) :
    after opsW1 V (main_arg3 : DevRef τ sig) = V (main_arg3 : DevRef τ sig) := by
  simp only [after_cons, after_nil]
  rfl

theorem k2_main_arg0 (V : Valuation τ sig (Elt F)) :
    after opsW2 V (main_arg0 : DevRef τ sig) = V (main_arg0 : DevRef τ sig) := by
  simp only [after_cons, after_nil]
  rfl

theorem k2_main_arg1 (V : Valuation τ sig (Elt F)) :
    after opsW2 V (main_arg1 : DevRef τ sig) = V (main_arg1 : DevRef τ sig) := by
  simp only [after_cons, after_nil]
  rfl

theorem k2_main_arg2 (V : Valuation τ sig (Elt F)) :
    after opsW2 V (main_arg2 : DevRef τ sig) = V (main_arg2 : DevRef τ sig) := by
  simp only [after_cons, after_nil]
  rfl

theorem k2_main_arg3 (V : Valuation τ sig (Elt F)) :
    after opsW2 V (main_arg3 : DevRef τ sig) = V (main_arg3 : DevRef τ sig) := by
  simp only [after_cons, after_nil]
  rfl

theorem k2_main_v1 (V : Valuation τ sig (Elt F)) :
    after opsW2 V (main_v1 : DevRef τ sig) = V (main_v1 : DevRef τ sig) := by
  simp only [after_cons, after_nil]
  rfl

theorem k3_main_arg0 (V : Valuation τ sig (Elt F)) :
    after opsW3 V (main_arg0 : DevRef τ sig) = V (main_arg0 : DevRef τ sig) := by
  simp only [after_cons, after_nil]
  rfl

theorem k3_main_arg1 (V : Valuation τ sig (Elt F)) :
    after opsW3 V (main_arg1 : DevRef τ sig) = V (main_arg1 : DevRef τ sig) := by
  simp only [after_cons, after_nil]
  rfl

theorem k3_main_arg2 (V : Valuation τ sig (Elt F)) :
    after opsW3 V (main_arg2 : DevRef τ sig) = V (main_arg2 : DevRef τ sig) := by
  simp only [after_cons, after_nil]
  rfl

theorem k3_main_arg3 (V : Valuation τ sig (Elt F)) :
    after opsW3 V (main_arg3 : DevRef τ sig) = V (main_arg3 : DevRef τ sig) := by
  simp only [after_cons, after_nil]
  rfl

theorem k3_main_v1 (V : Valuation τ sig (Elt F)) :
    after opsW3 V (main_v1 : DevRef τ sig) = V (main_v1 : DevRef τ sig) := by
  simp only [after_cons, after_nil]
  rfl

theorem k3_main_v13 (V : Valuation τ sig (Elt F)) :
    after opsW3 V (main_v13 : DevRef τ sig) = V (main_v13 : DevRef τ sig) := by
  simp only [after_cons, after_nil]
  rfl

theorem k4_main_arg0 (V : Valuation τ sig (Elt F)) :
    after opsW4 V (main_arg0 : DevRef τ sig) = V (main_arg0 : DevRef τ sig) := by
  simp only [after_cons, after_nil]
  rfl

theorem k4_main_arg1 (V : Valuation τ sig (Elt F)) :
    after opsW4 V (main_arg1 : DevRef τ sig) = V (main_arg1 : DevRef τ sig) := by
  simp only [after_cons, after_nil]
  rfl

theorem k4_main_arg2 (V : Valuation τ sig (Elt F)) :
    after opsW4 V (main_arg2 : DevRef τ sig) = V (main_arg2 : DevRef τ sig) := by
  simp only [after_cons, after_nil]
  rfl

theorem k4_main_arg3 (V : Valuation τ sig (Elt F)) :
    after opsW4 V (main_arg3 : DevRef τ sig) = V (main_arg3 : DevRef τ sig) := by
  simp only [after_cons, after_nil]
  rfl

theorem k4_main_v1 (V : Valuation τ sig (Elt F)) :
    after opsW4 V (main_v1 : DevRef τ sig) = V (main_v1 : DevRef τ sig) := by
  simp only [after_cons, after_nil]
  rfl

theorem k4_main_v13 (V : Valuation τ sig (Elt F)) :
    after opsW4 V (main_v13 : DevRef τ sig) = V (main_v13 : DevRef τ sig) := by
  simp only [after_cons, after_nil]
  rfl

theorem k5_main_arg0 (V : Valuation τ sig (Elt F)) :
    after opsW5 V (main_arg0 : DevRef τ sig) = V (main_arg0 : DevRef τ sig) := by
  simp only [after_cons, after_nil]
  rfl

theorem k5_main_arg1 (V : Valuation τ sig (Elt F)) :
    after opsW5 V (main_arg1 : DevRef τ sig) = V (main_arg1 : DevRef τ sig) := by
  simp only [after_cons, after_nil]
  rfl

theorem k5_main_arg2 (V : Valuation τ sig (Elt F)) :
    after opsW5 V (main_arg2 : DevRef τ sig) = V (main_arg2 : DevRef τ sig) := by
  simp only [after_cons, after_nil]
  rfl

theorem k5_main_arg3 (V : Valuation τ sig (Elt F)) :
    after opsW5 V (main_arg3 : DevRef τ sig) = V (main_arg3 : DevRef τ sig) := by
  simp only [after_cons, after_nil]
  rfl

theorem k5_main_v1 (V : Valuation τ sig (Elt F)) :
    after opsW5 V (main_v1 : DevRef τ sig) = V (main_v1 : DevRef τ sig) := by
  simp only [after_cons, after_nil]
  rfl

theorem k5_main_v15 (V : Valuation τ sig (Elt F)) :
    after opsW5 V (main_v15 : DevRef τ sig) = V (main_v15 : DevRef τ sig) := by
  simp only [after_cons, after_nil]
  rfl

theorem k6_main_arg0 (V : Valuation τ sig (Elt F)) :
    after opsW6 V (main_arg0 : DevRef τ sig) = V (main_arg0 : DevRef τ sig) := by
  simp only [after_cons, after_nil]
  rfl

theorem k6_main_arg1 (V : Valuation τ sig (Elt F)) :
    after opsW6 V (main_arg1 : DevRef τ sig) = V (main_arg1 : DevRef τ sig) := by
  simp only [after_cons, after_nil]
  rfl

theorem k6_main_arg2 (V : Valuation τ sig (Elt F)) :
    after opsW6 V (main_arg2 : DevRef τ sig) = V (main_arg2 : DevRef τ sig) := by
  simp only [after_cons, after_nil]
  rfl

theorem k6_main_arg3 (V : Valuation τ sig (Elt F)) :
    after opsW6 V (main_arg3 : DevRef τ sig) = V (main_arg3 : DevRef τ sig) := by
  simp only [after_cons, after_nil]
  rfl

theorem k6_main_v1 (V : Valuation τ sig (Elt F)) :
    after opsW6 V (main_v1 : DevRef τ sig) = V (main_v1 : DevRef τ sig) := by
  simp only [after_cons, after_nil]
  rfl

theorem k6_main_v15 (V : Valuation τ sig (Elt F)) :
    after opsW6 V (main_v15 : DevRef τ sig) = V (main_v15 : DevRef τ sig) := by
  simp only [after_cons, after_nil]
  rfl

theorem k7_main_arg0 (V : Valuation τ sig (Elt F)) :
    after opsW7 V (main_arg0 : DevRef τ sig) = V (main_arg0 : DevRef τ sig) := by
  simp only [after_cons, after_nil]
  rfl

theorem k7_main_arg1 (V : Valuation τ sig (Elt F)) :
    after opsW7 V (main_arg1 : DevRef τ sig) = V (main_arg1 : DevRef τ sig) := by
  simp only [after_cons, after_nil]
  rfl

theorem k7_main_arg2 (V : Valuation τ sig (Elt F)) :
    after opsW7 V (main_arg2 : DevRef τ sig) = V (main_arg2 : DevRef τ sig) := by
  simp only [after_cons, after_nil]
  rfl

theorem k7_main_arg3 (V : Valuation τ sig (Elt F)) :
    after opsW7 V (main_arg3 : DevRef τ sig) = V (main_arg3 : DevRef τ sig) := by
  simp only [after_cons, after_nil]
  rfl

theorem k8_main_arg0 (V : Valuation τ sig (Elt F)) :
    after opsW8 V (main_arg0 : DevRef τ sig) = V (main_arg0 : DevRef τ sig) := by
  simp only [after_cons, after_nil]
  rfl

theorem k8_main_arg1 (V : Valuation τ sig (Elt F)) :
    after opsW8 V (main_arg1 : DevRef τ sig) = V (main_arg1 : DevRef τ sig) := by
  simp only [after_cons, after_nil]
  rfl

theorem k8_main_arg2 (V : Valuation τ sig (Elt F)) :
    after opsW8 V (main_arg2 : DevRef τ sig) = V (main_arg2 : DevRef τ sig) := by
  simp only [after_cons, after_nil]
  rfl

theorem k8_main_arg3 (V : Valuation τ sig (Elt F)) :
    after opsW8 V (main_arg3 : DevRef τ sig) = V (main_arg3 : DevRef τ sig) := by
  simp only [after_cons, after_nil]
  rfl

theorem k8_main_v27 (V : Valuation τ sig (Elt F)) :
    after opsW8 V (main_v27 : DevRef τ sig) = V (main_v27 : DevRef τ sig) := by
  simp only [after_cons, after_nil]
  rfl

theorem k9_main_arg0 (V : Valuation τ sig (Elt F)) :
    after opsW9 V (main_arg0 : DevRef τ sig) = V (main_arg0 : DevRef τ sig) := by
  simp only [after_cons, after_nil]
  rfl

theorem k9_main_arg1 (V : Valuation τ sig (Elt F)) :
    after opsW9 V (main_arg1 : DevRef τ sig) = V (main_arg1 : DevRef τ sig) := by
  simp only [after_cons, after_nil]
  rfl

theorem k9_main_arg2 (V : Valuation τ sig (Elt F)) :
    after opsW9 V (main_arg2 : DevRef τ sig) = V (main_arg2 : DevRef τ sig) := by
  simp only [after_cons, after_nil]
  rfl

theorem k9_main_arg3 (V : Valuation τ sig (Elt F)) :
    after opsW9 V (main_arg3 : DevRef τ sig) = V (main_arg3 : DevRef τ sig) := by
  simp only [after_cons, after_nil]
  rfl

theorem k9_main_v27 (V : Valuation τ sig (Elt F)) :
    after opsW9 V (main_v27 : DevRef τ sig) = V (main_v27 : DevRef τ sig) := by
  simp only [after_cons, after_nil]
  rfl

theorem k9_main_v28 (V : Valuation τ sig (Elt F)) :
    after opsW9 V (main_v28 : DevRef τ sig) = V (main_v28 : DevRef τ sig) := by
  simp only [after_cons, after_nil]
  rfl

theorem k10_main_arg0 (V : Valuation τ sig (Elt F)) :
    after opsW10 V (main_arg0 : DevRef τ sig) = V (main_arg0 : DevRef τ sig) := by
  simp only [after_cons, after_nil]
  rfl

theorem k10_main_arg1 (V : Valuation τ sig (Elt F)) :
    after opsW10 V (main_arg1 : DevRef τ sig) = V (main_arg1 : DevRef τ sig) := by
  simp only [after_cons, after_nil]
  rfl

theorem k10_main_arg2 (V : Valuation τ sig (Elt F)) :
    after opsW10 V (main_arg2 : DevRef τ sig) = V (main_arg2 : DevRef τ sig) := by
  simp only [after_cons, after_nil]
  rfl

theorem k10_main_arg3 (V : Valuation τ sig (Elt F)) :
    after opsW10 V (main_arg3 : DevRef τ sig) = V (main_arg3 : DevRef τ sig) := by
  simp only [after_cons, after_nil]
  rfl

theorem k10_main_v27 (V : Valuation τ sig (Elt F)) :
    after opsW10 V (main_v27 : DevRef τ sig) = V (main_v27 : DevRef τ sig) := by
  simp only [after_cons, after_nil]
  rfl

theorem k10_main_v28 (V : Valuation τ sig (Elt F)) :
    after opsW10 V (main_v28 : DevRef τ sig) = V (main_v28 : DevRef τ sig) := by
  simp only [after_cons, after_nil]
  rfl

theorem k10_main_v37 (V : Valuation τ sig (Elt F)) :
    after opsW10 V (main_v37 : DevRef τ sig) = V (main_v37 : DevRef τ sig) := by
  simp only [after_cons, after_nil]
  rfl

theorem k11_main_arg0 (V : Valuation τ sig (Elt F)) :
    after opsW11 V (main_arg0 : DevRef τ sig) = V (main_arg0 : DevRef τ sig) := by
  simp only [after_cons, after_nil]
  rfl

theorem k11_main_arg1 (V : Valuation τ sig (Elt F)) :
    after opsW11 V (main_arg1 : DevRef τ sig) = V (main_arg1 : DevRef τ sig) := by
  simp only [after_cons, after_nil]
  rfl

theorem k11_main_arg2 (V : Valuation τ sig (Elt F)) :
    after opsW11 V (main_arg2 : DevRef τ sig) = V (main_arg2 : DevRef τ sig) := by
  simp only [after_cons, after_nil]
  rfl

theorem k11_main_arg3 (V : Valuation τ sig (Elt F)) :
    after opsW11 V (main_arg3 : DevRef τ sig) = V (main_arg3 : DevRef τ sig) := by
  simp only [after_cons, after_nil]
  rfl

theorem k11_main_v27 (V : Valuation τ sig (Elt F)) :
    after opsW11 V (main_v27 : DevRef τ sig) = V (main_v27 : DevRef τ sig) := by
  simp only [after_cons, after_nil]
  rfl

theorem k11_main_v28 (V : Valuation τ sig (Elt F)) :
    after opsW11 V (main_v28 : DevRef τ sig) = V (main_v28 : DevRef τ sig) := by
  simp only [after_cons, after_nil]
  rfl

theorem k12_main_arg0 (V : Valuation τ sig (Elt F)) :
    after opsW12 V (main_arg0 : DevRef τ sig) = V (main_arg0 : DevRef τ sig) := by
  simp only [after_cons, after_nil]
  rfl

theorem k12_main_arg1 (V : Valuation τ sig (Elt F)) :
    after opsW12 V (main_arg1 : DevRef τ sig) = V (main_arg1 : DevRef τ sig) := by
  simp only [after_cons, after_nil]
  rfl

theorem k12_main_arg2 (V : Valuation τ sig (Elt F)) :
    after opsW12 V (main_arg2 : DevRef τ sig) = V (main_arg2 : DevRef τ sig) := by
  simp only [after_cons, after_nil]
  rfl

theorem k12_main_arg3 (V : Valuation τ sig (Elt F)) :
    after opsW12 V (main_arg3 : DevRef τ sig) = V (main_arg3 : DevRef τ sig) := by
  simp only [after_cons, after_nil]
  rfl

theorem k12_main_v27 (V : Valuation τ sig (Elt F)) :
    after opsW12 V (main_v27 : DevRef τ sig) = V (main_v27 : DevRef τ sig) := by
  simp only [after_cons, after_nil]
  rfl

theorem k12_main_v28 (V : Valuation τ sig (Elt F)) :
    after opsW12 V (main_v28 : DevRef τ sig) = V (main_v28 : DevRef τ sig) := by
  simp only [after_cons, after_nil]
  rfl

theorem k13_main_arg0 (V : Valuation τ sig (Elt F)) :
    after opsW13 V (main_arg0 : DevRef τ sig) = V (main_arg0 : DevRef τ sig) := by
  simp only [after_cons, after_nil]
  rfl

theorem k13_main_arg1 (V : Valuation τ sig (Elt F)) :
    after opsW13 V (main_arg1 : DevRef τ sig) = V (main_arg1 : DevRef τ sig) := by
  simp only [after_cons, after_nil]
  rfl

theorem k13_main_arg2 (V : Valuation τ sig (Elt F)) :
    after opsW13 V (main_arg2 : DevRef τ sig) = V (main_arg2 : DevRef τ sig) := by
  simp only [after_cons, after_nil]
  rfl

theorem k13_main_arg3 (V : Valuation τ sig (Elt F)) :
    after opsW13 V (main_arg3 : DevRef τ sig) = V (main_arg3 : DevRef τ sig) := by
  simp only [after_cons, after_nil]
  rfl

theorem k13_main_v27 (V : Valuation τ sig (Elt F)) :
    after opsW13 V (main_v27 : DevRef τ sig) = V (main_v27 : DevRef τ sig) := by
  simp only [after_cons, after_nil]
  rfl

theorem k13_main_v28 (V : Valuation τ sig (Elt F)) :
    after opsW13 V (main_v28 : DevRef τ sig) = V (main_v28 : DevRef τ sig) := by
  simp only [after_cons, after_nil]
  rfl

theorem k13_main_v54 (V : Valuation τ sig (Elt F)) :
    after opsW13 V (main_v54 : DevRef τ sig) = V (main_v54 : DevRef τ sig) := by
  simp only [after_cons, after_nil]
  rfl

theorem k14_main_arg0 (V : Valuation τ sig (Elt F)) :
    after opsW14 V (main_arg0 : DevRef τ sig) = V (main_arg0 : DevRef τ sig) := by
  simp only [after_cons, after_nil]
  rfl

theorem k14_main_arg1 (V : Valuation τ sig (Elt F)) :
    after opsW14 V (main_arg1 : DevRef τ sig) = V (main_arg1 : DevRef τ sig) := by
  simp only [after_cons, after_nil]
  rfl

theorem k14_main_arg2 (V : Valuation τ sig (Elt F)) :
    after opsW14 V (main_arg2 : DevRef τ sig) = V (main_arg2 : DevRef τ sig) := by
  simp only [after_cons, after_nil]
  rfl

theorem k14_main_arg3 (V : Valuation τ sig (Elt F)) :
    after opsW14 V (main_arg3 : DevRef τ sig) = V (main_arg3 : DevRef τ sig) := by
  simp only [after_cons, after_nil]
  rfl

theorem k14_main_v65 (V : Valuation τ sig (Elt F)) :
    after opsW14 V (main_v65 : DevRef τ sig) = V (main_v65 : DevRef τ sig) := by
  simp only [after_cons, after_nil]
  rfl

theorem k15_main_arg0 (V : Valuation τ sig (Elt F)) :
    after opsW15 V (main_arg0 : DevRef τ sig) = V (main_arg0 : DevRef τ sig) := by
  simp only [after_cons, after_nil]
  rfl

theorem k15_main_arg1 (V : Valuation τ sig (Elt F)) :
    after opsW15 V (main_arg1 : DevRef τ sig) = V (main_arg1 : DevRef τ sig) := by
  simp only [after_cons, after_nil]
  rfl

theorem k15_main_arg2 (V : Valuation τ sig (Elt F)) :
    after opsW15 V (main_arg2 : DevRef τ sig) = V (main_arg2 : DevRef τ sig) := by
  simp only [after_cons, after_nil]
  rfl

theorem k15_main_arg3 (V : Valuation τ sig (Elt F)) :
    after opsW15 V (main_arg3 : DevRef τ sig) = V (main_arg3 : DevRef τ sig) := by
  simp only [after_cons, after_nil]
  rfl

theorem k16_main_arg0 (V : Valuation τ sig (Elt F)) :
    after opsW16 V (main_arg0 : DevRef τ sig) = V (main_arg0 : DevRef τ sig) := by
  simp only [after_cons, after_nil]
  rfl

theorem k16_main_arg1 (V : Valuation τ sig (Elt F)) :
    after opsW16 V (main_arg1 : DevRef τ sig) = V (main_arg1 : DevRef τ sig) := by
  simp only [after_cons, after_nil]
  rfl

theorem k16_main_arg2 (V : Valuation τ sig (Elt F)) :
    after opsW16 V (main_arg2 : DevRef τ sig) = V (main_arg2 : DevRef τ sig) := by
  simp only [after_cons, after_nil]
  rfl

theorem k16_main_arg3 (V : Valuation τ sig (Elt F)) :
    after opsW16 V (main_arg3 : DevRef τ sig) = V (main_arg3 : DevRef τ sig) := by
  simp only [after_cons, after_nil]
  rfl

end Cert.ReferenceIdeal.RefOps

end
-- ==== Proof.RefOpsRun.lean ====
/- (this module is one of the three the script writes: RefOps, …Win, …Run) -/
import proofs.«179381_g13718125543874_cont_sun_m_270_6_alg».proof.Proof.RefOpsWin

set_option Elab.async false
set_option maxRecDepth 16384

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- main_v1 as a function of the four arguments. -/
def res_main_v1 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1024x1024, .i1⟩ : BufTy).Contents (Elt F) :=
  st_main_v1 a1

/-- main_v2 as a function of the four arguments. -/
def res_main_v2 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1048576, .i32⟩ : BufTy).Contents (Elt F) :=
  st_main_v2 a1

/-- main_v13 as a function of the four arguments. -/
def res_main_v13 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1048576, .i32⟩ : BufTy).Contents (Elt F) :=
  st_main_v13 (res_main_v2 a0 a1 a2 a3)

/-- main_v14 as a function of the four arguments. -/
def res_main_v14 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1048576, .i32⟩ : BufTy).Contents (Elt F) :=
  st_main_v14 (res_main_v13 a0 a1 a2 a3)

/-- main_v15 as a function of the four arguments. -/
def res_main_v15 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1048576, .i32⟩ : BufTy).Contents (Elt F) :=
  st_main_v15 (res_main_v14 a0 a1 a2 a3)

/-- main_v16 as a function of the four arguments. -/
def res_main_v16 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1048576, .i32⟩ : BufTy).Contents (Elt F) :=
  st_main_v16 (res_main_v13 a0 a1 a2 a3)

/-- main_v17 as a function of the four arguments. -/
def res_main_v17 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1048576, .i32⟩ : BufTy).Contents (Elt F) :=
  st_main_v17 (res_main_v16 a0 a1 a2 a3)

/-- main_v27 as a function of the four arguments. -/
def res_main_v27 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S2x1048576, .i32⟩ : BufTy).Contents (Elt F) :=
  st_main_v27 (res_main_v1 a0 a1 a2 a3) (res_main_v15 a0 a1 a2 a3) (res_main_v17 a0 a1 a2 a3)

/-- main_v28 as a function of the four arguments. -/
def res_main_v28 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1024x128, .f32⟩ : BufTy).Contents (Elt F) :=
  st_main_v28 a0 a2

/-- main_v37 as a function of the four arguments. -/
def res_main_v37 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1048576x128, .f32⟩ : BufTy).Contents (Elt F) :=
  st_main_v37 (res_main_v27 a0 a1 a2 a3) (res_main_v28 a0 a1 a2 a3)

/-- main_v46 as a function of the four arguments. -/
def res_main_v46 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1048576x128, .f32⟩ : BufTy).Contents (Elt F) :=
  st_main_v46 (res_main_v27 a0 a1 a2 a3) (res_main_v28 a0 a1 a2 a3)

/-- main_v51 as a function of the four arguments. -/
def res_main_v51 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1048576, .f32⟩ : BufTy).Contents (Elt F) :=
  st_main_v51 (res_main_v37 a0 a1 a2 a3) (res_main_v46 a0 a1 a2 a3) a3

/-- main_v54 as a function of the four arguments. -/
def res_main_v54 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1048576, .f32⟩ : BufTy).Contents (Elt F) :=
  st_main_v54 (res_main_v51 a0 a1 a2 a3)

/-- main_v65 as a function of the four arguments. -/
def res_main_v65 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1024x1, .f32⟩ : BufTy).Contents (Elt F) :=
  st_main_v65 (res_main_v27 a0 a1 a2 a3) (res_main_v54 a0 a1 a2 a3)

/-- main_v87 as a function of the four arguments. -/
def res_main_v87 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1024x128, .f32⟩ : BufTy).Contents (Elt F) :=
  st_main_v87 (res_main_v27 a0 a1 a2 a3) (res_main_v54 a0 a1 a2 a3) (res_main_v28 a0 a1 a2 a3)

/-- main_v91 as a function of the four arguments. -/
def res_main_v91 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1024x128, .f32⟩ : BufTy).Contents (Elt F) :=
  st_main_v91 (res_main_v65 a0 a1 a2 a3) (res_main_v87 a0 a1 a2 a3)

/-- main_v92 as a function of the four arguments. -/
def res_main_v92 (a0 : (⟨S1024x128, .f32⟩ : BufTy).Contents (Elt F)) (a1 : (⟨S1024x1024, .i32⟩ : BufTy).Contents (Elt F)) (a2 : (⟨S128x128, .f32⟩ : BufTy).Contents (Elt F)) (a3 : (⟨S256x1, .f32⟩ : BufTy).Contents (Elt F)) : (⟨S1024x128, .f32⟩ : BufTy).Contents (Elt F) :=
  st_main_v92 (res_main_v91 a0 a1 a2 a3)

/-- The contents after the first k windows. -/
def val0 (V : Valuation τ sig (Elt F)) : Valuation τ sig (Elt F) := V
def val1 (V : Valuation τ sig (Elt F)) : Valuation τ sig (Elt F) := after opsW1 (val0 V)
def val2 (V : Valuation τ sig (Elt F)) : Valuation τ sig (Elt F) := after opsW2 (val1 V)
def val3 (V : Valuation τ sig (Elt F)) : Valuation τ sig (Elt F) := after opsW3 (val2 V)
def val4 (V : Valuation τ sig (Elt F)) : Valuation τ sig (Elt F) := after opsW4 (val3 V)
def val5 (V : Valuation τ sig (Elt F)) : Valuation τ sig (Elt F) := after opsW5 (val4 V)
def val6 (V : Valuation τ sig (Elt F)) : Valuation τ sig (Elt F) := after opsW6 (val5 V)
def val7 (V : Valuation τ sig (Elt F)) : Valuation τ sig (Elt F) := after opsW7 (val6 V)
def val8 (V : Valuation τ sig (Elt F)) : Valuation τ sig (Elt F) := after opsW8 (val7 V)
def val9 (V : Valuation τ sig (Elt F)) : Valuation τ sig (Elt F) := after opsW9 (val8 V)
def val10 (V : Valuation τ sig (Elt F)) : Valuation τ sig (Elt F) := after opsW10 (val9 V)
def val11 (V : Valuation τ sig (Elt F)) : Valuation τ sig (Elt F) := after opsW11 (val10 V)
def val12 (V : Valuation τ sig (Elt F)) : Valuation τ sig (Elt F) := after opsW12 (val11 V)
def val13 (V : Valuation τ sig (Elt F)) : Valuation τ sig (Elt F) := after opsW13 (val12 V)
def val14 (V : Valuation τ sig (Elt F)) : Valuation τ sig (Elt F) := after opsW14 (val13 V)
def val15 (V : Valuation τ sig (Elt F)) : Valuation τ sig (Elt F) := after opsW15 (val14 V)
def val16 (V : Valuation τ sig (Elt F)) : Valuation τ sig (Elt F) := after opsW16 (val15 V)

theorem val1_main_arg0 (V : Valuation τ sig (Elt F)) :
    val1 V (main_arg0 : DevRef τ sig) = V (main_arg0 : DevRef τ sig) := by
  show after opsW1 (val0 V) (main_arg0 : DevRef τ sig) = _
  rw [k1_main_arg0]; rfl

theorem val1_main_arg1 (V : Valuation τ sig (Elt F)) :
    val1 V (main_arg1 : DevRef τ sig) = V (main_arg1 : DevRef τ sig) := by
  show after opsW1 (val0 V) (main_arg1 : DevRef τ sig) = _
  rw [k1_main_arg1]; rfl

theorem val1_main_arg2 (V : Valuation τ sig (Elt F)) :
    val1 V (main_arg2 : DevRef τ sig) = V (main_arg2 : DevRef τ sig) := by
  show after opsW1 (val0 V) (main_arg2 : DevRef τ sig) = _
  rw [k1_main_arg2]; rfl

theorem val1_main_arg3 (V : Valuation τ sig (Elt F)) :
    val1 V (main_arg3 : DevRef τ sig) = V (main_arg3 : DevRef τ sig) := by
  show after opsW1 (val0 V) (main_arg3 : DevRef τ sig) = _
  rw [k1_main_arg3]; rfl

theorem val1_main_v1 (V : Valuation τ sig (Elt F)) :
    val1 V (main_v1 : DevRef τ sig) = res_main_v1 (V (main_arg0 : DevRef τ sig)) (V (main_arg1 : DevRef τ sig)) (V (main_arg2 : DevRef τ sig)) (V (main_arg3 : DevRef τ sig)) := by
  show after opsW1 (val0 V) (main_v1 : DevRef τ sig) = _
  rw [w1_main_v1]
  rfl

theorem val1_main_v2 (V : Valuation τ sig (Elt F)) :
    val1 V (main_v2 : DevRef τ sig) = res_main_v2 (V (main_arg0 : DevRef τ sig)) (V (main_arg1 : DevRef τ sig)) (V (main_arg2 : DevRef τ sig)) (V (main_arg3 : DevRef τ sig)) := by
  show after opsW1 (val0 V) (main_v2 : DevRef τ sig) = _
  rw [w1_main_v2]
  rfl

theorem val2_main_arg0 (V : Valuation τ sig (Elt F)) :
    val2 V (main_arg0 : DevRef τ sig) = V (main_arg0 : DevRef τ sig) := by
  show after opsW2 (val1 V) (main_arg0 : DevRef τ sig) = _
  rw [k2_main_arg0, val1_main_arg0 V]

theorem val2_main_arg1 (V : Valuation τ sig (Elt F)) :
    val2 V (main_arg1 : DevRef τ sig) = V (main_arg1 : DevRef τ sig) := by
  show after opsW2 (val1 V) (main_arg1 : DevRef τ sig) = _
  rw [k2_main_arg1, val1_main_arg1 V]

theorem val2_main_arg2 (V : Valuation τ sig (Elt F)) :
    val2 V (main_arg2 : DevRef τ sig) = V (main_arg2 : DevRef τ sig) := by
  show after opsW2 (val1 V) (main_arg2 : DevRef τ sig) = _
  rw [k2_main_arg2, val1_main_arg2 V]

theorem val2_main_arg3 (V : Valuation τ sig (Elt F)) :
    val2 V (main_arg3 : DevRef τ sig) = V (main_arg3 : DevRef τ sig) := by
  show after opsW2 (val1 V) (main_arg3 : DevRef τ sig) = _
  rw [k2_main_arg3, val1_main_arg3 V]

theorem val2_main_v1 (V : Valuation τ sig (Elt F)) :
    val2 V (main_v1 : DevRef τ sig) = res_main_v1 (V (main_arg0 : DevRef τ sig)) (V (main_arg1 : DevRef τ sig)) (V (main_arg2 : DevRef τ sig)) (V (main_arg3 : DevRef τ sig)) := by
  show after opsW2 (val1 V) (main_v1 : DevRef τ sig) = _
  rw [k2_main_v1, val1_main_v1 V]

theorem val2_main_v13 (V : Valuation τ sig (Elt F)) :
    val2 V (main_v13 : DevRef τ sig) = res_main_v13 (V (main_arg0 : DevRef τ sig)) (V (main_arg1 : DevRef τ sig)) (V (main_arg2 : DevRef τ sig)) (V (main_arg3 : DevRef τ sig)) := by
  show after opsW2 (val1 V) (main_v13 : DevRef τ sig) = _
  rw [w2_main_v13, val1_main_v2 V]
  rfl

theorem val3_main_arg0 (V : Valuation τ sig (Elt F)) :
    val3 V (main_arg0 : DevRef τ sig) = V (main_arg0 : DevRef τ sig) := by
  show after opsW3 (val2 V) (main_arg0 : DevRef τ sig) = _
  rw [k3_main_arg0, val2_main_arg0 V]

theorem val3_main_arg1 (V : Valuation τ sig (Elt F)) :
    val3 V (main_arg1 : DevRef τ sig) = V (main_arg1 : DevRef τ sig) := by
  show after opsW3 (val2 V) (main_arg1 : DevRef τ sig) = _
  rw [k3_main_arg1, val2_main_arg1 V]

theorem val3_main_arg2 (V : Valuation τ sig (Elt F)) :
    val3 V (main_arg2 : DevRef τ sig) = V (main_arg2 : DevRef τ sig) := by
  show after opsW3 (val2 V) (main_arg2 : DevRef τ sig) = _
  rw [k3_main_arg2, val2_main_arg2 V]

theorem val3_main_arg3 (V : Valuation τ sig (Elt F)) :
    val3 V (main_arg3 : DevRef τ sig) = V (main_arg3 : DevRef τ sig) := by
  show after opsW3 (val2 V) (main_arg3 : DevRef τ sig) = _
  rw [k3_main_arg3, val2_main_arg3 V]

theorem val3_main_v1 (V : Valuation τ sig (Elt F)) :
    val3 V (main_v1 : DevRef τ sig) = res_main_v1 (V (main_arg0 : DevRef τ sig)) (V (main_arg1 : DevRef τ sig)) (V (main_arg2 : DevRef τ sig)) (V (main_arg3 : DevRef τ sig)) := by
  show after opsW3 (val2 V) (main_v1 : DevRef τ sig) = _
  rw [k3_main_v1, val2_main_v1 V]

theorem val3_main_v13 (V : Valuation τ sig (Elt F)) :
    val3 V (main_v13 : DevRef τ sig) = res_main_v13 (V (main_arg0 : DevRef τ sig)) (V (main_arg1 : DevRef τ sig)) (V (main_arg2 : DevRef τ sig)) (V (main_arg3 : DevRef τ sig)) := by
  show after opsW3 (val2 V) (main_v13 : DevRef τ sig) = _
  rw [k3_main_v13, val2_main_v13 V]

theorem val3_main_v14 (V : Valuation τ sig (Elt F)) :
    val3 V (main_v14 : DevRef τ sig) = res_main_v14 (V (main_arg0 : DevRef τ sig)) (V (main_arg1 : DevRef τ sig)) (V (main_arg2 : DevRef τ sig)) (V (main_arg3 : DevRef τ sig)) := by
  show after opsW3 (val2 V) (main_v14 : DevRef τ sig) = _
  rw [w3_main_v14, val2_main_v13 V]
  rfl

theorem val4_main_arg0 (V : Valuation τ sig (Elt F)) :
    val4 V (main_arg0 : DevRef τ sig) = V (main_arg0 : DevRef τ sig) := by
  show after opsW4 (val3 V) (main_arg0 : DevRef τ sig) = _
  rw [k4_main_arg0, val3_main_arg0 V]

theorem val4_main_arg1 (V : Valuation τ sig (Elt F)) :
    val4 V (main_arg1 : DevRef τ sig) = V (main_arg1 : DevRef τ sig) := by
  show after opsW4 (val3 V) (main_arg1 : DevRef τ sig) = _
  rw [k4_main_arg1, val3_main_arg1 V]

theorem val4_main_arg2 (V : Valuation τ sig (Elt F)) :
    val4 V (main_arg2 : DevRef τ sig) = V (main_arg2 : DevRef τ sig) := by
  show after opsW4 (val3 V) (main_arg2 : DevRef τ sig) = _
  rw [k4_main_arg2, val3_main_arg2 V]

theorem val4_main_arg3 (V : Valuation τ sig (Elt F)) :
    val4 V (main_arg3 : DevRef τ sig) = V (main_arg3 : DevRef τ sig) := by
  show after opsW4 (val3 V) (main_arg3 : DevRef τ sig) = _
  rw [k4_main_arg3, val3_main_arg3 V]

theorem val4_main_v1 (V : Valuation τ sig (Elt F)) :
    val4 V (main_v1 : DevRef τ sig) = res_main_v1 (V (main_arg0 : DevRef τ sig)) (V (main_arg1 : DevRef τ sig)) (V (main_arg2 : DevRef τ sig)) (V (main_arg3 : DevRef τ sig)) := by
  show after opsW4 (val3 V) (main_v1 : DevRef τ sig) = _
  rw [k4_main_v1, val3_main_v1 V]

theorem val4_main_v13 (V : Valuation τ sig (Elt F)) :
    val4 V (main_v13 : DevRef τ sig) = res_main_v13 (V (main_arg0 : DevRef τ sig)) (V (main_arg1 : DevRef τ sig)) (V (main_arg2 : DevRef τ sig)) (V (main_arg3 : DevRef τ sig)) := by
  show after opsW4 (val3 V) (main_v13 : DevRef τ sig) = _
  rw [k4_main_v13, val3_main_v13 V]

theorem val4_main_v15 (V : Valuation τ sig (Elt F)) :
    val4 V (main_v15 : DevRef τ sig) = res_main_v15 (V (main_arg0 : DevRef τ sig)) (V (main_arg1 : DevRef τ sig)) (V (main_arg2 : DevRef τ sig)) (V (main_arg3 : DevRef τ sig)) := by
  show after opsW4 (val3 V) (main_v15 : DevRef τ sig) = _
  rw [w4_main_v15, val3_main_v14 V]
  rfl

theorem val5_main_arg0 (V : Valuation τ sig (Elt F)) :
    val5 V (main_arg0 : DevRef τ sig) = V (main_arg0 : DevRef τ sig) := by
  show after opsW5 (val4 V) (main_arg0 : DevRef τ sig) = _
  rw [k5_main_arg0, val4_main_arg0 V]

theorem val5_main_arg1 (V : Valuation τ sig (Elt F)) :
    val5 V (main_arg1 : DevRef τ sig) = V (main_arg1 : DevRef τ sig) := by
  show after opsW5 (val4 V) (main_arg1 : DevRef τ sig) = _
  rw [k5_main_arg1, val4_main_arg1 V]

theorem val5_main_arg2 (V : Valuation τ sig (Elt F)) :
    val5 V (main_arg2 : DevRef τ sig) = V (main_arg2 : DevRef τ sig) := by
  show after opsW5 (val4 V) (main_arg2 : DevRef τ sig) = _
  rw [k5_main_arg2, val4_main_arg2 V]

theorem val5_main_arg3 (V : Valuation τ sig (Elt F)) :
    val5 V (main_arg3 : DevRef τ sig) = V (main_arg3 : DevRef τ sig) := by
  show after opsW5 (val4 V) (main_arg3 : DevRef τ sig) = _
  rw [k5_main_arg3, val4_main_arg3 V]

theorem val5_main_v1 (V : Valuation τ sig (Elt F)) :
    val5 V (main_v1 : DevRef τ sig) = res_main_v1 (V (main_arg0 : DevRef τ sig)) (V (main_arg1 : DevRef τ sig)) (V (main_arg2 : DevRef τ sig)) (V (main_arg3 : DevRef τ sig)) := by
  show after opsW5 (val4 V) (main_v1 : DevRef τ sig) = _
  rw [k5_main_v1, val4_main_v1 V]

theorem val5_main_v15 (V : Valuation τ sig (Elt F)) :
    val5 V (main_v15 : DevRef τ sig) = res_main_v15 (V (main_arg0 : DevRef τ sig)) (V (main_arg1 : DevRef τ sig)) (V (main_arg2 : DevRef τ sig)) (V (main_arg3 : DevRef τ sig)) := by
  show after opsW5 (val4 V) (main_v15 : DevRef τ sig) = _
  rw [k5_main_v15, val4_main_v15 V]

theorem val5_main_v16 (V : Valuation τ sig (Elt F)) :
    val5 V (main_v16 : DevRef τ sig) = res_main_v16 (V (main_arg0 : DevRef τ sig)) (V (main_arg1 : DevRef τ sig)) (V (main_arg2 : DevRef τ sig)) (V (main_arg3 : DevRef τ sig)) := by
  show after opsW5 (val4 V) (main_v16 : DevRef τ sig) = _
  rw [w5_main_v16, val4_main_v13 V]
  rfl

theorem val6_main_arg0 (V : Valuation τ sig (Elt F)) :
    val6 V (main_arg0 : DevRef τ sig) = V (main_arg0 : DevRef τ sig) := by
  show after opsW6 (val5 V) (main_arg0 : DevRef τ sig) = _
  rw [k6_main_arg0, val5_main_arg0 V]

theorem val6_main_arg1 (V : Valuation τ sig (Elt F)) :
    val6 V (main_arg1 : DevRef τ sig) = V (main_arg1 : DevRef τ sig) := by
  show after opsW6 (val5 V) (main_arg1 : DevRef τ sig) = _
  rw [k6_main_arg1, val5_main_arg1 V]

theorem val6_main_arg2 (V : Valuation τ sig (Elt F)) :
    val6 V (main_arg2 : DevRef τ sig) = V (main_arg2 : DevRef τ sig) := by
  show after opsW6 (val5 V) (main_arg2 : DevRef τ sig) = _
  rw [k6_main_arg2, val5_main_arg2 V]

theorem val6_main_arg3 (V : Valuation τ sig (Elt F)) :
    val6 V (main_arg3 : DevRef τ sig) = V (main_arg3 : DevRef τ sig) := by
  show after opsW6 (val5 V) (main_arg3 : DevRef τ sig) = _
  rw [k6_main_arg3, val5_main_arg3 V]

theorem val6_main_v1 (V : Valuation τ sig (Elt F)) :
    val6 V (main_v1 : DevRef τ sig) = res_main_v1 (V (main_arg0 : DevRef τ sig)) (V (main_arg1 : DevRef τ sig)) (V (main_arg2 : DevRef τ sig)) (V (main_arg3 : DevRef τ sig)) := by
  show after opsW6 (val5 V) (main_v1 : DevRef τ sig) = _
  rw [k6_main_v1, val5_main_v1 V]

theorem val6_main_v15 (V : Valuation τ sig (Elt F)) :
    val6 V (main_v15 : DevRef τ sig) = res_main_v15 (V (main_arg0 : DevRef τ sig)) (V (main_arg1 : DevRef τ sig)) (V (main_arg2 : DevRef τ sig)) (V (main_arg3 : DevRef τ sig)) := by
  show after opsW6 (val5 V) (main_v15 : DevRef τ sig) = _
  rw [k6_main_v15, val5_main_v15 V]

theorem val6_main_v17 (V : Valuation τ sig (Elt F)) :
    val6 V (main_v17 : DevRef τ sig) = res_main_v17 (V (main_arg0 : DevRef τ sig)) (V (main_arg1 : DevRef τ sig)) (V (main_arg2 : DevRef τ sig)) (V (main_arg3 : DevRef τ sig)) := by
  show after opsW6 (val5 V) (main_v17 : DevRef τ sig) = _
  rw [w6_main_v17, val5_main_v16 V]
  rfl

theorem val7_main_arg0 (V : Valuation τ sig (Elt F)) :
    val7 V (main_arg0 : DevRef τ sig) = V (main_arg0 : DevRef τ sig) := by
  show after opsW7 (val6 V) (main_arg0 : DevRef τ sig) = _
  rw [k7_main_arg0, val6_main_arg0 V]

theorem val7_main_arg1 (V : Valuation τ sig (Elt F)) :
    val7 V (main_arg1 : DevRef τ sig) = V (main_arg1 : DevRef τ sig) := by
  show after opsW7 (val6 V) (main_arg1 : DevRef τ sig) = _
  rw [k7_main_arg1, val6_main_arg1 V]

theorem val7_main_arg2 (V : Valuation τ sig (Elt F)) :
    val7 V (main_arg2 : DevRef τ sig) = V (main_arg2 : DevRef τ sig) := by
  show after opsW7 (val6 V) (main_arg2 : DevRef τ sig) = _
  rw [k7_main_arg2, val6_main_arg2 V]

theorem val7_main_arg3 (V : Valuation τ sig (Elt F)) :
    val7 V (main_arg3 : DevRef τ sig) = V (main_arg3 : DevRef τ sig) := by
  show after opsW7 (val6 V) (main_arg3 : DevRef τ sig) = _
  rw [k7_main_arg3, val6_main_arg3 V]

theorem val7_main_v27 (V : Valuation τ sig (Elt F)) :
    val7 V (main_v27 : DevRef τ sig) = res_main_v27 (V (main_arg0 : DevRef τ sig)) (V (main_arg1 : DevRef τ sig)) (V (main_arg2 : DevRef τ sig)) (V (main_arg3 : DevRef τ sig)) := by
  show after opsW7 (val6 V) (main_v27 : DevRef τ sig) = _
  rw [w7_main_v27, val6_main_v1 V, val6_main_v15 V, val6_main_v17 V]
  rfl

theorem val8_main_arg0 (V : Valuation τ sig (Elt F)) :
    val8 V (main_arg0 : DevRef τ sig) = V (main_arg0 : DevRef τ sig) := by
  show after opsW8 (val7 V) (main_arg0 : DevRef τ sig) = _
  rw [k8_main_arg0, val7_main_arg0 V]

theorem val8_main_arg1 (V : Valuation τ sig (Elt F)) :
    val8 V (main_arg1 : DevRef τ sig) = V (main_arg1 : DevRef τ sig) := by
  show after opsW8 (val7 V) (main_arg1 : DevRef τ sig) = _
  rw [k8_main_arg1, val7_main_arg1 V]

theorem val8_main_arg2 (V : Valuation τ sig (Elt F)) :
    val8 V (main_arg2 : DevRef τ sig) = V (main_arg2 : DevRef τ sig) := by
  show after opsW8 (val7 V) (main_arg2 : DevRef τ sig) = _
  rw [k8_main_arg2, val7_main_arg2 V]

theorem val8_main_arg3 (V : Valuation τ sig (Elt F)) :
    val8 V (main_arg3 : DevRef τ sig) = V (main_arg3 : DevRef τ sig) := by
  show after opsW8 (val7 V) (main_arg3 : DevRef τ sig) = _
  rw [k8_main_arg3, val7_main_arg3 V]

theorem val8_main_v27 (V : Valuation τ sig (Elt F)) :
    val8 V (main_v27 : DevRef τ sig) = res_main_v27 (V (main_arg0 : DevRef τ sig)) (V (main_arg1 : DevRef τ sig)) (V (main_arg2 : DevRef τ sig)) (V (main_arg3 : DevRef τ sig)) := by
  show after opsW8 (val7 V) (main_v27 : DevRef τ sig) = _
  rw [k8_main_v27, val7_main_v27 V]

theorem val8_main_v28 (V : Valuation τ sig (Elt F)) :
    val8 V (main_v28 : DevRef τ sig) = res_main_v28 (V (main_arg0 : DevRef τ sig)) (V (main_arg1 : DevRef τ sig)) (V (main_arg2 : DevRef τ sig)) (V (main_arg3 : DevRef τ sig)) := by
  show after opsW8 (val7 V) (main_v28 : DevRef τ sig) = _
  rw [w8_main_v28, val7_main_arg0 V, val7_main_arg2 V]
  rfl

theorem val9_main_arg0 (V : Valuation τ sig (Elt F)) :
    val9 V (main_arg0 : DevRef τ sig) = V (main_arg0 : DevRef τ sig) := by
  show after opsW9 (val8 V) (main_arg0 : DevRef τ sig) = _
  rw [k9_main_arg0, val8_main_arg0 V]

theorem val9_main_arg1 (V : Valuation τ sig (Elt F)) :
    val9 V (main_arg1 : DevRef τ sig) = V (main_arg1 : DevRef τ sig) := by
  show after opsW9 (val8 V) (main_arg1 : DevRef τ sig) = _
  rw [k9_main_arg1, val8_main_arg1 V]

theorem val9_main_arg2 (V : Valuation τ sig (Elt F)) :
    val9 V (main_arg2 : DevRef τ sig) = V (main_arg2 : DevRef τ sig) := by
  show after opsW9 (val8 V) (main_arg2 : DevRef τ sig) = _
  rw [k9_main_arg2, val8_main_arg2 V]

theorem val9_main_arg3 (V : Valuation τ sig (Elt F)) :
    val9 V (main_arg3 : DevRef τ sig) = V (main_arg3 : DevRef τ sig) := by
  show after opsW9 (val8 V) (main_arg3 : DevRef τ sig) = _
  rw [k9_main_arg3, val8_main_arg3 V]

theorem val9_main_v27 (V : Valuation τ sig (Elt F)) :
    val9 V (main_v27 : DevRef τ sig) = res_main_v27 (V (main_arg0 : DevRef τ sig)) (V (main_arg1 : DevRef τ sig)) (V (main_arg2 : DevRef τ sig)) (V (main_arg3 : DevRef τ sig)) := by
  show after opsW9 (val8 V) (main_v27 : DevRef τ sig) = _
  rw [k9_main_v27, val8_main_v27 V]

theorem val9_main_v28 (V : Valuation τ sig (Elt F)) :
    val9 V (main_v28 : DevRef τ sig) = res_main_v28 (V (main_arg0 : DevRef τ sig)) (V (main_arg1 : DevRef τ sig)) (V (main_arg2 : DevRef τ sig)) (V (main_arg3 : DevRef τ sig)) := by
  show after opsW9 (val8 V) (main_v28 : DevRef τ sig) = _
  rw [k9_main_v28, val8_main_v28 V]

theorem val9_main_v37 (V : Valuation τ sig (Elt F)) :
    val9 V (main_v37 : DevRef τ sig) = res_main_v37 (V (main_arg0 : DevRef τ sig)) (V (main_arg1 : DevRef τ sig)) (V (main_arg2 : DevRef τ sig)) (V (main_arg3 : DevRef τ sig)) := by
  show after opsW9 (val8 V) (main_v37 : DevRef τ sig) = _
  rw [w9_main_v37, val8_main_v27 V, val8_main_v28 V]
  rfl

theorem val10_main_arg0 (V : Valuation τ sig (Elt F)) :
    val10 V (main_arg0 : DevRef τ sig) = V (main_arg0 : DevRef τ sig) := by
  show after opsW10 (val9 V) (main_arg0 : DevRef τ sig) = _
  rw [k10_main_arg0, val9_main_arg0 V]

theorem val10_main_arg1 (V : Valuation τ sig (Elt F)) :
    val10 V (main_arg1 : DevRef τ sig) = V (main_arg1 : DevRef τ sig) := by
  show after opsW10 (val9 V) (main_arg1 : DevRef τ sig) = _
  rw [k10_main_arg1, val9_main_arg1 V]

theorem val10_main_arg2 (V : Valuation τ sig (Elt F)) :
    val10 V (main_arg2 : DevRef τ sig) = V (main_arg2 : DevRef τ sig) := by
  show after opsW10 (val9 V) (main_arg2 : DevRef τ sig) = _
  rw [k10_main_arg2, val9_main_arg2 V]

theorem val10_main_arg3 (V : Valuation τ sig (Elt F)) :
    val10 V (main_arg3 : DevRef τ sig) = V (main_arg3 : DevRef τ sig) := by
  show after opsW10 (val9 V) (main_arg3 : DevRef τ sig) = _
  rw [k10_main_arg3, val9_main_arg3 V]

theorem val10_main_v27 (V : Valuation τ sig (Elt F)) :
    val10 V (main_v27 : DevRef τ sig) = res_main_v27 (V (main_arg0 : DevRef τ sig)) (V (main_arg1 : DevRef τ sig)) (V (main_arg2 : DevRef τ sig)) (V (main_arg3 : DevRef τ sig)) := by
  show after opsW10 (val9 V) (main_v27 : DevRef τ sig) = _
  rw [k10_main_v27, val9_main_v27 V]

theorem val10_main_v28 (V : Valuation τ sig (Elt F)) :
    val10 V (main_v28 : DevRef τ sig) = res_main_v28 (V (main_arg0 : DevRef τ sig)) (V (main_arg1 : DevRef τ sig)) (V (main_arg2 : DevRef τ sig)) (V (main_arg3 : DevRef τ sig)) := by
  show after opsW10 (val9 V) (main_v28 : DevRef τ sig) = _
  rw [k10_main_v28, val9_main_v28 V]

theorem val10_main_v37 (V : Valuation τ sig (Elt F)) :
    val10 V (main_v37 : DevRef τ sig) = res_main_v37 (V (main_arg0 : DevRef τ sig)) (V (main_arg1 : DevRef τ sig)) (V (main_arg2 : DevRef τ sig)) (V (main_arg3 : DevRef τ sig)) := by
  show after opsW10 (val9 V) (main_v37 : DevRef τ sig) = _
  rw [k10_main_v37, val9_main_v37 V]

theorem val10_main_v46 (V : Valuation τ sig (Elt F)) :
    val10 V (main_v46 : DevRef τ sig) = res_main_v46 (V (main_arg0 : DevRef τ sig)) (V (main_arg1 : DevRef τ sig)) (V (main_arg2 : DevRef τ sig)) (V (main_arg3 : DevRef τ sig)) := by
  show after opsW10 (val9 V) (main_v46 : DevRef τ sig) = _
  rw [w10_main_v46, val9_main_v27 V, val9_main_v28 V]
  rfl

theorem val11_main_arg0 (V : Valuation τ sig (Elt F)) :
    val11 V (main_arg0 : DevRef τ sig) = V (main_arg0 : DevRef τ sig) := by
  show after opsW11 (val10 V) (main_arg0 : DevRef τ sig) = _
  rw [k11_main_arg0, val10_main_arg0 V]

theorem val11_main_arg1 (V : Valuation τ sig (Elt F)) :
    val11 V (main_arg1 : DevRef τ sig) = V (main_arg1 : DevRef τ sig) := by
  show after opsW11 (val10 V) (main_arg1 : DevRef τ sig) = _
  rw [k11_main_arg1, val10_main_arg1 V]

theorem val11_main_arg2 (V : Valuation τ sig (Elt F)) :
    val11 V (main_arg2 : DevRef τ sig) = V (main_arg2 : DevRef τ sig) := by
  show after opsW11 (val10 V) (main_arg2 : DevRef τ sig) = _
  rw [k11_main_arg2, val10_main_arg2 V]

theorem val11_main_arg3 (V : Valuation τ sig (Elt F)) :
    val11 V (main_arg3 : DevRef τ sig) = V (main_arg3 : DevRef τ sig) := by
  show after opsW11 (val10 V) (main_arg3 : DevRef τ sig) = _
  rw [k11_main_arg3, val10_main_arg3 V]

theorem val11_main_v27 (V : Valuation τ sig (Elt F)) :
    val11 V (main_v27 : DevRef τ sig) = res_main_v27 (V (main_arg0 : DevRef τ sig)) (V (main_arg1 : DevRef τ sig)) (V (main_arg2 : DevRef τ sig)) (V (main_arg3 : DevRef τ sig)) := by
  show after opsW11 (val10 V) (main_v27 : DevRef τ sig) = _
  rw [k11_main_v27, val10_main_v27 V]

theorem val11_main_v28 (V : Valuation τ sig (Elt F)) :
    val11 V (main_v28 : DevRef τ sig) = res_main_v28 (V (main_arg0 : DevRef τ sig)) (V (main_arg1 : DevRef τ sig)) (V (main_arg2 : DevRef τ sig)) (V (main_arg3 : DevRef τ sig)) := by
  show after opsW11 (val10 V) (main_v28 : DevRef τ sig) = _
  rw [k11_main_v28, val10_main_v28 V]

theorem val11_main_v51 (V : Valuation τ sig (Elt F)) :
    val11 V (main_v51 : DevRef τ sig) = res_main_v51 (V (main_arg0 : DevRef τ sig)) (V (main_arg1 : DevRef τ sig)) (V (main_arg2 : DevRef τ sig)) (V (main_arg3 : DevRef τ sig)) := by
  show after opsW11 (val10 V) (main_v51 : DevRef τ sig) = _
  rw [w11_main_v51, val10_main_v37 V, val10_main_v46 V, val10_main_arg3 V]
  rfl

theorem val12_main_arg0 (V : Valuation τ sig (Elt F)) :
    val12 V (main_arg0 : DevRef τ sig) = V (main_arg0 : DevRef τ sig) := by
  show after opsW12 (val11 V) (main_arg0 : DevRef τ sig) = _
  rw [k12_main_arg0, val11_main_arg0 V]

theorem val12_main_arg1 (V : Valuation τ sig (Elt F)) :
    val12 V (main_arg1 : DevRef τ sig) = V (main_arg1 : DevRef τ sig) := by
  show after opsW12 (val11 V) (main_arg1 : DevRef τ sig) = _
  rw [k12_main_arg1, val11_main_arg1 V]

theorem val12_main_arg2 (V : Valuation τ sig (Elt F)) :
    val12 V (main_arg2 : DevRef τ sig) = V (main_arg2 : DevRef τ sig) := by
  show after opsW12 (val11 V) (main_arg2 : DevRef τ sig) = _
  rw [k12_main_arg2, val11_main_arg2 V]

theorem val12_main_arg3 (V : Valuation τ sig (Elt F)) :
    val12 V (main_arg3 : DevRef τ sig) = V (main_arg3 : DevRef τ sig) := by
  show after opsW12 (val11 V) (main_arg3 : DevRef τ sig) = _
  rw [k12_main_arg3, val11_main_arg3 V]

theorem val12_main_v27 (V : Valuation τ sig (Elt F)) :
    val12 V (main_v27 : DevRef τ sig) = res_main_v27 (V (main_arg0 : DevRef τ sig)) (V (main_arg1 : DevRef τ sig)) (V (main_arg2 : DevRef τ sig)) (V (main_arg3 : DevRef τ sig)) := by
  show after opsW12 (val11 V) (main_v27 : DevRef τ sig) = _
  rw [k12_main_v27, val11_main_v27 V]

theorem val12_main_v28 (V : Valuation τ sig (Elt F)) :
    val12 V (main_v28 : DevRef τ sig) = res_main_v28 (V (main_arg0 : DevRef τ sig)) (V (main_arg1 : DevRef τ sig)) (V (main_arg2 : DevRef τ sig)) (V (main_arg3 : DevRef τ sig)) := by
  show after opsW12 (val11 V) (main_v28 : DevRef τ sig) = _
  rw [k12_main_v28, val11_main_v28 V]

theorem val12_main_v54 (V : Valuation τ sig (Elt F)) :
    val12 V (main_v54 : DevRef τ sig) = res_main_v54 (V (main_arg0 : DevRef τ sig)) (V (main_arg1 : DevRef τ sig)) (V (main_arg2 : DevRef τ sig)) (V (main_arg3 : DevRef τ sig)) := by
  show after opsW12 (val11 V) (main_v54 : DevRef τ sig) = _
  rw [w12_main_v54, val11_main_v51 V]
  rfl

theorem val13_main_arg0 (V : Valuation τ sig (Elt F)) :
    val13 V (main_arg0 : DevRef τ sig) = V (main_arg0 : DevRef τ sig) := by
  show after opsW13 (val12 V) (main_arg0 : DevRef τ sig) = _
  rw [k13_main_arg0, val12_main_arg0 V]

theorem val13_main_arg1 (V : Valuation τ sig (Elt F)) :
    val13 V (main_arg1 : DevRef τ sig) = V (main_arg1 : DevRef τ sig) := by
  show after opsW13 (val12 V) (main_arg1 : DevRef τ sig) = _
  rw [k13_main_arg1, val12_main_arg1 V]

theorem val13_main_arg2 (V : Valuation τ sig (Elt F)) :
    val13 V (main_arg2 : DevRef τ sig) = V (main_arg2 : DevRef τ sig) := by
  show after opsW13 (val12 V) (main_arg2 : DevRef τ sig) = _
  rw [k13_main_arg2, val12_main_arg2 V]

theorem val13_main_arg3 (V : Valuation τ sig (Elt F)) :
    val13 V (main_arg3 : DevRef τ sig) = V (main_arg3 : DevRef τ sig) := by
  show after opsW13 (val12 V) (main_arg3 : DevRef τ sig) = _
  rw [k13_main_arg3, val12_main_arg3 V]

theorem val13_main_v27 (V : Valuation τ sig (Elt F)) :
    val13 V (main_v27 : DevRef τ sig) = res_main_v27 (V (main_arg0 : DevRef τ sig)) (V (main_arg1 : DevRef τ sig)) (V (main_arg2 : DevRef τ sig)) (V (main_arg3 : DevRef τ sig)) := by
  show after opsW13 (val12 V) (main_v27 : DevRef τ sig) = _
  rw [k13_main_v27, val12_main_v27 V]

theorem val13_main_v28 (V : Valuation τ sig (Elt F)) :
    val13 V (main_v28 : DevRef τ sig) = res_main_v28 (V (main_arg0 : DevRef τ sig)) (V (main_arg1 : DevRef τ sig)) (V (main_arg2 : DevRef τ sig)) (V (main_arg3 : DevRef τ sig)) := by
  show after opsW13 (val12 V) (main_v28 : DevRef τ sig) = _
  rw [k13_main_v28, val12_main_v28 V]

theorem val13_main_v54 (V : Valuation τ sig (Elt F)) :
    val13 V (main_v54 : DevRef τ sig) = res_main_v54 (V (main_arg0 : DevRef τ sig)) (V (main_arg1 : DevRef τ sig)) (V (main_arg2 : DevRef τ sig)) (V (main_arg3 : DevRef τ sig)) := by
  show after opsW13 (val12 V) (main_v54 : DevRef τ sig) = _
  rw [k13_main_v54, val12_main_v54 V]

theorem val13_main_v65 (V : Valuation τ sig (Elt F)) :
    val13 V (main_v65 : DevRef τ sig) = res_main_v65 (V (main_arg0 : DevRef τ sig)) (V (main_arg1 : DevRef τ sig)) (V (main_arg2 : DevRef τ sig)) (V (main_arg3 : DevRef τ sig)) := by
  show after opsW13 (val12 V) (main_v65 : DevRef τ sig) = _
  rw [w13_main_v65, val12_main_v27 V, val12_main_v54 V]
  rfl

theorem val14_main_arg0 (V : Valuation τ sig (Elt F)) :
    val14 V (main_arg0 : DevRef τ sig) = V (main_arg0 : DevRef τ sig) := by
  show after opsW14 (val13 V) (main_arg0 : DevRef τ sig) = _
  rw [k14_main_arg0, val13_main_arg0 V]

theorem val14_main_arg1 (V : Valuation τ sig (Elt F)) :
    val14 V (main_arg1 : DevRef τ sig) = V (main_arg1 : DevRef τ sig) := by
  show after opsW14 (val13 V) (main_arg1 : DevRef τ sig) = _
  rw [k14_main_arg1, val13_main_arg1 V]

theorem val14_main_arg2 (V : Valuation τ sig (Elt F)) :
    val14 V (main_arg2 : DevRef τ sig) = V (main_arg2 : DevRef τ sig) := by
  show after opsW14 (val13 V) (main_arg2 : DevRef τ sig) = _
  rw [k14_main_arg2, val13_main_arg2 V]

theorem val14_main_arg3 (V : Valuation τ sig (Elt F)) :
    val14 V (main_arg3 : DevRef τ sig) = V (main_arg3 : DevRef τ sig) := by
  show after opsW14 (val13 V) (main_arg3 : DevRef τ sig) = _
  rw [k14_main_arg3, val13_main_arg3 V]

theorem val14_main_v65 (V : Valuation τ sig (Elt F)) :
    val14 V (main_v65 : DevRef τ sig) = res_main_v65 (V (main_arg0 : DevRef τ sig)) (V (main_arg1 : DevRef τ sig)) (V (main_arg2 : DevRef τ sig)) (V (main_arg3 : DevRef τ sig)) := by
  show after opsW14 (val13 V) (main_v65 : DevRef τ sig) = _
  rw [k14_main_v65, val13_main_v65 V]

theorem val14_main_v87 (V : Valuation τ sig (Elt F)) :
    val14 V (main_v87 : DevRef τ sig) = res_main_v87 (V (main_arg0 : DevRef τ sig)) (V (main_arg1 : DevRef τ sig)) (V (main_arg2 : DevRef τ sig)) (V (main_arg3 : DevRef τ sig)) := by
  show after opsW14 (val13 V) (main_v87 : DevRef τ sig) = _
  rw [w14_main_v87, val13_main_v27 V, val13_main_v54 V, val13_main_v28 V]
  rfl

theorem val15_main_arg0 (V : Valuation τ sig (Elt F)) :
    val15 V (main_arg0 : DevRef τ sig) = V (main_arg0 : DevRef τ sig) := by
  show after opsW15 (val14 V) (main_arg0 : DevRef τ sig) = _
  rw [k15_main_arg0, val14_main_arg0 V]

theorem val15_main_arg1 (V : Valuation τ sig (Elt F)) :
    val15 V (main_arg1 : DevRef τ sig) = V (main_arg1 : DevRef τ sig) := by
  show after opsW15 (val14 V) (main_arg1 : DevRef τ sig) = _
  rw [k15_main_arg1, val14_main_arg1 V]

theorem val15_main_arg2 (V : Valuation τ sig (Elt F)) :
    val15 V (main_arg2 : DevRef τ sig) = V (main_arg2 : DevRef τ sig) := by
  show after opsW15 (val14 V) (main_arg2 : DevRef τ sig) = _
  rw [k15_main_arg2, val14_main_arg2 V]

theorem val15_main_arg3 (V : Valuation τ sig (Elt F)) :
    val15 V (main_arg3 : DevRef τ sig) = V (main_arg3 : DevRef τ sig) := by
  show after opsW15 (val14 V) (main_arg3 : DevRef τ sig) = _
  rw [k15_main_arg3, val14_main_arg3 V]

theorem val15_main_v91 (V : Valuation τ sig (Elt F)) :
    val15 V (main_v91 : DevRef τ sig) = res_main_v91 (V (main_arg0 : DevRef τ sig)) (V (main_arg1 : DevRef τ sig)) (V (main_arg2 : DevRef τ sig)) (V (main_arg3 : DevRef τ sig)) := by
  show after opsW15 (val14 V) (main_v91 : DevRef τ sig) = _
  rw [w15_main_v91, val14_main_v65 V, val14_main_v87 V]
  rfl

theorem val16_main_arg0 (V : Valuation τ sig (Elt F)) :
    val16 V (main_arg0 : DevRef τ sig) = V (main_arg0 : DevRef τ sig) := by
  show after opsW16 (val15 V) (main_arg0 : DevRef τ sig) = _
  rw [k16_main_arg0, val15_main_arg0 V]

theorem val16_main_arg1 (V : Valuation τ sig (Elt F)) :
    val16 V (main_arg1 : DevRef τ sig) = V (main_arg1 : DevRef τ sig) := by
  show after opsW16 (val15 V) (main_arg1 : DevRef τ sig) = _
  rw [k16_main_arg1, val15_main_arg1 V]

theorem val16_main_arg2 (V : Valuation τ sig (Elt F)) :
    val16 V (main_arg2 : DevRef τ sig) = V (main_arg2 : DevRef τ sig) := by
  show after opsW16 (val15 V) (main_arg2 : DevRef τ sig) = _
  rw [k16_main_arg2, val15_main_arg2 V]

theorem val16_main_arg3 (V : Valuation τ sig (Elt F)) :
    val16 V (main_arg3 : DevRef τ sig) = V (main_arg3 : DevRef τ sig) := by
  show after opsW16 (val15 V) (main_arg3 : DevRef τ sig) = _
  rw [k16_main_arg3, val15_main_arg3 V]

theorem val16_main_v92 (V : Valuation τ sig (Elt F)) :
    val16 V (main_v92 : DevRef τ sig) = res_main_v92 (V (main_arg0 : DevRef τ sig)) (V (main_arg1 : DevRef τ sig)) (V (main_arg2 : DevRef τ sig)) (V (main_arg3 : DevRef τ sig)) := by
  show after opsW16 (val15 V) (main_v92 : DevRef τ sig) = _
  rw [w16_main_v92, val15_main_v91 V]
  rfl

/-- The literal list is the windows in order. -/
theorem ops_split : (ops : List (HloOp τ sig (Elt F))) = opsW1 ++ (opsW2 ++ (opsW3 ++ (opsW4 ++ (opsW5 ++ (opsW6 ++ (opsW7 ++ (opsW8 ++ (opsW9 ++ (opsW10 ++ (opsW11 ++ (opsW12 ++ (opsW13 ++ (opsW14 ++ (opsW15 ++ (opsW16))))))))))))))) := rfl

theorem after_ops (V : Valuation τ sig (Elt F)) : after ops V = val16 V := by
  rw [ops_split]
  simp only [StableHlo.after_append]
  rfl

theorem out_eq (V : Valuation τ sig (Elt F)) :
    after ops V (main_v92 : DevRef τ sig) = res_main_v92 (V (main_arg0 : DevRef τ sig)) (V (main_arg1 : DevRef τ sig)) (V (main_arg2 : DevRef τ sig)) (V (main_arg3 : DevRef τ sig)) := by
  rw [after_ops]; exact val16_main_v92 V

theorem main_arg0_eq (V : Valuation τ sig (Elt F)) : after ops V (main_arg0 : DevRef τ sig) = V (main_arg0 : DevRef τ sig) := by
  rw [after_ops]; exact val16_main_arg0 V

theorem main_arg1_eq (V : Valuation τ sig (Elt F)) : after ops V (main_arg1 : DevRef τ sig) = V (main_arg1 : DevRef τ sig) := by
  rw [after_ops]; exact val16_main_arg1 V

theorem main_arg2_eq (V : Valuation τ sig (Elt F)) : after ops V (main_arg2 : DevRef τ sig) = V (main_arg2 : DevRef τ sig) := by
  rw [after_ops]; exact val16_main_arg2 V

theorem main_arg3_eq (V : Valuation τ sig (Elt F)) : after ops V (main_arg3 : DevRef τ sig) = V (main_arg3 : DevRef τ sig) := by
  rw [after_ops]; exact val16_main_arg3 V

theorem ops_sub : (ops : List (HloOp τ sig (Elt F))).Forall fun op => op.bufs ⊆ tcRefs τ sig :=
  ⟨nullary_bufs_sub ..,
    unary_bufs_sub ..,
    binary_bufs_sub ..,
    reshape_bufs_sub ..,
    unary_bufs_sub ..,
    nullary_bufs_sub ..,
    unary_bufs_sub ..,
    binary_bufs_sub ..,
    nullary_bufs_sub ..,
    unary_bufs_sub ..,
    nullary_bufs_sub ..,
    unary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    nullary_bufs_sub ..,
    unary_bufs_sub ..,
    ternary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    unary_bufs_sub ..,
    binary_bufs_sub ..,
    unary_bufs_sub ..,
    binary_bufs_sub ..,
    nullary_bufs_sub ..,
    unary_bufs_sub ..,
    binary_bufs_sub ..,
    binary_bufs_sub ..,
    nullary_bufs_sub ..,
    unary_bufs_sub ..,
    binary_bufs_sub ..,
    ternary_bufs_sub ..,
    nullary_bufs_sub ..,
    unary_bufs_sub ..,
    nullary_bufs_sub ..,
    binary_bufs_sub ..,
    nullary_bufs_sub ..,
    ternary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    nullary_bufs_sub ..,
    binary_bufs_sub ..,
    unary_bufs_sub ..,
    binary_bufs_sub ..,
    binary_bufs_sub ..,
    unary_bufs_sub ..,
    binary_bufs_sub ..,
    ternary_bufs_sub ..,
    nullary_bufs_sub ..,
    unary_bufs_sub ..,
    binary_bufs_sub ..,
    unary_bufs_sub ..,
    unary_bufs_sub ..,
    unary_bufs_sub ..,
    binary_bufs_sub ..,
    unary_bufs_sub ..,
    binary_bufs_sub ..,
    nullary_bufs_sub ..,
    unary_bufs_sub ..,
    binary_bufs_sub ..,
    binary_bufs_sub ..,
    nullary_bufs_sub ..,
    unary_bufs_sub ..,
    binary_bufs_sub ..,
    ternary_bufs_sub ..,
    nullary_bufs_sub ..,
    unary_bufs_sub ..,
    nullary_bufs_sub ..,
    binary_bufs_sub ..,
    nullary_bufs_sub ..,
    ternary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    nullary_bufs_sub ..,
    binary_bufs_sub ..,
    unary_bufs_sub ..,
    binary_bufs_sub ..,
    binary_bufs_sub ..,
    unary_bufs_sub ..,
    binary_bufs_sub ..,
    ternary_bufs_sub ..,
    nullary_bufs_sub ..,
    unary_bufs_sub ..,
    nullary_bufs_sub ..,
    binary_bufs_sub ..,
    unary_bufs_sub ..,
    binary_bufs_sub ..,
    nullary_bufs_sub ..,
    unary_bufs_sub ..,
    unary_bufs_sub ..,
    ternary_bufs_sub ..,
    nullary_bufs_sub ..,
    unary_bufs_sub ..,
    unary_bufs_sub ..,
    ternary_bufs_sub ..,
    unary_bufs_sub ..,
    unary_bufs_sub ..,
    binary_bufs_sub ..,
    binary_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    binary_bufs_sub ..,
    unary_bufs_sub ..,
    unary_bufs_sub ..,
    binary_bufs_sub ..,
    reshape_bufs_sub ..,
    nullary_bufs_sub ..,
    nullary_bufs_sub ..,
    unary_bufs_sub ..,
    binary_bufs_sub ..,
    unary_bufs_sub ..,
    unary_bufs_sub ..,
    binary_bufs_sub ..,
    ternary_bufs_sub ..,
    unary_bufs_sub ..,
    unary_bufs_sub ..,
    nullary_bufs_sub ..,
    unary_bufs_sub ..,
    unary_bufs_sub ..,
    reshape_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..,
    nullary_bufs_sub ..,
    unary_bufs_sub ..,
    unary_bufs_sub ..,
    reshape_bufs_sub ..,
    unary_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..,
    nullary_bufs_sub ..,
    unary_bufs_sub ..,
    binary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    nullary_bufs_sub ..,
    unary_bufs_sub ..,
    unary_bufs_sub ..,
    ternary_bufs_sub ..,
    unary_bufs_sub ..,
    nullary_bufs_sub ..,
    unary_bufs_sub ..,
    binary_bufs_sub ..,
    ternary_bufs_sub ..⟩

theorem main_part0_eq (c : Dev nD) : main_part0 (F := F) c = seq ops_main_part0 := rfl
theorem main_part1_eq (c : Dev nD) : main_part1 (F := F) c = seq ops_main_part1 := rfl
theorem main_part2_eq (c : Dev nD) : main_part2 (F := F) c = seq ops_main_part2 := rfl
theorem ops_parts : (ops : List (HloOp τ sig (Elt F))) = ops_main_part0 ++ (ops_main_part1 ++ (ops_main_part2)) := rfl

theorem main_eq (c : Dev nD) : main (F := F) c = seq ops := by
  rw [ops_parts]
  simp only [seq_append]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefOps

end
-- ==== Proof.NthCount.lean ====
/-
  Counting facts behind an "indices of the nonzero entries" construction.

  For a decidable predicate P on the naturals below n, let c p = #{q ≤ p | P q} be its running count, and
  let pos e = #{p < n | c p ≤ e}. Because c is monotone, {p | c p ≤ e} is an initial segment, so pos e is
  the position of the (e+1)-th natural satisfying P when there is one, and n otherwise. Hence e ↦ pos e
  maps the naturals below the total count bijectively onto the naturals below n that satisfy P.
-/
import Mathlib.Data.Nat.Nth
import Mathlib.Data.Nat.Count
import Mathlib.Algebra.BigOperators.Group.Finset.Basic

namespace Cert.NthCount

variable (P : ℕ → Prop) [DecidablePred P]

/-- How many p below n have running count at most e. -/
def pos (n e : ℕ) : ℕ := Nat.count (fun p => Nat.count P (p + 1) ≤ e) n

variable {P}

/-- An index below the total count is below the cardinality of {q | P q} whenever that set is finite. -/
theorem lt_card_of_lt_count {n e : ℕ} (he : e < Nat.count P n) :
    ∀ hf : (Set.ofPred P).Finite, e < hf.toFinset.card :=
  fun hf => he.trans_le (Nat.count_le_card hf n)

/-- Strictly before the e-th natural satisfying P, the running count is at most e. -/
theorem count_succ_le_of_lt_nth {e p : ℕ} (hp : p < Nat.nth P e) : Nat.count P (p + 1) ≤ e :=
  Nat.le_nth_of_count_le hp

/-- From the e-th natural satisfying P on, the running count exceeds e. -/
theorem lt_count_succ_of_nth_le {n e p : ℕ} (he : e < Nat.count P n) (hp : Nat.nth P e ≤ p) :
    e < Nat.count P (p + 1) := by
  have hmono : Nat.count P (Nat.nth P e + 1) ≤ Nat.count P (p + 1) :=
    Nat.count_monotone P (Nat.succ_le_succ hp)
  rw [Nat.count_nth_succ (lt_card_of_lt_count he)] at hmono
  exact hmono

/-- Below the total count, pos e is the e-th natural (from 0) satisfying P. -/
theorem pos_eq_nth {n e : ℕ} (hP : ∀ q, P q → q < n) (he : e < Nat.count P n) :
    pos P n e = Nat.nth P e := by
  -- the e-th natural satisfying P lies below n; split [0, n) at it
  have hk : Nat.nth P e < n := Nat.nth_lt_of_lt_count he
  obtain ⟨d, hd⟩ := Nat.exists_eq_add_of_le hk.le
  -- every p before it is counted
  have h1 : Nat.count (fun p => Nat.count P (p + 1) ≤ e) (Nat.nth P e) = Nat.nth P e :=
    Nat.count_of_forall fun p hp => count_succ_le_of_lt_nth hp
  -- no p from it on is counted
  have h2 : Nat.count (fun j => Nat.count P (Nat.nth P e + j + 1) ≤ e) d = 0 := by
    rw [Nat.count_iff_forall_not]
    intro j _ hle
    exact absurd hle (Nat.not_le.2 (lt_count_succ_of_nth_le he (Nat.le_add_right _ j)))
  unfold pos
  rw [hd, Nat.count_add, h1, h2, Nat.add_zero]

/-- Below the total count, pos e is below n and satisfies P. -/
theorem pos_spec {n e : ℕ} (hP : ∀ q, P q → q < n) (he : e < Nat.count P n) :
    pos P n e < n ∧ P (pos P n e) := by
  rw [pos_eq_nth hP he]
  exact ⟨Nat.nth_lt_of_lt_count he, Nat.nth_mem e (lt_card_of_lt_count he)⟩

/-- From the total count on, every p below n is counted: pos e = n. -/
theorem pos_eq_n {n e : ℕ} (he : Nat.count P n ≤ e) : pos P n e = n := by
  -- for p < n the running count at p is at most the total count, hence at most e
  exact Nat.count_of_forall fun _ hp => (Nat.count_monotone P (Nat.succ_le_of_lt hp)).trans he

/-- The total count is at most n. -/
theorem count_le_n (n : ℕ) : Nat.count P n ≤ n := by
  exact Nat.count_le P

/-- Summing g over the positions pos e, e below the total count, is summing g over the naturals below n
    that satisfy P. -/
theorem sum_pos {M : Type*} [AddCommMonoid M] {n : ℕ} (hP : ∀ q, P q → q < n) (g : ℕ → M) :
    (∑ e ∈ Finset.range n, if e < Nat.count P n then g (pos P n e) else 0)
      = ∑ q ∈ Finset.range n, if P q then g q else 0 := by
  -- the indices e below n that are below the total count are exactly the e below the total count
  have hfil : (Finset.range n).filter (fun e => e < Nat.count P n)
      = Finset.range (Nat.count P n) := by
    ext e
    simp only [Finset.mem_filter, Finset.mem_range]
    exact ⟨fun h => h.2, fun h => ⟨h.trans_le (Nat.count_le P), h⟩⟩
  rw [← Finset.sum_filter, ← Finset.sum_filter, hfil]
  -- e ↦ (e-th natural satisfying P) and q ↦ (count below q) are mutually inverse bijections
  refine Finset.sum_nbij' (fun e => Nat.nth P e) (fun q => Nat.count P q) ?_ ?_ ?_ ?_ ?_
  · intro e he
    have he' : e < Nat.count P n := Finset.mem_range.1 he
    exact Finset.mem_filter.2
      ⟨Finset.mem_range.2 (Nat.nth_lt_of_lt_count he'), Nat.nth_mem e (lt_card_of_lt_count he')⟩
  · intro q hq
    obtain ⟨hqn, hPq⟩ := Finset.mem_filter.1 hq
    exact Finset.mem_range.2 (Nat.count_strict_mono hPq (Finset.mem_range.1 hqn))
  · intro e he
    exact Nat.count_nth (lt_card_of_lt_count (Finset.mem_range.1 he))
  · intro q hq
    exact Nat.nth_count (Finset.mem_filter.1 hq).2
  · intro e he
    rw [pos_eq_nth hP (Finset.mem_range.1 he)]

end Cert.NthCount
-- ==== Proof.RefMath.lean ====
/-
  The vocabulary that joins the reference's integer half (the edge list) to its float half (the sums over it).

  Position q of the row-major flattening of the adjacency matrix is SET when q < 1024 · 1024 and the entry at
  row q / 1024, column q % 1024 is nonzero. The edge list is the set positions in increasing order, padded with
  the out-of-range row and column 1024: edge e below the number of set positions is (pos e / 1024, pos e % 1024),
  pos e the e-th set position; every later edge is (1024, 1024).
-/
import proofs.«179381_g13718125543874_cont_sun_m_270_6_alg».proof.Proof.NthCount
import Idealize.ShloMosaic.PureOps
import Idealize.ShloMosaic.Lib.ValueIdx

noncomputable section

namespace Cert.RefMath

open Idealize.ShloMosaic Idealize.ShloMosaic.ValueIdx

/-- Row of a flattened position (total: reduced into range). -/
abbrev rowOf (q : ℕ) : Fin 1024 := ⟨q / 1024 % 1024, Nat.mod_lt _ (by norm_num)⟩
/-- Column of a flattened position. -/
abbrev colOf (q : ℕ) : Fin 1024 := ⟨q % 1024, Nat.mod_lt _ (by norm_num)⟩

/-- Position q of the flattened adjacency matrix is set. -/
def IsSet (adj : IVec ⟨2, ![1024, 1024]⟩ 32) (q : ℕ) : Prop :=
  q < 1048576 ∧ adj (ix2 (rowOf q) (colOf q)) ≠ 0#32

instance (adj : IVec ⟨2, ![1024, 1024]⟩ 32) : DecidablePred (IsSet adj) := fun q => by
  unfold IsSet; infer_instance

theorem IsSet.lt {adj : IVec ⟨2, ![1024, 1024]⟩ 32} {q : ℕ} (h : IsSet adj q) : q < 1048576 := h.1

/-- The number of set positions. -/
def total (adj : IVec ⟨2, ![1024, 1024]⟩ 32) : ℕ := Nat.count (IsSet adj) 1048576

/-- The e-th set position (1048576 from the total on). -/
def posOf (adj : IVec ⟨2, ![1024, 1024]⟩ 32) (e : ℕ) : ℕ := Cert.NthCount.pos (IsSet adj) 1048576 e

/-- A [2, 1048576] table of words is the padded edge list of the adjacency matrix: read signed, column e is
    (row, column) of the e-th set position below the total, and (1024, 1024) from the total on. -/
structure EdgeSpec (adj : IVec ⟨2, ![1024, 1024]⟩ 32) (edges : IVec ⟨2, ![2, 1048576]⟩ 32) : Prop where
  valid : ∀ e : Fin 1048576, e.val < total adj →
    (edges (ix2 (0 : Fin 2) e)).toInt = ((posOf adj e.val / 1024 : ℕ) : ℤ)
      ∧ (edges (ix2 (1 : Fin 2) e)).toInt = ((posOf adj e.val % 1024 : ℕ) : ℤ)
  pad : ∀ e : Fin 1048576, total adj ≤ e.val →
    (edges (ix2 (0 : Fin 2) e)).toInt = 1024 ∧ (edges (ix2 (1 : Fin 2) e)).toInt = 1024

/-- A signed row index clamped into the 1024 rows, as a gather clamps it. -/
abbrev clampRow (z : ℤ) : Fin 1024 := ⟨min z.toNat 1023, by omega⟩

end Cert.RefMath

end
-- ==== Proof.WordSums.lean ====
/-
  Word sums that do not wrap.

  A sliding-window sum over a window as long as the array, padded low by one less than the window, is the
  array's running sum: element e of the result adds the entries at positions 0 … e. Read in 32-bit words this
  is the sum of the entries' values as long as the whole array's sum stays below 2^32. Likewise the sum of
  every entry of a 0/1 matrix of words is the number of its ones.
-/
import Idealize.ShloMosaic.PureOps
import Idealize.ShloMosaic.Lib.ValueIdx
import Idealize.ShloMosaic.Lib.StableHlo.Predicate
import Idealize.ShloMosaic.Lib.ReduceAll

noncomputable section

namespace Cert.WordSums

open Idealize.ShloMosaic Idealize.ShloMosaic.ValueIdx

/-- A left fold of word addition whose running total never leaves the word: its value is the start value plus
    the sum of the terms' values. -/
theorem toNat_foldl_addi {ι : Type} (g : ι → BitVec 32) :
    ∀ (l : List ι) (acc : BitVec 32), acc.toNat + (l.map fun n => (g n).toNat).sum < 2 ^ 32 →
      (l.foldl (fun r n => IntOp.addi r (g n)) acc).toNat = acc.toNat + (l.map fun n => (g n).toNat).sum
  | [], acc, _ => by simp
  | a :: l, acc, h => by
    rw [List.map_cons, List.sum_cons] at h
    have hstep : (IntOp.addi acc (g a)).toNat = acc.toNat + (g a).toNat := by
      show (acc + g a).toNat = _
      rw [BitVec.toNat_add]
      exact Nat.mod_eq_of_lt (by omega)
    rw [List.foldl_cons, toNat_foldl_addi g l _ (by rw [hstep]; omega), hstep, List.map_cons, List.sum_cons]
    omega

/-- The same from zero, with the sum of the values named. -/
theorem toNat_foldl_addi_of_eq {ι : Type} (g : ι → BitVec 32) (l : List ι) (S : ℕ)
    (hS : (l.map fun n => (g n).toNat).sum = S) (hlt : S < 2 ^ 32) :
    (l.foldl (fun r n => IntOp.addi r (g n)) 0#32).toNat = S := by
  rw [toNat_foldl_addi g l 0#32 (by rw [hS]; simpa using hlt), hS]
  simp

/-- The value of entry q of a rank-1 array of words, zero past its end. -/
def valAt {N : ℕ} (x : IVec ⟨1, ![N]⟩ 32) (q : ℕ) : ℕ := if hq : q < N then (x (ix1 ⟨q, hq⟩)).toNat else 0

/-- Window position n of the window that ends at e reads entry e + n − L (L = N − 1): the positions that land
    inside the array are those with e + n ≥ L, and they read the entries 0 … e, each once. -/
theorem sum_shift {N L e : ℕ} (hL : L + 1 = N) (he : e < N) (X : ℕ → ℕ) :
    ∑ n ∈ Finset.range N, (if L ≤ e + n ∧ e + n - L < N then X (e + n - L) else 0)
      = ∑ q ∈ Finset.range N, if q ≤ e then X q else 0 := by
  rw [← Finset.sum_filter, ← Finset.sum_filter]
  refine Finset.sum_nbij' (fun n => e + n - L) (fun q => q + L - e) ?_ ?_ ?_ ?_ ?_
  · intro n hn
    simp only [Finset.mem_filter, Finset.mem_range] at hn ⊢
    omega
  · intro q hq
    simp only [Finset.mem_filter, Finset.mem_range] at hq ⊢
    omega
  · intro n hn
    simp only [Finset.mem_filter, Finset.mem_range] at hn
    show e + n - L + L - e = n
    omega
  · intro q hq
    simp only [Finset.mem_filter, Finset.mem_range] at hq
    show e + (q + L - e) - L = q
    omega
  · intro n _
    rfl

/-- The running sum at any length N ≥ 1 (L = N − 1 the low padding): entry e of the window sum is the sum of
    the entries at positions ≤ e, as naturals, when the whole array's sum does not wrap. -/
theorem cumsum_gen {N L : ℕ} (hL : L + 1 = N) (x : IVec ⟨1, ![N]⟩ 32) (init : IVec ⟨0, ![]⟩ 32)
    (h : (⟨1, ![N]⟩ : Shape).ReduceWindows ![N] ![1] ![L] ![0] ⟨1, ![N]⟩)
    (hu : 0 < (⟨0, ![]⟩ : Shape).numel) (hinit : ∀ i, init i = 0#32)
    (hsum : ∑ q : Fin N, (x (ix1 q)).toNat < 2 ^ 32) (e : Fin N) :
    (Host.reduceWindow IntOp.addi ![N] ![1] ![L] ![0] x init h hu (ix1 e)).toNat
      = ∑ q : Fin N, if q.val ≤ e.val then (x (ix1 q)).toNat else 0 := by
  have hMN : (⟨1, ![N]⟩ : Shape).numel = N := by simp [Shape.numel]
  unfold Host.reduceWindow
  simp only []
  rw [hinit]
  refine toNat_foldl_addi_of_eq _ _ _ ?_ ?_
  · rw [← Fin.sum_univ_def]
    trans ∑ n : Fin (⟨1, ![N]⟩ : Shape).numel,
        (fun k => if L ≤ e.val + k ∧ e.val + k - L < N then valAt x (e.val + k - L) else 0) n.val
    · refine Finset.sum_congr rfl fun n _ => ?_
      have hn0 : ((⟨1, ![N]⟩ : Shape).rowMajor.symm n 0).val = n.val := by
        have := Shape.rowMajor_val_one ((⟨1, ![N]⟩ : Shape).rowMajor.symm n)
        rw [Equiv.apply_symm_apply] at this
        exact this.symm
      show _ = if L ≤ e.val + n.val ∧ e.val + n.val - L < N then valAt x (e.val + n.val - L) else 0
      split
      · rename_i h1
        have h10 := h1 0
        change L ≤ e.val * 1 + ((⟨1, ![N]⟩ : Shape).rowMajor.symm n 0).val
          ∧ e.val * 1 + ((⟨1, ![N]⟩ : Shape).rowMajor.symm n 0).val - L < N at h10
        rw [hn0] at h10
        have hc : L ≤ e.val + n.val ∧ e.val + n.val - L < N := by omega
        rw [if_pos hc, valAt, dif_pos hc.2]
        congr 2
        funext a
        match a with
        | ⟨0, _⟩ =>
          apply Fin.ext
          show e.val * 1 + ((⟨1, ![N]⟩ : Shape).rowMajor.symm n 0).val - L = e.val + n.val - L
          rw [hn0]; omega
      · rename_i h1
        have hc : ¬(L ≤ e.val + n.val ∧ e.val + n.val - L < N) := by
          intro hc
          apply h1
          intro a
          match a with
          | ⟨0, _⟩ =>
            show L ≤ e.val * 1 + ((⟨1, ![N]⟩ : Shape).rowMajor.symm n 0).val
              ∧ e.val * 1 + ((⟨1, ![N]⟩ : Shape).rowMajor.symm n 0).val - L < N
            rw [hn0]; omega
        rw [if_neg hc]
        rfl
    · rw [Fin.sum_univ_eq_sum_range
        (fun k => if L ≤ e.val + k ∧ e.val + k - L < N then valAt x (e.val + k - L) else 0), hMN,
        sum_shift hL e.isLt,
        ← Fin.sum_univ_eq_sum_range (fun q => if q ≤ e.val then valAt x q else 0) N]
      refine Finset.sum_congr rfl fun q _ => ?_
      show (if q.val ≤ e.val then valAt x q.val else 0) = _
      rw [valAt, dif_pos q.isLt]
  · exact lt_of_le_of_lt (Finset.sum_le_sum fun q _ => by split <;> omega) hsum

/-- The sum of every entry of an [n, m] matrix of words, from a zero initial value, is the sum of the entries'
    values when that does not wrap. -/
theorem total_gen {n m : ℕ} (x : IVec ⟨2, ![n, m]⟩ 32) (init : IVec ⟨0, ![]⟩ 32)
    (h : (⟨2, ![n, m]⟩ : Shape).ReducesTo [0, 1] ⟨0, ![]⟩) (hu : 0 < (⟨0, ![]⟩ : Shape).numel)
    (hinit : ∀ i, init i = 0#32)
    (hsum : ∑ i : Fin n, ∑ j : Fin m, (x (ix2 i j)).toNat < 2 ^ 32) (z : (⟨0, ![]⟩ : Shape).Idx) :
    (Host.reduce IntOp.addi x init h hu z).toNat = ∑ i : Fin n, ∑ j : Fin m, (x (ix2 i j)).toNat := by
  classical
  -- the result has one index, so every entry reduces into it
  have hfil : (Finset.univ.filter fun i : (⟨2, ![n, m]⟩ : Shape).Idx => h.drop i = z) = Finset.univ :=
    Finset.filter_true_of_mem fun i _ => (eq_ix0 _).trans (eq_ix0 _).symm
  rw [Host.reduce_eq_fold, hfil, hinit,
    StableHlo.Predicate.toNat_fold_addi _ _ (by rw [sum_idx2]; exact hsum), sum_idx2]

/-- The running sum: entry e of the window sum is the sum of the entries at positions ≤ e, as naturals,
    when the whole array's sum does not wrap. -/
theorem cumsum_toNat (x : IVec ⟨1, ![1048576]⟩ 32) (init : IVec ⟨0, ![]⟩ 32)
    (h : (⟨1, ![1048576]⟩ : Shape).ReduceWindows ![1048576] ![1] ![1048575] ![0] ⟨1, ![1048576]⟩)
    (hu : 0 < (⟨0, ![]⟩ : Shape).numel) (hinit : ∀ i, init i = 0#32)
    (hsum : ∑ q : Fin 1048576, (x (ix1 q)).toNat < 2 ^ 32) (e : Fin 1048576) :
    (Host.reduceWindow IntOp.addi ![1048576] ![1] ![1048575] ![0] x init h hu (ix1 e)).toNat
      = ∑ q : Fin 1048576, if q.val ≤ e.val then (x (ix1 q)).toNat else 0 := by
  exact cumsum_gen (N := 1048576) (L := 1048575) rfl x init h hu hinit hsum e

/-- The sum of every entry of a [1024, 1024] matrix of words, from a zero initial value, is the sum of the
    entries' values when that does not wrap. -/
theorem total_toNat (x : IVec ⟨2, ![1024, 1024]⟩ 32) (init : IVec ⟨0, ![]⟩ 32)
    (h : (⟨2, ![1024, 1024]⟩ : Shape).ReducesTo [0, 1] ⟨0, ![]⟩) (hu : 0 < (⟨0, ![]⟩ : Shape).numel)
    (hinit : ∀ i, init i = 0#32)
    (hsum : ∑ i : Fin 1024, ∑ j : Fin 1024, (x (ix2 i j)).toNat < 2 ^ 32) (z : (⟨0, ![]⟩ : Shape).Idx) :
    (Host.reduce IntOp.addi x init h hu z).toNat = ∑ i : Fin 1024, ∑ j : Fin 1024, (x (ix2 i j)).toNat := by
  exact total_gen x init h hu hinit hsum z

end Cert.WordSums

end
-- ==== Proof.ScatterGather.lean ====
/-
  The reference's indexed operations read at an index.

  An accumulating scatter along the leading axis sends update row e to the operand row its index names,
  read as a signed word, and drops it when that is outside the operand; so the result at row i is the
  operand's entry plus the sum of the updates whose index is i. Over words, with a zero operand and unit
  updates, that sum is the number of such updates. A gather of rows reads the row its index names, clamped
  into the operand.
-/
import proofs.«179381_g13718125543874_cont_sun_m_270_6_alg».proof.ReferenceIdeal
import Idealize.ShloMosaic.PureOps.Ideal
import Idealize.ShloMosaic.Lib.ValueIdx
import Mathlib.Algebra.BigOperators.Group.Finset.Basic
import Mathlib.Algebra.BigOperators.Group.Finset.Piecewise
import Mathlib.Algebra.BigOperators.Fin
import Mathlib.Data.Finset.Card
import Mathlib.Data.Fintype.Basic
import Mathlib.Data.Fintype.Card
import Mathlib.Data.Multiset.Count
import Mathlib.Data.Multiset.Filter

noncomputable section

namespace Cert.ReferenceIdeal.Scat

open Idealize.ShloMosaic Idealize.ShloMosaic.ValueIdx Cert.ReferenceIdeal

variable [Facts₀]

omit [Facts₀] in
/-- An update lands on operand index i exactly when, on every axis, start plus window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro heq a
      have := Option.some.inj heq
      rw [← this]
      exact (Int.toNat_of_nonneg (h a).1).symm
    · intro hall
      congr 1
      funext a
      refine Fin.ext ?_
      show (d.start j idx a + (d.window j a : ℤ)).toNat = (i a).val
      rw [hall a]; rfl
  · rename_i h
    constructor
    · intro heq; cases heq
    · intro hall
      exact absurd (fun a => by rw [hall a]; exact ⟨Int.natCast_nonneg _, by exact_mod_cast (i a).isLt⟩) h

omit [Facts₀] in
/-- A rank-1 index is its coordinate. -/
def idxEquiv1 {n : Nat} : (⟨1, ![n]⟩ : Shape).Idx ≃ Fin n where
  toFun j := j 0
  invFun p := ix1 p
  left_inv j := (eq_ix1 j).symm
  right_inv _ := rfl

omit [Facts₀] in
/-- Counting along the list of all positions below n is the size of the set counted. -/
theorem countP_finRange (n : Nat) (p : Fin n → Prop) [DecidablePred p] :
    (List.finRange n).countP (fun a => decide (p a)) = (Finset.univ.filter p).card := by
  rw [Finset.card_def, Finset.filter_val, ← Multiset.countP_eq_card_filter, Fin.univ_def]
  exact (Multiset.coe_countP _ _).symm

omit [Facts₀] in
/-- Folding the accumulating step with unit updates over any list of update positions: entry i₀ grows, as a
    word, by the number of listed positions that land on i₀. -/
theorem fold_count {s si u : Shape} (d : ScatterDims s si u) {w : Nat} (idx : IVec si w)
    (upd : u.Idx → BitVec 32) (hu : ∀ j, upd j = 1#32) (i₀ : s.Idx) (l : List (Fin u.numel))
    (r : s.Idx → BitVec 32) :
    l.foldl (fun r n =>
        match d.resultIdx? (u.rowMajor.symm n) idx with
        | some i => fun i' => if i' = i then IntOp.addi (r i) (upd (u.rowMajor.symm n)) else r i'
        | none => r) r i₀
      = r i₀ + BitVec.ofNat 32 (l.countP fun n => decide (d.resultIdx? (u.rowMajor.symm n) idx = some i₀)) := by
  induction l generalizing r with
  | nil => simp
  | cons n l ih =>
    rw [List.foldl_cons, ih, List.countP_cons]
    have hstep : (match d.resultIdx? (u.rowMajor.symm n) idx with
        | some i => fun i' => if i' = i then IntOp.addi (r i) (upd (u.rowMajor.symm n)) else r i'
        | none => r) i₀
        = r i₀ + BitVec.ofNat 32 (if decide (d.resultIdx? (u.rowMajor.symm n) idx = some i₀) = true then 1 else 0) := by
      generalize d.resultIdx? (u.rowMajor.symm n) idx = o
      cases o with
      | none => simp
      | some i =>
        by_cases hi : i₀ = i
        · subst hi
          simp [IntOp.addi, hu]
        · have hne : ¬ (some i = some i₀) := fun h => hi (Option.some.inj h).symm
          simp [hi, hne]
    rw [hstep, BitVec.ofNat_add, BitVec.add_assoc, BitVec.add_comm (BitVec.ofNat 32 (List.countP _ l))]

omit [Facts₀] in
/-- The accumulating word scatter with unit updates at entry i₀: the operand's entry plus, as a word, the
    number of update positions that land on i₀. -/
theorem scatter_count_apply {s si u : Shape} (d : ScatterDims s si u) {w : Nat} (idx : IVec si w)
    (x : s.Idx → BitVec 32) (upd : u.Idx → BitVec 32) (hu : ∀ j, upd j = 1#32) (i₀ : s.Idx) :
    Host.scatter d IntOp.addi x idx upd i₀
      = x i₀ + BitVec.ofNat 32 (Finset.univ.filter fun j : u.Idx => d.resultIdx? j idx = some i₀).card := by
  unfold Host.scatter
  refine (fold_count d idx upd hu i₀ (List.finRange u.numel) x).trans ?_
  rw [countP_finRange]
  refine congrArg (fun c => x i₀ + BitVec.ofNat 32 c) ?_
  refine Finset.card_equiv u.rowMajor.symm fun n => ?_
  simp only [Finset.mem_filter, Finset.mem_univ, true_and]

/-- On the one operand axis the start is the update position's index word, read signed (the counting scatter). -/
theorem bin_start0 (idx : IVec S1048576x1 32) (j : S1048576.Idx) :
    scatter_S1048576_S1048576x1_S1048576_n_0_0_1.start j idx (0 : Fin 1) = (idx (ix2 (j 0) (0 : Fin 1))).toInt := by
  unfold ScatterDims.start
  rw [dif_pos (show (0 : Fin 1) ∈ scatter_S1048576_S1048576x1_S1048576_n_0_0_1.scatterDimsToOperandDims from List.mem_singleton.mpr rfl)]
  congr 2
  funext b; refine Fin.ext ?_
  match b with
  | ⟨0, _⟩ => rfl
  | ⟨1, _⟩ => rfl

/-- The one operand axis is inserted: its window coordinate is 0 (the counting scatter). -/
theorem bin_window0 (j : S1048576.Idx) :
    scatter_S1048576_S1048576x1_S1048576_n_0_0_1.window j (0 : Fin 1) = 0 := by
  unfold ScatterDims.window
  rw [dif_neg (show ¬ (0 : Fin 1) ∈ scatter_S1048576_S1048576x1_S1048576_n_0_0_1.sKept from by
    show ¬ (0 : Fin 1) ∈ ([] : List (Fin 1)); exact List.not_mem_nil)]

/-- Where an update of the counting scatter lands: the entry its index names. -/
theorem bin_lands (idx : IVec S1048576x1 32) (j : S1048576.Idx) (v : Fin 1048576) :
    scatter_S1048576_S1048576x1_S1048576_n_0_0_1.resultIdx? j idx = some (ix1 v) ↔ (idx (ix2 (j 0) (0 : Fin 1))).toInt = (v.val : ℤ) := by
  rw [resultIdx?_eq_some_iff]
  constructor
  · intro h
    have h0 := h (0 : Fin 1)
    rw [bin_start0, bin_window0] at h0
    simpa using h0
  · intro h a
    obtain rfl : a = (0 : Fin 1) := Subsingleton.elim _ _
    rw [bin_start0, bin_window0]
    simpa using h

/-- Counting by scatter: from a zero operand and unit updates, entry v ends at the number of positions p
    whose index word, read signed, is v (at most 2^20 of them, so the word sum does not wrap). -/
theorem bincount_toNat (x : IVec S1048576 32) (idx : IVec S1048576x1 32) (upd : IVec S1048576 32)
    (hx : ∀ i, x i = 0#32) (hu : ∀ j, upd j = 1#32) (v : Fin 1048576) :
    (Host.scatter scatter_S1048576_S1048576x1_S1048576_n_0_0_1 IntOp.addi x idx upd (ix1 v)).toNat
      = (Finset.univ.filter fun p : Fin 1048576 => (idx (ix2 p (0 : Fin 1))).toInt = (v.val : ℤ)).card := by
  have hcard : (Finset.univ.filter fun j : S1048576.Idx => scatter_S1048576_S1048576x1_S1048576_n_0_0_1.resultIdx? j idx = some (ix1 v)).card
      = (Finset.univ.filter fun p : Fin 1048576 => (idx (ix2 p (0 : Fin 1))).toInt = (v.val : ℤ)).card := by
    refine Finset.card_equiv idxEquiv1 fun j => ?_
    simp only [Finset.mem_filter, Finset.mem_univ, true_and]
    exact bin_lands idx j v
  rw [scatter_count_apply _ idx x upd hu, hx, BitVec.zero_add, BitVec.toNat_ofNat, hcard]
  refine Nat.mod_eq_of_lt ((Finset.card_filter_le _ _).trans_lt ?_)
  rw [Finset.card_univ, Fintype.card_fin]
  norm_num

/-- On the leading axis the start is the update row's index word, read signed (the [1024, 1] scatter). -/
theorem col_start0 (idx : IVec S1048576x1 32) (j : S1048576x1.Idx) :
    scatter_S1024x1_S1048576x1_S1048576x1_1_0_0_1.start j idx (0 : Fin 2) = (idx (ix2 (j 0) (0 : Fin 1))).toInt := by
  unfold ScatterDims.start
  rw [dif_pos (show (0 : Fin 2) ∈ scatter_S1024x1_S1048576x1_S1048576x1_1_0_0_1.scatterDimsToOperandDims from List.mem_singleton.mpr rfl)]
  congr 2
  funext b; refine Fin.ext ?_
  match b with
  | ⟨0, _⟩ => rfl
  | ⟨1, _⟩ => rfl

/-- On the second axis, which no index component names, the start is 0 (the [1024, 1] scatter). -/
theorem col_start1 (idx : IVec S1048576x1 32) (j : S1048576x1.Idx) :
    scatter_S1024x1_S1048576x1_S1048576x1_1_0_0_1.start j idx (1 : Fin 2) = 0 := by
  unfold ScatterDims.start
  rw [dif_neg (show ¬ (1 : Fin 2) ∈ scatter_S1024x1_S1048576x1_S1048576x1_1_0_0_1.scatterDimsToOperandDims from by
    show ¬ (1 : Fin 2) ∈ [(0 : Fin 2)]; decide)]

/-- The leading axis is inserted: its window coordinate is 0 (the [1024, 1] scatter). -/
theorem col_window0 (j : S1048576x1.Idx) :
    scatter_S1024x1_S1048576x1_S1048576x1_1_0_0_1.window j (0 : Fin 2) = 0 := by
  unfold ScatterDims.window
  rw [dif_neg (show ¬ (0 : Fin 2) ∈ scatter_S1024x1_S1048576x1_S1048576x1_1_0_0_1.sKept from by
    show ¬ (0 : Fin 2) ∈ [(1 : Fin 2)]; decide)]

/-- The second axis carries the update's second coordinate (the [1024, 1] scatter). -/
theorem col_window1 (j : S1048576x1.Idx) :
    scatter_S1024x1_S1048576x1_S1048576x1_1_0_0_1.window j (1 : Fin 2) = (j 1).val := by
  unfold ScatterDims.window
  rw [dif_pos (show (1 : Fin 2) ∈ scatter_S1024x1_S1048576x1_S1048576x1_1_0_0_1.sKept from by
    show (1 : Fin 2) ∈ [(1 : Fin 2)]; decide)]
  rfl

/-- Where an update of the [1024, 1] scatter lands. -/
theorem col_lands (idx : IVec S1048576x1 32) (e : Fin 1048576) (i : Fin 1024) :
    scatter_S1024x1_S1048576x1_S1048576x1_1_0_0_1.resultIdx? (ix2 e (0 : Fin 1)) idx = some (ix2 i (0 : Fin 1))
      ↔ (idx (ix2 e (0 : Fin 1))).toInt = (i.val : ℤ) := by
  rw [resultIdx?_eq_some_iff]
  constructor
  · intro h
    have h0 := h (0 : Fin 2)
    rw [col_start0, col_window0] at h0
    simpa using h0
  · intro h a
    match a with
    | ⟨0, _⟩ =>
      show scatter_S1024x1_S1048576x1_S1048576x1_1_0_0_1.start _ idx (0 : Fin 2) + ((scatter_S1024x1_S1048576x1_S1048576x1_1_0_0_1.window _ (0 : Fin 2) : ℕ) : ℤ) = _
      rw [col_start0, col_window0]
      simpa using h
    | ⟨1, _⟩ =>
      show scatter_S1024x1_S1048576x1_S1048576x1_1_0_0_1.start _ idx (1 : Fin 2) + ((scatter_S1024x1_S1048576x1_S1048576x1_1_0_0_1.window _ (1 : Fin 2) : ℕ) : ℤ) = _
      rw [col_start1, col_window1]
      rfl

/-- The [1024, 1] accumulating scatter at row i: the operand's entry plus the updates of the edges whose
    index is i. -/
theorem scatterAdd_col_apply (x : FVec Ideal S1024x1 .f32) (idx : IVec S1048576x1 32)
    (upd : FVec Ideal S1048576x1 .f32) (i : Fin 1024) :
    Host.scatterAdd (F := Ideal) scatter_S1024x1_S1048576x1_S1048576x1_1_0_0_1 x idx upd (ix2 i (0 : Fin 1))
      = x (ix2 i (0 : Fin 1))
        + ∑ e : Fin 1048576, if (idx (ix2 e (0 : Fin 1))).toInt = (i.val : ℤ) then upd (ix2 e (0 : Fin 1)) else 0 := by
  unfold Host.scatterAdd
  rw [Ideal.hostScatterAdd_def]
  unfold Ideal.hostScatterAdd
  refine congrArg (fun t => x (ix2 i (0 : Fin 1)) + t) ?_
  rw [Finset.sum_filter, sum_idx2]
  refine Finset.sum_congr rfl fun e _ => ?_
  rw [Fin.sum_univ_one]
  simp only [col_lands]

/-- On the leading axis the start is the update row's index word, read signed (the [1024, 128] scatter). -/
theorem rows_start0 (idx : IVec S1048576x1 32) (j : S1048576x128.Idx) :
    scatter_S1024x128_S1048576x1_S1048576x128_1_0_0_1.start j idx (0 : Fin 2) = (idx (ix2 (j 0) (0 : Fin 1))).toInt := by
  unfold ScatterDims.start
  rw [dif_pos (show (0 : Fin 2) ∈ scatter_S1024x128_S1048576x1_S1048576x128_1_0_0_1.scatterDimsToOperandDims from List.mem_singleton.mpr rfl)]
  congr 2
  funext b; refine Fin.ext ?_
  match b with
  | ⟨0, _⟩ => rfl
  | ⟨1, _⟩ => rfl

/-- On the second axis, which no index component names, the start is 0 (the [1024, 128] scatter). -/
theorem rows_start1 (idx : IVec S1048576x1 32) (j : S1048576x128.Idx) :
    scatter_S1024x128_S1048576x1_S1048576x128_1_0_0_1.start j idx (1 : Fin 2) = 0 := by
  unfold ScatterDims.start
  rw [dif_neg (show ¬ (1 : Fin 2) ∈ scatter_S1024x128_S1048576x1_S1048576x128_1_0_0_1.scatterDimsToOperandDims from by
    show ¬ (1 : Fin 2) ∈ [(0 : Fin 2)]; decide)]

/-- The leading axis is inserted: its window coordinate is 0 (the [1024, 128] scatter). -/
theorem rows_window0 (j : S1048576x128.Idx) :
    scatter_S1024x128_S1048576x1_S1048576x128_1_0_0_1.window j (0 : Fin 2) = 0 := by
  unfold ScatterDims.window
  rw [dif_neg (show ¬ (0 : Fin 2) ∈ scatter_S1024x128_S1048576x1_S1048576x128_1_0_0_1.sKept from by
    show ¬ (0 : Fin 2) ∈ [(1 : Fin 2)]; decide)]

/-- The second axis carries the update's second coordinate (the [1024, 128] scatter). -/
theorem rows_window1 (j : S1048576x128.Idx) :
    scatter_S1024x128_S1048576x1_S1048576x128_1_0_0_1.window j (1 : Fin 2) = (j 1).val := by
  unfold ScatterDims.window
  rw [dif_pos (show (1 : Fin 2) ∈ scatter_S1024x128_S1048576x1_S1048576x128_1_0_0_1.sKept from by
    show (1 : Fin 2) ∈ [(1 : Fin 2)]; decide)]
  rfl

/-- Where an update of the [1024, 128] scatter lands: the row its index names, the same feature. -/
theorem rows_lands (idx : IVec S1048576x1 32) (e : Fin 1048576) (k' : Fin 128) (i : Fin 1024) (k : Fin 128) :
    scatter_S1024x128_S1048576x1_S1048576x128_1_0_0_1.resultIdx? (ix2 e k') idx = some (ix2 i k)
      ↔ (idx (ix2 e (0 : Fin 1))).toInt = (i.val : ℤ) ∧ k' = k := by
  rw [resultIdx?_eq_some_iff]
  constructor
  · intro h
    have h0 := h (0 : Fin 2)
    have h1 := h (1 : Fin 2)
    rw [rows_start0, rows_window0] at h0
    rw [rows_start1, rows_window1] at h1
    refine ⟨by simpa using h0, Fin.ext ?_⟩
    have : ((k'.val : ℕ) : ℤ) = (k.val : ℤ) := by simpa using h1
    exact_mod_cast this
  · rintro ⟨h, rfl⟩ a
    match a with
    | ⟨0, _⟩ =>
      show scatter_S1024x128_S1048576x1_S1048576x128_1_0_0_1.start _ idx (0 : Fin 2) + ((scatter_S1024x128_S1048576x1_S1048576x128_1_0_0_1.window _ (0 : Fin 2) : ℕ) : ℤ) = _
      rw [rows_start0, rows_window0]
      simpa using h
    | ⟨1, _⟩ =>
      show scatter_S1024x128_S1048576x1_S1048576x128_1_0_0_1.start _ idx (1 : Fin 2) + ((scatter_S1024x128_S1048576x1_S1048576x128_1_0_0_1.window _ (1 : Fin 2) : ℕ) : ℤ) = _
      rw [rows_start1, rows_window1]
      simp

/-- The [1024, 128] accumulating scatter at row i, feature k: the operand's entry plus feature k of the
    update rows of the edges whose index is i. -/
theorem scatterAdd_rows_apply (x : FVec Ideal S1024x128 .f32) (idx : IVec S1048576x1 32)
    (upd : FVec Ideal S1048576x128 .f32) (i : Fin 1024) (k : Fin 128) :
    Host.scatterAdd (F := Ideal) scatter_S1024x128_S1048576x1_S1048576x128_1_0_0_1 x idx upd (ix2 i k)
      = x (ix2 i k)
        + ∑ e : Fin 1048576, if (idx (ix2 e (0 : Fin 1))).toInt = (i.val : ℤ) then upd (ix2 e k) else 0 := by
  unfold Host.scatterAdd
  rw [Ideal.hostScatterAdd_def]
  unfold Ideal.hostScatterAdd
  refine congrArg (fun t => x (ix2 i k) + t) ?_
  rw [Finset.sum_filter, sum_idx2]
  refine Finset.sum_congr rfl fun e _ => ?_
  simp only [rows_lands]
  by_cases h : (idx (ix2 e (0 : Fin 1))).toInt = (i.val : ℤ)
  · simp [h]
  · simp [h]

/-- The row gather at edge e, feature k: feature k of the row the index names, read signed and clamped
    into [0, 1023]. -/
theorem gather_rows_apply {α : Type} (x : S1024x128.Idx → α) (idx : IVec S1048576x1 32) (e : Fin 1048576) (k : Fin 128) :
    Host.gather gather_S1024x128_S1048576x1_S1048576x128_1_0_n_n_0_1_1128 x idx (ix2 e k)
      = x (ix2 (⟨min (idx (ix2 e (0 : Fin 1))).toInt.toNat 1023, by omega⟩ : Fin 1024) k) := by
  unfold Host.gather
  refine congrArg x ?_
  funext a
  refine Fin.ext ?_
  match a with
  | ⟨0, _⟩ =>
    show gather_S1024x128_S1048576x1_S1048576x128_1_0_n_n_0_1_1128.start (ix2 e k) idx (0 : Fin 2) + gather_S1024x128_S1048576x1_S1048576x128_1_0_n_n_0_1_1128.batchCoord (ix2 e k) (0 : Fin 2)
        + gather_S1024x128_S1048576x1_S1048576x128_1_0_n_n_0_1_1128.offCoord (ix2 e k) (0 : Fin 2) = min (idx (ix2 e (0 : Fin 1))).toInt.toNat 1023
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x128_S1048576x1_S1048576x128_1_0_n_n_0_1_1128.startIndexMap from List.mem_singleton.mpr rfl)]
    have hsi : gather_S1024x128_S1048576x1_S1048576x128_1_0_n_n_0_1_1128.siIdx (ix2 e k) ⟨List.idxOf (0 : Fin 2) gather_S1024x128_S1048576x1_S1048576x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S1024x128_S1048576x1_S1048576x128_1_0_n_n_0_1_1128.start (ix2 e k) idx (1 : Fin 2) + gather_S1024x128_S1048576x1_S1048576x128_1_0_n_n_0_1_1128.batchCoord (ix2 e k) (1 : Fin 2)
        + gather_S1024x128_S1048576x1_S1048576x128_1_0_n_n_0_1_1128.offCoord (ix2 e k) (1 : Fin 2) = k.val
    rw [GatherDims.batchCoord_eq_zero _ _ _ List.not_mem_nil]
    have hs : gather_S1024x128_S1048576x1_S1048576x128_1_0_n_n_0_1_1128.start (ix2 e k) idx (1 : Fin 2) = 0 := by
      unfold GatherDims.start
      rw [dif_neg (show ¬ (1 : Fin 2) ∈ gather_S1024x128_S1048576x1_S1048576x128_1_0_n_n_0_1_1128.startIndexMap from by
        show ¬ (1 : Fin 2) ∈ [(0 : Fin 2)]; decide)]
    have ho : gather_S1024x128_S1048576x1_S1048576x128_1_0_n_n_0_1_1128.offCoord (ix2 e k) (1 : Fin 2) = k.val := by
      unfold GatherDims.offCoord
      rw [dif_pos (show (1 : Fin 2) ∈ gather_S1024x128_S1048576x1_S1048576x128_1_0_n_n_0_1_1128.sKept from by
        show (1 : Fin 2) ∈ [(1 : Fin 2)]; decide)]
      rfl
    rw [hs, ho]; simp

end Cert.ReferenceIdeal.Scat

end
-- ==== Proof.RefIndex.lean ====
/-
  The reference's flat positions of the set entries.

  The adjacency matrix is compared with zero entry by entry, flattened row-major and widened to words; its running
  sum c p counts the set positions up to p. Counting, for each value v, the positions whose running sum is v, and
  taking the running sum of those counts, gives at e the number of positions whose running sum is at most e: the
  e-th set position when there is one, and the array's length otherwise.
-/
import proofs.«179381_g13718125543874_cont_sun_m_270_6_alg».proof.Proof.RefOps
import proofs.«179381_g13718125543874_cont_sun_m_270_6_alg».proof.Proof.RefMath
import proofs.«179381_g13718125543874_cont_sun_m_270_6_alg».proof.Proof.WordSums
import proofs.«179381_g13718125543874_cont_sun_m_270_6_alg».proof.Proof.ScatterGather

noncomputable section

namespace Cert.ReferenceIdeal.RefIndex

open Idealize.ShloMosaic Idealize.ShloMosaic.ValueIdx Cert.ReferenceIdeal Cert.ReferenceIdeal.RefOps Cert.RefMath

variable (adj : IVec S1024x1024 32)

/-- A word compared with zero for inequality: the bit is one exactly when the word is nonzero. -/
theorem ofBool_bne_zero (a : BitVec 32) : BitVec.ofBool (a != 0#32) = if a ≠ 0#32 then 1#1 else 0#1 := by
  by_cases h : a = 0#32
  · subst h
    rw [if_neg (by simp)]
    rfl
  · have hb : (a != 0#32) = true := bne_iff_ne.2 h
    rw [hb, if_pos h]
    rfl

/-- The mask bit: one where the entry is nonzero. -/
theorem mask_apply (i j : Fin 1024) :
    st_main_v1 (F := Ideal) adj (ix2 i j) = if adj (ix2 i j) ≠ 0#32 then 1#1 else 0#1 := by
  show BitVec.ofBool (adj (ix2 i j) != 0#32) = _
  exact ofBool_bne_zero _

/-- Position q of the row-major flattening of a [1024, 1024] array is entry (q / 1024, q % 1024). -/
theorem flat_apply {α : Type} (M : S1024x1024.Idx → α) (h : S1024x1024.ShapeCasts S1048576) (q : Fin 1048576) :
    shapeCast S1048576 M h (ix1 q) = M (ix2 (rowOf q.val) (colOf q.val)) := by
  unfold shapeCast
  refine congrArg M (Shape.reshapeEquiv_eq_of_rowMajor h ?_)
  rw [Shape.rowMajor_val_two, Shape.rowMajor_val_one]
  show q.val / 1024 % 1024 * 1024 + q.val % 1024 = q.val
  have := q.isLt
  omega

/-- The widened mask bit at flat position q is the indicator of "q is set". -/
theorem wide_toNat (h : S1024x1024.ShapeCasts S1048576) (hw : 1 < 32) (q : Fin 1048576) :
    (extui 32 (shapeCast S1048576 (st_main_v1 (F := Ideal) adj) h) hw (ix1 q)).toNat
      = if IsSet adj q.val then 1 else 0 := by
  show ((shapeCast S1048576 (st_main_v1 (F := Ideal) adj) h (ix1 q)).setWidth 32).toNat = _
  rw [StableHlo.Predicate.toNat_setWidth_bit, flat_apply, mask_apply]
  by_cases hq : adj (ix2 (rowOf q.val) (colOf q.val)) ≠ 0#32
  · rw [if_pos hq, if_pos rfl, if_pos ⟨q.isLt, hq⟩]
  · rw [if_neg hq, if_neg (by decide), if_neg (fun hs => hq hs.2)]

/-- Summing the indicator of a predicate over the positions up to p counts them. -/
theorem sum_le_indicator_eq_count (N : ℕ) (P : ℕ → Prop) [DecidablePred P] (p : ℕ) (hp : p < N) :
    (∑ q : Fin N, if q.val ≤ p then (if P q.val then 1 else 0) else 0) = Nat.count P (p + 1) := by
  rw [Fin.sum_univ_eq_sum_range (fun q => if q ≤ p then (if P q then 1 else 0) else 0) N,
    ← Finset.sum_filter, Nat.count_eq_card_filter_range, Finset.card_filter]
  refine Finset.sum_congr ?_ fun _ _ => rfl
  ext q
  simp only [Finset.mem_filter, Finset.mem_range]
  omega

/-- The running sum of the flattened mask at p is the number of set positions up to and including p. -/
theorem cum_toNat (p : Fin 1048576) :
    (st_main_v2 (F := Ideal) adj (ix1 p)).toNat = Nat.count (IsSet adj) (p.val + 1) := by
  show (Host.reduceWindow IntOp.addi ![1048576] ![1] ![1048575] ![0]
      (extui 32 (shapeCast S1048576 (st_main_v1 (F := Ideal) adj) Facts₀.shapeCasts_S1024x1024_S1048576) Facts₀.natLt_1_32)
      (broadcastInDim S_ ![] Facts₀.bcast_S_S_ (constantI S_ 32 0#32))
      Facts₀.reduceWindows_S1048576_S1048576_w1048576s1p1048575_0 Facts₀.h_S_ (ix1 p)).toNat = _
  have hinit : ∀ i, (broadcastInDim S_ ![] Facts₀.bcast_S_S_ (constantI S_ 32 0#32) : IVec S_ 32) i = 0#32 :=
    fun _ => rfl
  have hsum : ∑ q : Fin 1048576, (extui 32 (shapeCast S1048576 (st_main_v1 (F := Ideal) adj)
      Facts₀.shapeCasts_S1024x1024_S1048576) Facts₀.natLt_1_32 (ix1 q)).toNat < 2 ^ 32 := by
    refine lt_of_le_of_lt (Finset.sum_le_sum fun q _ => ?_) (?_ : ∑ _q : Fin 1048576, 1 < 2 ^ 32)
    · rw [wide_toNat]; split <;> omega
    · rw [Finset.sum_const, Finset.card_univ, Fintype.card_fin]; norm_num
  rw [Cert.WordSums.cumsum_toNat _ _ _ _ hinit hsum p,
    ← sum_le_indicator_eq_count 1048576 (IsSet adj) p.val p.isLt]
  exact Finset.sum_congr rfl fun q _ => by rw [wide_toNat]

/-- A vector laid out as an [n, 1] column reads, at (p, 0), the vector at p. -/
theorem col_apply {α : Type} {n : ℕ} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  unfold broadcastInDim
  refine congrArg v (funext fun a => ?_)
  match a with
  | ⟨0, _⟩ =>
    refine Fin.ext ?_
    split
    · next h1 =>
      have h1' : n = 1 := h1
      have := p.isLt
      show 0 = p.val
      omega
    · rfl

/-- A word below 2^31 is not negative: clipping it below at zero, and then moving a negative index up by the
    array's length, leave it as it is. -/
theorem clip_wrap_id (w : BitVec 32) (hw : w.toNat < 2 ^ 31) :
    Scalar.select (IntOp.cmpi .slt (IntOp.maxsi 0#32 w) 0#32) (IntOp.addi (IntOp.maxsi 0#32 w) 1048576#32)
      (IntOp.maxsi 0#32 w) = w := by
  have hslt : w.slt 0#32 = false := by
    rw [BitVec.slt, StableHlo.Predicate.toInt_eq_toNat_of_lt hw]
    simp
  have hmax : IntOp.maxsi 0#32 w = w := by
    unfold IntOp.maxsi
    rw [hslt]
    rfl
  rw [hmax]
  show Scalar.select (BitVec.ofBool (w.slt 0#32)) _ _ = w
  rw [hslt]
  exact select_zero _ _

/-- The running counts, clipped at zero and with negative indices wrapped: pointwise the running counts. -/
def wrapped (c : IVec S1048576 32) : IVec S1048576 32 := fun i =>
  Scalar.select (IntOp.cmpi .slt (IntOp.maxsi 0#32 (c i)) 0#32) (IntOp.addi (IntOp.maxsi 0#32 (c i)) 1048576#32)
    (IntOp.maxsi 0#32 (c i))

/-- The number of positions below N (as a Fin N) with a property of their value is the number of naturals below N
    with it. -/
theorem card_filter_fin (N : ℕ) (Q : ℕ → Prop) [DecidablePred Q] :
    (Finset.univ.filter fun p : Fin N => Q p.val).card = ((Finset.range N).filter Q).card := by
  rw [Finset.card_filter, Finset.card_filter, Fin.sum_univ_eq_sum_range (fun p => if Q p then 1 else 0) N]

/-- Counting in the other order: over a finite set T of values, the sizes of the fibres of cnt add up to the number
    of positions whose value lies in T. -/
theorem sum_fibre_card (N : ℕ) (cnt : ℕ → ℕ) (T : Finset ℕ) :
    ∑ v ∈ T, ((Finset.range N).filter fun p => cnt p = v).card
      = ((Finset.range N).filter fun p => cnt p ∈ T).card := by
  simp only [Finset.card_filter]
  rw [Finset.sum_comm]
  exact Finset.sum_congr rfl fun p _ => Finset.sum_ite_eq T (cnt p) (fun _ => 1)

/-- The sizes of the fibres over the values up to e add up to the number of positions with value at most e. -/
theorem sum_le_fibre_eq_count (N : ℕ) (cnt : ℕ → ℕ) (e : ℕ) (he : e < N) :
    (∑ v : Fin N, if v.val ≤ e then (Finset.univ.filter fun p : Fin N => cnt p.val = v.val).card else 0)
      = Nat.count (fun p => cnt p ≤ e) N := by
  rw [Finset.sum_congr rfl fun (v : Fin N) _ => by rw [card_filter_fin N (fun p => cnt p = v.val)],
    Fin.sum_univ_eq_sum_range (fun v => if v ≤ e then ((Finset.range N).filter fun p => cnt p = v).card else 0) N,
    ← Finset.sum_filter]
  have hT : (Finset.range N).filter (fun v => v ≤ e) = Finset.range (e + 1) := by
    ext v
    simp only [Finset.mem_filter, Finset.mem_range]
    omega
  rw [hT, sum_fibre_card, Nat.count_eq_card_filter_range]
  exact congrArg Finset.card (Finset.filter_congr fun p _ => Finset.mem_range.trans Nat.lt_succ_iff)

/-- All the fibres together hold at most N positions. -/
theorem sum_fibre_le (N : ℕ) (cnt : ℕ → ℕ) :
    (∑ v : Fin N, (Finset.univ.filter fun p : Fin N => cnt p.val = v.val).card) ≤ N := by
  rw [Finset.sum_congr rfl fun (v : Fin N) _ => by rw [card_filter_fin N (fun p => cnt p = v.val)],
    Fin.sum_univ_eq_sum_range (fun v => ((Finset.range N).filter fun p => cnt p = v).card) N, sum_fibre_card]
  exact (Finset.card_filter_le _ _).trans (by rw [Finset.card_range])

section Cum

variable (c : IVec S1048576 32) (cnt : ℕ → ℕ)
  (hc : ∀ p : Fin 1048576, (c (ix1 p)).toNat = cnt p.val) (hb : ∀ p : Fin 1048576, cnt p.val < 2 ^ 31)

include hc hb in
/-- The counting scatter over the running counts: entry v holds the number of positions whose running count is v. -/
theorem bin_toNat (v : Fin 1048576) :
    (Host.scatter scatter_S1048576_S1048576x1_S1048576_n_0_0_1 IntOp.addi
        (broadcastInDim S1048576 ![] Facts₀.bcast_S_S1048576 (constantI S_ 32 0#32))
        (broadcastInDim S1048576x1 ![0] Facts₀.bcast_S1048576_S1048576x1_0 (wrapped c))
        (broadcastInDim S1048576 ![] Facts₀.bcast_S_S1048576 (constantI S_ 32 1#32)) (ix1 v)).toNat
      = (Finset.univ.filter fun p : Fin 1048576 => cnt p.val = v.val).card := by
  have hx : ∀ i, (broadcastInDim S1048576 ![] Facts₀.bcast_S_S1048576 (constantI S_ 32 0#32) : IVec S1048576 32) i
      = 0#32 := fun _ => rfl
  have hu : ∀ j, (broadcastInDim S1048576 ![] Facts₀.bcast_S_S1048576 (constantI S_ 32 1#32) : IVec S1048576 32) j
      = 1#32 := fun _ => rfl
  rw [Scat.bincount_toNat _ _ _ hx hu v]
  refine congrArg Finset.card (Finset.filter_congr fun p _ => ?_)
  have hlt : (c (ix1 p)).toNat < 2 ^ 31 := by rw [hc]; exact hb p
  have hidx : broadcastInDim S1048576x1 ![0] Facts₀.bcast_S1048576_S1048576x1_0 (wrapped c) (ix2 p (0 : Fin 1))
      = c (ix1 p) := (col_apply _ _ p).trans (clip_wrap_id _ hlt)
  rw [hidx, StableHlo.Predicate.toInt_eq_toNat_of_lt hlt, hc]
  exact Nat.cast_inj

include hc hb in
/-- From running counts cnt, the position table at e is the number of positions whose count is at most e. -/
theorem flatpos_of_cum (e : Fin 1048576) :
    (st_main_v13 (F := Ideal) c (ix1 e)).toNat = Nat.count (fun p => cnt p ≤ e.val) 1048576 := by
  show (Host.reduceWindow IntOp.addi ![1048576] ![1] ![1048575] ![0]
      (Host.scatter scatter_S1048576_S1048576x1_S1048576_n_0_0_1 IntOp.addi
        (broadcastInDim S1048576 ![] Facts₀.bcast_S_S1048576 (constantI S_ 32 0#32))
        (broadcastInDim S1048576x1 ![0] Facts₀.bcast_S1048576_S1048576x1_0 (wrapped c))
        (broadcastInDim S1048576 ![] Facts₀.bcast_S_S1048576 (constantI S_ 32 1#32)))
      (broadcastInDim S_ ![] Facts₀.bcast_S_S_ (constantI S_ 32 0#32))
      Facts₀.reduceWindows_S1048576_S1048576_w1048576s1p1048575_0 Facts₀.h_S_ (ix1 e)).toNat = _
  have hinit : ∀ i, (broadcastInDim S_ ![] Facts₀.bcast_S_S_ (constantI S_ 32 0#32) : IVec S_ 32) i = 0#32 :=
    fun _ => rfl
  have hsum : ∑ v : Fin 1048576, (Host.scatter scatter_S1048576_S1048576x1_S1048576_n_0_0_1 IntOp.addi
        (broadcastInDim S1048576 ![] Facts₀.bcast_S_S1048576 (constantI S_ 32 0#32))
        (broadcastInDim S1048576x1 ![0] Facts₀.bcast_S1048576_S1048576x1_0 (wrapped c))
        (broadcastInDim S1048576 ![] Facts₀.bcast_S_S1048576 (constantI S_ 32 1#32)) (ix1 v)).toNat < 2 ^ 32 := by
    rw [Finset.sum_congr rfl fun (v : Fin 1048576) _ => bin_toNat c cnt hc hb v]
    exact lt_of_le_of_lt (sum_fibre_le 1048576 cnt) (by norm_num)
  rw [Cert.WordSums.cumsum_toNat _ _ _ _ hinit hsum e, ← sum_le_fibre_eq_count 1048576 cnt e.val e.isLt]
  exact Finset.sum_congr rfl fun v _ => by rw [bin_toNat c cnt hc hb v]

end Cum

/-- The flat position table at e is the number of positions whose running count is at most e. -/
theorem flatpos_toNat (e : Fin 1048576) :
    (st_main_v13 (F := Ideal) (st_main_v2 (F := Ideal) adj) (ix1 e)).toNat = posOf adj e.val := by
  refine flatpos_of_cum (st_main_v2 (F := Ideal) adj) (fun p => Nat.count (IsSet adj) (p + 1))
    (fun p => cum_toNat adj p) (fun p => ?_) e
  have h1 : Nat.count (IsSet adj) (p.val + 1) ≤ p.val + 1 := Nat.count_le _
  have := p.isLt
  show Nat.count (IsSet adj) (p.val + 1) < 2 ^ 31
  omega

end Cert.ReferenceIdeal.RefIndex

end
-- ==== Proof.RefEdges.lean ====
/-
  The reference's edge list.

  A flat position p below 2^20 splits into row p / 1024 and column p % 1024 (the floor division and the remainder
  of nonnegative words are the naturals' quotient and remainder); from the number of set positions on, both are
  replaced by the fill value 1024; the two vectors are stacked into a [2, 1048576] table.
-/
import proofs.«179381_g13718125543874_cont_sun_m_270_6_alg».proof.Proof.RefIndex
import Idealize.ShloMosaic.Lib.StableHlo.Predicate
import Idealize.ShloMosaic.Lib.Pipeline.Value
import Mathlib.Algebra.BigOperators.Fin
import Mathlib.Algebra.BigOperators.Group.Finset.Basic
import Mathlib.Algebra.BigOperators.Group.Finset.Piecewise
import Mathlib.Data.Fintype.BigOperators
import Mathlib.Data.Nat.Count
import Mathlib.Logic.Equiv.Fin.Basic

noncomputable section

namespace Cert.ReferenceIdeal.RefEdges

open Idealize.ShloMosaic Idealize.ShloMosaic.ValueIdx Cert.ReferenceIdeal Cert.ReferenceIdeal.RefOps Cert.RefMath Cert.ReferenceIdeal.RefIndex

variable (adj : IVec S1024x1024 32)

/-- A signed comparison "below zero" of a word whose top bit is clear is false. -/
theorem slt_zero_of_msb (x : BitVec 32) (h : x.msb = false) : IntOp.cmpi CmpIPredicate.slt x 0#32 = 0#1 := by
  have hx : x.toNat < 2 ^ 31 := by
    have := BitVec.msb_eq_false_iff_two_mul_lt.mp h; omega
  refine eq_zero_of_ne_one fun h1 => ?_
  have := (StableHlo.Predicate.slt_iff_toNat hx (by decide : (0#32 : BitVec 32).toNat < 2 ^ 31)).mp h1
  simp at this

/-- Signed division and remainder of a nonnegative word by a positive one meet no corner and are the unsigned
    ones. -/
theorem divsi_rem_nonneg (w d : BitVec 32) (hw : w.toNat < 2 ^ 31) (hd0 : d ≠ 0) (hdm : d.msb = false) :
    IntOp.divsi ArithUnit.host w d = w / d ∧ IntOp.remsi ArithUnit.host w d = w % d := by
  have hcorner : ¬ IntOp.SDivCorner w d := by
    rintro (hc | ⟨_, hc⟩)
    · exact hd0 hc
    · rw [hc] at hdm; exact absurd hdm (by decide)
  have hm : w.msb = false := BitVec.msb_eq_false_iff_two_mul_lt.mpr (by omega)
  constructor
  · simp only [IntOp.divsi, if_neg hcorner, BitVec.sdiv_eq, hm, hdm, BitVec.udiv_eq]
  · simp only [IntOp.remsi, if_neg hcorner, BitVec.srem_eq, hm, hdm, BitVec.umod_eq]

/-- Floor division of a nonnegative word by a positive one: the signs differ only at zero, where the
    remainder vanishes, so the correction never fires and the result is the naturals' quotient. -/
theorem fdiv_word (w d : BitVec 32) (hw : w.toNat < 2 ^ 31) (hd0 : d ≠ 0) (hdm : d.msb = false) :
    (Scalar.select
        (IntOp.andi
          (IntOp.cmpi CmpIPredicate.ne (if w = 0 then 0 else if w.msb = true then -1 else 1)
            (if d = 0 then (0 : BitVec 32) else if d.msb = true then -1 else 1))
          (IntOp.cmpi CmpIPredicate.ne (IntOp.remsi ArithUnit.host w d) 0#32))
        (IntOp.subi (IntOp.divsi ArithUnit.host w d) 1#32)
        (IntOp.divsi ArithUnit.host w d)).toNat = w.toNat / d.toNat := by
  obtain ⟨hdiv, hrem⟩ := divsi_rem_nonneg w d hw hd0 hdm
  have hm : w.msb = false := BitVec.msb_eq_false_iff_two_mul_lt.mpr (by omega)
  have hsel : IntOp.andi
      (IntOp.cmpi CmpIPredicate.ne (if w = 0 then 0 else if w.msb = true then -1 else 1)
        (if d = 0 then (0 : BitVec 32) else if d.msb = true then -1 else 1))
      (IntOp.cmpi CmpIPredicate.ne (IntOp.remsi ArithUnit.host w d) 0#32) = 0#1 := by
    rw [hrem, if_neg hd0, hdm]
    by_cases hw0 : w = 0
    · subst hw0
      simp [IntOp.andi, IntOp.cmpi]
    · rw [if_neg hw0, hm]
      simp [IntOp.andi, IntOp.cmpi]
  rw [hsel, hdiv, select_zero, BitVec.toNat_udiv]

/-- Remainder of a nonnegative word by a positive one: the remainder is nonnegative like the divisor, so
    the correction never fires and the result is the naturals' remainder. -/
theorem rem_word (w d : BitVec 32) (hw : w.toNat < 2 ^ 31) (hd0 : d ≠ 0) (hdm : d.msb = false) :
    (Scalar.select
        (IntOp.andi
          (IntOp.cmpi CmpIPredicate.ne (IntOp.cmpi CmpIPredicate.slt (IntOp.remsi ArithUnit.host w d) 0#32)
            (IntOp.cmpi CmpIPredicate.slt d 0#32))
          (IntOp.cmpi CmpIPredicate.ne (IntOp.remsi ArithUnit.host w d) 0#32))
        (IntOp.addi (IntOp.remsi ArithUnit.host w d) d)
        (IntOp.remsi ArithUnit.host w d)).toNat = w.toNat % d.toNat := by
  obtain ⟨_, hrem⟩ := divsi_rem_nonneg w d hw hd0 hdm
  have hdlt : d.toNat < 2 ^ 31 := by
    have := BitVec.msb_eq_false_iff_two_mul_lt.mp hdm; omega
  have hdpos : 0 < d.toNat := by
    rcases Nat.eq_zero_or_pos d.toNat with h | h
    · exact absurd (BitVec.eq_of_toNat_eq (by simpa using h)) hd0
    · exact h
  have hrm : (w % d).msb = false := by
    refine BitVec.msb_eq_false_iff_two_mul_lt.mpr ?_
    rw [BitVec.toNat_umod]
    have := Nat.mod_lt w.toNat hdpos
    omega
  rw [hrem, slt_zero_of_msb _ hrm, slt_zero_of_msb _ hdm]
  have h0 : IntOp.andi (IntOp.cmpi CmpIPredicate.ne 0#1 0#1) (IntOp.cmpi CmpIPredicate.ne (w % d) 0#32) = 0#1 := by
    simp [IntOp.andi, IntOp.cmpi]
  rw [h0, select_zero, BitVec.toNat_umod]

/-- The floor division by 1024 of a word below 2^31 is the quotient of its value. -/
theorem fdiv1024_toNat (v : IVec S1048576 32) (e : Fin 1048576) (hv : (v (ix1 e)).toNat < 2 ^ 31) :
    (st_main_v14 (F := Ideal) v (ix1 e)).toNat = (v (ix1 e)).toNat / 1024 := by
  simp only [st_main_v14, fn_main_call3_v0, fn_main_call3_v1, fn_main_call3_v2, fn_main_call3_v3, fn_main_call3_v4,
    fn_main_call3_v5, fn_main_call3_v6, fn_main_call3_v7, fn_main_call3_v8, fn_main_call3_v9, fn_main_call3_v10,
    fn_main_call3_v11, fn_main_call3_v12, fn_main_v14, Host.divsi, Host.remsi, signi, cmpi, andi, subi, select,
    broadcastInDim, constantI]
  exact fdiv_word (v (ix1 e)) 1024#32 hv (by decide) (by decide)

/-- The floor division by 1 of a word below 2^31 is its value. -/
theorem fdiv1_toNat (v : IVec S1048576 32) (e : Fin 1048576) (hv : (v (ix1 e)).toNat < 2 ^ 31) :
    (st_main_v16 (F := Ideal) v (ix1 e)).toNat = (v (ix1 e)).toNat := by
  simp only [st_main_v16, fn_main_call5_v0, fn_main_call5_v1, fn_main_call5_v2, fn_main_call5_v3, fn_main_call5_v4,
    fn_main_call5_v5, fn_main_call5_v6, fn_main_call5_v7, fn_main_call5_v8, fn_main_call5_v9, fn_main_call5_v10,
    fn_main_call5_v11, fn_main_call5_v12, fn_main_v16, Host.divsi, Host.remsi, signi, cmpi, andi, subi, select,
    broadcastInDim, constantI]
  exact (fdiv_word (v (ix1 e)) 1#32 hv (by decide) (by decide)).trans (Nat.div_one _)

/-- The remainder modulo 1024 of a word below 2^31 is the remainder of its value (both remainder stages are
    the same operations over different buffers). -/
theorem rem1024_toNat_15 (v : IVec S1048576 32) (e : Fin 1048576) (hv : (v (ix1 e)).toNat < 2 ^ 31) :
    (st_main_v15 (F := Ideal) v (ix1 e)).toNat = (v (ix1 e)).toNat % 1024 := by
  simp only [st_main_v15, fn_main_call4_v0, fn_main_call4_v1, fn_main_call4_v2, fn_main_call4_v3, fn_main_call4_v4,
    fn_main_call4_v5, fn_main_call4_v6, fn_main_call4_v7, fn_main_call4_v8, fn_main_call4_v9, fn_main_call4_v10,
    fn_main_call4_v11, fn_main_call4_v12, fn_main_call4_v13, fn_main_call4_v14, fn_main_v15, Host.remsi, cmpi, andi, addi,
    select, broadcastInDim, constantI, id]
  rw [show Scalar.select (IntOp.cmpi CmpIPredicate.eq 1024#32 0#32) 1#32 1024#32 = 1024#32 from by decide]
  exact rem_word (v (ix1 e)) 1024#32 hv (by decide) (by decide)
theorem rem1024_toNat_17 (v : IVec S1048576 32) (e : Fin 1048576) (hv : (v (ix1 e)).toNat < 2 ^ 31) :
    (st_main_v17 (F := Ideal) v (ix1 e)).toNat = (v (ix1 e)).toNat % 1024 := by
  simp only [st_main_v17, fn_main_call6_v0, fn_main_call6_v1, fn_main_call6_v2, fn_main_call6_v3, fn_main_call6_v4,
    fn_main_call6_v5, fn_main_call6_v6, fn_main_call6_v7, fn_main_call6_v8, fn_main_call6_v9, fn_main_call6_v10,
    fn_main_call6_v11, fn_main_call6_v12, fn_main_call6_v13, fn_main_call6_v14, fn_main_v17, Host.remsi, cmpi, andi, addi,
    select, broadcastInDim, constantI, id]
  rw [show Scalar.select (IntOp.cmpi CmpIPredicate.eq 1024#32 0#32) 1#32 1024#32 = 1024#32 from by decide]
  exact rem_word (v (ix1 e)) 1024#32 hv (by decide) (by decide)

/-- A vector laid out as a [1, 1048576] row reads, at (0, e), the vector at e. -/
theorem bcast_row_apply {α : Type} (h : S1048576.BroadcastsInDim S1x1048576 ![1]) (v : S1048576.Idx → α) (e : Fin 1048576) :
    broadcastInDim S1x1048576 ![1] h v (ix2 (0 : Fin 1) e) = v (ix1 e) := by
  simp only [broadcastInDim]
  refine congrArg v ?_
  funext a
  obtain rfl : a = 0 := Subsingleton.elim _ _
  apply Fin.ext
  split
  · next h1 => change (1048576 : ℕ) = 1 at h1; omega
  · rfl

/-- The word that holds the number of set entries: the sum of the widened mask. -/
abbrev totW (m : IVec S1024x1024 1) : BitVec 32 :=
  Host.reduce IntOp.addi (extui 32 m Gen.natLt_1_32) (constantI S_ 32 0#32) Gen.reducesTo_S1024x1024_S_d0_1 Gen.h_S_
    (Shape.Idx.first Gen.h_S_)

/-- Row 0 of the stacked table at e: the fill 1024 from the total on, the first vector before. -/
theorem v27_row0 (m : IVec S1024x1024 1) (x15 x17 : IVec S1048576 32) (e : Fin 1048576) :
    st_main_v27 (F := Ideal) m x15 x17 (ix2 (0 : Fin 2) e)
      = Scalar.select (IntOp.cmpi CmpIPredicate.sge (BitVec.ofNat 32 e.val) (totW m)) 1024#32 (x15 (ix1 e)) := by
  simp only [st_main_v27, fn_main_v19, fn_main_v20, fn_main_v21, fn_main_v22, fn_main_call7_v0, fn_main_call7_v1, fn_main_v23,
    fn_main_call8_v0, fn_main_call8_v1, fn_main_v24, fn_main_v25, fn_main_v26, fn_main_v27]
  rw [concatenate_pair_apply_left (t := S2x1048576) (s₁ := S1x1048576) (s₂ := S1x1048576) (0 : Fin 2) _ _ _
    (ix2 (0 : Fin 2) e) rfl (ix2 (0 : Fin 1) e : S1x1048576.Idx)
    (by intro b; match b with | ⟨0, _⟩ => rfl | ⟨1, _⟩ => rfl)]
  rw [bcast_row_apply]
  simp only [select, cmpi, StableHlo.Predicate.bcast_scalar _ Gen.h_S_, id, constantI]
  rfl

/-- Row 1 of the stacked table at e: the fill 1024 from the total on, the second vector before. -/
theorem v27_row1 (m : IVec S1024x1024 1) (x15 x17 : IVec S1048576 32) (e : Fin 1048576) :
    st_main_v27 (F := Ideal) m x15 x17 (ix2 (1 : Fin 2) e)
      = Scalar.select (IntOp.cmpi CmpIPredicate.sge (BitVec.ofNat 32 e.val) (totW m)) 1024#32 (x17 (ix1 e)) := by
  simp only [st_main_v27, fn_main_v19, fn_main_v20, fn_main_v21, fn_main_v22, fn_main_call7_v0, fn_main_call7_v1, fn_main_v23,
    fn_main_call8_v0, fn_main_call8_v1, fn_main_v24, fn_main_v25, fn_main_v26, fn_main_v27]
  rw [concatenate_pair_apply_right (t := S2x1048576) (s₁ := S1x1048576) (s₂ := S1x1048576) (0 : Fin 2) _ _ _
    (ix2 (1 : Fin 2) e) rfl rfl (ix2 (0 : Fin 1) e : S1x1048576.Idx)
    (by intro b hb; match b, hb with | ⟨0, _⟩, hb => exact absurd rfl hb | ⟨1, _⟩, _ => rfl)
    rfl]
  rw [bcast_row_apply]
  simp only [select, cmpi, StableHlo.Predicate.bcast_scalar _ Gen.h_S_, id, constantI]
  rfl

/-- A sum over the naturals below m · n, by quotient i and remainder j. -/
theorem sum_range_mul {M : Type*} [AddCommMonoid M] (m n : ℕ) (f : ℕ → M) :
    ∑ q ∈ Finset.range (m * n), f q = ∑ i : Fin m, ∑ j : Fin n, f (j.val + n * i.val) := by
  rw [← Fin.sum_univ_eq_sum_range, ← Equiv.sum_comp finProdFinEquiv, Fintype.sum_prod_type]
  rfl

/-- The number of set positions is the number of nonzero entries, counted row by row. -/
theorem total_eq_sum : total adj = ∑ i : Fin 1024, ∑ j : Fin 1024, if adj (ix2 i j) ≠ 0#32 then 1 else 0 := by
  unfold total
  rw [Nat.count_eq_card_filter_range, Finset.card_filter, show (1048576 : ℕ) = 1024 * 1024 from by norm_num, sum_range_mul]
  refine Finset.sum_congr rfl fun i _ => Finset.sum_congr rfl fun j _ => ?_
  have hi := i.isLt
  have hj := j.isLt
  have hq : j.val + 1024 * i.val < 1048576 := by omega
  have hr : rowOf (j.val + 1024 * i.val) = i := Fin.ext (by show (j.val + 1024 * i.val) / 1024 % 1024 = i.val; omega)
  have hc : colOf (j.val + 1024 * i.val) = j := Fin.ext (by show (j.val + 1024 * i.val) % 1024 = j.val; omega)
  simp only [IsSet, hq, true_and, hr, hc]

/-- The total word's value is the number of set positions. -/
theorem totW_toNat : (totW (st_main_v1 (F := Ideal) adj)).toNat = total adj := by
  have hterm : ∀ i j : Fin 1024, (extui 32 (st_main_v1 (F := Ideal) adj) Gen.natLt_1_32 (ix2 i j)).toNat
      = if adj (ix2 i j) ≠ 0#32 then 1 else 0 := by
    intro i j
    rw [extui_apply, StableHlo.Predicate.toNat_setWidth_bit, mask_apply]
    by_cases h : adj (ix2 i j) = 0#32 <;> simp [h]
  have hsum : ∑ i : Fin 1024, ∑ j : Fin 1024,
      (extui 32 (st_main_v1 (F := Ideal) adj) Gen.natLt_1_32 (ix2 i j)).toNat = total adj := by
    simp only [hterm]; exact (total_eq_sum adj).symm
  have hle : total adj ≤ 1048576 := Nat.count_le _
  exact (Cert.WordSums.total_toNat _ (constantI S_ 32 0#32) _ _ (fun _ => rfl) (by rw [hsum]; omega) _).trans hsum

/-- The stacked table is the padded edge list once its two vectors hold, below the total, the row and the
    column of the e-th set position. -/
theorem edgeSpec_of (x15 x17 : IVec S1048576 32)
    (h15 : ∀ e : Fin 1048576, e.val < total adj → (x15 (ix1 e)).toNat = posOf adj e.val / 1024)
    (h17 : ∀ e : Fin 1048576, e.val < total adj → (x17 (ix1 e)).toNat = posOf adj e.val % 1024) :
    EdgeSpec adj (st_main_v27 (F := Ideal) (st_main_v1 (F := Ideal) adj) x15 x17) := by
  have htot := totW_toNat adj
  have htot_le : total adj ≤ 1048576 := Nat.count_le _
  have hsge : ∀ e : Fin 1048576,
      IntOp.cmpi CmpIPredicate.sge (BitVec.ofNat 32 e.val) (totW (st_main_v1 (F := Ideal) adj)) = 1#1 ↔ total adj ≤ e.val := by
    intro e
    have hel := e.isLt
    have he : (BitVec.ofNat 32 e.val).toNat = e.val := by
      rw [BitVec.toNat_ofNat]; exact Nat.mod_eq_of_lt (by omega)
    rw [StableHlo.Predicate.sge_iff_toNat (by rw [he]; omega) (by rw [htot]; omega), he, htot]
  constructor
  · intro e he
    have hsel : IntOp.cmpi CmpIPredicate.sge (BitVec.ofNat 32 e.val) (totW (st_main_v1 (F := Ideal) adj)) = 0#1 :=
      eq_zero_of_ne_one fun h => by have := (hsge e).mp h; omega
    have hp : posOf adj e.val < 1048576 :=
      (Cert.NthCount.pos_spec (P := IsSet adj) (n := 1048576) (fun q hq => hq.lt) he).1
    rw [v27_row0, v27_row1, hsel, select_zero, select_zero]
    constructor
    · rw [StableHlo.Predicate.toInt_eq_toNat_of_lt (by rw [h15 e he]; omega), h15 e he]
    · rw [StableHlo.Predicate.toInt_eq_toNat_of_lt (by rw [h17 e he]; omega), h17 e he]
  · intro e he
    have hsel : IntOp.cmpi CmpIPredicate.sge (BitVec.ofNat 32 e.val) (totW (st_main_v1 (F := Ideal) adj)) = 1#1 :=
      (hsge e).mpr he
    rw [v27_row0, v27_row1, hsel, select_one, select_one]
    exact ⟨by decide, by decide⟩

/-- The stacked table is the padded edge list of the adjacency matrix. -/
theorem edgeSpec :
    EdgeSpec adj (st_main_v27 (F := Ideal) (st_main_v1 (F := Ideal) adj)
      (st_main_v15 (F := Ideal) (st_main_v14 (F := Ideal) (st_main_v13 (F := Ideal) (st_main_v2 (F := Ideal) adj))))
      (st_main_v17 (F := Ideal) (st_main_v16 (F := Ideal) (st_main_v13 (F := Ideal) (st_main_v2 (F := Ideal) adj))))) := by
  have hple : ∀ e : ℕ, posOf adj e ≤ 1048576 := fun e => Nat.count_le _
  have hF : ∀ e : Fin 1048576,
      (st_main_v13 (F := Ideal) (st_main_v2 (F := Ideal) adj) (ix1 e)).toNat = posOf adj e.val := flatpos_toNat adj
  have hFlt : ∀ e : Fin 1048576,
      (st_main_v13 (F := Ideal) (st_main_v2 (F := Ideal) adj) (ix1 e)).toNat < 2 ^ 31 := by
    intro e; rw [hF e]; have := hple e.val; omega
  refine edgeSpec_of adj _ _ (fun e he => ?_) (fun e he => ?_)
  · have hp : posOf adj e.val < 1048576 :=
      (Cert.NthCount.pos_spec (P := IsSet adj) (n := 1048576) (fun q hq => hq.lt) he).1
    have h14 := fdiv1024_toNat _ e (hFlt e)
    rw [hF e] at h14
    rw [rem1024_toNat_15 _ e (by rw [h14]; omega), h14]
    exact Nat.mod_eq_of_lt (by omega)
  · have h16 := fdiv1_toNat _ e (hFlt e)
    rw [hF e] at h16
    rw [rem1024_toNat_17 _ e (by rw [h16]; have := hple e.val; omega), h16]

end Cert.ReferenceIdeal.RefEdges

end
-- ==== Proof.RefValsDots.lean ====
/-
  The reference's two products read at an index, over the extended reals.

  hidden = x · W contracts x's 128 columns with W's rows. The per-edge logit row contracts the attention
  vector, laid as a [1, 256] row, with the [256, edges] table of gathered features laid end to end: entry
  (0, e) is the sum over the 256 positions.
-/
import proofs.«179381_g13718125543874_cont_sun_m_270_6_alg».proof.ReferenceIdeal
import proofs.«179381_g13718125543874_cont_sun_m_270_6_alg».proof.Proof.Gen.ReferenceIdeal
import Idealize.ShloMosaic.PureOps.Ideal.Laws
import Idealize.ShloMosaic.Lib.ValueIdx

noncomputable section

namespace Cert.ReferenceIdeal.RefVals

open Idealize.ShloMosaic Idealize.ShloMosaic.ValueIdx Cert.ReferenceIdeal Cert.ReferenceIdeal.Gen
open scoped BigOperators

/-! ## Operand indices, axis by axis -/

theorem lhs_hidden_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_hidden_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_hidden_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_hidden_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem lhs_logit_0 (i : S1x1048576.Idx) (q : dot_S1x256_S256x1048576_S1x1048576_1_0_0_1_n_n.contr.Idx) :
    (dot_S1x256_S256x1048576_S1x1048576_1_0_0_1_n_n.lhsIdx i q 0).val = (i 0).val := by
  unfold DotDims.lhsIdx
  rw [dif_neg (show ¬(0 : Fin S1x256.rank) ∈ dot_S1x256_S256x1048576_S1x1048576_1_0_0_1_n_n.lhsBatch by decide), dif_pos (show (0 : Fin S1x256.rank) ∈ dot_S1x256_S256x1048576_S1x1048576_1_0_0_1_n_n.lhsNonContracting by decide)]
  rfl
theorem lhs_logit_1 (i : S1x1048576.Idx) (q : dot_S1x256_S256x1048576_S1x1048576_1_0_0_1_n_n.contr.Idx) :
    (dot_S1x256_S256x1048576_S1x1048576_1_0_0_1_n_n.lhsIdx i q 1).val = (q ⟨0, by decide⟩).val :=
  dot_S1x256_S256x1048576_S1x1048576_1_0_0_1_n_n.lhsIdx_val_of_single rfl i q
theorem rhs_logit_0 (i : S1x1048576.Idx) (q : dot_S1x256_S256x1048576_S1x1048576_1_0_0_1_n_n.contr.Idx) :
    (dot_S1x256_S256x1048576_S1x1048576_1_0_0_1_n_n.rhsIdx i q 0).val = (q ⟨0, by decide⟩).val :=
  dot_S1x256_S256x1048576_S1x1048576_1_0_0_1_n_n.rhsIdx_val_of_single rfl i q
theorem rhs_logit_1 (i : S1x1048576.Idx) (q : dot_S1x256_S256x1048576_S1x1048576_1_0_0_1_n_n.contr.Idx) :
    (dot_S1x256_S256x1048576_S1x1048576_1_0_0_1_n_n.rhsIdx i q 1).val = (i 1).val := by
  unfold DotDims.rhsIdx
  rw [dif_neg (show ¬(1 : Fin S256x1048576.rank) ∈ dot_S1x256_S256x1048576_S1x1048576_1_0_0_1_n_n.rhsBatch by decide), dif_pos (show (1 : Fin S256x1048576.rank) ∈ dot_S1x256_S256x1048576_S1x1048576_1_0_0_1_n_n.rhsNonContracting by decide)]
  rfl

/-! ## The products -/

/-- x · W at (p, q): the sum over the 128 input features. -/
theorem dot_hidden_apply (x : FVec Ideal S1024x128 .f32) (W : FVec Ideal S128x128 .f32) (p : Fin 1024) (q : Fin 128) :
    Host.dotGeneral dot_S1024x128_S128x128_S1024x128_1_0_0_1_n_n none x W (ix2 p q) = ∑ k : Fin 128, x (ix2 p k) * W (ix2 k q) := by
  show FloatOps.dotGeneral dot_S1024x128_S128x128_S1024x128_1_0_0_1_n_n none _ x W (ix2 p q) = _
  rw [Ideal.dotGeneral_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhs_hidden_0 _ _
    | ⟨1, _⟩ => exact (lhs_hidden_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhs_hidden_0 _ _).trans hk
    | ⟨1, _⟩ => exact rhs_hidden_1 _ _)
  rw [el, er]

/-- A [1, 256] row against a [256, edges] table at (u, e): the sum over the 256 positions. -/
theorem dot_logit_apply (l : FVec Ideal S1x256 .f32) (r : FVec Ideal S256x1048576 .f32) (u : Fin 1) (e : Fin 1048576) :
    Host.dotGeneral dot_S1x256_S256x1048576_S1x1048576_1_0_0_1_n_n none l r (ix2 u e) = ∑ k : Fin 256, l (ix2 u k) * r (ix2 k e) := by
  show FloatOps.dotGeneral dot_S1x256_S256x1048576_S1x1048576_1_0_0_1_n_n none _ l r (ix2 u e) = _
  rw [Ideal.dotGeneral_apply, ← Equiv.sum_comp (contrEquiv1 dot_S1x256_S256x1048576_S1x1048576_1_0_0_1_n_n 256 rfl rfl).symm]
  refine Finset.sum_congr rfl fun k _ => ?_
  have hk := contrEquiv1_symm_val dot_S1x256_S256x1048576_S1x1048576_1_0_0_1_n_n 256 rfl rfl k
  have el : dot_S1x256_S256x1048576_S1x1048576_1_0_0_1_n_n.lhsIdx (ix2 u e) ((contrEquiv1 dot_S1x256_S256x1048576_S1x1048576_1_0_0_1_n_n 256 rfl rfl).symm k) = ix2 u k := funext fun a => Fin.ext (by
    match a with
    | ⟨0, _⟩ => exact lhs_logit_0 _ _
    | ⟨1, _⟩ => exact (lhs_logit_1 _ _).trans hk)
  have er : dot_S1x256_S256x1048576_S1x1048576_1_0_0_1_n_n.rhsIdx (ix2 u e) ((contrEquiv1 dot_S1x256_S256x1048576_S1x1048576_1_0_0_1_n_n 256 rfl rfl).symm k) = ix2 k e := funext fun a => Fin.ext (by
    match a with
    | ⟨0, _⟩ => exact (rhs_logit_0 _ _).trans hk
    | ⟨1, _⟩ => exact rhs_logit_1 _ _)
  rw [el, er]

end Cert.ReferenceIdeal.RefVals

end
-- ==== Proof.RefVals.lean ====
/-
  The reference's per-edge quantities.

  hidden = x · W entry by entry; for an edge with nonnegative endpoints, the gathered rows are hidden's rows at
  the endpoints clamped into range, the logit is a's 256 entries against the two rows laid end to end — the
  source term plus the destination term — and the edge's weight is exp of minus its leaky ReLU.
-/
import proofs.«179381_g13718125543874_cont_sun_m_270_6_alg».proof.Proof.RefOps
import proofs.«179381_g13718125543874_cont_sun_m_270_6_alg».proof.Proof.RefMath
import proofs.«179381_g13718125543874_cont_sun_m_270_6_alg».proof.Proof.ScatterGather
import proofs.«179381_g13718125543874_cont_sun_m_270_6_alg».proof.Proof.Spec
import proofs.«179381_g13718125543874_cont_sun_m_270_6_alg».proof.Proof.RefValsDots
import Idealize.ShloMosaic.PureOps.Ideal.Laws
import Idealize.ShloMosaic.Lib.Pipeline.Value
import Idealize.ShloMosaic.Lib.ValueLayout
import Mathlib.Algebra.BigOperators.Fin

noncomputable section

namespace Cert.ReferenceIdeal.RefVals

open Idealize.ShloMosaic Idealize.ShloMosaic.ValueIdx Cert.ReferenceIdeal Cert.ReferenceIdeal.Gen Cert.ReferenceIdeal.RefOps Cert.RefMath Cert.GatSpec

open scoped BigOperators

/-! ## Words and scalars -/

/-- The negative-index wrap leaves a nonnegative word alone, whatever it would substitute. -/
theorem wrap_nonneg (w alt : BitVec 32) (hw : 0 ≤ w.toInt) : Scalar.select (IntOp.cmpi .slt w 0#32) alt w = w := by
  have hs : w.slt 0#32 = false := by
    simp only [BitVec.slt, BitVec.toInt_zero, decide_eq_false_iff_not, not_lt]
    exact hw
  show Scalar.select (BitVec.ofBool (w.slt 0#32)) alt w = w
  rw [hs]
  rfl

/-- The leaky ReLU as the reference selects it: `z` where `0 ≤ z`, the slope times `z` elsewhere. -/
theorem lrelu_select (z : EReal) :
    Scalar.select (Ideal.cmp .oge z (Ideal.ofBits .f32 0x00000000#32)) z (Ideal.ofBits .f32 0x3E4CCCCD#32 * z) = lrelu z := by
  rw [Ideal.ofBits_zero_f32]
  show (if BitVec.ofBool (decide ((0 : EReal) ≤ z)) = 1 then z else slope * z) = if (0 : EReal) ≤ z then z else slope * z
  by_cases h : (0 : EReal) ≤ z
  · rw [if_pos h, decide_eq_true h]; rfl
  · rw [if_neg h, decide_eq_false h]; rfl

/-- A sum over 256 positions is the sum over the first 128 plus the sum over the last 128. -/
theorem sum_256 {M : Type} [AddCommMonoid M] (f : Fin 256 → M) :
    ∑ k : Fin 256, f k = ∑ k : Fin 128, f ⟨k.val, by omega⟩ + ∑ k : Fin 128, f ⟨128 + k.val, by omega⟩ := by
  have h := Fin.sum_univ_add (a := 128) (b := 128) f
  refine h.trans ?_
  congr 1

/-! ## Layout -/

/-- A vector stood up as a column reads, at (e, 0), the vector at e. -/
theorem bcast_col_apply {α : Type} (v : S1048576.Idx → α) (e : Fin 1048576) (u : Fin 1) :
    broadcastInDim S1048576x1 ![0] bcast_S1048576_S1048576x1_0 v (ix2 e u) = v (ix1 e) := by
  refine broadcastInDim_apply ![0] bcast_S1048576_S1048576x1_0 v (ix2 e u) (ix1 e) fun ax => ?_
  match ax with
  | ⟨0, _⟩ =>
    show e.val = if (1048576 : ℕ) = 1 then 0 else e.val
    rw [if_neg (by norm_num)]

variable (x : FVec Ideal S1024x128 .f32) (W : FVec Ideal S128x128 .f32) (a : FVec Ideal S256x1 .f32)
  (edges : IVec S2x1048576 32)

/-- hidden, entry by entry. -/
theorem hidden_apply (i : Fin 1024) (k : Fin 128) :
    st_main_v28 (F := Ideal) x W (ix2 i k) = hid x W i k :=
  dot_hidden_apply x W i k

/-- Row r of the edge table, as a vector over the edges. -/
theorem row_apply (r : Fin 2) (h : S2x1048576.Slices ![r.val, 0] S1x1048576) (e : Fin 1048576) :
    shapeCast S1048576 (extractStridedSlice S1x1048576 ![r.val, 0] edges h) shapeCasts_S1x1048576_S1048576 (ix1 e)
      = edges (ix2 r e) := by
  rw [shapeCast_1a_a_apply]
  exact slice2_axis0_apply r.val edges h (0 : Fin 1) e r (by simp)

/-- The index column a gather reads for row r of the edge table, after the negative-index wrap: that row's
    word at edge e, when it is nonnegative. -/
theorem index_col_apply (r : Fin 2) (h : S2x1048576.Slices ![r.val, 0] S1x1048576) (e : Fin 1048576) (u : Fin 1)
    (hr : 0 ≤ (edges (ix2 r e)).toInt) :
    broadcastInDim S1048576x1 ![0] bcast_S1048576_S1048576x1_0
      (select
        (cmpi .slt (shapeCast S1048576 (extractStridedSlice S1x1048576 ![r.val, 0] edges h) shapeCasts_S1x1048576_S1048576)
          (broadcastInDim S1048576 ![] bcast_S_S1048576 (constantI S_ 32 0#32)))
        (addi (shapeCast S1048576 (extractStridedSlice S1x1048576 ![r.val, 0] edges h) shapeCasts_S1x1048576_S1048576)
          (broadcastInDim S1048576 ![] bcast_S_S1048576 (constantI S_ 32 1024#32)))
        (shapeCast S1048576 (extractStridedSlice S1x1048576 ![r.val, 0] edges h) shapeCasts_S1x1048576_S1048576))
      (ix2 e u) = edges (ix2 r e) := by
  rw [bcast_col_apply]
  show Scalar.select (IntOp.cmpi .slt
      (shapeCast S1048576 (extractStridedSlice S1x1048576 ![r.val, 0] edges h) shapeCasts_S1x1048576_S1048576 (ix1 e)) 0#32)
    (IntOp.addi (shapeCast S1048576 (extractStridedSlice S1x1048576 ![r.val, 0] edges h) shapeCasts_S1x1048576_S1048576 (ix1 e)) 1024#32)
    (shapeCast S1048576 (extractStridedSlice S1x1048576 ![r.val, 0] edges h) shapeCasts_S1x1048576_S1048576 (ix1 e)) = _
  rw [row_apply]
  exact wrap_nonneg _ _ hr

/-- The source rows gathered: hidden's row at edge e's source endpoint. -/
theorem src_rows_apply (H : FVec Ideal S1024x128 .f32) (e : Fin 1048576) (k : Fin 128)
    (h0 : 0 ≤ (edges (ix2 (0 : Fin 2) e)).toInt) :
    st_main_v37 (F := Ideal) edges H (ix2 e k) = H (ix2 (clampRow (edges (ix2 (0 : Fin 2) e)).toInt) k) := by
  unfold st_main_v37
  dsimp only
  unfold fn_main_v37
  refine (Scat.gather_rows_apply H _ e k).trans ?_
  refine congrArg H (congrArg (fun r : Fin 1024 => ix2 r k) (Fin.ext ?_))
  exact congrArg (fun w : BitVec 32 => min w.toInt.toNat 1023)
    (index_col_apply edges (0 : Fin 2) slices_S2x1048576_S1x1048576_0_0 e (0 : Fin 1) h0)

/-- The destination rows gathered: hidden's row at edge e's destination endpoint. -/
theorem dst_rows_apply (H : FVec Ideal S1024x128 .f32) (e : Fin 1048576) (k : Fin 128)
    (h1 : 0 ≤ (edges (ix2 (1 : Fin 2) e)).toInt) :
    st_main_v46 (F := Ideal) edges H (ix2 e k) = H (ix2 (clampRow (edges (ix2 (1 : Fin 2) e)).toInt) k) := by
  unfold st_main_v46
  dsimp only
  unfold fn_main_v46
  refine (Scat.gather_rows_apply H _ e k).trans ?_
  refine congrArg H (congrArg (fun r : Fin 1024 => ix2 r k) (Fin.ext ?_))
  exact congrArg (fun w : BitVec 32 => min w.toInt.toNat 1023)
    (index_col_apply edges (1 : Fin 2) slices_S2x1048576_S1x1048576_1_0 e (0 : Fin 1) h1)

/-- The two gathered tables laid end to end along the features, at (e, k) for k among the first 128. -/
theorem cat_lo_apply (g1 g2 : FVec Ideal S1048576x128 .f32) (e : Fin 1048576) (k : Fin 128) :
    concatenate S1048576x256 1 [⟨S1048576x128, g1⟩, ⟨S1048576x128, g2⟩] concatenates_S1048576x128_S1048576x128_S1048576x256_d1
      (ix2 e (⟨k.val, by omega⟩ : Fin 256)) = g1 (ix2 e k) :=
  concatenate_pair_apply_left (1 : Fin 2) g1 g2 _ (ix2 e (⟨k.val, by omega⟩ : Fin 256)) rfl (ix2 e k)
    (fun b => match b with | ⟨0, _⟩ => rfl | ⟨1, _⟩ => rfl)

/-- … and for k among the last 128. -/
theorem cat_hi_apply (g1 g2 : FVec Ideal S1048576x128 .f32) (e : Fin 1048576) (k : Fin 128) :
    concatenate S1048576x256 1 [⟨S1048576x128, g1⟩, ⟨S1048576x128, g2⟩] concatenates_S1048576x128_S1048576x128_S1048576x256_d1
      (ix2 e (⟨128 + k.val, by omega⟩ : Fin 256)) = g2 (ix2 e k) :=
  concatenate_pair_apply_right (1 : Fin 2) g1 g2 _ (ix2 e (⟨128 + k.val, by omega⟩ : Fin 256)) rfl rfl (ix2 e k)
    (fun b hb => match b with | ⟨0, _⟩ => rfl | ⟨1, _⟩ => absurd rfl hb)
    (by show k.val + 128 = 128 + k.val; omega)

/-- An edge's logit: the attention vector's first half against the first table's row plus its second half
    against the second table's row. -/
theorem logit_apply (g1 g2 : FVec Ideal S1048576x128 .f32) (e : Fin 1048576) :
    st_main_v51 (F := Ideal) g1 g2 a (ix1 e)
      = ∑ k : Fin 128, a (ix2 (⟨k.val, by omega⟩ : Fin 256) (0 : Fin 1)) * g1 (ix2 e k)
        + ∑ k : Fin 128, a (ix2 (⟨128 + k.val, by omega⟩ : Fin 256) (0 : Fin 1)) * g2 (ix2 e k) := by
  unfold st_main_v51
  dsimp only
  rw [shapeCast_1a_a_apply]
  unfold fn_main_v50
  rw [dot_logit_apply, sum_256]
  unfold fn_main_v49 fn_main_v48 fn_main_v47
  congr 1
  · refine Finset.sum_congr rfl fun k _ => ?_
    rw [transpose_ix2_apply, transpose_ix2_apply, cat_lo_apply]
  · refine Finset.sum_congr rfl fun k _ => ?_
    rw [transpose_ix2_apply, transpose_ix2_apply, cat_hi_apply]

/-- The activation: exp of minus the leaky ReLU, entry by entry. -/
theorem act_apply (z : FVec Ideal S1048576 .f32) (e : Fin 1048576) :
    st_main_v54 (F := Ideal) z (ix1 e) = Ideal.exp (-(lrelu (z (ix1 e)))) := by
  rw [← lrelu_select]
  rfl

/-- An edge's weight, for nonnegative endpoint words. -/
theorem weight_apply (e : Fin 1048576) (h0 : 0 ≤ (edges (ix2 (0 : Fin 2) e)).toInt) (h1 : 0 ≤ (edges (ix2 (1 : Fin 2) e)).toInt) :
    st_main_v54 (F := Ideal) (st_main_v51 (F := Ideal) (st_main_v37 (F := Ideal) edges (st_main_v28 (F := Ideal) x W))
        (st_main_v46 (F := Ideal) edges (st_main_v28 (F := Ideal) x W)) a) (ix1 e)
      = Ideal.exp (-(lrelu (s1 x W a (clampRow (edges (ix2 (0 : Fin 2) e)).toInt)
                          + s2 x W a (clampRow (edges (ix2 (1 : Fin 2) e)).toInt)))) := by
  rw [act_apply, logit_apply]
  have e1 : ∑ k : Fin 128, a (ix2 (⟨k.val, by omega⟩ : Fin 256) (0 : Fin 1))
        * st_main_v37 (F := Ideal) edges (st_main_v28 (F := Ideal) x W) (ix2 e k)
      = s1 x W a (clampRow (edges (ix2 (0 : Fin 2) e)).toInt) := by
    unfold s1
    refine Finset.sum_congr rfl fun k _ => ?_
    rw [src_rows_apply edges _ e k h0, hidden_apply, mul_comm]
  have e2 : ∑ k : Fin 128, a (ix2 (⟨128 + k.val, by omega⟩ : Fin 256) (0 : Fin 1))
        * st_main_v46 (F := Ideal) edges (st_main_v28 (F := Ideal) x W) (ix2 e k)
      = s2 x W a (clampRow (edges (ix2 (1 : Fin 2) e)).toInt) := by
    unfold s2
    refine Finset.sum_congr rfl fun k _ => ?_
    rw [dst_rows_apply edges _ e k h1, hidden_apply]
  rw [e1, e2]

end Cert.ReferenceIdeal.RefVals

end
-- ==== Proof.RefSums.lean ====
/-
  The reference's sums over the edge list are the specification's sums over a row.

  The accumulating scatters add, into row i, the weights (and the weighted hidden rows of the destinations) of
  the edges whose source is i; padded edges carry the out-of-range source 1024 and are dropped. The valid edges
  are the set positions in order, so the sum over the edges with source i is the sum over the columns j with
  adj[i, j] ≠ 0, which is the sum over all columns of the masked weight. The quotient and the ELU follow.
-/
import proofs.«179381_g13718125543874_cont_sun_m_270_6_alg».proof.Proof.RefVals
import Idealize.ShloMosaic.Lib.Pipeline.Value
import Idealize.ShloMosaic.Lib.ValueLayout
import Idealize.ShloMosaic.Lib.IdealHost
import Mathlib.Algebra.BigOperators.Fin
import Mathlib.Logic.Equiv.Fin.Basic

noncomputable section

namespace Cert.ReferenceIdeal.RefSums

open Idealize.ShloMosaic Idealize.ShloMosaic.ValueIdx Cert.ReferenceIdeal Cert.ReferenceIdeal.RefOps Cert.RefMath Cert.GatSpec Cert.ReferenceIdeal.RefVals

variable (x : FVec Ideal S1024x128 .f32) (adj : IVec S1024x1024 32) (W : FVec Ideal S128x128 .f32)
  (a : FVec Ideal S256x1 .f32) (edges : IVec S2x1048576 32)

/-- The edge weights, as the reference computes them from an edge table. -/
abbrev wts : FVec Ideal S1048576 .f32 :=
  st_main_v54 (F := Ideal) (st_main_v51 (F := Ideal) (st_main_v37 (F := Ideal) edges (st_main_v28 (F := Ideal) x W))
    (st_main_v46 (F := Ideal) edges (st_main_v28 (F := Ideal) x W)) a)

/-! ### The sum over the edge list, as a sum over a row's columns -/

/-- A sum over the flattened positions below 1024 · 1024 is the double sum over rows and columns. -/
theorem sum_range_flat {M : Type*} [AddCommMonoid M] (f : ℕ → M) :
    ∑ q ∈ Finset.range 1048576, f q = ∑ r : Fin 1024, ∑ c : Fin 1024, f (c.val + 1024 * r.val) := by
  rw [show (1048576 : ℕ) = 1024 * 1024 from rfl, Finset.sum_range,
    ← Equiv.sum_comp (finProdFinEquiv (m := 1024) (n := 1024)) (fun q : Fin (1024 * 1024) => f q.val),
    Fintype.sum_prod_type]
  rfl

/-- Summing, over the edge list, a column's term at the edges whose row is i, is summing the term over the
    columns j with adj[i, j] ≠ 0. -/
theorem sum_edges {M : Type*} [AddCommMonoid M] (adj : IVec ⟨2, ![1024, 1024]⟩ 32) (i : Fin 1024) (F : Fin 1024 → M) :
    (∑ e ∈ Finset.range 1048576,
        if e < total adj then (if posOf adj e / 1024 = i.val then F (colOf (posOf adj e)) else 0) else 0)
      = ∑ j : Fin 1024, if adj (ix2 i j) ≠ 0#32 then F j else 0 := by
  have h1 := Cert.NthCount.sum_pos (P := IsSet adj) (n := 1048576) (fun q h => h.lt)
    (fun q => if q / 1024 = i.val then F (colOf q) else 0)
  unfold posOf total
  rw [h1, sum_range_flat]
  rw [Finset.sum_eq_single i]
  · refine Finset.sum_congr rfl fun j _ => ?_
    have hj := j.isLt
    have hi := i.isLt
    have hq : (j.val + 1024 * i.val) / 1024 = i.val := by omega
    have hc : colOf (j.val + 1024 * i.val) = j := Fin.ext (by show (j.val + 1024 * i.val) % 1024 = j.val; omega)
    have hr : rowOf (j.val + 1024 * i.val) = i := Fin.ext (by show (j.val + 1024 * i.val) / 1024 % 1024 = i.val; omega)
    have hset : IsSet adj (j.val + 1024 * i.val) ↔ adj (ix2 i j) ≠ 0#32 := by
      unfold IsSet
      rw [hr, hc]
      exact ⟨fun h => h.2, fun h => ⟨by omega, h⟩⟩
    rw [if_pos hq, hc]
    by_cases h : adj (ix2 i j) ≠ 0#32
    · rw [if_pos h, if_pos (hset.2 h)]
    · rw [if_neg h, if_neg (fun h' => h (hset.1 h'))]
  · intro r _ hr
    refine Finset.sum_eq_zero fun j _ => ?_
    have hj := j.isLt
    have hq : ¬ (j.val + 1024 * r.val) / 1024 = i.val := by
      intro h
      apply hr
      apply Fin.ext
      omega
    rw [if_neg hq]
    split <;> rfl
  · intro h
    exact absurd (Finset.mem_univ i) h

/-! ### Layout operations read at an index -/

section Layout
variable {α : Type}

/-- A vector laid out as a one-column matrix reads, at (e, 0), the vector at e. -/
theorem col_apply {n : ℕ} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) :=
  broadcastInDim_apply _ h v _ (ix1 e) (fun ax => by
    match ax with
    | ⟨0, _⟩ =>
      show e.val = if n = 1 then 0 else e.val
      split
      · have := e.isLt; omega
      · rfl)

/-- A one-column matrix repeated along m columns reads, at (e, k), the column at (e, 0). -/
theorem cols_apply {n m : ℕ} (h : (⟨2, ![n, 1]⟩ : Shape).BroadcastsInDim ⟨2, ![n, m]⟩ ![0, 1])
    (v : (⟨2, ![n, 1]⟩ : Shape).Idx → α) (e : Fin n) (k : Fin m) :
    broadcastInDim ⟨2, ![n, m]⟩ ![0, 1] h v (ix2 e k) = v (ix2 e (0 : Fin 1)) :=
  broadcastInDim_apply _ h v _ (ix2 e (0 : Fin 1)) (fun ax => by
    match ax with
    | ⟨0, _⟩ =>
      show e.val = if n = 1 then 0 else e.val
      split
      · have := e.isLt; omega
      · rfl
    | ⟨1, _⟩ =>
      show (0 : ℕ) = if (1 : ℕ) = 1 then 0 else k.val
      rfl)

/-- Row 0 of a two-row table, as a vector, reads at e the table at (0, e). -/
theorem row0_apply {n : ℕ} (t : (⟨2, ![2, n]⟩ : Shape).Idx → α)
    (hs : (⟨2, ![2, n]⟩ : Shape).Slices ![0, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![0, 0] t hs) hc (ix1 e) = t (ix2 (0 : Fin 2) e) := by
  rw [shapeCast_1a_a_apply]
  exact slice2_axis0_apply 0 t hs (0 : Fin 1) e (0 : Fin 2) rfl

/-- Row 1 of a two-row table, as a vector, reads at e the table at (1, e). -/
theorem row1_apply {n : ℕ} (t : (⟨2, ![2, n]⟩ : Shape).Idx → α)
    (hs : (⟨2, ![2, n]⟩ : Shape).Slices ![1, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![1, 0] t hs) hc (ix1 e) = t (ix2 (1 : Fin 2) e) := by
  rw [shapeCast_1a_a_apply]
  exact slice2_axis0_apply 1 t hs (0 : Fin 1) e (1 : Fin 2) rfl

end Layout

/-- The negative-index wrap, select (v < 0) (v + 1024) v, is the identity on a word that reads nonnegative. -/
theorem wrap_apply (row : IVec S1048576 32) (hz : S_.BroadcastsInDim S1048576 ![]) (A : IVec S1048576 32)
    (e : Fin 1048576) (h : 0 ≤ (row (ix1 e)).toInt) :
    select (cmpi .slt row (broadcastInDim S1048576 ![] hz (constantI S_ 32 0#32))) A row (ix1 e) = row (ix1 e) := by
  have hlt : (row (ix1 e)).slt 0#32 = false := by
    simp only [BitVec.slt, BitVec.toInt_zero, decide_eq_false_iff_not, Int.not_lt]
    exact h
  show (if BitVec.ofBool ((row (ix1 e)).slt (broadcastInDim S1048576 ![] hz (constantI S_ 32 0#32) (ix1 e))) = 1 then _ else _) = _
  rw [broadcastInDim_scalar_apply, constantI_apply, hlt]
  rfl

/-! ### The edge table under its specification -/

/-- Under the edge specification every source word reads nonnegative. -/
theorem src_nonneg (h : EdgeSpec adj edges) (e : Fin 1048576) : 0 ≤ (edges (ix2 (0 : Fin 2) e)).toInt := by
  by_cases he : e.val < total adj
  · rw [(h.valid e he).1]; exact Int.natCast_nonneg _
  · rw [(h.pad e (Nat.le_of_not_gt he)).1]; norm_num

/-- Under the edge specification every destination word reads nonnegative. -/
theorem dst_nonneg (h : EdgeSpec adj edges) (e : Fin 1048576) : 0 ≤ (edges (ix2 (1 : Fin 2) e)).toInt := by
  by_cases he : e.val < total adj
  · rw [(h.valid e he).2]; exact Int.natCast_nonneg _
  · rw [(h.pad e (Nat.le_of_not_gt he)).2]; norm_num

/-- The weight of a valid edge whose source is row i: the weight of the pair (i, column of its position). -/
theorem wts_valid (h : EdgeSpec adj edges) (i : Fin 1024) (e : Fin 1048576) (he : e.val < total adj)
    (hi : posOf adj e.val / 1024 = i.val) :
    wts x W a edges (ix1 e) = Ideal.exp (-(lrelu (s1 x W a i + s2 x W a (colOf (posOf adj e.val))))) := by
  refine (weight_apply x W a edges e (src_nonneg adj edges h e) (dst_nonneg adj edges h e)).trans ?_
  rw [(h.valid e he).1, (h.valid e he).2]
  have hc1 : clampRow ((posOf adj e.val / 1024 : ℕ) : ℤ) = i := by
    apply Fin.ext
    show min ((posOf adj e.val / 1024 : ℕ) : ℤ).toNat 1023 = i.val
    have := i.isLt
    rw [Int.toNat_natCast, hi]; omega
  have hc2 : clampRow ((posOf adj e.val % 1024 : ℕ) : ℤ) = colOf (posOf adj e.val) := by
    apply Fin.ext
    show min ((posOf adj e.val % 1024 : ℕ) : ℤ).toNat 1023 = posOf adj e.val % 1024
    rw [Int.toNat_natCast]; omega
  rw [hc1, hc2]

/-- The clamped reading of a word, through an equation of words. -/
theorem clamp_eq {v w : BitVec 32} (hv : v = w) (p : min v.toInt.toNat 1023 < 1024) :
    (⟨min v.toInt.toNat 1023, p⟩ : Fin 1024) = clampRow w.toInt := by
  subst hv; rfl

/-- One edge's term of a row's scatter sum, by the edge's place in the list. -/
theorem edge_term {M : Type*} [Zero M] (h : EdgeSpec adj edges) (i : Fin 1024) (e : Fin 1048576) (u : M) (F : Fin 1024 → M)
    (hu : e.val < total adj → posOf adj e.val / 1024 = i.val → u = F (colOf (posOf adj e.val))) :
    (if (edges (ix2 (0 : Fin 2) e)).toInt = (i.val : ℤ) then u else 0)
      = if e.val < total adj then (if posOf adj e.val / 1024 = i.val then F (colOf (posOf adj e.val)) else 0) else 0 := by
  by_cases he : e.val < total adj
  · rw [if_pos he, (h.valid e he).1]
    by_cases hi : posOf adj e.val / 1024 = i.val
    · rw [if_pos hi, if_pos (by rw [hi]), hu he hi]
    · rw [if_neg hi, if_neg (fun hh => hi (by exact_mod_cast hh))]
  · rw [if_neg he, (h.pad e (Nat.le_of_not_gt he)).1, if_neg]
    have := i.isLt
    omega

/-- A row's weight sum. -/
theorem rowsum_apply (h : EdgeSpec adj edges) (i : Fin 1024) :
    st_main_v65 (F := Ideal) edges (wts x W a edges) (ix2 i (0 : Fin 1)) = rowsum x adj W a i := by
  unfold st_main_v65
  dsimp only
  simp only [fn_main_v65, fn_main_v64, fn_main_v63, fn_main_v62, fn_main_v61, fn_main_v60, fn_main_v59, fn_main_v58, fn_main_v56, fn_main_v55]
  rw [Cert.ReferenceIdeal.Scat.scatterAdd_col_apply, broadcastInDim_scalar_apply, constant_apply, Ideal.ofBits_zero_f32, zero_add]
  trans ∑ e : Fin 1048576, if e.val < total adj then
      (if posOf adj e.val / 1024 = i.val then Ideal.exp (-(lrelu (s1 x W a i + s2 x W a (colOf (posOf adj e.val))))) else 0) else 0
  · refine Finset.sum_congr rfl fun e _ => ?_
    rw [col_apply, wrap_apply _ _ _ e (by rw [row0_apply]; exact src_nonneg adj edges h e), row0_apply, col_apply]
    exact edge_term adj edges h i e _ (fun j => Ideal.exp (-(lrelu (s1 x W a i + s2 x W a j))))
      (fun he hi => wts_valid x adj W a edges h i e he hi)
  · rw [← Finset.sum_range (fun e => if e < total adj then
      (if posOf adj e / 1024 = i.val then Ideal.exp (-(lrelu (s1 x W a i + s2 x W a (colOf (posOf adj e))))) else 0) else 0)]
    exact sum_edges adj i (fun j => Ideal.exp (-(lrelu (s1 x W a i + s2 x W a j))))

/-- A row's weighted sum of hidden rows. -/
theorem num_apply (h : EdgeSpec adj edges) (i : Fin 1024) (k : Fin 128) :
    st_main_v87 (F := Ideal) edges (wts x W a edges) (st_main_v28 (F := Ideal) x W) (ix2 i k) = num x adj W a i k := by
  unfold st_main_v87
  dsimp only
  simp only [fn_main_v87, fn_main_v86, fn_main_v85, fn_main_v84, fn_main_v83, fn_main_v82, fn_main_v81, fn_main_v80,
    fn_main_v79, fn_main_v78, fn_main_v77, fn_main_v76, fn_main_v75, fn_main_v74, fn_main_v73, fn_main_v72, fn_main_v70,
    fn_main_v69, fn_main_v67, fn_main_v66]
  rw [Cert.ReferenceIdeal.Scat.scatterAdd_rows_apply, broadcastInDim_scalar_apply, constant_apply, Ideal.ofBits_zero_f32, zero_add]
  trans ∑ e : Fin 1048576, if e.val < total adj then
      (if posOf adj e.val / 1024 = i.val then
        Ideal.exp (-(lrelu (s1 x W a i + s2 x W a (colOf (posOf adj e.val))))) * hid x W (colOf (posOf adj e.val)) k else 0) else 0
  · refine Finset.sum_congr rfl fun e _ => ?_
    rw [col_apply, wrap_apply _ _ _ e (by rw [row0_apply]; exact src_nonneg adj edges h e), row0_apply]
    refine edge_term adj edges h i e _
      (fun j => Ideal.exp (-(lrelu (s1 x W a i + s2 x W a j))) * hid x W j k) (fun he hi => ?_)
    rw [mulf_apply, cols_apply, col_apply, Cert.ReferenceIdeal.Scat.gather_rows_apply]
    rw [wts_valid x adj W a edges h i e he hi, hidden_apply]
    refine congrArg (fun r => Ideal.exp (-(lrelu (s1 x W a i + s2 x W a (colOf (posOf adj e.val))))) * hid x W r k) ?_
    refine (clamp_eq (w := edges (ix2 (1 : Fin 2) e)) ?_ _).trans ?_
    · rw [col_apply, wrap_apply _ _ _ e (by rw [row1_apply]; exact dst_nonneg adj edges h e), row1_apply]
    · rw [(h.valid e he).2]
      apply Fin.ext
      show min ((posOf adj e.val % 1024 : ℕ) : ℤ).toNat 1023 = posOf adj e.val % 1024
      rw [Int.toNat_natCast]
      omega
  · rw [← Finset.sum_range (fun e => if e < total adj then
      (if posOf adj e / 1024 = i.val then
        Ideal.exp (-(lrelu (s1 x W a i + s2 x W a (colOf (posOf adj e))))) * hid x W (colOf (posOf adj e)) k else 0) else 0)]
    refine (sum_edges adj i (fun j => Ideal.exp (-(lrelu (s1 x W a i + s2 x W a j))) * hid x W j k)).trans ?_
    unfold num wgt
    refine Finset.sum_congr rfl fun j _ => ?_
    split
    · rfl
    · rw [zero_mul]

/-! ### The quotient and the ELU -/

/-- The ELU as the program spells it, at one value: select (z > 0) z (1 · (exp (select (z > 0) 0 z) − 1)). -/
theorem elu_scalar (z : EReal) :
    Scalar.select (FloatOps.cmpf (F := Ideal) (φ := .f32) .ogt z 0) z
      (1 * (Ideal.exp (Scalar.select (FloatOps.cmpf (F := Ideal) (φ := .f32) .ogt z 0) (0 : EReal) z) - 1)) = elu z := by
  have hc : FloatOps.cmpf (F := Ideal) (φ := .f32) .ogt z 0 = BitVec.ofBool (decide ((0 : EReal) < z)) := rfl
  rw [hc]
  unfold elu
  by_cases hz : (0 : EReal) < z
  · rw [decide_eq_true hz, if_pos hz]
    rfl
  · rw [decide_eq_false hz, if_neg hz]
    show 1 * (Ideal.exp z - 1) = _
    rw [one_mul, min_eq_left (not_lt.1 hz)]

/-- The ELU stage at an index. -/
theorem elu_apply (hv : FVec Ideal S1024x128 .f32) (idx : S1024x128.Idx) :
    st_main_v92 (F := Ideal) hv idx = elu (hv idx) := by
  unfold st_main_v92
  dsimp only
  simp only [fn_main_v92, fn_main_call10_v7, fn_main_call10_v6, fn_main_call10_v5, fn_main_call10_v4, fn_main_call10_v3,
    fn_main_call10_v2, fn_main_call10_v1, fn_main_call10_v0, fn_main_call10_call0_v0, fn_main_call10_call0_v1]
  simp only [select_apply, cmpf_apply, mulf_apply, Host.expm1, id_eq, Ideal.hostUnary_expm1_def]
  rw [broadcastInDim_scalar_apply, broadcastInDim_scalar_apply, constant_apply, constant_apply, Ideal.ofBits_zero_f32,
    Ideal.ofBits_one_f32]
  exact elu_scalar _

/-- The quotient stage at an index. -/
theorem quot_apply (v65 : FVec Ideal S1024x1 .f32) (v87 : FVec Ideal S1024x128 .f32) (i : Fin 1024) (k : Fin 128) :
    st_main_v91 (F := Ideal) v65 v87 (ix2 i k) = Ideal.div (v87 (ix2 i k)) (v65 (ix2 i (0 : Fin 1)) + eps) := by
  unfold st_main_v91
  dsimp only
  simp only [fn_main_v91, fn_main_v90, fn_main_v89, fn_main_v88]
  rw [hostDivf_apply, cols_apply, addf_apply, broadcastInDim_scalar_apply, constant_apply]
  rfl

/-- The reference's result, from an edge table that is the adjacency matrix's edge list, is the specification. -/
theorem ref_value (h : EdgeSpec adj edges) :
    st_main_v92 (F := Ideal) (st_main_v91 (F := Ideal) (st_main_v65 (F := Ideal) edges (wts x W a edges))
        (st_main_v87 (F := Ideal) edges (wts x W a edges) (st_main_v28 (F := Ideal) x W)))
      = G x adj W a := by
  funext idx
  obtain ⟨i, k, rfl⟩ : ∃ i k, idx = ix2 i k := ⟨idx 0, idx 1, eq_ix2 idx⟩
  rw [elu_apply, quot_apply, rowsum_apply x adj W a edges h i, num_apply x adj W a edges h i k, G_apply]

end Cert.ReferenceIdeal.RefSums

end
-- ==== Proof.RefRun.lean ====
/-
  The reference program's run: every weakly fair execution terminates with the result array at the
  specification's value of the argument arrays, the arguments unchanged.

  @main is a straight line of host operations; its fold over the launch contents is read window by window, and the
  result's term — the edge list built from the adjacency matrix, then the sums over it — is the specification.
-/
import proofs.«179381_g13718125543874_cont_sun_m_270_6_alg».proof.Proof.RefOpsRun
import proofs.«179381_g13718125543874_cont_sun_m_270_6_alg».proof.Proof.RefEdges
import proofs.«179381_g13718125543874_cont_sun_m_270_6_alg».proof.Proof.RefSums

noncomputable section

namespace Cert.ReferenceIdeal.RefRun

open Cert.ReferenceIdeal Cert.ReferenceIdeal.Gen Cert.ReferenceIdeal.RefOps Idealize.ShloMosaic Idealize.ShloMosaic.TcCoe
  Idealize.SL.Sem Idealize.ShloMosaic.StableHlo

/-- Every buffer ends at the operations' fold over the launch contents. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc),
        r.2.mem ((c.tc : Thread nD τ).loc b) = after (ops (F := Ideal)) (launchContents m c) (b : DevRef τ sig) :=
  run_seq scopedRefs_eq scopedSems_eq defs main (fun _ => ops) main_eq (fun _ => ops_sub) m ρ

/-- The result's term, as a function of the four arguments, is the specification. -/
theorem res_eq (x : FVec Ideal S1024x128 .f32) (adj : IVec S1024x1024 32) (W : FVec Ideal S128x128 .f32)
    (a : FVec Ideal S256x1 .f32) :
    res_main_v92 (F := Ideal) x adj W a = Cert.GatSpec.G x adj W a := by
  unfold res_main_v92 res_main_v91 res_main_v65 res_main_v87 res_main_v54 res_main_v51 res_main_v37 res_main_v46
    res_main_v28 res_main_v27 res_main_v15 res_main_v17 res_main_v14 res_main_v16 res_main_v13 res_main_v2 res_main_v1
  exact Cert.ReferenceIdeal.RefSums.ref_value x adj W a _ (Cert.ReferenceIdeal.RefEdges.edgeSpec adj)

/-- The run, with the result named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v92)
        = Cert.GatSpec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
      ⟨(h c main_v92).trans ((out_eq _).trans (res_eq _ _ _ _)),
        (h c main_arg0).trans (main_arg0_eq _), (h c main_arg1).trans (main_arg1_eq _),
        (h c main_arg2).trans (main_arg2_eq _), (h c main_arg3).trans (main_arg3_eq _)⟩)
    (run_main m ρ)

end Cert.ReferenceIdeal.RefRun

end
-- ==== Proof.lean ====
/-
  The certificate: a masked-attention kernel against its edge-list reference.

  The kernel computes, in one call over the whole adjacency matrix, hidden = x · W, the two logit projections,
  the weights exp (−lrelu (s1 i + s2 j)) on the nonzero entries of adj, each row's weight sum and weighted sum of
  hidden rows, their quotient, and its ELU. The reference builds the list of nonzero positions of adj in order
  (padded with an out-of-range index), gathers hidden's rows at the endpoints of each edge, and scatter-adds
  weights and weighted rows by source. Over the extended reals both are the function Cert.GatSpec.G of the four
  arguments: on the kernel's side by reading its one block, on the reference's because the edges enumerate the
  nonzero positions exactly once and the padded ones are dropped by the scatter. The three frames are the two
  kernel programs' frame theorems and the reference's run; the idealization rewrote nothing.
-/
import proofs.«179381_g13718125543874_cont_sun_m_270_6_alg».proof.Defs
import proofs.«179381_g13718125543874_cont_sun_m_270_6_alg».proof.Proof.Gen.Kernel
import proofs.«179381_g13718125543874_cont_sun_m_270_6_alg».proof.Proof.Gen.Kernel.Skeleton
import proofs.«179381_g13718125543874_cont_sun_m_270_6_alg».proof.Proof.Gen.Kernel.Launch
import proofs.«179381_g13718125543874_cont_sun_m_270_6_alg».proof.Proof.Gen.Kernel.Points
import proofs.«179381_g13718125543874_cont_sun_m_270_6_alg».proof.Proof.Gen.Kernel.Frame
import proofs.«179381_g13718125543874_cont_sun_m_270_6_alg».proof.Proof.Gen.KernelIdeal
import proofs.«179381_g13718125543874_cont_sun_m_270_6_alg».proof.Proof.Gen.KernelIdeal.Skeleton
import proofs.«179381_g13718125543874_cont_sun_m_270_6_alg».proof.Proof.Gen.KernelIdeal.Launch
import proofs.«179381_g13718125543874_cont_sun_m_270_6_alg».proof.Proof.Gen.KernelIdeal.Points
import proofs.«179381_g13718125543874_cont_sun_m_270_6_alg».proof.Proof.Gen.KernelIdeal.Frame
import proofs.«179381_g13718125543874_cont_sun_m_270_6_alg».proof.Proof.Gen.ReferenceIdeal
import proofs.«179381_g13718125543874_cont_sun_m_270_6_alg».proof.Proof.Gen.Pre_finite_inputs
import proofs.«179381_g13718125543874_cont_sun_m_270_6_alg».proof.Proof.KernelValue
import proofs.«179381_g13718125543874_cont_sun_m_270_6_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both idealized programs end at the specification's value of arguments that agree. -/
theorem algebraic : Cert.algebraic_KernelIdeal_ReferenceIdeal := by
  intro m ρ m' ρ' _ hagree
  refine ⟨_, Cert.KernelIdeal.KV.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
